-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 2048]⟩ ⟨2, ![8192, 2048]⟩ (Layout.meshBlock [2, 2, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![8192, 512]⟩ ⟨2, ![8192, 2048]⟩ (Layout.meshBlock [2, 2, 4] ![[], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel

variable [Facts]

def fn {F : FTy → Type} [FloatOps F] (main_arg0 : FVec F S2048x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  main_v3
-- ==== Pre_finite_inputs_ReferenceIdeal.lean ====
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  main_v3
-- ==== Kernel.lean ====
abbrev S2048x2048 : Shape := ⟨2, ![2048, 2048]⟩
abbrev S8192x512 : Shape := ⟨2, ![8192, 512]⟩
abbrev S3x2048x512 : Shape := ⟨3, ![3, 2048, 512]⟩
abbrev S3 : Shape := ⟨1, ![3]⟩
abbrev S_ : Shape := ⟨0, ![]⟩
abbrev S1 : Shape := ⟨1, ![1]⟩
abbrev S1x2048x512 : Shape := ⟨3, ![1, 2048, 512]⟩
abbrev S2048x512 : Shape := ⟨2, ![2048, 512]⟩

abbrev nBuf : Space → Nat
  | .hbm => 2
  | .vmem => 3
  | .smem => 0
  | _ => 0

abbrev bufTy : (tb : Table) → Fin (tcTables nBuf tb) → BufTy
  | .hbm, ⟨0, _⟩ => ⟨S2048x2048, .f32⟩
  | .hbm, ⟨1, _⟩ => ⟨S8192x512, .f32⟩
  | .local _ .vmem, ⟨0, _⟩ => ⟨S3x2048x512, .f32⟩
  | .local _ .vmem, ⟨1, _⟩ => ⟨S3x2048x512, .bf16⟩
  | .local _ .vmem, ⟨2, _⟩ => ⟨S3x2048x512, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 2 → Bool
  | ⟨0, _⟩ => false
  | ⟨1, _⟩ => true
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 2 13 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_9 : BitVec 32 := 8#32
  let v21 : BitVec 32 := Scalar.muli v2 c8_i32_9
  let v22 : BitVec 32 := Scalar.addi c0_i32_10 v21
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_11 : BitVec 32 := 4#32
  let v23 : BitVec 32 := Scalar.muli v5 c4_i32_11
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v10 : BitVec 32 := Scalar.addi v8 c1_i32_2
  let c4_i32_3 : BitVec 32 := 4#32
  let c0_i32 : BitVec 32 := 0#32
  let v11 : BitVec 1 := Scalar.cmpi .eq c4_i32_3 c0_i32
  let c1_i32_4 : BitVec 32 := 1#32
  let v12 : BitVec 32 := Scalar.select v11 c1_i32_4 c4_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c1_i32_12 : BitVec 32 := 1#32
  let v25 : BitVec 32 := Scalar.muli v20 c1_i32_12
  let v26 : BitVec 32 := Scalar.addi v24 v25
  v26.toNat
def k0_dev2 (d0 : Dev nD) : Nat :=
  let c0_i32_22 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_21 : BitVec 32 := 8#32
  let v38 : BitVec 32 := Scalar.muli v2 c8_i32_21
  let v39 : BitVec 32 := Scalar.addi c0_i32_22 v38
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_23 : BitVec 32 := 4#32
  let v40 : BitVec 32 := Scalar.muli v5 c4_i32_23
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_13 : BitVec 32 := 2#32
  let v27 : BitVec 32 := Scalar.addi v8 c2_i32_13
  let c4_i32_14 : BitVec 32 := 4#32
  let c0_i32_15 : BitVec 32 := 0#32
  let v28 : BitVec 1 := Scalar.cmpi .eq c4_i32_14 c0_i32_15
  let c1_i32_16 : BitVec 32 := 1#32
  let v29 : BitVec 32 := Scalar.select v28 c1_i32_16 c4_i32_14
  let v30 : BitVec 32 := Scalar.remsi v27 v29
  let c0_i32_18 : BitVec 32 := 0#32
  let v32 : BitVec 1 := Scalar.cmpi .slt v30 c0_i32_18
  let c0_i32_19 : BitVec 32 := 0#32
  let v33 : BitVec 1 := Scalar.cmpi .slt v29 c0_i32_19
  let v34 : BitVec 1 := Scalar.xori v32 v33
  let c0_i32_17 : BitVec 32 := 0#32
  let v31 : BitVec 1 := Scalar.cmpi .ne v30 c0_i32_17
  let v35 : BitVec 1 := Scalar.andi v34 v31
  let v36 : BitVec 32 := Scalar.addi v30 v29
  let v37 : BitVec 32 := Scalar.select v35 v36 v30
  let c1_i32_24 : BitVec 32 := 1#32
  let v42 : BitVec 32 := Scalar.muli v37 c1_i32_24
  let v43 : BitVec 32 := Scalar.addi v41 v42
  v43.toNat
def k0_dev3 (d0 : Dev nD) : Nat :=
  let c0_i32_33 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_32 : BitVec 32 := 8#32
  let v55 : BitVec 32 := Scalar.muli v2 c8_i32_32
  let v56 : BitVec 32 := Scalar.addi c0_i32_33 v55
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_34 : BitVec 32 := 4#32
  let v57 : BitVec 32 := Scalar.muli v5 c4_i32_34
  let v58 : BitVec 32 := Scalar.addi v56 v57
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v44 : BitVec 32 := Scalar.addi v8 c3_i32
  let c4_i32_25 : BitVec 32 := 4#32
  let c0_i32_26 : BitVec 32 := 0#32
  let v45 : BitVec 1 := Scalar.cmpi .eq c4_i32_25 c0_i32_26
  let c1_i32_27 : BitVec 32 := 1#32
  let v46 : BitVec 32 := Scalar.select v45 c1_i32_27 c4_i32_25
  let v47 : BitVec 32 := Scalar.remsi v44 v46
  let c0_i32_29 : BitVec 32 := 0#32
  let v49 : BitVec 1 := Scalar.cmpi .slt v47 c0_i32_29
  let c0_i32_30 : BitVec 32 := 0#32
  let v50 : BitVec 1 := Scalar.cmpi .slt v46 c0_i32_30
  let v51 : BitVec 1 := Scalar.xori v49 v50
  let c0_i32_28 : BitVec 32 := 0#32
  let v48 : BitVec 1 := Scalar.cmpi .ne v47 c0_i32_28
  let v52 : BitVec 1 := Scalar.andi v51 v48
  let v53 : BitVec 32 := Scalar.addi v47 v46
  let v54 : BitVec 32 := Scalar.select v52 v53 v47
  let c1_i32_35 : BitVec 32 := 1#32
  let v59 : BitVec 32 := Scalar.muli v54 c1_i32_35
  let v60 : BitVec 32 := Scalar.addi v58 v59
  v60.toNat
def k0_off1 (d0 : Dev nD) (c1_i32_37 : BitVec 32) : Fin 2 → Nat :=
  let c0_i32_48 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v61 : BitVec 32 := Scalar.addi v8 c1_i32_37
  let c4_i32_38 : BitVec 32 := 4#32
  let c0_i32_39 : BitVec 32 := 0#32
  let v62 : BitVec 1 := Scalar.cmpi .eq c4_i32_38 c0_i32_39
  let c1_i32_40 : BitVec 32 := 1#32
  let v63 : BitVec 32 := Scalar.select v62 c1_i32_40 c4_i32_38
  let v64 : BitVec 32 := Scalar.remsi v61 v63
  let c0_i32_42 : BitVec 32 := 0#32
  let v66 : BitVec 1 := Scalar.cmpi .slt v64 c0_i32_42
  let c0_i32_43 : BitVec 32 := 0#32
  let v67 : BitVec 1 := Scalar.cmpi .slt v63 c0_i32_43
  let v68 : BitVec 1 := Scalar.xori v66 v67
  let c0_i32_41 : BitVec 32 := 0#32
  let v65 : BitVec 1 := Scalar.cmpi .ne v64 c0_i32_41
  let v69 : BitVec 1 := Scalar.andi v68 v65
  let v70 : BitVec 32 := Scalar.addi v64 v63
  let v71 : BitVec 32 := Scalar.select v69 v70 v64
  let c512_i32 : BitVec 32 := 512#32
  let v72 : BitVec 32 := Scalar.muli v71 c512_i32
  ![0, v72.toNat]
def k0_off2 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2048_i32 : BitVec 32 := 2048#32
  let v113 : BitVec 32 := Scalar.muli v8 c2048_i32
  let c0_i32_76 : BitVec 32 := 0#32
  ![v113.toNat, 0]
def k0_off3 (d0 : Dev nD) : Fin 2 → Nat :=
  let c0_i32_77 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32_75 : BitVec 32 := 512#32
  let v112 : BitVec 32 := Scalar.muli v8 c512_i32_75
  ![0, v112.toNat]
def k0_dev4 (d0 : Dev nD) : Nat :=
  let c0_i32_100 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_99 : BitVec 32 := 8#32
  let v138 : BitVec 32 := Scalar.muli v2 c8_i32_99
  let v139 : BitVec 32 := Scalar.addi c0_i32_100 v138
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_101 : BitVec 32 := 4#32
  let v140 : BitVec 32 := Scalar.muli v5 c4_i32_101
  let v141 : BitVec 32 := Scalar.addi v139 v140
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_78 : BitVec 32 := 1#32
  let v116 : BitVec 32 := Scalar.addi v8 c1_i32_78
  let c4_i32_79 : BitVec 32 := 4#32
  let c0_i32_80 : BitVec 32 := 0#32
  let v117 : BitVec 1 := Scalar.cmpi .eq c4_i32_79 c0_i32_80
  let c1_i32_81 : BitVec 32 := 1#32
  let v118 : BitVec 32 := Scalar.select v117 c1_i32_81 c4_i32_79
  let v119 : BitVec 32 := Scalar.remsi v116 v118
  let c0_i32_83 : BitVec 32 := 0#32
  let v121 : BitVec 1 := Scalar.cmpi .slt v119 c0_i32_83
  let c0_i32_84 : BitVec 32 := 0#32
  let v122 : BitVec 1 := Scalar.cmpi .slt v118 c0_i32_84
  let v123 : BitVec 1 := Scalar.xori v121 v122
  let c0_i32_82 : BitVec 32 := 0#32
  let v120 : BitVec 1 := Scalar.cmpi .ne v119 c0_i32_82
  let v124 : BitVec 1 := Scalar.andi v123 v120
  let v125 : BitVec 32 := Scalar.addi v119 v118
  let v126 : BitVec 32 := Scalar.select v124 v125 v119
  let c1_i32_102 : BitVec 32 := 1#32
  let v142 : BitVec 32 := Scalar.muli v126 c1_i32_102
  let v143 : BitVec 32 := Scalar.addi v141 v142
  v143.toNat
def k0_dev5 (d0 : Dev nD) : Nat :=
  let c0_i32_129 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_128 : BitVec 32 := 8#32
  let v174 : BitVec 32 := Scalar.muli v2 c8_i32_128
  let v175 : BitVec 32 := Scalar.addi c0_i32_129 v174
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_130 : BitVec 32 := 4#32
  let v176 : BitVec 32 := Scalar.muli v5 c4_i32_130
  let v177 : BitVec 32 := Scalar.addi v175 v176
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_107 : BitVec 32 := 2#32
  let v152 : BitVec 32 := Scalar.addi v8 c2_i32_107
  let c4_i32_108 : BitVec 32 := 4#32
  let c0_i32_109 : BitVec 32 := 0#32
  let v153 : BitVec 1 := Scalar.cmpi .eq c4_i32_108 c0_i32_109
  let c1_i32_110 : BitVec 32 := 1#32
  let v154 : BitVec 32 := Scalar.select v153 c1_i32_110 c4_i32_108
  let v155 : BitVec 32 := Scalar.remsi v152 v154
  let c0_i32_112 : BitVec 32 := 0#32
  let v157 : BitVec 1 := Scalar.cmpi .slt v155 c0_i32_112
  let c0_i32_113 : BitVec 32 := 0#32
  let v158 : BitVec 1 := Scalar.cmpi .slt v154 c0_i32_113
  let v159 : BitVec 1 := Scalar.xori v157 v158
  let c0_i32_111 : BitVec 32 := 0#32
  let v156 : BitVec 1 := Scalar.cmpi .ne v155 c0_i32_111
  let v160 : BitVec 1 := Scalar.andi v159 v156
  let v161 : BitVec 32 := Scalar.addi v155 v154
  let v162 : BitVec 32 := Scalar.select v160 v161 v155
  let c1_i32_131 : BitVec 32 := 1#32
  let v178 : BitVec 32 := Scalar.muli v162 c1_i32_131
  let v179 : BitVec 32 := Scalar.addi v177 v178
  v179.toNat
def k0_dev6 (d0 : Dev nD) : Nat :=
  let c0_i32_158 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_157 : BitVec 32 := 8#32
  let v210 : BitVec 32 := Scalar.muli v2 c8_i32_157
  let v211 : BitVec 32 := Scalar.addi c0_i32_158 v210
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_159 : BitVec 32 := 4#32
  let v212 : BitVec 32 := Scalar.muli v5 c4_i32_159
  let v213 : BitVec 32 := Scalar.addi v211 v212
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_136 : BitVec 32 := 3#32
  let v188 : BitVec 32 := Scalar.addi v8 c3_i32_136
  let c4_i32_137 : BitVec 32 := 4#32
  let c0_i32_138 : BitVec 32 := 0#32
  let v189 : BitVec 1 := Scalar.cmpi .eq c4_i32_137 c0_i32_138
  let c1_i32_139 : BitVec 32 := 1#32
  let v190 : BitVec 32 := Scalar.select v189 c1_i32_139 c4_i32_137
  let v191 : BitVec 32 := Scalar.remsi v188 v190
  let c0_i32_141 : BitVec 32 := 0#32
  let v193 : BitVec 1 := Scalar.cmpi .slt v191 c0_i32_141
  let c0_i32_142 : BitVec 32 := 0#32
  let v194 : BitVec 1 := Scalar.cmpi .slt v190 c0_i32_142
  let v195 : BitVec 1 := Scalar.xori v193 v194
  let c0_i32_140 : BitVec 32 := 0#32
  let v192 : BitVec 1 := Scalar.cmpi .ne v191 c0_i32_140
  let v196 : BitVec 1 := Scalar.andi v195 v192
  let v197 : BitVec 32 := Scalar.addi v191 v190
  let v198 : BitVec 32 := Scalar.select v196 v197 v191
  let c1_i32_160 : BitVec 32 := 1#32
  let v214 : BitVec 32 := Scalar.muli v198 c1_i32_160
  let v215 : BitVec 32 := Scalar.addi v213 v214
  v215.toNat
def k0_off4 (d0 : Dev nD) (c1_i32_183 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v242 : BitVec 32 := Scalar.subi v8 c1_i32_183
  let c4_i32_184 : BitVec 32 := 4#32
  let c0_i32_185 : BitVec 32 := 0#32
  let v243 : BitVec 1 := Scalar.cmpi .eq c4_i32_184 c0_i32_185
  let c1_i32_186 : BitVec 32 := 1#32
  let v244 : BitVec 32 := Scalar.select v243 c1_i32_186 c4_i32_184
  let v245 : BitVec 32 := Scalar.remsi v242 v244
  let c0_i32_188 : BitVec 32 := 0#32
  let v247 : BitVec 1 := Scalar.cmpi .slt v245 c0_i32_188
  let c0_i32_189 : BitVec 32 := 0#32
  let v248 : BitVec 1 := Scalar.cmpi .slt v244 c0_i32_189
  let v249 : BitVec 1 := Scalar.xori v247 v248
  let c0_i32_187 : BitVec 32 := 0#32
  let v246 : BitVec 1 := Scalar.cmpi .ne v245 c0_i32_187
  let v250 : BitVec 1 := Scalar.andi v249 v246
  let v251 : BitVec 32 := Scalar.addi v245 v244
  let v252 : BitVec 32 := Scalar.select v250 v251 v245
  let c2048_i32_190 : BitVec 32 := 2048#32
  let v253 : BitVec 32 := Scalar.muli v252 c2048_i32_190
  let c0_i32_193 : BitVec 32 := 0#32
  ![v253.toNat, 0]
def k0_dev7 (d0 : Dev nD) : Nat :=
  let c0_i32_311_r0 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_310_r0 : BitVec 32 := 8#32
  let v376_r0 : BitVec 32 := Scalar.muli v2 c8_i32_310_r0
  let v377_r0 : BitVec 32 := Scalar.addi c0_i32_311_r0 v376_r0
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_312_r0 : BitVec 32 := 4#32
  let v378_r0 : BitVec 32 := Scalar.muli v5 c4_i32_312_r0
  let v379_r0 : BitVec 32 := Scalar.addi v377_r0 v378_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_302_r0 : BitVec 32 := 1#32
  let v365_r0 : BitVec 32 := Scalar.addi v8 c1_i32_302_r0
  let c4_i32_303_r0 : BitVec 32 := 4#32
  let c0_i32_304_r0 : BitVec 32 := 0#32
  let v366_r0 : BitVec 1 := Scalar.cmpi .eq c4_i32_303_r0 c0_i32_304_r0
  let c1_i32_305_r0 : BitVec 32 := 1#32
  let v367_r0 : BitVec 32 := Scalar.select v366_r0 c1_i32_305_r0 c4_i32_303_r0
  let v368_r0 : BitVec 32 := Scalar.remsi v365_r0 v367_r0
  let c0_i32_307_r0 : BitVec 32 := 0#32
  let v370_r0 : BitVec 1 := Scalar.cmpi .slt v368_r0 c0_i32_307_r0
  let c0_i32_308_r0 : BitVec 32 := 0#32
  let v371_r0 : BitVec 1 := Scalar.cmpi .slt v367_r0 c0_i32_308_r0
  let v372_r0 : BitVec 1 := Scalar.xori v370_r0 v371_r0
  let c0_i32_306_r0 : BitVec 32 := 0#32
  let v369_r0 : BitVec 1 := Scalar.cmpi .ne v368_r0 c0_i32_306_r0
  let v373_r0 : BitVec 1 := Scalar.andi v372_r0 v369_r0
  let v374_r0 : BitVec 32 := Scalar.addi v368_r0 v367_r0
  let v375_r0 : BitVec 32 := Scalar.select v373_r0 v374_r0 v368_r0
  let c1_i32_313_r0 : BitVec 32 := 1#32
  let v380_r0 : BitVec 32 := Scalar.muli v375_r0 c1_i32_313_r0
  let v381_r0 : BitVec 32 := Scalar.addi v379_r0 v380_r0
  v381_r0.toNat
def k0_dev8 (d0 : Dev nD) : Nat :=
  let c0_i32_323_r0 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_322_r0 : BitVec 32 := 8#32
  let v393_r0 : BitVec 32 := Scalar.muli v2 c8_i32_322_r0
  let v394_r0 : BitVec 32 := Scalar.addi c0_i32_323_r0 v393_r0
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_324_r0 : BitVec 32 := 4#32
  let v395_r0 : BitVec 32 := Scalar.muli v5 c4_i32_324_r0
  let v396_r0 : BitVec 32 := Scalar.addi v394_r0 v395_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_314_r0 : BitVec 32 := 2#32
  let v382_r0 : BitVec 32 := Scalar.addi v8 c2_i32_314_r0
  let c4_i32_315_r0 : BitVec 32 := 4#32
  let c0_i32_316_r0 : BitVec 32 := 0#32
  let v383_r0 : BitVec 1 := Scalar.cmpi .eq c4_i32_315_r0 c0_i32_316_r0
  let c1_i32_317_r0 : BitVec 32 := 1#32
  let v384_r0 : BitVec 32 := Scalar.select v383_r0 c1_i32_317_r0 c4_i32_315_r0
  let v385_r0 : BitVec 32 := Scalar.remsi v382_r0 v384_r0
  let c0_i32_319_r0 : BitVec 32 := 0#32
  let v387_r0 : BitVec 1 := Scalar.cmpi .slt v385_r0 c0_i32_319_r0
  let c0_i32_320_r0 : BitVec 32 := 0#32
  let v388_r0 : BitVec 1 := Scalar.cmpi .slt v384_r0 c0_i32_320_r0
  let v389_r0 : BitVec 1 := Scalar.xori v387_r0 v388_r0
  let c0_i32_318_r0 : BitVec 32 := 0#32
  let v386_r0 : BitVec 1 := Scalar.cmpi .ne v385_r0 c0_i32_318_r0
  let v390_r0 : BitVec 1 := Scalar.andi v389_r0 v386_r0
  let v391_r0 : BitVec 32 := Scalar.addi v385_r0 v384_r0
  let v392_r0 : BitVec 32 := Scalar.select v390_r0 v391_r0 v385_r0
  let c1_i32_325_r0 : BitVec 32 := 1#32
  let v397_r0 : BitVec 32 := Scalar.muli v392_r0 c1_i32_325_r0
  let v398_r0 : BitVec 32 := Scalar.addi v396_r0 v397_r0
  v398_r0.toNat
def k0_dev9 (d0 : Dev nD) : Nat :=
  let c0_i32_335_r0 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_334_r0 : BitVec 32 := 8#32
  let v410_r0 : BitVec 32 := Scalar.muli v2 c8_i32_334_r0
  let v411_r0 : BitVec 32 := Scalar.addi c0_i32_335_r0 v410_r0
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_336_r0 : BitVec 32 := 4#32
  let v412_r0 : BitVec 32 := Scalar.muli v5 c4_i32_336_r0
  let v413_r0 : BitVec 32 := Scalar.addi v411_r0 v412_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_326_r0 : BitVec 32 := 3#32
  let v399_r0 : BitVec 32 := Scalar.addi v8 c3_i32_326_r0
  let c4_i32_327_r0 : BitVec 32 := 4#32
  let c0_i32_328_r0 : BitVec 32 := 0#32
  let v400_r0 : BitVec 1 := Scalar.cmpi .eq c4_i32_327_r0 c0_i32_328_r0
  let c1_i32_329_r0 : BitVec 32 := 1#32
  let v401_r0 : BitVec 32 := Scalar.select v400_r0 c1_i32_329_r0 c4_i32_327_r0
  let v402_r0 : BitVec 32 := Scalar.remsi v399_r0 v401_r0
  let c0_i32_331_r0 : BitVec 32 := 0#32
  let v404_r0 : BitVec 1 := Scalar.cmpi .slt v402_r0 c0_i32_331_r0
  let c0_i32_332_r0 : BitVec 32 := 0#32
  let v405_r0 : BitVec 1 := Scalar.cmpi .slt v401_r0 c0_i32_332_r0
  let v406_r0 : BitVec 1 := Scalar.xori v404_r0 v405_r0
  let c0_i32_330_r0 : BitVec 32 := 0#32
  let v403_r0 : BitVec 1 := Scalar.cmpi .ne v402_r0 c0_i32_330_r0
  let v407_r0 : BitVec 1 := Scalar.andi v406_r0 v403_r0
  let v408_r0 : BitVec 32 := Scalar.addi v402_r0 v401_r0
  let v409_r0 : BitVec 32 := Scalar.select v407_r0 v408_r0 v402_r0
  let c1_i32_337_r0 : BitVec 32 := 1#32
  let v414_r0 : BitVec 32 := Scalar.muli v409_r0 c1_i32_337_r0
  let v415_r0 : BitVec 32 := Scalar.addi v413_r0 v414_r0
  v415_r0.toNat

class Facts₀ : Prop where
  hamt_1 : (1#32 : BitVec 32).msb = false
  hamt_3 : (3#32 : BitVec 32).msb = false
  inb_S3_S1_0 : ∀ a, (![0] : Fin 1 → Nat) a + S1.size a ≤ S3.size a
  squeezes_S1_S_ : S1.Squeezes S_
  inb_S3x2048x512_S1x2048x512_0_0_0 : ∀ a, (![0, 0, 0] : Fin 3 → Nat) a + S1x2048x512.size a ≤ S3x2048x512.size a
  squeezes_S1x2048x512_S2048x512 : S1x2048x512.Squeezes S2048x512
  inb_S3_S1_1 : ∀ a, (![1] : Fin 1 → Nat) a + S1.size a ≤ S3.size a
  inb_S3x2048x512_S1x2048x512_1_0_0 : ∀ a, (![1, 0, 0] : Fin 3 → Nat) a + S1x2048x512.size a ≤ S3x2048x512.size a
  inb_S3_S1_2 : ∀ a, (![2] : Fin 1 → Nat) a + S1.size a ≤ S3.size a
  inb_S3x2048x512_S1x2048x512_2_0_0 : ∀ a, (![2, 0, 0] : Fin 3 → Nat) a + S1x2048x512.size a ≤ S3x2048x512.size a
  h_S1x2048x512 : 0 < S1x2048x512.numel
  shapeCasts_S1x2048x512_S2048x512 : S1x2048x512.ShapeCasts S2048x512
  bitsLt_bf16_f32 : FTy.bits .bf16 < FTy.bits .f32
  shapeCasts_S2048x512_S1x2048x512 : S2048x512.ShapeCasts S1x2048x512
  packedbf16_S3x2048x512_S1x2048x512_0_0_0 : (Rect.unit (s := S3x2048x512) ![0, 0, 0] S1x2048x512.size inb_S3x2048x512_S1x2048x512_0_0_0).PackedRows (EltTy.packing .bf16)
  wordsbf16_S3x2048x512_S1x2048x512_0_0_0 : (Rect.unit (s := S3x2048x512) ![0, 0, 0] S1x2048x512.size inb_S3x2048x512_S1x2048x512_0_0_0).WholeWords (EltTy.packing .bf16)
  packedbf16_S3x2048x512_S1x2048x512_1_0_0 : (Rect.unit (s := S3x2048x512) ![1, 0, 0] S1x2048x512.size inb_S3x2048x512_S1x2048x512_1_0_0).PackedRows (EltTy.packing .bf16)
  wordsbf16_S3x2048x512_S1x2048x512_1_0_0 : (Rect.unit (s := S3x2048x512) ![1, 0, 0] S1x2048x512.size inb_S3x2048x512_S1x2048x512_1_0_0).WholeWords (EltTy.packing .bf16)
  packedbf16_S3x2048x512_S1x2048x512_2_0_0 : (Rect.unit (s := S3x2048x512) ![2, 0, 0] S1x2048x512.size inb_S3x2048x512_S1x2048x512_2_0_0).PackedRows (EltTy.packing .bf16)
  wordsbf16_S3x2048x512_S1x2048x512_2_0_0 : (Rect.unit (s := S3x2048x512) ![2, 0, 0] S1x2048x512.size inb_S3x2048x512_S1x2048x512_2_0_0).WholeWords (EltTy.packing .bf16)
  hcc0_scoped0 : 1 + S_.numel ≤ 2
  hcc0_scratch3 : 0 + S3.numel ≤ 13
  hcc0_scratch4 : 3 + S3.numel ≤ 13
  hcc0_scratch5 : 6 + S_.numel ≤ 13
  hcc0_scratch6 : 7 + S3.numel ≤ 13
  hcc0_scratch7 : 10 + S3.numel ≤ 13
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ (r : Fin 3), ∀ a, (k0_off1 d0 (BitVec.ofNat 32 (1 + r.val))) a + S2048x512.size a ≤ S2048x2048.size a
  k0_off2_inb : ∀ d0 : Dev nD, ∀ a, (k0_off2 d0) a + S2048x512.size a ≤ S8192x512.size a
  k0_off3_inb : ∀ d0 : Dev nD, ∀ a, (k0_off3 d0) a + S2048x512.size a ≤ S2048x2048.size a
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_off4_inb : ∀ d0 : Dev nD, ∀ (r : Fin 3), ∀ a, (k0_off4 d0 (BitVec.ofNat 32 (1 + r.val))) a + S2048x512.size a ≤ S8192x512.size a
  k0_dev7_lt : ∀ d0 : Dev nD, (k0_dev7 d0) < nD
  k0_dev8_lt : ∀ d0 : Dev nD, (k0_dev8 d0) < nD
  k0_dev9_lt : ∀ d0 : Dev nD, (k0_dev9 d0) < nD

variable [Facts₀]

abbrev cc0_scoped0 : Sems sig S_ := SemArray.consecutive 1 S_ hcc0_scoped0
abbrev cc0_scratch3 : DmaSems sig S3 := SemArray.consecutive 0 S3 hcc0_scratch3
abbrev cc0_scratch4 : DmaSems sig S3 := SemArray.consecutive 3 S3 hcc0_scratch4
abbrev cc0_scratch5 : DmaSems sig S_ := SemArray.consecutive 6 S_ hcc0_scratch5
abbrev cc0_scratch6 : DmaSems sig S3 := SemArray.consecutive 7 S3 hcc0_scratch6
abbrev cc0_scratch7 : DmaSems sig S3 := SemArray.consecutive 10 S3 hcc0_scratch7

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S8192x2048 : Shape := ⟨2, ![8192, 2048]⟩

abbrev nBuf : Space → Nat
  | .hbm => 1
  | .vmem => 0
  | .smem => 0
  | _ => 0

abbrev bufTy : (tb : Table) → Fin (tcTables nBuf tb) → BufTy
  | .hbm, ⟨0, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.Ref.lean ====
/- The reference program's run, and the reference's share of the certificate's claims.

   The reference's @main performs no operation: its result is its argument array itself. So it is
   the empty line of host operations, every weakly fair execution of it terminates at once, and every
   buffer of the device ends at its launch contents. The frame claim of the reference, and the
   reference's half of the algebraic claim (with the whole array `v0` taken to be the argument's
   launch contents), are both this one fact read at the argument buffer. -/
import proofs.«900644_g7700000000000645_dist_a2a_v7x_xyz2x2x4_z_m2048_n512_f32_1_alg».proof.Defs
import proofs.«900644_g7700000000000645_dist_a2a_v7x_xyz2x2x4_z_m2048_n512_f32_1_alg».proof.Proof.Gen.ReferenceIdeal
import proofs.«900644_g7700000000000645_dist_a2a_v7x_xyz2x2x4_z_m2048_n512_f32_1_alg».proof.Proof.Gen.Pre_finite_inputs_ReferenceIdeal
import Idealize.ShloMosaic.Lib.StableHlo.Run
import Idealize.ShloMosaic.Adequacy

noncomputable section

namespace Cert.ReferenceIdeal.RefRun

open Idealize.ShloMosaic Idealize.SL.Sem Idealize.ShloMosaic.StableHlo

/-- The signature scopes no buffer. -/
theorem scopedRefs_eq :
    (Finset.univ.filter fun b : Ref Cert.ReferenceIdeal.sig .tc => b.isScoped) = ∅ := by decide

/-- The signature scopes no semaphore (it has none). -/
theorem scopedSems_eq :
    (Finset.univ.filter fun sm : SemLoc Cert.ReferenceIdeal.sig => sm.isScoped .tc) = ∅ := by decide

/-- @main is the empty line of host operations. -/
theorem main_eq {F : FTy → Type} [FloatOps F] [hF : Cert.ReferenceIdeal.Facts] (c : Dev Cert.ReferenceIdeal.nD) :
    Cert.ReferenceIdeal.main (F := F) c
      = seq ([] : List (HloOp Cert.ReferenceIdeal.τ Cert.ReferenceIdeal.sig (Elt F))) := rfl

/-- For any float values, from any memory with zero counters: every weakly fair execution of the
    reference terminates, and every buffer of every device ends at its launch contents. -/
theorem run_all {F : FTy → Type} [FloatOps F] [hF : Cert.ReferenceIdeal.Facts]
    (m : (ℓ : Loc Cert.ReferenceIdeal.nD Cert.ReferenceIdeal.τ Cert.ReferenceIdeal.sig) → Buf (Elt F) ℓ)
    (ρ : Dev Cert.ReferenceIdeal.nD → PrngReg) :
    θ_run (Cert.ReferenceIdeal.defs (F := F)) (onTc (τ := Cert.ReferenceIdeal.τ) (Cert.ReferenceIdeal.main (F := F)))
      ⟨m, fun _ => 0, ρ⟩
      (fun r => ∀ (c : Dev Cert.ReferenceIdeal.nD) (b : Ref Cert.ReferenceIdeal.sig .tc),
        r.2.mem ((c.tc : Thread Cert.ReferenceIdeal.nD Cert.ReferenceIdeal.τ).loc b)
          = m ((c.tc : Thread Cert.ReferenceIdeal.nD Cert.ReferenceIdeal.τ).loc b)) :=
  run_seq scopedRefs_eq scopedSems_eq (Cert.ReferenceIdeal.defs (F := F)) (Cert.ReferenceIdeal.main (F := F))
    (fun _ => []) main_eq (fun _ => trivial) m ρ

/-- At the ideal instance: the reference terminates with its argument array unchanged, on every device. -/
theorem run [hF : Cert.ReferenceIdeal.Facts]
    (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, g'⟩
      (fun r => ∀ c : Dev Cert.ReferenceIdeal.nD,
        r.2.mem ((c.tc : Thread _ Cert.ReferenceIdeal.τ).loc Cert.ReferenceIdeal.main_arg0)
          = m' ((c.tc : Thread _ Cert.ReferenceIdeal.τ).loc Cert.ReferenceIdeal.main_arg0)) :=
  (θ_run (Cert.ReferenceIdeal.defs (F := Ideal)) _ _).mono
    (fun _ h c => h c Cert.ReferenceIdeal.main_arg0) (run_all (F := Ideal) m' g')

/-- The frame claim of the reference: it runs, and its argument array ends unchanged. The
    precondition is not needed. -/
theorem frame_ri [hF : Cert.ReferenceIdeal.Facts] [hP : Cert.Pre_finite_inputs_ReferenceIdeal.Facts] :
    Cert.frame_ReferenceIdeal (hReferenceIdeal := hF) (hPre_finite_inputs_ReferenceIdeal := hP) :=
  fun m g _ => run m g

/-- The reference's half of the algebraic claim: with `v0` the argument's launch contents on the one
    device, the reference ends with its result (the argument array) holding `v0`, unchanged. -/
theorem run_v0 [hF : Cert.ReferenceIdeal.Facts]
    (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, g'⟩
      (fun r =>
        r.2.mem (((0 : Dev Cert.ReferenceIdeal.nD).tc : Thread Cert.ReferenceIdeal.nD Cert.ReferenceIdeal.τ).loc Cert.ReferenceIdeal.main_arg0)
            = m' (((0 : Dev Cert.ReferenceIdeal.nD).tc : Thread Cert.ReferenceIdeal.nD Cert.ReferenceIdeal.τ).loc Cert.ReferenceIdeal.main_arg0)
        ∧ r.2.mem (((0 : Dev Cert.ReferenceIdeal.nD).tc : Thread Cert.ReferenceIdeal.nD Cert.ReferenceIdeal.τ).loc Cert.ReferenceIdeal.main_arg0)
            = m' (((0 : Dev Cert.ReferenceIdeal.nD).tc : Thread Cert.ReferenceIdeal.nD Cert.ReferenceIdeal.τ).loc Cert.ReferenceIdeal.main_arg0)) :=
  (θ_run (Cert.ReferenceIdeal.defs (F := Ideal)) _ _).mono
    (fun _ h => ⟨h 0, h 0⟩) (run m' g')

/-- info: 'Cert.ReferenceIdeal.RefRun.frame_ri' depends on axioms: [propext, Classical.choice, Quot.sound] -/
#guard_msgs in
#print axioms Cert.ReferenceIdeal.RefRun.frame_ri

/-- info: 'Cert.ReferenceIdeal.RefRun.run_v0' depends on axioms: [propext, Classical.choice, Quot.sound] -/
#guard_msgs in
#print axioms Cert.ReferenceIdeal.RefRun.run_v0

end Cert.ReferenceIdeal.RefRun

end
-- ==== Proof.Mesh.lean ====
/-
  The z-ring of the 2×2×4 mesh, as arithmetic on a device's logical id.

  Device `c` sits at mesh coordinates (c / 8, c / 4 % 2, c % 4). The kernel only ever talks to the three devices that
  share its x and y coordinates: `peer c d` is the one `d` steps further round the z axis. The printed device
  chains (`k0_dev1 … k0_dev9`) and the printed column / row offsets of the transfers (`k0_off1`, `k0_off4`) are
  given here in closed form over that arithmetic, each decided once over the sixteen devices.
-/
import proofs.«900644_g7700000000000645_dist_a2a_v7x_xyz2x2x4_z_m2048_n512_f32_1_alg».proof.Proof.Gen.KernelIdeal

set_option Elab.async false

namespace Cert.KernelIdeal.A2A

open Cert.KernelIdeal Cert.KernelIdeal.Gen
open Idealize.ShloMosaic Idealize.SL.Sem

/-- The device with `c`'s x and y coordinates whose z coordinate is `c`'s plus `d`, modulo 4. -/
def peer (c : Dev nD) (d : ℕ) : Dev nD :=
  ⟨c.val / 4 * 4 + (c.val % 4 + d) % 4, by have := c.isLt; simp only [nD] at this ⊢; omega⟩

theorem peer_val (c : Dev nD) (d : ℕ) : (peer c d).val = c.val / 4 * 4 + (c.val % 4 + d) % 4 := rfl

/-- Going `a` steps and then `b` steps is going `a + b` steps. -/
theorem peer_peer (c : Dev nD) (a b : ℕ) : peer (peer c a) b = peer c (a + b) := by
  apply Fin.ext; simp only [peer_val]; have := c.isLt; simp only [nD] at this; omega

theorem peer_zero (c : Dev nD) : peer c 0 = c := by
  apply Fin.ext; simp only [peer_val]; omega

theorem peer_four (c : Dev nD) : peer c 4 = c := by
  apply Fin.ext; simp only [peer_val]; omega

theorem peer_mod (c : Dev nD) (d : ℕ) : peer c (d % 4) = peer c d := by
  apply Fin.ext; simp only [peer_val]; omega

/-- The z coordinate of a peer. -/
theorem peer_z (c : Dev nD) (d : ℕ) : (peer c d).val % 4 = (c.val % 4 + d) % 4 := by
  simp only [peer_val]; omega

/-- The x, y coordinates of a peer are `c`'s. -/
theorem peer_xy (c : Dev nD) (d : ℕ) : (peer c d).val / 4 = c.val / 4 := by
  simp only [peer_val]; omega

theorem peer_ne (c : Dev nD) (d : ℕ) (h : d % 4 ≠ 0) : peer c d ≠ c := by
  intro e; have := congrArg Fin.val e; simp only [peer_val] at this; omega

theorem peer_inj_steps (c : Dev nD) (a b : ℕ) (h : peer c a = peer c b) : a % 4 = b % 4 := by
  have := congrArg Fin.val h; simp only [peer_val] at this; omega

/-- Stepping by `d` is a permutation of the devices, undone by stepping `4 - d % 4`. -/
def step (d : ℕ) : Dev nD ≃ Dev nD where
  toFun c := peer c d
  invFun c := peer c (4 - d % 4)
  left_inv c := by show peer (peer c d) (4 - d % 4) = c; rw [peer_peer]; apply Fin.ext; simp only [peer_val]; have := c.isLt; simp only [nD] at this; omega
  right_inv c := by show peer (peer c (4 - d % 4)) d = c; rw [peer_peer]; apply Fin.ext; simp only [peer_val]; have := c.isLt; simp only [nD] at this; omega

theorem step_apply (d : ℕ) (c : Dev nD) : step d c = peer c d := rfl
theorem step_symm_apply (d : ℕ) (c : Dev nD) : (step d).symm c = peer c (4 - d % 4) := rfl

/-! ## The printed device chains -/

theorem dev1_val : ∀ c : Dev nD, k0_dev1 c = (peer c 1).val := by decide +kernel
theorem dev2_val : ∀ c : Dev nD, k0_dev2 c = (peer c 2).val := by decide +kernel
theorem dev3_val : ∀ c : Dev nD, k0_dev3 c = (peer c 3).val := by decide +kernel
theorem dev4_val : ∀ c : Dev nD, k0_dev4 c = (peer c 1).val := by decide +kernel
theorem dev5_val : ∀ c : Dev nD, k0_dev5 c = (peer c 2).val := by decide +kernel
theorem dev6_val : ∀ c : Dev nD, k0_dev6 c = (peer c 3).val := by decide +kernel
theorem dev7_val : ∀ c : Dev nD, k0_dev7 c = (peer c 1).val := by decide +kernel
theorem dev8_val : ∀ c : Dev nD, k0_dev8 c = (peer c 2).val := by decide +kernel
theorem dev9_val : ∀ c : Dev nD, k0_dev9 c = (peer c 3).val := by decide +kernel

/-- The entry handshake's three signals go to the devices one, two and three steps on; -/
theorem dev1_eq (c : Dev nD) : (⟨k0_dev1 c, k0_dev1_lt c⟩ : Dev nD) = peer c 1 := Fin.ext (dev1_val c)
theorem dev2_eq (c : Dev nD) : (⟨k0_dev2 c, k0_dev2_lt c⟩ : Dev nD) = peer c 2 := Fin.ext (dev2_val c)
theorem dev3_eq (c : Dev nD) : (⟨k0_dev3 c, k0_dev3_lt c⟩ : Dev nD) = peer c 3 := Fin.ext (dev3_val c)
/-- the three remote copies likewise; -/
theorem dev4_eq (c : Dev nD) : (⟨k0_dev4 c, k0_dev4_lt c⟩ : Dev nD) = peer c 1 := Fin.ext (dev4_val c)
theorem dev5_eq (c : Dev nD) : (⟨k0_dev5 c, k0_dev5_lt c⟩ : Dev nD) = peer c 2 := Fin.ext (dev5_val c)
theorem dev6_eq (c : Dev nD) : (⟨k0_dev6 c, k0_dev6_lt c⟩ : Dev nD) = peer c 3 := Fin.ext (dev6_val c)
/-- and the exit handshake's three signals. -/
theorem dev7_eq (c : Dev nD) : (⟨k0_dev7 c, k0_dev7_lt c⟩ : Dev nD) = peer c 1 := Fin.ext (dev7_val c)
theorem dev8_eq (c : Dev nD) : (⟨k0_dev8 c, k0_dev8_lt c⟩ : Dev nD) = peer c 2 := Fin.ext (dev8_val c)
theorem dev9_eq (c : Dev nD) : (⟨k0_dev9 c, k0_dev9_lt c⟩ : Dev nD) = peer c 3 := Fin.ext (dev9_val c)

/-! ## The printed offsets -/

/-- The column block of `x` that is copied out for the device `w` steps on starts at column `512 · ((z + w) mod 4)`. -/
theorem off1_1 : ∀ c : Dev nD, k0_off1 c 1#32 = ![0, 512 * ((c.val % 4 + 1) % 4)] := by decide +kernel
theorem off1_2 : ∀ c : Dev nD, k0_off1 c 2#32 = ![0, 512 * ((c.val % 4 + 2) % 4)] := by decide +kernel
theorem off1_3 : ∀ c : Dev nD, k0_off1 c 3#32 = ![0, 512 * ((c.val % 4 + 3) % 4)] := by decide +kernel

/-- What arrived from the device `w` steps back goes to the row block `2048 · ((z - w) mod 4)` of the result. -/
theorem off4_1 : ∀ c : Dev nD, k0_off4 c 1#32 = ![2048 * ((c.val % 4 + 3) % 4), 0] := by decide +kernel
theorem off4_2 : ∀ c : Dev nD, k0_off4 c 2#32 = ![2048 * ((c.val % 4 + 2) % 4), 0] := by decide +kernel
theorem off4_3 : ∀ c : Dev nD, k0_off4 c 3#32 = ![2048 * ((c.val % 4 + 1) % 4), 0] := by decide +kernel

end Cert.KernelIdeal.A2A
-- ==== Proof.Sched.lean ====
/-
  The all-to-all's protocol as a rounds schedule, and the names of everything it moves.

  Every device `c` holds a row block of `x` (2048 × 2048) and must end with a column block of the whole array
  (8192 × 512). It keeps its own 2048 × 512 piece by a local copy, and for each of the three other devices of its
  z ring — `peer c (j+1)`, `j = 0, 1, 2` — it copies that device's column block into slot `j` of a staging buffer,
  narrows it to bf16 into slot `j` of a send buffer, and transfers that slot into slot `j` of the peer's receive
  buffer; what lands in its own receive slot `j` came from `peer c (3 - j)`, is widened back and copied into the
  result's row block of that device.

  Semaphore cells under the rounds discipline, one round each:
  * the entry barrier (the runtime's semaphore): three duties `d = 1, 2, 3`, one unit each; duty `d` of `c`'s cell is
    the `d`-th signal of `peer c (4 - d)` and hands `c` that device's receive slot `3 - d` (the slot `c` will write)
    together with the fact that the slot's receive cell is at round 0;
  * receive cell `j`: one duty, the transfer from `peer c (3 - j)`, handing over slot `j` holding what was sent;
  * send cell `j`: one duty, the same transfer seen from its source, handing the send slot back;
  * the exit barrier (a scoped semaphore): three unit duties carrying nothing.
  The seven semaphores of the purely local copies are not cells: they stay counters at zero.
-/
import proofs.«900644_g7700000000000645_dist_a2a_v7x_xyz2x2x4_z_m2048_n512_f32_1_alg».proof.Proof.Mesh
import proofs.«900644_g7700000000000645_dist_a2a_v7x_xyz2x2x4_z_m2048_n512_f32_1_alg».proof.Proof.Gen.KernelIdeal.Skeleton
import proofs.«900644_g7700000000000645_dist_a2a_v7x_xyz2x2x4_z_m2048_n512_f32_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy, the protocol's (duties `Fin 4`) and the counters' -/

abbrev UB : Type := URounds (GSem nD τ sig) (Fin 4)
/-- with a copy of the counters' algebra, from which the local copies' invariants take their tokens. -/
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

variable (m : (ℓ : Loc nD τ sig) → Buf (Elt F) ℓ) (ρ : Dev nD → PrngReg)

def s₀ : MemSt nD τ sig (Elt F) := ⟨m, fun _ => 0, ρ⟩

/-! ## Semaphores and cells -/

abbrev barS : Sem sig := (SemArray.scalar (sig.barrier 0 rfl) : Sems sig S_).sem
abbrev endS : Sem sig := (cc0_scoped0 : Sems sig S_).sem
abbrev inS : Fin 3 → DmaSem sig | 0 => 0 | 1 => 1 | 2 => 2
abbrev outS : Fin 3 → DmaSem sig | 0 => 3 | 1 => 4 | 2 => 5
abbrev ownS : DmaSem sig := 6
abbrev sendS : Fin 3 → DmaSem sig | 0 => 7 | 1 => 8 | 2 => 9
abbrev recvS : Fin 3 → DmaSem sig | 0 => 10 | 1 => 11 | 2 => 12

abbrev barCell (c : Dev nD) : GSem nD τ sig := ((c : Thread nD τ), .reg barS)
abbrev endCell (c : Dev nD) : GSem nD τ sig := ((c : Thread nD τ), .reg endS)
abbrev sendCell (c : Dev nD) (j : Fin 3) : GSem nD τ sig := ((c : Thread nD τ), .dma (sendS j))
abbrev recvCell (c : Dev nD) (j : Fin 3) : GSem nD τ sig := ((c : Thread nD τ), .dma (recvS j))

/-- The eight cells of a device under the rounds discipline: the two barriers, three send cells, three receive cells. -/
abbrev csem : Fin 8 → SemLoc sig
  | 0 => .reg barS | 1 => .reg endS
  | 2 => .dma (sendS 0) | 3 => .dma (sendS 1) | 4 => .dma (sendS 2)
  | 5 => .dma (recvS 0) | 6 => .dma (recvS 1) | 7 => .dma (recvS 2)
abbrev kcell (ck : Dev nD × Fin 8) : GSem nD τ sig := ((ck.1 : Thread nD τ), csem ck.2)

/-- The seven semaphores of the local copies. -/
abbrev lsem : Fin 7 → SemLoc sig
  | 0 => .dma (inS 0) | 1 => .dma (inS 1) | 2 => .dma (inS 2)
  | 3 => .dma (outS 0) | 4 => .dma (outS 1) | 5 => .dma (outS 2) | 6 => .dma ownS

/-- The kernel's own (scoped) semaphores, as the launch indexes them: the exit barrier, then the thirteen DMA semaphores. -/
abbrev osem : Fin 14 → SemLoc sig
  | 0 => .reg endS
  | 1 => .dma 0 | 2 => .dma 1 | 3 => .dma 2 | 4 => .dma 3 | 5 => .dma 4 | 6 => .dma 5 | 7 => .dma 6
  | 8 => .dma 7 | 9 => .dma 8 | 10 => .dma 9 | 11 => .dma 10 | 12 => .dma 11 | 13 => .dma 12

/-! ## Memrefs -/

abbrev xM : Memref sig .tc .hbm S2048x2048 .f32 := Memref.whole main_arg0
abbrev oM : Memref sig .tc .hbm S8192x512 .f32 := Memref.whole main_v1
abbrev xsM : Memref sig .tc .vmem S3x2048x512 .f32 := Memref.whole cc0_scratch0
abbrev sbM : Memref sig .tc .vmem S3x2048x512 .bf16 := Memref.whole cc0_scratch1
abbrev rbM : Memref sig .tc .vmem S3x2048x512 .bf16 := Memref.whole cc0_scratch2

/-- The rectangle of slot `j` in a three-slot buffer. -/
abbrev slotR : Fin 3 → Rect S3x2048x512
  | 0 => Rect.unit (s := S3x2048x512) ![0, 0, 0] S1x2048x512.size Facts₀.inb_S3x2048x512_S1x2048x512_0_0_0
  | 1 => Rect.unit (s := S3x2048x512) ![1, 0, 0] S1x2048x512.size Facts₀.inb_S3x2048x512_S1x2048x512_1_0_0
  | 2 => Rect.unit (s := S3x2048x512) ![2, 0, 0] S1x2048x512.size Facts₀.inb_S3x2048x512_S1x2048x512_2_0_0

/-- Slot `j` of the staging, send and receive buffers, as the kernel's `ref.at[j]` spells it. -/
abbrev xsSlot : Fin 3 → Memref sig .tc .vmem S2048x512 .f32
  | 0 => ((xsM).slice (Rect.unit (s := S3x2048x512) ![0, 0, 0] S1x2048x512.size Facts₀.inb_S3x2048x512_S1x2048x512_0_0_0) (fun _ => rfl)).squeeze S2048x512 Facts₀.squeezes_S1x2048x512_S2048x512
  | 1 => ((xsM).slice (Rect.unit (s := S3x2048x512) ![1, 0, 0] S1x2048x512.size Facts₀.inb_S3x2048x512_S1x2048x512_1_0_0) (fun _ => rfl)).squeeze S2048x512 Facts₀.squeezes_S1x2048x512_S2048x512
  | 2 => ((xsM).slice (Rect.unit (s := S3x2048x512) ![2, 0, 0] S1x2048x512.size Facts₀.inb_S3x2048x512_S1x2048x512_2_0_0) (fun _ => rfl)).squeeze S2048x512 Facts₀.squeezes_S1x2048x512_S2048x512
abbrev sbSlot : Fin 3 → Memref sig .tc .vmem S2048x512 .bf16
  | 0 => ((sbM).slice (Rect.unit (s := S3x2048x512) ![0, 0, 0] S1x2048x512.size Facts₀.inb_S3x2048x512_S1x2048x512_0_0_0) (fun _ => rfl)).squeeze S2048x512 Facts₀.squeezes_S1x2048x512_S2048x512
  | 1 => ((sbM).slice (Rect.unit (s := S3x2048x512) ![1, 0, 0] S1x2048x512.size Facts₀.inb_S3x2048x512_S1x2048x512_1_0_0) (fun _ => rfl)).squeeze S2048x512 Facts₀.squeezes_S1x2048x512_S2048x512
  | 2 => ((sbM).slice (Rect.unit (s := S3x2048x512) ![2, 0, 0] S1x2048x512.size Facts₀.inb_S3x2048x512_S1x2048x512_2_0_0) (fun _ => rfl)).squeeze S2048x512 Facts₀.squeezes_S1x2048x512_S2048x512
abbrev rbSlot : Fin 3 → Memref sig .tc .vmem S2048x512 .bf16
  | 0 => ((rbM).slice (Rect.unit (s := S3x2048x512) ![0, 0, 0] S1x2048x512.size Facts₀.inb_S3x2048x512_S1x2048x512_0_0_0) (fun _ => rfl)).squeeze S2048x512 Facts₀.squeezes_S1x2048x512_S2048x512
  | 1 => ((rbM).slice (Rect.unit (s := S3x2048x512) ![1, 0, 0] S1x2048x512.size Facts₀.inb_S3x2048x512_S1x2048x512_1_0_0) (fun _ => rfl)).squeeze S2048x512 Facts₀.squeezes_S1x2048x512_S2048x512
  | 2 => ((rbM).slice (Rect.unit (s := S3x2048x512) ![2, 0, 0] S1x2048x512.size Facts₀.inb_S3x2048x512_S1x2048x512_2_0_0) (fun _ => rfl)).squeeze S2048x512 Facts₀.squeezes_S1x2048x512_S2048x512

/-- The column block of `x` destined for `peer c (j+1)`; the device's own column block; -/
abbrev colM (c : Dev nD) : Fin 3 → Memref sig .tc .hbm S2048x512 .f32
  | 0 => (xM).slice (Rect.unit (s := S2048x2048) (k0_off1 c 1#32) S2048x512.size (Facts₀.k0_off1_inb c 0)) (fun _ => rfl)
  | 1 => (xM).slice (Rect.unit (s := S2048x2048) (k0_off1 c 2#32) S2048x512.size (Facts₀.k0_off1_inb c 1)) (fun _ => rfl)
  | 2 => (xM).slice (Rect.unit (s := S2048x2048) (k0_off1 c 3#32) S2048x512.size (Facts₀.k0_off1_inb c 2)) (fun _ => rfl)
abbrev ownSrcM (c : Dev nD) : Memref sig .tc .hbm S2048x512 .f32 :=
  (xM).slice (Rect.unit (s := S2048x2048) (k0_off3 c) S2048x512.size (Facts₀.k0_off3_inb c)) (fun _ => rfl)
/-- the result's own row block, and the row block of the device `j + 1` steps back. -/
abbrev ownDstM (c : Dev nD) : Memref sig .tc .hbm S2048x512 .f32 :=
  (oM).slice (Rect.unit (s := S8192x512) (k0_off2 c) S2048x512.size (Facts₀.k0_off2_inb c)) (fun _ => rfl)
abbrev rowM (c : Dev nD) : Fin 3 → Memref sig .tc .hbm S2048x512 .f32
  | 0 => (oM).slice (Rect.unit (s := S8192x512) (k0_off4 c 1#32) S2048x512.size (Facts₀.k0_off4_inb c 0)) (fun _ => rfl)
  | 1 => (oM).slice (Rect.unit (s := S8192x512) (k0_off4 c 2#32) S2048x512.size (Facts₀.k0_off4_inb c 1)) (fun _ => rfl)
  | 2 => (oM).slice (Rect.unit (s := S8192x512) (k0_off4 c 3#32) S2048x512.size (Facts₀.k0_off4_inb c 2)) (fun _ => rfl)

/-- A transfer's credit: a 2048 × 512 bf16 slot. -/
abbrev N : ℕ := (rbSlot 0).view.dmaCredit

/-! ## Points-to through a memref -/

/-- The elements under a memref's view on device `c`, owned outright, the buffer's contents there `f`. -/
abbrev pts {sp : Space} {S : Shape} {e : EltTy} (M : Memref sig .tc sp S e) (c : Dev nD)
    (f : Buf (Elt F) (M.view.loc (c : Thread nD τ))) : sProp 𝕄 :=
  M.view.loc (c : Thread nD τ) ↦[M.view.set]{fullShare} f

/-! ## What each buffer holds along the way

Each is a whole-buffer contents with arbitrary values off the part that matters; a points-to over a part of a buffer
only reads its contents there. -/

/-- Contents nobody reads. -/
def junkB (ty : BufTy) : ty.Contents (Elt F) := fun _ => Classical.arbitrary _

/-- Device `c`'s row block of `x`. -/
def X (c : Dev nD) : Buf (Elt F) ((c : Thread nD τ).loc main_arg0) := m ((c : Thread nD τ).loc main_arg0)

/-- The narrowing and the widening of a slot, as the body computes them (the three unrolled trips print three copies of one function). -/
abbrev payT : Fin 3 → Vec F S1x2048x512 .f32 → FVec F S1x2048x512 .bf16 | 0 => k0_pay1 | 1 => k0_pay2 | 2 => k0_pay3
abbrev payE : Fin 3 → Vec F S1x2048x512 .bf16 → FVec F S1x2048x512 .f32 | 0 => k0_pay4 | 1 => k0_pay5 | 2 => k0_pay6

/-- The staging buffer once the column block for `peer c (j+1)` has been copied into slot `j`. -/
def xsIn (c : Dev nD) : Fin 3 → Buf (Elt F) ((c : Thread nD τ).loc cc0_scratch0)
  | 0 => (xsSlot 0).view.write (Elt F) (junkB (F := F) _) ((colM c 0).view.read (Elt F) (X m c)) Finset.univ
  | 1 => (xsSlot 1).view.write (Elt F) (junkB (F := F) _) ((colM c 1).view.read (Elt F) (X m c)) Finset.univ
  | 2 => (xsSlot 2).view.write (Elt F) (junkB (F := F) _) ((colM c 2).view.read (Elt F) (X m c)) Finset.univ

/-- The send buffer once slot `j` holds that block narrowed to bf16. -/
def sbAfter (c : Dev nD) : Fin 3 → Buf (Elt F) ((c : Thread nD τ).loc cc0_scratch1)
  | 0 => ((sbM).access (slotR 0) : View sig .tc _ _ _).write (Elt F) (junkB (F := F) _) (payT 0 ((xsM).view.readAt (Elt F) (slotR 0).toLoadRect (xsIn m c 0))) Finset.univ
  | 1 => ((sbM).access (slotR 1) : View sig .tc _ _ _).write (Elt F) (junkB (F := F) _) (payT 1 ((xsM).view.readAt (Elt F) (slotR 1).toLoadRect (xsIn m c 1))) Finset.univ
  | 2 => ((sbM).access (slotR 2) : View sig .tc _ _ _).write (Elt F) (junkB (F := F) _) (payT 2 ((xsM).view.readAt (Elt F) (slotR 2).toLoadRect (xsIn m c 2))) Finset.univ

/-- Whom receive slot `j` is written by: the device `3 - j` steps on (that is, `j + 1` steps back). -/
abbrev origin (c : Dev nD) (j : Fin 3) : Dev nD := peer c (3 - j.val)

/-- The receive buffer once slot `j` has landed: what `origin c j` sent from its send slot `j`. -/
def landed (c : Dev nD) : Fin 3 → Buf (Elt F) ((c : Thread nD τ).loc cc0_scratch2)
  | 0 => (rbSlot 0).view.write (Elt F) (junkB (F := F) _) ((sbSlot 0).view.read (Elt F) (sbAfter m (origin c 0) 0)) Finset.univ
  | 1 => (rbSlot 1).view.write (Elt F) (junkB (F := F) _) ((sbSlot 1).view.read (Elt F) (sbAfter m (origin c 1) 1)) Finset.univ
  | 2 => (rbSlot 2).view.write (Elt F) (junkB (F := F) _) ((sbSlot 2).view.read (Elt F) (sbAfter m (origin c 2) 2)) Finset.univ

/-- The staging buffer once slot `j` holds the landed block widened back to f32. -/
def xsOut (c : Dev nD) : Fin 3 → Buf (Elt F) ((c : Thread nD τ).loc cc0_scratch0)
  | 0 => ((xsM).access (slotR 0) : View sig .tc _ _ _).write (Elt F) (junkB (F := F) _) (payE 0 ((rbM).view.readAt (Elt F) (slotR 0).toLoadRect (landed m c 0))) Finset.univ
  | 1 => ((xsM).access (slotR 1) : View sig .tc _ _ _).write (Elt F) (junkB (F := F) _) (payE 1 ((rbM).view.readAt (Elt F) (slotR 1).toLoadRect (landed m c 1))) Finset.univ
  | 2 => ((xsM).access (slotR 2) : View sig .tc _ _ _).write (Elt F) (junkB (F := F) _) (payE 2 ((rbM).view.readAt (Elt F) (slotR 2).toLoadRect (landed m c 2))) Finset.univ

/-- The result array after the four copies into it: the device's own piece, then the three received ones. -/
def out0 (c : Dev nD) : Buf (Elt F) ((c : Thread nD τ).loc main_v1) :=
  (ownDstM c).view.write (Elt F) (junkB (F := F) _) ((ownSrcM c).view.read (Elt F) (X m c)) Finset.univ
def out1 (c : Dev nD) : Buf (Elt F) ((c : Thread nD τ).loc main_v1) :=
  (rowM c 0).view.write (Elt F) (out0 m c) ((xsSlot 0).view.read (Elt F) (xsOut m c 0)) Finset.univ
def out2 (c : Dev nD) : Buf (Elt F) ((c : Thread nD τ).loc main_v1) :=
  (rowM c 1).view.write (Elt F) (out1 m c) ((xsSlot 1).view.read (Elt F) (xsOut m c 1)) Finset.univ
def OUT (c : Dev nD) : Buf (Elt F) ((c : Thread nD τ).loc main_v1) :=
  (rowM c 2).view.write (Elt F) (out2 m c) ((xsSlot 2).view.read (Elt F) (xsOut m c 2)) Finset.univ

/-! ## The schedule -/

/-- The receive slot a barrier duty carries: the `d`-th signal of a device hands over its slot `3 - d`. -/
def slotOf (d : Fin 4) : Fin 3 := ⟨(3 - d.val) % 3, Nat.mod_lt _ (by decide)⟩

/-- What duty `d` of `c`'s entry-barrier cell hands `c`: the receive slot `3 - d` of its payer `peer c (4 - d)`, at any
    contents, and that this slot's receive cell stands at round 0. -/
def slotPts (c : Dev nD) : Fin 3 → sProp 𝕄
  | 0 => iprop(∃ f, pts (rbSlot 0) c f)
  | 1 => iprop(∃ f, pts (rbSlot 1) c f)
  | 2 => iprop(∃ f, pts (rbSlot 2) c f)
def barPay (c : Dev nD) (d : Fin 4) : sProp 𝕄 :=
  iprop(slotPts (peer c (4 - d.val)) (slotOf d) ∗ reached ER (recvCell (peer c (4 - d.val)) (slotOf d)) 0)
def recvPay (c : Dev nD) : Fin 3 → sProp 𝕄
  | 0 => pts (rbSlot 0) c (landed m c 0)
  | 1 => pts (rbSlot 1) c (landed m c 1)
  | 2 => pts (rbSlot 2) c (landed m c 2)
def sendPay (c : Dev nD) : Fin 3 → sProp 𝕄
  | 0 => pts (sbSlot 0) c (sbAfter m c 0)
  | 1 => pts (sbSlot 1) c (sbAfter m c 1)
  | 2 => pts (sbSlot 2) c (sbAfter m c 2)

abbrev IsBar (g : GSem nD τ sig) : Prop := g.1.2 = .tc ∧ (g.2 = .reg barS ∨ g.2 = .reg endS)
abbrev IsXfer (g : GSem nD τ sig) : Prop :=
  g.1.2 = .tc ∧ (g.2 = .dma (sendS 0) ∨ g.2 = .dma (sendS 1) ∨ g.2 = .dma (sendS 2)
    ∨ g.2 = .dma (recvS 0) ∨ g.2 = .dma (recvS 1) ∨ g.2 = .dma (recvS 2))

/-- One round per cell: a barrier cell has the unit duties 1, 2, 3; a send or receive cell the duty 0 of a slot's credit. -/
def Rd : Rounds.Schedule (GSem nD τ sig) (Fin 4) 𝕄 where
  duties g r := if r = 0 ∧ IsBar g then {1, 2, 3} else if r = 0 ∧ IsXfer g then {0} else ∅
  unitless _ := False
  amount g _ _ := if g.2 = .reg barS ∨ g.2 = .reg endS then 1 else N
  payload g _ d :=
    if g.2 = .reg barS then barPay g.1.1 d
    else if g.2 = .dma (recvS 0) then recvPay m g.1.1 0
    else if g.2 = .dma (recvS 1) then recvPay m g.1.1 1
    else if g.2 = .dma (recvS 2) then recvPay m g.1.1 2
    else if g.2 = .dma (sendS 0) then sendPay m g.1.1 0
    else if g.2 = .dma (sendS 1) then sendPay m g.1.1 1
    else if g.2 = .dma (sendS 2) then sendPay m g.1.1 2
    else iprop(emp)
  amount_pos g _ _ _ := by
    by_cases h : g.2 = .reg barS ∨ g.2 = .reg endS
    · rw [if_pos h]; exact Nat.one_pos
    · rw [if_neg h]; exact View.dmaCredit_pos _ (by decide)

instance Rd_payload_storable (g : GSem nD τ sig) (r : ℕ) (d : Fin 4) :
    BI.Storable (upEmb : UEmb _ 𝕄) ((Rd (F := F) m).payload g r d) := by
  show BI.Storable upEmb (if g.2 = .reg barS then barPay g.1.1 d
    else if g.2 = .dma (recvS 0) then recvPay m g.1.1 0
    else if g.2 = .dma (recvS 1) then recvPay m g.1.1 1
    else if g.2 = .dma (recvS 2) then recvPay m g.1.1 2
    else if g.2 = .dma (sendS 0) then sendPay m g.1.1 0
    else if g.2 = .dma (sendS 1) then sendPay m g.1.1 1
    else if g.2 = .dma (sendS 2) then sendPay m g.1.1 2
    else iprop(emp))
  unfold barPay slotPts recvPay sendPay
  (repeat' split) <;> infer_instance

/-! ## What each device owes at launch; the levels -/

/-- In the order the body pays, last summand first: the three entry signals, the three transfers, the three exit signals. -/
def O₈ (c : Dev nD) : CellTallies nD τ sig Unit := tallyAt (endCell (peer c 3)) () 1 + tallyAt (endCell (peer c 2)) () 1
def O₇ (c : Dev nD) : CellTallies nD τ sig Unit := O₈ c + tallyAt (endCell (peer c 1)) () 1
def O₆ (c : Dev nD) : CellTallies nD τ sig Unit := O₇ c + tallyAt (recvCell (peer c 3) 2) () N
def O₅ (c : Dev nD) : CellTallies nD τ sig Unit := O₆ c + tallyAt (recvCell (peer c 2) 1) () N
def O₄ (c : Dev nD) : CellTallies nD τ sig Unit := O₅ c + tallyAt (recvCell (peer c 1) 0) () N
def O₃ (c : Dev nD) : CellTallies nD τ sig Unit := O₄ c + tallyAt (barCell (peer c 3)) () 1
def O₂ (c : Dev nD) : CellTallies nD τ sig Unit := O₃ c + tallyAt (barCell (peer c 2)) () 1
def O₁ (c : Dev nD) : CellTallies nD τ sig Unit := O₂ c + tallyAt (barCell (peer c 1)) () 1

def L (g : GSem nD τ sig) : Finset Unit := if g.1.2 = .tc then {()} else ∅
/-- Entry barrier 1, receive cells 2, exit barrier 3, everything else (local copies, send cells) 0. -/
def lv (g : GSem nD τ sig) (_ : Unit) : ℕ :=
  if g.2 = .reg barS then 1
  else if g.2 = .dma (recvS 0) ∨ g.2 = .dma (recvS 1) ∨ g.2 = .dma (recvS 2) then 2
  else if g.2 = .reg endS then 3 else 0

/-! ## The ghost state and the body's invariant -/

/-- Every cell's invariant, under the names the launch allocated them at, and that every cell is at round 0. -/
def records (K : Dev nD × Fin 8 → ℕ) : sProp 𝕄 :=
  iprop((bigSep Finset.univ fun ck : Dev nD × Fin 8 => cellInv ER (Rd m) (K ck) (kcell ck))
    ∗ bigSep Finset.univ fun ck : Dev nD × Fin 8 => reached ER (kcell ck) 0)

instance records_persistent (K : Dev nD × Fin 8 → ℕ) : BI.Persistent (records m K) := by unfold records; infer_instance

/-- The tokens of the duties device `c` pays: its `d`-th entry and exit signals, its three transfers seen from both ends. -/
def payToks (c : Dev nD) : sProp 𝕄 :=
  iprop(dutyTok ER (barCell (peer c 1)) 0 1 ∗ dutyTok ER (barCell (peer c 2)) 0 2 ∗ dutyTok ER (barCell (peer c 3)) 0 3
    ∗ dutyTok ER (recvCell (peer c 1) 0) 0 0 ∗ dutyTok ER (recvCell (peer c 2) 1) 0 0 ∗ dutyTok ER (recvCell (peer c 3) 2) 0 0
    ∗ dutyTok ER (sendCell c 0) 0 0 ∗ dutyTok ER (sendCell c 1) 0 0 ∗ dutyTok ER (sendCell c 2) 0 0
    ∗ dutyTok ER (endCell (peer c 1)) 0 1 ∗ dutyTok ER (endCell (peer c 2)) 0 2 ∗ dutyTok ER (endCell (peer c 3)) 0 3)

/-- Device `c`'s positions in its own eight cells. -/
def positions (c : Dev nD) : sProp 𝕄 := bigSep Finset.univ fun k : Fin 8 => atPos ER (kcell (c, k)) 0 ∅ 0

/-- The counters of the seven local-copy semaphores, at zero. -/
def localSems (c : Dev nD) : sProp 𝕄 := bigSep Finset.univ fun k : Fin 7 => semVal ((c : Thread nD τ), lsem k) 0

def ghost (K : Dev nD × Fin 8 → ℕ) (c : Dev nD) : sProp 𝕄 :=
  iprop(records m K ∗ positions c ∗ payToks c ∗ localSems c)

/-- What device `c`'s body starts from besides its buffers. -/
def start (c : Dev nD) : sProp 𝕄 :=
  iprop((∃ K, ghost m K c)
    ∗ cred (tallyAt (barCell c) () 3) ∗ cred (tallyAt (recvCell c 0) () N) ∗ cred (tallyAt (recvCell c 1) () N)
    ∗ cred (tallyAt (recvCell c 2) () N) ∗ cred (tallyAt (endCell c) () 3) ∗ levAts L lv)

/-- The five buffers the body touches: `x` and the result as launched, the three scratch buffers at any contents. -/
def bufs0 (c : Dev nD) : sProp 𝕄 :=
  iprop(pts xM c (X m c) ∗ pts oM c (m ((c : Thread nD τ).loc main_v1))
    ∗ (∃ f, pts xsM c f) ∗ (∃ f, pts sbM c f) ∗ (∃ f, pts rbM c f))
/-- After the body: `x` unchanged, the result assembled. -/
def bufs1 (c : Dev nD) : sProp 𝕄 :=
  iprop(pts xM c (X m c) ∗ pts oM c (OUT m c)
    ∗ (∃ f, pts xsM c f) ∗ (∃ f, pts sbM c f) ∗ (∃ f, pts rbM c f))

def Φ₀ (c : Dev nD) : sProp 𝕄 := iprop(start m c ∗ bufs0 m c)
/-- After the body: the buffers, and all fourteen own semaphores back at zero. -/
def Φ₁ (c : Dev nD) : sProp 𝕄 :=
  iprop(bufs1 m c ∗ bigSep Finset.univ fun k : Fin 14 => semVal ((c : Thread nD τ), osem k) 0)

/-! ## The pipeline's proof data (no window: both arrays are left in place) -/

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₁ c
    | ⟨_ + 1, _⟩ => 0

abbrev 𝒱₀ : Variants := Variants.none

/-- What the run leaves: on every device the result assembled and `x` as it was. -/
def QC : PUnit × MemSt nD τ sig (Elt F) → Prop := fun r =>
  ∀ c : Dev nD, r.2.mem ((c : Thread nD τ).loc main_v1) = OUT m c
    ∧ r.2.mem ((c : Thread nD τ).loc main_arg0) = m ((c : Thread nD τ).loc main_arg0)

end Cert.KernelIdeal.A2A

end
-- ==== Proof.Tables.lean ====
/-
  The schedule's tables read at each kind of cell: which duties a cell's one round has, what each is worth, what each
  hands the cell's owner, and what a wait for the whole round comes back with.
-/
import proofs.«900644_g7700000000000645_dist_a2a_v7x_xyz2x2x4_z_m2048_n512_f32_1_alg».proof.Proof.Sched

noncomputable section

namespace Cert.KernelIdeal.A2A

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

omit [FloatOps F] in
theorem recv_ne_bar (j : Fin 3) : (SemLoc.dma (recvS j) : SemLoc sig) ≠ .reg barS := fun h => by cases h
omit [FloatOps F] in
theorem send_ne_bar (j : Fin 3) : (SemLoc.dma (sendS j) : SemLoc sig) ≠ .reg barS := fun h => by cases h
omit [FloatOps F] in
theorem recv_ne_end (j : Fin 3) : (SemLoc.dma (recvS j) : SemLoc sig) ≠ .reg endS := fun h => by cases h
omit [FloatOps F] in
theorem send_ne_end (j : Fin 3) : (SemLoc.dma (sendS j) : SemLoc sig) ≠ .reg endS := fun h => by cases h
omit [FloatOps F] in
theorem end_ne_bar : (SemLoc.reg endS : SemLoc sig) ≠ .reg barS := by decide

section Tables
variable (c : Dev nD)

theorem duties_bar : (Rd (F := F) m).duties (barCell c) 0 = {1, 2, 3} := by
  dsimp only [Rd]; exact if_pos ⟨rfl, rfl, .inl rfl⟩
theorem duties_end : (Rd (F := F) m).duties (endCell c) 0 = {1, 2, 3} := by
  dsimp only [Rd]; exact if_pos ⟨rfl, rfl, .inr rfl⟩
theorem not_bar_send (j : Fin 3) : ¬ IsBar (sendCell c j) := fun h => h.2.elim (send_ne_bar j) (send_ne_end j)
theorem not_bar_recv (j : Fin 3) : ¬ IsBar (recvCell c j) := fun h => h.2.elim (recv_ne_bar j) (recv_ne_end j)
theorem isXfer_send (j : Fin 3) : IsXfer (sendCell c j) := ⟨rfl, by fin_cases j <;> simp⟩
theorem isXfer_recv (j : Fin 3) : IsXfer (recvCell c j) := ⟨rfl, by fin_cases j <;> simp⟩
theorem duties_send (j : Fin 3) : (Rd (F := F) m).duties (sendCell c j) 0 = {0} := by
  dsimp only [Rd]; rw [if_neg (fun h => not_bar_send c j h.2)]; exact if_pos ⟨rfl, isXfer_send c j⟩
theorem duties_recv (j : Fin 3) : (Rd (F := F) m).duties (recvCell c j) 0 = {0} := by
  dsimp only [Rd]; rw [if_neg (fun h => not_bar_recv c j h.2)]; exact if_pos ⟨rfl, isXfer_recv c j⟩
theorem duties_later (g : GSem nD τ sig) : ∀ r, 1 ≤ r → (Rd (F := F) m).duties g r = ∅ :=
  fun r hr => by dsimp only [Rd]; rw [if_neg fun h => by omega, if_neg fun h => by omega]

theorem amount_bar (d : Fin 4) : (Rd (F := F) m).amount (barCell c) 0 d = 1 := by dsimp only [Rd]; exact if_pos (.inl rfl)
theorem amount_end (d : Fin 4) : (Rd (F := F) m).amount (endCell c) 0 d = 1 := by dsimp only [Rd]; exact if_pos (.inr rfl)
theorem amount_send (j : Fin 3) (d : Fin 4) : (Rd (F := F) m).amount (sendCell c j) 0 d = N := by
  dsimp only [Rd]; exact if_neg (fun h => h.elim (send_ne_bar j) (send_ne_end j))
theorem amount_recv (j : Fin 3) (d : Fin 4) : (Rd (F := F) m).amount (recvCell c j) 0 d = N := by
  dsimp only [Rd]; exact if_neg (fun h => h.elim (recv_ne_bar j) (recv_ne_end j))

theorem expect_bar : (Rd (F := F) m).expect (barCell c) 0 = 3 := by
  unfold Schedule.expect Schedule.amountOf
  rw [duties_bar, Finset.sum_congr rfl fun d _ => amount_bar m c d]; rfl
theorem expect_end : (Rd (F := F) m).expect (endCell c) 0 = 3 := by
  unfold Schedule.expect Schedule.amountOf
  rw [duties_end, Finset.sum_congr rfl fun d _ => amount_end m c d]; rfl
theorem expect_send (j : Fin 3) : (Rd (F := F) m).expect (sendCell c j) 0 = N := by
  unfold Schedule.expect Schedule.amountOf; rw [duties_send, Finset.sum_singleton, amount_send]
theorem expect_recv (j : Fin 3) : (Rd (F := F) m).expect (recvCell c j) 0 = N := by
  unfold Schedule.expect Schedule.amountOf; rw [duties_recv, Finset.sum_singleton, amount_recv]

theorem payload_bar (d : Fin 4) : (Rd (F := F) m).payload (barCell c) 0 d = barPay c d := by dsimp only [Rd]; rw [if_pos rfl]
theorem payload_end (d : Fin 4) : (Rd (F := F) m).payload (endCell c) 0 d = iprop(emp) := by
  dsimp only [Rd]
  rw [if_neg end_ne_bar, if_neg (recv_ne_end 0).symm, if_neg (recv_ne_end 1).symm, if_neg (recv_ne_end 2).symm,
    if_neg (send_ne_end 0).symm, if_neg (send_ne_end 1).symm, if_neg (send_ne_end 2).symm]

theorem payload_recv (j : Fin 3) (d : Fin 4) : (Rd (F := F) m).payload (recvCell c j) 0 d = recvPay m c j := by
  dsimp only [Rd]
  rw [if_neg (recv_ne_bar j)]
  fin_cases j
  · exact if_pos rfl
  · rw [if_neg (by decide)]; exact if_pos rfl
  · rw [if_neg (by decide), if_neg (by decide)]; exact if_pos rfl
theorem payload_send (j : Fin 3) (d : Fin 4) : (Rd (F := F) m).payload (sendCell c j) 0 d = sendPay m c j := by
  dsimp only [Rd]
  rw [if_neg (send_ne_bar j)]
  fin_cases j
  · rw [if_neg (by decide), if_neg (by decide), if_neg (by decide)]; exact if_pos rfl
  · rw [if_neg (by decide), if_neg (by decide), if_neg (by decide), if_neg (by decide)]; exact if_pos rfl
  · rw [if_neg (by decide), if_neg (by decide), if_neg (by decide), if_neg (by decide), if_neg (by decide)]; exact if_pos rfl

/-- The whole round of an entry-barrier cell: the three peers' receive slots. -/
theorem rest_bar : bigSep ((Rd (F := F) m).duties (barCell c) 0 \ ∅) (fun d => (Rd (F := F) m).payload (barCell c) 0 d)
    = iprop(barPay c 1 ∗ barPay c 2 ∗ barPay c 3) := by
  rw [Finset.sdiff_empty, duties_bar, bigSep_eq_bigSepL_of_eq [1, 2, 3] (by decide) (by decide), bigSepL_cons_cons, bigSepL_cons_cons, bigSepL_singleton,
    payload_bar, payload_bar, payload_bar]
  rfl
theorem rest_end : bigSep ((Rd (F := F) m).duties (endCell c) 0 \ ∅) (fun d => (Rd (F := F) m).payload (endCell c) 0 d)
    = iprop(emp ∗ emp ∗ emp) := by
  rw [Finset.sdiff_empty, duties_end, bigSep_eq_bigSepL_of_eq [1, 2, 3] (by decide) (by decide), bigSepL_cons_cons, bigSepL_cons_cons, bigSepL_singleton,
    payload_end, payload_end, payload_end]
  rfl
theorem rest_send (j : Fin 3) : bigSep ((Rd (F := F) m).duties (sendCell c j) 0 \ ∅) (fun d => (Rd (F := F) m).payload (sendCell c j) 0 d) = sendPay m c j := by
  rw [Finset.sdiff_empty, duties_send, bigSep_singleton, payload_send]
theorem rest_recv (j : Fin 3) : bigSep ((Rd (F := F) m).duties (recvCell c j) 0 \ ∅) (fun d => (Rd (F := F) m).payload (recvCell c j) 0 d) = recvPay m c j := by
  rw [Finset.sdiff_empty, duties_recv, bigSep_singleton, payload_recv]

end Tables

omit [FloatOps F] in
/-- What the three duties of `c`'s entry-barrier cell hand it: receive slot `j` of `peer c (j+1)`. -/
theorem barPay_got (c : Dev nD) :
    (barPay (F := F) c 1 = iprop(slotPts (peer c 3) 2 ∗ reached ER (recvCell (peer c 3) 2) 0))
    ∧ (barPay (F := F) c 2 = iprop(slotPts (peer c 2) 1 ∗ reached ER (recvCell (peer c 2) 1) 0))
    ∧ (barPay (F := F) c 3 = iprop(slotPts (peer c 1) 0 ∗ reached ER (recvCell (peer c 1) 0) 0)) := ⟨rfl, rfl, rfl⟩

omit [FloatOps F] in
/-- What `c` hands over with its `d`-th entry signal: its own receive slot `3 - d`. -/
theorem barPay_give (c : Dev nD) :
    (barPay (F := F) (peer c 1) 1 = iprop(slotPts c 2 ∗ reached ER (recvCell c 2) 0))
    ∧ (barPay (F := F) (peer c 2) 2 = iprop(slotPts c 1 ∗ reached ER (recvCell c 1) 0))
    ∧ (barPay (F := F) (peer c 3) 3 = iprop(slotPts c 0 ∗ reached ER (recvCell c 0) 0)) := by
  have h1 : peer (peer c 1) 3 = c := by rw [peer_peer]; exact peer_four c
  have h2 : peer (peer c 2) 2 = c := by rw [peer_peer]; exact peer_four c
  have h3 : peer (peer c 3) 1 = c := by rw [peer_peer]; exact peer_four c
  refine ⟨?_, ?_, ?_⟩
  · show iprop(slotPts (peer (peer c 1) 3) 2 ∗ reached ER (recvCell (peer (peer c 1) 3) 2) 0) = _; rw [h1]
  · show iprop(slotPts (peer (peer c 2) 2) 1 ∗ reached ER (recvCell (peer (peer c 2) 2) 1) 0) = _; rw [h2]
  · show iprop(slotPts (peer (peer c 3) 1) 0 ∗ reached ER (recvCell (peer (peer c 3) 1) 0) 0) = _; rw [h3]

theorem inv_at (K : Dev nD × Fin 8 → ℕ) (ck : Dev nD × Fin 8) :
    (records (F := F) m K) ⊢ cellInv ER (Rd m) (K ck) (kcell ck) := by
  unfold records
  exact sep_elim_left.trans (bigSep_elim (Finset.mem_univ ck))
theorem reached_at (K : Dev nD × Fin 8 → ℕ) (ck : Dev nD × Fin 8) :
    (records (F := F) m K) ⊢ reached ER (kcell ck) 0 := by
  unfold records
  exact sep_elim_right.trans (bigSep_elim (Finset.mem_univ ck))

end Cert.KernelIdeal.A2A

end
-- ==== Proof.OutCongr.lean ====
/-
  The result array's four pieces, read off the assembled result.

  The result of a device is 8192 × 512; four copies write it, one into each 2048-row block: the device's own piece
  into the row block at its z coordinate, and what came from the devices three, two and one steps on into the row
  blocks of THEIR z coordinates. The four row blocks share no element, so on the elements of one block the assembled
  result is that block's payload alone: an unmasked write leaves its payload on its own elements whatever the buffer
  held before, and the later copies go elsewhere. The same remark over any memref: what is owned through the memref
  after an unmasked write does not depend on the contents written over.
-/
import proofs.«900644_g7700000000000645_dist_a2a_v7x_xyz2x2x4_z_m2048_n512_f32_1_alg».proof.Proof.Sched
import Idealize.ShloMosaic.Lib.Pipeline.Value

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.Sem

namespace OutCongr

/-- On a view's own elements an unmasked write leaves the payload, whatever was there before. -/
theorem write_univ_base {sig : RefSig} {κ : Kind} {sp : Space} {S : Shape} {e : EltTy} {Val : EltTy → Type}
    (v : View sig κ sp S e) (f g : v.ty.Contents Val) (w : S.Idx → Val e) {i : v.ty.Idx} (hi : i ∈ v.set) :
    v.write Val f w Finset.univ i = v.write Val g w Finset.univ i := by
  obtain ⟨y, rfl⟩ := v.exists_emb_of_mem_set hi
  rw [View.write_emb_of_mem _ _ (Finset.mem_univ y), View.write_emb_of_mem _ _ (Finset.mem_univ y)]

/-- Two 2048-row blocks of the result that start at least 2048 rows apart share no element: a copy into one leaves
    the other's elements as they were. -/
theorem rows_apart {Val : EltTy → Type} (off off' : Fin 2 → ℕ)
    (inb : ∀ a, off a + S2048x512.size a ≤ S8192x512.size a) (inb' : ∀ a, off' a + S2048x512.size a ≤ S8192x512.size a)
    (hsep : off 0 + 2048 ≤ off' 0 ∨ off' 0 + 2048 ≤ off 0)
    (f : (oM).view.ty.Contents Val) (w : S2048x512.Idx → Val .f32) (i : S8192x512.Idx)
    (hi : i ∈ ((oM).slice (Rect.unit (s := S8192x512) off S2048x512.size inb) (fun _ => rfl)).view.set) :
    ((oM).slice (Rect.unit (s := S8192x512) off' S2048x512.size inb') (fun _ => rfl)).view.write Val f w Finset.univ i = f i := by
  refine View.write_of_not_mem _ _ _ fun hmem => ?_
  rw [View.setOn_univ] at hmem
  have hi' : i ∈ (Rect.unit (s := S8192x512) off S2048x512.size inb).set := by
    rw [← View.set_slice_whole main_v1]; exact hi
  have hmem' : i ∈ (Rect.unit (s := S8192x512) off' S2048x512.size inb').set := by
    rw [← View.set_slice_whole main_v1]; exact hmem
  have hd : Disjoint (Rect.unit (s := S8192x512) off S2048x512.size inb).set (Rect.unit (s := S8192x512) off' S2048x512.size inb').set :=
    Rect.unit_disjoint 0 hsep
  exact Finset.disjoint_left.mp hd hi' hmem'

/-- Where the four row blocks start: at 2048 times the z coordinate of the device whose piece goes there. -/
theorem row_offs (c : Dev nD) :
    k0_off2 c 0 = 2048 * (c.val % 4) ∧ k0_off4 c 1#32 0 = 2048 * ((c.val % 4 + 3) % 4)
      ∧ k0_off4 c 2#32 0 = 2048 * ((c.val % 4 + 2) % 4) ∧ k0_off4 c 3#32 0 = 2048 * ((c.val % 4 + 1) % 4) := by
  rw [k0_off2_eq, off4_1, off4_2, off4_3]; exact ⟨rfl, rfl, rfl, rfl⟩

end OutCongr

open OutCongr

/-- The last copy's row block: the assembled result there is that copy's payload. -/
theorem OUT_on_row2 {F : FTy → Type} [FloatOps F] (m : (ℓ : Loc nD τ sig) → Buf (Elt F) ℓ) (c : Dev nD)
    (g : Buf (Elt F) ((c : Thread nD τ).loc main_v1)) (v : S2048x512.Idx → Elt F .f32)
    (hv : v = (xsSlot 2).view.read (Elt F) (xsOut m c 2)) :
    ∀ i ∈ (rowM c 2).view.set, (rowM c 2).view.write (Elt F) g v Finset.univ i = OUT m c i := by
  intro i hi
  subst hv
  exact write_univ_base (rowM c 2).view g (out2 m c) _ hi

/-- The row block of the copy before it: the last copy goes elsewhere. -/
theorem OUT_on_row1 {F : FTy → Type} [FloatOps F] (m : (ℓ : Loc nD τ sig) → Buf (Elt F) ℓ) (c : Dev nD)
    (g : Buf (Elt F) ((c : Thread nD τ).loc main_v1)) (v : S2048x512.Idx → Elt F .f32)
    (hv : v = (xsSlot 1).view.read (Elt F) (xsOut m c 1)) :
    ∀ i ∈ (rowM c 1).view.set, (rowM c 1).view.write (Elt F) g v Finset.univ i = OUT m c i := by
  intro i hi
  subst hv
  obtain ⟨-, -, e2, e3⟩ := row_offs c
  have a2 : OUT m c i = out2 m c i :=
    rows_apart (k0_off4 c 2#32) (k0_off4 c 3#32) _ _ (by rw [e2, e3]; omega) (out2 m c) _ i hi
  rw [a2]
  exact write_univ_base (rowM c 1).view g (out1 m c) _ hi

/-- The row block of the first of the three received pieces: the two later copies go elsewhere. -/
theorem OUT_on_row0 {F : FTy → Type} [FloatOps F] (m : (ℓ : Loc nD τ sig) → Buf (Elt F) ℓ) (c : Dev nD)
    (g : Buf (Elt F) ((c : Thread nD τ).loc main_v1)) (v : S2048x512.Idx → Elt F .f32)
    (hv : v = (xsSlot 0).view.read (Elt F) (xsOut m c 0)) :
    ∀ i ∈ (rowM c 0).view.set, (rowM c 0).view.write (Elt F) g v Finset.univ i = OUT m c i := by
  intro i hi
  subst hv
  obtain ⟨-, e1, e2, e3⟩ := row_offs c
  have a2 : OUT m c i = out2 m c i :=
    rows_apart (k0_off4 c 1#32) (k0_off4 c 3#32) _ _ (by rw [e1, e3]; omega) (out2 m c) _ i hi
  have a1 : out2 m c i = out1 m c i :=
    rows_apart (k0_off4 c 1#32) (k0_off4 c 2#32) _ _ (by rw [e1, e2]; omega) (out1 m c) _ i hi
  rw [a2, a1]
  exact write_univ_base (rowM c 0).view g (out0 m c) _ hi

/-- The device's own row block: the three received pieces go elsewhere. -/
theorem OUT_on_own {F : FTy → Type} [FloatOps F] (m : (ℓ : Loc nD τ sig) → Buf (Elt F) ℓ) (c : Dev nD)
    (g : Buf (Elt F) ((c : Thread nD τ).loc main_v1)) :
    ∀ i ∈ (ownDstM c).view.set,
      (ownDstM c).view.write (Elt F) g ((ownSrcM c).view.read (Elt F) (X m c)) Finset.univ i = OUT m c i := by
  intro i hi
  obtain ⟨e0, e1, e2, e3⟩ := row_offs c
  have a2 : OUT m c i = out2 m c i :=
    rows_apart (k0_off2 c) (k0_off4 c 3#32) _ _ (by rw [e0, e3]; omega) (out2 m c) _ i hi
  have a1 : out2 m c i = out1 m c i :=
    rows_apart (k0_off2 c) (k0_off4 c 2#32) _ _ (by rw [e0, e2]; omega) (out1 m c) _ i hi
  have a0 : out1 m c i = out0 m c i :=
    rows_apart (k0_off2 c) (k0_off4 c 1#32) _ _ (by rw [e0, e1]; omega) (out0 m c) _ i hi
  rw [a2, a1, a0]
  exact write_univ_base (ownDstM c).view g (junkB (F := F) _) _ hi

/-- What is owned through a memref after an unmasked write through it does not depend on the contents written over. -/
theorem pts_write_base {F : FTy → Type} [FloatOps F] {sp : Space} {S : Shape} {e : EltTy} (M : Memref sig .tc sp S e) (c : Dev nD)
    (f g : Buf (Elt F) (M.view.loc (c : Thread nD τ))) (v : S.Idx → Elt F e) :
    (pts M c (M.view.write (Elt F) f v Finset.univ) : sProp (MT nD τ sig Unit (Elt F) ℕ UU ℕ))
      = pts M c (M.view.write (Elt F) g v Finset.univ) :=
  BI.Region.is_congr fun _ hi => write_univ_base M.view f g v hi

/-- info: 'Cert.KernelIdeal.A2A.OUT_on_own' depends on axioms: [propext, Classical.choice, Quot.sound] -/
#guard_msgs in #print axioms OUT_on_own
/-- info: 'Cert.KernelIdeal.A2A.OUT_on_row0' depends on axioms: [propext, Classical.choice, Quot.sound] -/
#guard_msgs in #print axioms OUT_on_row0
/-- info: 'Cert.KernelIdeal.A2A.OUT_on_row1' depends on axioms: [propext, Classical.choice, Quot.sound] -/
#guard_msgs in #print axioms OUT_on_row1
/-- info: 'Cert.KernelIdeal.A2A.OUT_on_row2' depends on axioms: [propext, Classical.choice, Quot.sound] -/
#guard_msgs in #print axioms OUT_on_row2
/-- info: 'Cert.KernelIdeal.A2A.pts_write_base' depends on axioms: [propext, Classical.choice, Quot.sound] -/
#guard_msgs in #print axioms pts_write_base

end Cert.KernelIdeal.A2A

end
-- ==== Proof.Bridge.lean ====
/-
  From what a run of the body computes, as the run spells it, to the named contents of the schedule.

  A run of one device's body names each buffer's contents by the operations it has just stepped through: a local copy's
  payload as the source read "as it is", a slot after a landing as a one-piece list of writes through the whole slot,
  a store as a write over whatever the buffer held. The schedule names the same contents once and for all, over
  contents nobody reads. The two agree wherever they are read: an unmasked write leaves its payload on its own
  elements whatever was there before, a slot read through its squeezed slice after an unmasked write at the slot's
  rectangle is the payload re-indexed, and what is owned through a memref depends only on what the memref reads.
-/
import proofs.«900644_g7700000000000645_dist_a2a_v7x_xyz2x2x4_z_m2048_n512_f32_1_alg».proof.Proof.Sched
import proofs.«900644_g7700000000000645_dist_a2a_v7x_xyz2x2x4_z_m2048_n512_f32_1_alg».proof.Proof.OutCongr
import Idealize.ShloMosaic.Lib.Pipeline.Value
import Idealize.ShloMosaic.Lib.Writes

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.Sem

/-! ## The run's spelling of a copy's payload and of a landed slot -/

/-- A transfer that reads its source as it is moves what the source reads. -/
theorem readAs_same {Val : EltTy → Type} {S : Shape} {e : EltTy} (w : S.Idx → Val e) :
    (ReadAs.same : ReadAs Val S e S e).apply w = w := rfl

/-- One write through the whole of a view's shape is the unmasked write through the view. -/
theorem writes_whole {Val : EltTy → Type} {κ : Kind} {sp : Space} {S : Shape} {e : EltTy} (v : View sig κ sp S e)
    (b : v.ty.Contents Val) (w : S.Idx → Val e) :
    v.writes Val b [⟨Rect.whole S, w⟩] = v.write Val b w Finset.univ := by
  rw [View.writes_singleton]
  funext i
  by_cases hi : i ∈ v.set
  · obtain ⟨y, rfl⟩ := v.exists_emb_of_mem_set hi
    have e' : v.emb y = (v.slice (Rect.whole S)).emb y := by
      show v.emb y = v.emb ((Rect.whole S).emb y)
      rw [Rect.emb_whole_apply]
    conv_lhs => rw [e', View.write_emb_of_mem _ _ (Finset.mem_univ _)]
    rw [View.write_emb_of_mem _ _ (Finset.mem_univ _)]
  · rw [View.write_of_not_mem _ _ _ (fun h => hi (v.set_slice_subset _ (by rwa [View.setOn_univ] at h))),
      View.write_of_not_mem _ _ _ (by rwa [View.setOn_univ])]

/-- What is owned through a memref depends only on what the memref reads. -/
theorem pts_congr_of_read {F : FTy → Type} [FloatOps F] {sp : Space} {S : Shape} {e : EltTy} (M : Memref sig .tc sp S e) (c : Dev nD)
    (f g : Buf (Elt F) (M.view.loc (c : Thread nD τ))) (h : M.view.read (Elt F) f = M.view.read (Elt F) g) :
    (pts M c f : sProp (MT nD τ sig Unit (Elt F) ℕ UU ℕ)) = pts M c g :=
  BI.Region.is_congr fun i hi => by
    obtain ⟨y, rfl⟩ := M.view.exists_emb_of_mem_set hi
    have hy := congrFun h y
    rw [View.read_apply, View.read_apply] at hy
    exact (cast_inj _).mp hy

namespace Bridge

/-! ## A slot read back, over any prior contents -/

/-- A buffer written through the squeeze of a slice and then loaded at the slice's rectangle: the payload, re-indexed
    to the rectangle's shape. -/
theorem readAt_write_squeeze {sig : RefSig} {κ : Kind} {sp : Space} {s s' : Shape} {e : EltTy} {Val : EltTy → Type}
    (M : Memref sig κ sp s e) (r : Rect s) (hr : ∀ a, r.stride a = 1) (hq : r.shape.Squeezes s')
    (f : M.view.ty.Contents Val) (w : s'.Idx → Val e) :
    M.view.readAt Val r.toLoadRect (((M.slice r hr).squeeze s' hq).view.write Val f w Finset.univ)
      = shapeCast r.shape w hq.numel_eq.symm := by
  show (M.view.slice r).read Val (((M.view.slice r).reshape s' hq.numel_eq).write Val f w Finset.univ) = _
  rw [View.write_reshape_univ, View.read_write_univ]
  funext x
  show w ((Shape.reshapeEquiv hq.numel_eq).symm x) = w (Shape.reshapeEquiv hq.numel_eq.symm x)
  rw [Shape.reshapeEquiv_symm]

/-- A buffer stored to at a rectangle and then read through the squeeze of the slice at that rectangle: the payload,
    re-indexed to the squeezed shape. -/
theorem read_squeeze_write_access {sig : RefSig} {κ : Kind} {sp : Space} {s s' : Shape} {e : EltTy} {Val : EltTy → Type}
    (M : Memref sig κ sp s e) (r : Rect s) (hr : ∀ a, r.stride a = 1) (hq : r.shape.Squeezes s')
    (f : M.view.ty.Contents Val) (w : r.shape.Idx → Val e) :
    ((M.slice r hr).squeeze s' hq).view.read Val ((M.access r).write Val f w Finset.univ)
      = shapeCast s' w hq.numel_eq := by
  rw [Memref.read_squeeze_slice M r hr hq hq.numel_eq, View.readAt_rect]
  show shapeCast s' ((M.view.slice r).read Val ((M.view.slice r).write Val f w Finset.univ)) hq.numel_eq = _
  rw [View.read_write_univ]

/-- A slot's rectangle in a three-slot buffer, -/
abbrev slotAt (off : Fin 3 → ℕ) (inb : ∀ a, off a + S1x2048x512.size a ≤ S3x2048x512.size a) : Rect S3x2048x512 :=
  Rect.unit (s := S3x2048x512) off S1x2048x512.size inb

/-- and a buffer narrowed to that slot. -/
abbrev narrowed (off : Fin 3 → ℕ) (inb : ∀ a, off a + S1x2048x512.size a ≤ S3x2048x512.size a) {e : EltTy}
    (M : Memref sig .tc .vmem S3x2048x512 e) : Memref sig .tc .vmem S2048x512 e :=
  (M.slice (slotAt off inb) (fun _ => rfl)).squeeze S2048x512 squeezes_S1x2048x512_S2048x512

/-- The send slot after the store, read as the transfer reads it: the same whether the staged block got there as the
    run spells it, over any contents, or as the schedule names it. -/
theorem sent_read {F : FTy → Type} [FloatOps F] (off : Fin 3 → ℕ) (inb : ∀ a, off a + S1x2048x512.size a ≤ S3x2048x512.size a)
    (bx jx : (xsM).view.ty.Contents (Elt F)) (fs js : (sbM).view.ty.Contents (Elt F)) (w : Vec F S2048x512 .f32)
    (pT : Vec F S1x2048x512 .f32 → FVec F S1x2048x512 .bf16) :
    (narrowed off inb sbM).view.read (Elt F)
        (((sbM).access (slotAt off inb)).write (Elt F) fs
          (pT ((xsM).view.readAt (Elt F) (slotAt off inb).toLoadRect
            ((narrowed off inb xsM).view.writes (Elt F) bx [⟨Rect.whole S2048x512, ReadAs.same.apply w⟩])))
          Finset.univ)
      = (narrowed off inb sbM).view.read (Elt F)
        (((sbM).access (slotAt off inb)).write (Elt F) js
          (pT ((xsM).view.readAt (Elt F) (slotAt off inb).toLoadRect
            ((narrowed off inb xsM).view.write (Elt F) jx w Finset.univ)))
          Finset.univ) := by
  rw [writes_whole, readAs_same, read_squeeze_write_access, read_squeeze_write_access, readAt_write_squeeze,
    readAt_write_squeeze]

/-- The staging slot after the widening store, read as the last copy reads it, over any prior contents. -/
theorem widened_read {F : FTy → Type} [FloatOps F] (off : Fin 3 → ℕ) (inb : ∀ a, off a + S1x2048x512.size a ≤ S3x2048x512.size a)
    (prev jx : (xsM).view.ty.Contents (Elt F)) (p : FVec F S1x2048x512 .f32) :
    (narrowed off inb xsM).view.read (Elt F) (((xsM).access (slotAt off inb)).write (Elt F) prev p Finset.univ)
      = (narrowed off inb xsM).view.read (Elt F) (((xsM).access (slotAt off inb)).write (Elt F) jx p Finset.univ) := by
  rw [read_squeeze_write_access, read_squeeze_write_access]

end Bridge

/-! ## The send slot -/

theorem sent_read0 {F : FTy → Type} [FloatOps F] (m : (ℓ : Loc nD τ sig) → Buf (Elt F) ℓ) (c : Dev nD)
    (bx : Buf (Elt F) ((c : Thread nD τ).loc cc0_scratch0)) (fs : Buf (Elt F) ((c : Thread nD τ).loc cc0_scratch1)) :
    (sbSlot 0).view.read (Elt F) (View.write (Elt F) ((Memref.whole cc0_scratch1).access (slotR 0)) fs
        (payT 0 (View.readAt (Elt F) (Memref.whole cc0_scratch0).view (slotR 0).toLoadRect
          ((xsSlot 0).view.writes (Elt F) bx [⟨Rect.whole S2048x512, ReadAs.same.apply (View.read (Elt F) (colM c 0).view (X m c))⟩])))
        Finset.univ)
      = (sbSlot 0).view.read (Elt F) (sbAfter m c 0) :=
  Bridge.sent_read _ _ bx _ fs _ _ (payT 0)

theorem sent_read1 {F : FTy → Type} [FloatOps F] (m : (ℓ : Loc nD τ sig) → Buf (Elt F) ℓ) (c : Dev nD)
    (bx : Buf (Elt F) ((c : Thread nD τ).loc cc0_scratch0)) (fs : Buf (Elt F) ((c : Thread nD τ).loc cc0_scratch1)) :
    (sbSlot 1).view.read (Elt F) (View.write (Elt F) ((Memref.whole cc0_scratch1).access (slotR 1)) fs
        (payT 1 (View.readAt (Elt F) (Memref.whole cc0_scratch0).view (slotR 1).toLoadRect
          ((xsSlot 1).view.writes (Elt F) bx [⟨Rect.whole S2048x512, ReadAs.same.apply (View.read (Elt F) (colM c 1).view (X m c))⟩])))
        Finset.univ)
      = (sbSlot 1).view.read (Elt F) (sbAfter m c 1) :=
  Bridge.sent_read _ _ bx _ fs _ _ (payT 1)

theorem sent_read2 {F : FTy → Type} [FloatOps F] (m : (ℓ : Loc nD τ sig) → Buf (Elt F) ℓ) (c : Dev nD)
    (bx : Buf (Elt F) ((c : Thread nD τ).loc cc0_scratch0)) (fs : Buf (Elt F) ((c : Thread nD τ).loc cc0_scratch1)) :
    (sbSlot 2).view.read (Elt F) (View.write (Elt F) ((Memref.whole cc0_scratch1).access (slotR 2)) fs
        (payT 2 (View.readAt (Elt F) (Memref.whole cc0_scratch0).view (slotR 2).toLoadRect
          ((xsSlot 2).view.writes (Elt F) bx [⟨Rect.whole S2048x512, ReadAs.same.apply (View.read (Elt F) (colM c 2).view (X m c))⟩])))
        Finset.univ)
      = (sbSlot 2).view.read (Elt F) (sbAfter m c 2) :=
  Bridge.sent_read _ _ bx _ fs _ _ (payT 2)

/-! ## The staging slot after the widening -/

theorem widened_read0 {F : FTy → Type} [FloatOps F] (m : (ℓ : Loc nD τ sig) → Buf (Elt F) ℓ) (c : Dev nD)
    (prev : Buf (Elt F) ((c : Thread nD τ).loc cc0_scratch0)) :
    (xsSlot 0).view.read (Elt F) (View.write (Elt F) ((Memref.whole cc0_scratch0).access (slotR 0)) prev
        (payE 0 (View.readAt (Elt F) (Memref.whole cc0_scratch2).view (slotR 0).toLoadRect (landed m c 0))) Finset.univ)
      = (xsSlot 0).view.read (Elt F) (xsOut m c 0) :=
  Bridge.widened_read _ _ prev _ _

theorem widened_read1 {F : FTy → Type} [FloatOps F] (m : (ℓ : Loc nD τ sig) → Buf (Elt F) ℓ) (c : Dev nD)
    (prev : Buf (Elt F) ((c : Thread nD τ).loc cc0_scratch0)) :
    (xsSlot 1).view.read (Elt F) (View.write (Elt F) ((Memref.whole cc0_scratch0).access (slotR 1)) prev
        (payE 1 (View.readAt (Elt F) (Memref.whole cc0_scratch2).view (slotR 1).toLoadRect (landed m c 1))) Finset.univ)
      = (xsSlot 1).view.read (Elt F) (xsOut m c 1) :=
  Bridge.widened_read _ _ prev _ _

theorem widened_read2 {F : FTy → Type} [FloatOps F] (m : (ℓ : Loc nD τ sig) → Buf (Elt F) ℓ) (c : Dev nD)
    (prev : Buf (Elt F) ((c : Thread nD τ).loc cc0_scratch0)) :
    (xsSlot 2).view.read (Elt F) (View.write (Elt F) ((Memref.whole cc0_scratch0).access (slotR 2)) prev
        (payE 2 (View.readAt (Elt F) (Memref.whole cc0_scratch2).view (slotR 2).toLoadRect (landed m c 2))) Finset.univ)
      = (xsSlot 2).view.read (Elt F) (xsOut m c 2) :=
  Bridge.widened_read _ _ prev _ _

/-! ## What a transfer hands its destination

Device `c`'s send slot `j` goes to the device `j + 1` steps on, whose receive slot `j` is written by the device
`3 - j` steps on from IT: four steps round the ring, `c` again. -/

theorem landed_pay0 {F : FTy → Type} [FloatOps F] (m : (ℓ : Loc nD τ sig) → Buf (Elt F) ℓ) (c : Dev nD)
    (fd : Buf (Elt F) ((rbSlot 0).view.loc ((peer c 1) : Thread nD τ))) (fs' : Buf (Elt F) ((c : Thread nD τ).loc cc0_scratch1))
    (h : (sbSlot 0).view.read (Elt F) fs' = (sbSlot 0).view.read (Elt F) (sbAfter m c 0)) :
    (pts (rbSlot 0) (peer c 1) ((rbSlot 0).view.write (Elt F) fd ((sbSlot 0).view.read (Elt F) fs') Finset.univ)
        : sProp (MT nD τ sig Unit (Elt F) ℕ UU ℕ)) = recvPay m (peer c 1) 0 := by
  rw [h]
  have e : origin (peer c 1) 0 = c := by
    show peer (peer c 1) 3 = c
    rw [peer_peer]; exact peer_four c
  have e2 : landed m (peer c 1) 0
      = (rbSlot 0).view.write (Elt F) (junkB (F := F) _) ((sbSlot 0).view.read (Elt F) (sbAfter m c 0)) Finset.univ := by
    show (rbSlot 0).view.write (Elt F) (junkB (F := F) _) ((sbSlot 0).view.read (Elt F) (sbAfter m (origin (peer c 1) 0) 0)) Finset.univ = _
    rw [e]
  show pts (rbSlot 0) (peer c 1) _ = pts (rbSlot 0) (peer c 1) (landed m (peer c 1) 0)
  rw [e2]
  exact pts_write_base (rbSlot 0) (peer c 1) _ _ _

theorem landed_pay1 {F : FTy → Type} [FloatOps F] (m : (ℓ : Loc nD τ sig) → Buf (Elt F) ℓ) (c : Dev nD)
    (fd : Buf (Elt F) ((rbSlot 1).view.loc ((peer c 2) : Thread nD τ))) (fs' : Buf (Elt F) ((c : Thread nD τ).loc cc0_scratch1))
    (h : (sbSlot 1).view.read (Elt F) fs' = (sbSlot 1).view.read (Elt F) (sbAfter m c 1)) :
    (pts (rbSlot 1) (peer c 2) ((rbSlot 1).view.write (Elt F) fd ((sbSlot 1).view.read (Elt F) fs') Finset.univ)
        : sProp (MT nD τ sig Unit (Elt F) ℕ UU ℕ)) = recvPay m (peer c 2) 1 := by
  rw [h]
  have e : origin (peer c 2) 1 = c := by
    show peer (peer c 2) 2 = c
    rw [peer_peer]; exact peer_four c
  have e2 : landed m (peer c 2) 1
      = (rbSlot 1).view.write (Elt F) (junkB (F := F) _) ((sbSlot 1).view.read (Elt F) (sbAfter m c 1)) Finset.univ := by
    show (rbSlot 1).view.write (Elt F) (junkB (F := F) _) ((sbSlot 1).view.read (Elt F) (sbAfter m (origin (peer c 2) 1) 1)) Finset.univ = _
    rw [e]
  show pts (rbSlot 1) (peer c 2) _ = pts (rbSlot 1) (peer c 2) (landed m (peer c 2) 1)
  rw [e2]
  exact pts_write_base (rbSlot 1) (peer c 2) _ _ _

theorem landed_pay2 {F : FTy → Type} [FloatOps F] (m : (ℓ : Loc nD τ sig) → Buf (Elt F) ℓ) (c : Dev nD)
    (fd : Buf (Elt F) ((rbSlot 2).view.loc ((peer c 3) : Thread nD τ))) (fs' : Buf (Elt F) ((c : Thread nD τ).loc cc0_scratch1))
    (h : (sbSlot 2).view.read (Elt F) fs' = (sbSlot 2).view.read (Elt F) (sbAfter m c 2)) :
    (pts (rbSlot 2) (peer c 3) ((rbSlot 2).view.write (Elt F) fd ((sbSlot 2).view.read (Elt F) fs') Finset.univ)
        : sProp (MT nD τ sig Unit (Elt F) ℕ UU ℕ)) = recvPay m (peer c 3) 2 := by
  rw [h]
  have e : origin (peer c 3) 2 = c := by
    show peer (peer c 3) 1 = c
    rw [peer_peer]; exact peer_four c
  have e2 : landed m (peer c 3) 2
      = (rbSlot 2).view.write (Elt F) (junkB (F := F) _) ((sbSlot 2).view.read (Elt F) (sbAfter m c 2)) Finset.univ := by
    show (rbSlot 2).view.write (Elt F) (junkB (F := F) _) ((sbSlot 2).view.read (Elt F) (sbAfter m (origin (peer c 3) 2) 2)) Finset.univ = _
    rw [e]
  show pts (rbSlot 2) (peer c 3) _ = pts (rbSlot 2) (peer c 3) (landed m (peer c 3) 2)
  rw [e2]
  exact pts_write_base (rbSlot 2) (peer c 3) _ _ _

/-- info: 'Cert.KernelIdeal.A2A.readAs_same' depends on axioms: [propext, Quot.sound] -/
#guard_msgs in #print axioms readAs_same
/-- info: 'Cert.KernelIdeal.A2A.writes_whole' depends on axioms: [propext, Classical.choice, Quot.sound] -/
#guard_msgs in #print axioms writes_whole
/-- info: 'Cert.KernelIdeal.A2A.pts_congr_of_read' depends on axioms: [propext, Classical.choice, Quot.sound] -/
#guard_msgs in #print axioms pts_congr_of_read
/-- info: 'Cert.KernelIdeal.A2A.sent_read0' depends on axioms: [propext, Classical.choice, Quot.sound] -/
#guard_msgs in #print axioms sent_read0
/-- info: 'Cert.KernelIdeal.A2A.sent_read1' depends on axioms: [propext, Classical.choice, Quot.sound] -/
#guard_msgs in #print axioms sent_read1
/-- info: 'Cert.KernelIdeal.A2A.sent_read2' depends on axioms: [propext, Classical.choice, Quot.sound] -/
#guard_msgs in #print axioms sent_read2
/-- info: 'Cert.KernelIdeal.A2A.widened_read0' depends on axioms: [propext, Classical.choice, Quot.sound] -/
#guard_msgs in #print axioms widened_read0
/-- info: 'Cert.KernelIdeal.A2A.widened_read1' depends on axioms: [propext, Classical.choice, Quot.sound] -/
#guard_msgs in #print axioms widened_read1
/-- info: 'Cert.KernelIdeal.A2A.widened_read2' depends on axioms: [propext, Classical.choice, Quot.sound] -/
#guard_msgs in #print axioms widened_read2
/-- info: 'Cert.KernelIdeal.A2A.landed_pay0' depends on axioms: [propext, Classical.choice, Quot.sound] -/
#guard_msgs in #print axioms landed_pay0
/-- info: 'Cert.KernelIdeal.A2A.landed_pay1' depends on axioms: [propext, Classical.choice, Quot.sound] -/
#guard_msgs in #print axioms landed_pay1
/-- info: 'Cert.KernelIdeal.A2A.landed_pay2' depends on axioms: [propext, Classical.choice, Quot.sound] -/
#guard_msgs in #print axioms landed_pay2

end Cert.KernelIdeal.A2A

end
-- ==== Proof.Pieces.lean ====
/-
  The geometry of the five buffers' pieces.

  One device's body works on parts of its buffers: the argument array (2048 × 2048) by four column blocks of 512
  columns — the three that are sent away, at columns `512 · ((z + w) mod 4)` for `w = 1, 2, 3`, and the device's own
  at `512 · z`, where `z` is the device's z coordinate —; the result (8192 × 512) by four row blocks of 2048 rows —
  the device's own at `2048 · z` and the three received ones at `2048 · ((z + 3) mod 4)`, `2048 · ((z + 2) mod 4)`,
  `2048 · ((z + 1) mod 4)` —; each three-slot buffer (3 × 2048 × 512) by its three slots, slot `j` being the elements
  whose first coordinate is `j`. For `z < 4` the four residues `(z + w) mod 4`, `w = 0, 1, 2, 3`, are the four numbers
  below 4, each once: so the four blocks of a kind are pairwise disjoint and cover their array, and the same holds
  of the three slots. Every fact here is that arithmetic on one coordinate.

  Ownership of a buffer over a union of disjoint sets is ownership over each (for one contents): that gives the
  splits. Conversely pieces held at contents of their own are the whole buffer at the contents that agree with each
  piece's on that piece: that gives the joins.
-/
import proofs.«900644_g7700000000000645_dist_a2a_v7x_xyz2x2x4_z_m2048_n512_f32_1_alg».proof.Proof.Sched

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A points-to over three pairwise disjoint sets is the three points-to, for the same contents. -/
theorem pointsTo_split3 {ℓ : Loc nD τ sig} {S A B C : Finset (Idx ℓ)}
    (hS : S = A ∪ (B ∪ C)) (hAB : Disjoint A B) (hAC : Disjoint A C) (hBC : Disjoint B C) (f : Buf (Elt F) ℓ) :
    (ℓ ↦[S]{fullShare} f : sProp 𝕄) ⊣⊢ iprop((ℓ ↦[A]{fullShare} f) ∗ (ℓ ↦[B]{fullShare} f) ∗ (ℓ ↦[C]{fullShare} f)) := by
  subst hS
  exact (BI.Region.is_union (Finset.disjoint_union_right.mpr ⟨hAB, hAC⟩)).trans
    (sep_congr_right (BI.Region.is_union hBC))

/-- The same over four sets. -/
theorem pointsTo_split4 {ℓ : Loc nD τ sig} {S A B C D : Finset (Idx ℓ)}
    (hS : S = A ∪ (B ∪ (C ∪ D))) (hAB : Disjoint A B) (hAC : Disjoint A C) (hAD : Disjoint A D)
    (hBC : Disjoint B C) (hBD : Disjoint B D) (hCD : Disjoint C D) (f : Buf (Elt F) ℓ) :
    (ℓ ↦[S]{fullShare} f : sProp 𝕄)
      ⊣⊢ iprop((ℓ ↦[A]{fullShare} f) ∗ (ℓ ↦[B]{fullShare} f) ∗ (ℓ ↦[C]{fullShare} f) ∗ (ℓ ↦[D]{fullShare} f)) := by
  subst hS
  exact (BI.Region.is_union (Finset.disjoint_union_right.mpr ⟨hAB, Finset.disjoint_union_right.mpr ⟨hAC, hAD⟩⟩)).trans
    (sep_congr_right (pointsTo_split3 rfl hBC hBD hCD f))

/-! ## The argument array: four column blocks -/

theorem xM_set : (xM).view.set = Finset.univ := View.set_whole main_arg0

theorem colM0_set (c : Dev nD) : (colM c 0).view.set
    = (Rect.unit (s := S2048x2048) (k0_off1 c 1#32) S2048x512.size (Facts₀.k0_off1_inb c 0)).set :=
  View.set_slice_whole main_arg0 _

/-- Column block `(z + 1) mod 4`. -/
theorem mem_col0 (c : Dev nD) (i : S2048x2048.Idx) :
    i ∈ (colM c 0).view.set ↔ 512 * ((c.val % 4 + 1) % 4) ≤ (i 1).val ∧ (i 1).val < 512 * ((c.val % 4 + 1) % 4) + 512 := by
  rw [colM0_set, Rect.mem_set_unit, off1_1 c]
  have h0 := (i 0).isLt
  simp only [Fin.forall_fin_two, Matrix.cons_val_zero, Matrix.cons_val_one, Matrix.head_cons] at h0 ⊢
  omega

theorem colM1_set (c : Dev nD) : (colM c 1).view.set
    = (Rect.unit (s := S2048x2048) (k0_off1 c 2#32) S2048x512.size (Facts₀.k0_off1_inb c 1)).set :=
  View.set_slice_whole main_arg0 _
theorem colM2_set (c : Dev nD) : (colM c 2).view.set
    = (Rect.unit (s := S2048x2048) (k0_off1 c 3#32) S2048x512.size (Facts₀.k0_off1_inb c 2)).set :=
  View.set_slice_whole main_arg0 _
theorem ownSrcM_set (c : Dev nD) : (ownSrcM c).view.set
    = (Rect.unit (s := S2048x2048) (k0_off3 c) S2048x512.size (Facts₀.k0_off3_inb c)).set :=
  View.set_slice_whole main_arg0 _

/-- Column block `(z + 2) mod 4`. -/
theorem mem_col1 (c : Dev nD) (i : S2048x2048.Idx) :
    i ∈ (colM c 1).view.set ↔ 512 * ((c.val % 4 + 2) % 4) ≤ (i 1).val ∧ (i 1).val < 512 * ((c.val % 4 + 2) % 4) + 512 := by
  rw [colM1_set, Rect.mem_set_unit, off1_2 c]
  have h0 := (i 0).isLt
  simp only [Fin.forall_fin_two, Matrix.cons_val_zero, Matrix.cons_val_one, Matrix.head_cons] at h0 ⊢
  omega

/-- Column block `(z + 3) mod 4`. -/
theorem mem_col2 (c : Dev nD) (i : S2048x2048.Idx) :
    i ∈ (colM c 2).view.set ↔ 512 * ((c.val % 4 + 3) % 4) ≤ (i 1).val ∧ (i 1).val < 512 * ((c.val % 4 + 3) % 4) + 512 := by
  rw [colM2_set, Rect.mem_set_unit, off1_3 c]
  have h0 := (i 0).isLt
  simp only [Fin.forall_fin_two, Matrix.cons_val_zero, Matrix.cons_val_one, Matrix.head_cons] at h0 ⊢
  omega

/-- Column block `z`. -/
theorem mem_ownSrc (c : Dev nD) (i : S2048x2048.Idx) :
    i ∈ (ownSrcM c).view.set ↔ 512 * (c.val % 4) ≤ (i 1).val ∧ (i 1).val < 512 * (c.val % 4) + 512 := by
  rw [ownSrcM_set, Rect.mem_set_unit, k0_off3_eq c]
  have h0 := (i 0).isLt
  simp only [Fin.forall_fin_two, Matrix.cons_val_zero, Matrix.cons_val_one, Matrix.head_cons] at h0 ⊢
  omega

theorem col01_disj (c : Dev nD) : Disjoint (colM c 0).view.set (colM c 1).view.set :=
  Finset.disjoint_left.mpr fun i h0 h1 => by
    have a := (mem_col0 c i).mp h0; have b := (mem_col1 c i).mp h1; omega
theorem col02_disj (c : Dev nD) : Disjoint (colM c 0).view.set (colM c 2).view.set :=
  Finset.disjoint_left.mpr fun i h0 h1 => by
    have a := (mem_col0 c i).mp h0; have b := (mem_col2 c i).mp h1; omega
theorem col12_disj (c : Dev nD) : Disjoint (colM c 1).view.set (colM c 2).view.set :=
  Finset.disjoint_left.mpr fun i h0 h1 => by
    have a := (mem_col1 c i).mp h0; have b := (mem_col2 c i).mp h1; omega
theorem col0_own_disj (c : Dev nD) : Disjoint (colM c 0).view.set (ownSrcM c).view.set :=
  Finset.disjoint_left.mpr fun i h0 h1 => by
    have a := (mem_col0 c i).mp h0; have b := (mem_ownSrc c i).mp h1; omega
theorem col1_own_disj (c : Dev nD) : Disjoint (colM c 1).view.set (ownSrcM c).view.set :=
  Finset.disjoint_left.mpr fun i h0 h1 => by
    have a := (mem_col1 c i).mp h0; have b := (mem_ownSrc c i).mp h1; omega
theorem col2_own_disj (c : Dev nD) : Disjoint (colM c 2).view.set (ownSrcM c).view.set :=
  Finset.disjoint_left.mpr fun i h0 h1 => by
    have a := (mem_col2 c i).mp h0; have b := (mem_ownSrc c i).mp h1; omega

/-- The four column blocks cover the array: a column lies in exactly one of the four blocks of 512. -/
theorem x_cover (c : Dev nD) : (xM).view.set
    = (colM c 0).view.set ∪ ((colM c 1).view.set ∪ ((colM c 2).view.set ∪ (ownSrcM c).view.set)) := by
  rw [xM_set]
  ext i
  simp only [Finset.mem_univ, Finset.mem_union, true_iff]
  have h1 : (i 1).val < 2048 := (i 1).isLt
  rw [mem_col0 c i, mem_col1 c i, mem_col2 c i, mem_ownSrc c i]
  omega

theorem x_split (c : Dev nD) (f : Buf (Elt F) ((c : Thread nD τ).loc main_arg0)) :
    (pts xM c f : sProp 𝕄)
      ⊣⊢ iprop(pts (colM c 0) c f ∗ pts (colM c 1) c f ∗ pts (colM c 2) c f ∗ pts (ownSrcM c) c f) :=
  pointsTo_split4 (x_cover c) (col01_disj c) (col02_disj c) (col0_own_disj c) (col12_disj c) (col1_own_disj c) (col2_own_disj c) f

/-! ## The result array: four row blocks -/

theorem oM_set : (oM).view.set = Finset.univ := View.set_whole main_v1

theorem ownDstM_set (c : Dev nD) : (ownDstM c).view.set
    = (Rect.unit (s := S8192x512) (k0_off2 c) S2048x512.size (Facts₀.k0_off2_inb c)).set :=
  View.set_slice_whole main_v1 _
theorem rowM0_set (c : Dev nD) : (rowM c 0).view.set
    = (Rect.unit (s := S8192x512) (k0_off4 c 1#32) S2048x512.size (Facts₀.k0_off4_inb c 0)).set :=
  View.set_slice_whole main_v1 _
theorem rowM1_set (c : Dev nD) : (rowM c 1).view.set
    = (Rect.unit (s := S8192x512) (k0_off4 c 2#32) S2048x512.size (Facts₀.k0_off4_inb c 1)).set :=
  View.set_slice_whole main_v1 _
theorem rowM2_set (c : Dev nD) : (rowM c 2).view.set
    = (Rect.unit (s := S8192x512) (k0_off4 c 3#32) S2048x512.size (Facts₀.k0_off4_inb c 2)).set :=
  View.set_slice_whole main_v1 _

/-- Row block `z`. -/
theorem mem_ownDst (c : Dev nD) (i : S8192x512.Idx) :
    i ∈ (ownDstM c).view.set ↔ 2048 * (c.val % 4) ≤ (i 0).val ∧ (i 0).val < 2048 * (c.val % 4) + 2048 := by
  rw [ownDstM_set, Rect.mem_set_unit, k0_off2_eq c]
  have h1 : (i 1).val < 512 := (i 1).isLt
  simp only [Fin.forall_fin_two, Matrix.cons_val_zero, Matrix.cons_val_one, Matrix.head_cons]
  omega

/-- Row block `(z + 3) mod 4`: the device one step back. -/
theorem mem_row0 (c : Dev nD) (i : S8192x512.Idx) :
    i ∈ (rowM c 0).view.set ↔ 2048 * ((c.val % 4 + 3) % 4) ≤ (i 0).val ∧ (i 0).val < 2048 * ((c.val % 4 + 3) % 4) + 2048 := by
  rw [rowM0_set, Rect.mem_set_unit, off4_1 c]
  have h1 : (i 1).val < 512 := (i 1).isLt
  simp only [Fin.forall_fin_two, Matrix.cons_val_zero, Matrix.cons_val_one, Matrix.head_cons]
  omega

/-- Row block `(z + 2) mod 4`: the device two steps back. -/
theorem mem_row1 (c : Dev nD) (i : S8192x512.Idx) :
    i ∈ (rowM c 1).view.set ↔ 2048 * ((c.val % 4 + 2) % 4) ≤ (i 0).val ∧ (i 0).val < 2048 * ((c.val % 4 + 2) % 4) + 2048 := by
  rw [rowM1_set, Rect.mem_set_unit, off4_2 c]
  have h1 : (i 1).val < 512 := (i 1).isLt
  simp only [Fin.forall_fin_two, Matrix.cons_val_zero, Matrix.cons_val_one, Matrix.head_cons]
  omega

/-- Row block `(z + 1) mod 4`: the device three steps back. -/
theorem mem_row2 (c : Dev nD) (i : S8192x512.Idx) :
    i ∈ (rowM c 2).view.set ↔ 2048 * ((c.val % 4 + 1) % 4) ≤ (i 0).val ∧ (i 0).val < 2048 * ((c.val % 4 + 1) % 4) + 2048 := by
  rw [rowM2_set, Rect.mem_set_unit, off4_3 c]
  have h1 : (i 1).val < 512 := (i 1).isLt
  simp only [Fin.forall_fin_two, Matrix.cons_val_zero, Matrix.cons_val_one, Matrix.head_cons]
  omega

theorem own_row0_disj (c : Dev nD) : Disjoint (ownDstM c).view.set (rowM c 0).view.set :=
  Finset.disjoint_left.mpr fun i h0 h1 => by
    have a := (mem_ownDst c i).mp h0; have b := (mem_row0 c i).mp h1; omega
theorem own_row1_disj (c : Dev nD) : Disjoint (ownDstM c).view.set (rowM c 1).view.set :=
  Finset.disjoint_left.mpr fun i h0 h1 => by
    have a := (mem_ownDst c i).mp h0; have b := (mem_row1 c i).mp h1; omega
theorem own_row2_disj (c : Dev nD) : Disjoint (ownDstM c).view.set (rowM c 2).view.set :=
  Finset.disjoint_left.mpr fun i h0 h1 => by
    have a := (mem_ownDst c i).mp h0; have b := (mem_row2 c i).mp h1; omega
theorem row01_disj (c : Dev nD) : Disjoint (rowM c 0).view.set (rowM c 1).view.set :=
  Finset.disjoint_left.mpr fun i h0 h1 => by
    have a := (mem_row0 c i).mp h0; have b := (mem_row1 c i).mp h1; omega
theorem row02_disj (c : Dev nD) : Disjoint (rowM c 0).view.set (rowM c 2).view.set :=
  Finset.disjoint_left.mpr fun i h0 h1 => by
    have a := (mem_row0 c i).mp h0; have b := (mem_row2 c i).mp h1; omega
theorem row12_disj (c : Dev nD) : Disjoint (rowM c 1).view.set (rowM c 2).view.set :=
  Finset.disjoint_left.mpr fun i h0 h1 => by
    have a := (mem_row1 c i).mp h0; have b := (mem_row2 c i).mp h1; omega

/-- The four row blocks cover the result: a row lies in exactly one of the four blocks of 2048. -/
theorem o_cover (c : Dev nD) : (oM).view.set
    = (ownDstM c).view.set ∪ ((rowM c 0).view.set ∪ ((rowM c 1).view.set ∪ (rowM c 2).view.set)) := by
  rw [oM_set]
  ext i
  simp only [Finset.mem_univ, Finset.mem_union, true_iff]
  have h0 : (i 0).val < 8192 := (i 0).isLt
  rw [mem_ownDst c i, mem_row0 c i, mem_row1 c i, mem_row2 c i]
  omega

theorem o_split (c : Dev nD) (f : Buf (Elt F) ((c : Thread nD τ).loc main_v1)) :
    (pts oM c f : sProp 𝕄)
      ⊣⊢ iprop(pts (ownDstM c) c f ∗ pts (rowM c 0) c f ∗ pts (rowM c 1) c f ∗ pts (rowM c 2) c f) :=
  pointsTo_split4 (o_cover c) (own_row0_disj c) (own_row1_disj c) (own_row2_disj c) (row01_disj c) (row02_disj c) (row12_disj c) f

/-! ## The three-slot buffers: slot `j` is the part with first coordinate `j` -/

/-- In a 3 × 2048 × 512 array the unit-stride block of sizes 1 × 2048 × 512 at `(j, 0, 0)` is the first coordinate `j`. -/
theorem mem_slotRect (j : ℕ) (inb : ∀ a, (![j, 0, 0] : Fin 3 → ℕ) a + S1x2048x512.size a ≤ S3x2048x512.size a)
    (i : S3x2048x512.Idx) :
    i ∈ (Rect.unit (s := S3x2048x512) ![j, 0, 0] S1x2048x512.size inb).set ↔ (i 0).val = j := by
  rw [Rect.mem_set_unit]
  have hb : ∀ a, (i a).val < S3x2048x512.size a := fun a => (i a).isLt
  simp only [Fin.forall_fin_succ, Fin.forall_fin_zero, Matrix.cons_val_zero, Matrix.cons_val_succ, and_true] at hb ⊢
  omega

/-! ### The staging buffer -/

theorem mem_xsSlot0 (i : S3x2048x512.Idx) : i ∈ (xsSlot 0).view.set ↔ (i 0).val = 0 := by
  rw [show (xsSlot 0).view.set = _ from (View.set_reshape _ _).trans (View.set_slice_whole cc0_scratch0 _)]
  exact mem_slotRect 0 _ i
theorem mem_xsSlot1 (i : S3x2048x512.Idx) : i ∈ (xsSlot 1).view.set ↔ (i 0).val = 1 := by
  rw [show (xsSlot 1).view.set = _ from (View.set_reshape _ _).trans (View.set_slice_whole cc0_scratch0 _)]
  exact mem_slotRect 1 _ i
theorem mem_xsSlot2 (i : S3x2048x512.Idx) : i ∈ (xsSlot 2).view.set ↔ (i 0).val = 2 := by
  rw [show (xsSlot 2).view.set = _ from (View.set_reshape _ _).trans (View.set_slice_whole cc0_scratch0 _)]
  exact mem_slotRect 2 _ i

theorem xsSlot01_disj : Disjoint (xsSlot 0).view.set (xsSlot 1).view.set :=
  Finset.disjoint_left.mpr fun i h0 h1 => by
    have a := (mem_xsSlot0 i).mp h0; have b := (mem_xsSlot1 i).mp h1; omega
theorem xsSlot02_disj : Disjoint (xsSlot 0).view.set (xsSlot 2).view.set :=
  Finset.disjoint_left.mpr fun i h0 h1 => by
    have a := (mem_xsSlot0 i).mp h0; have b := (mem_xsSlot2 i).mp h1; omega
theorem xsSlot12_disj : Disjoint (xsSlot 1).view.set (xsSlot 2).view.set :=
  Finset.disjoint_left.mpr fun i h0 h1 => by
    have a := (mem_xsSlot1 i).mp h0; have b := (mem_xsSlot2 i).mp h1; omega

theorem xs_cover : (xsM).view.set = (xsSlot 0).view.set ∪ ((xsSlot 1).view.set ∪ (xsSlot 2).view.set) := by
  rw [show (xsM).view.set = Finset.univ from View.set_whole cc0_scratch0]
  ext i
  simp only [Finset.mem_univ, Finset.mem_union, true_iff]
  have h0 : (i 0).val < 3 := (i 0).isLt
  rw [mem_xsSlot0 i, mem_xsSlot1 i, mem_xsSlot2 i]
  omega

theorem xs_split (c : Dev nD) (f : Buf (Elt F) ((c : Thread nD τ).loc cc0_scratch0)) :
    (pts xsM c f : sProp 𝕄) ⊣⊢ iprop(pts (xsSlot 0) c f ∗ pts (xsSlot 1) c f ∗ pts (xsSlot 2) c f) :=
  pointsTo_split3 xs_cover xsSlot01_disj xsSlot02_disj xsSlot12_disj f

/-! ### The send buffer -/

theorem mem_sbSlot0 (i : S3x2048x512.Idx) : i ∈ (sbSlot 0).view.set ↔ (i 0).val = 0 := by
  rw [show (sbSlot 0).view.set = _ from (View.set_reshape _ _).trans (View.set_slice_whole cc0_scratch1 _)]
  exact mem_slotRect 0 _ i
theorem mem_sbSlot1 (i : S3x2048x512.Idx) : i ∈ (sbSlot 1).view.set ↔ (i 0).val = 1 := by
  rw [show (sbSlot 1).view.set = _ from (View.set_reshape _ _).trans (View.set_slice_whole cc0_scratch1 _)]
  exact mem_slotRect 1 _ i
theorem mem_sbSlot2 (i : S3x2048x512.Idx) : i ∈ (sbSlot 2).view.set ↔ (i 0).val = 2 := by
  rw [show (sbSlot 2).view.set = _ from (View.set_reshape _ _).trans (View.set_slice_whole cc0_scratch1 _)]
  exact mem_slotRect 2 _ i

theorem sbSlot01_disj : Disjoint (sbSlot 0).view.set (sbSlot 1).view.set :=
  Finset.disjoint_left.mpr fun i h0 h1 => by
    have a := (mem_sbSlot0 i).mp h0; have b := (mem_sbSlot1 i).mp h1; omega
theorem sbSlot02_disj : Disjoint (sbSlot 0).view.set (sbSlot 2).view.set :=
  Finset.disjoint_left.mpr fun i h0 h1 => by
    have a := (mem_sbSlot0 i).mp h0; have b := (mem_sbSlot2 i).mp h1; omega
theorem sbSlot12_disj : Disjoint (sbSlot 1).view.set (sbSlot 2).view.set :=
  Finset.disjoint_left.mpr fun i h0 h1 => by
    have a := (mem_sbSlot1 i).mp h0; have b := (mem_sbSlot2 i).mp h1; omega

theorem sb_cover : (sbM).view.set = (sbSlot 0).view.set ∪ ((sbSlot 1).view.set ∪ (sbSlot 2).view.set) := by
  rw [show (sbM).view.set = Finset.univ from View.set_whole cc0_scratch1]
  ext i
  simp only [Finset.mem_univ, Finset.mem_union, true_iff]
  have h0 : (i 0).val < 3 := (i 0).isLt
  rw [mem_sbSlot0 i, mem_sbSlot1 i, mem_sbSlot2 i]
  omega

theorem sb_split (c : Dev nD) (f : Buf (Elt F) ((c : Thread nD τ).loc cc0_scratch1)) :
    (pts sbM c f : sProp 𝕄) ⊣⊢ iprop(pts (sbSlot 0) c f ∗ pts (sbSlot 1) c f ∗ pts (sbSlot 2) c f) :=
  pointsTo_split3 sb_cover sbSlot01_disj sbSlot02_disj sbSlot12_disj f

/-! ### The receive buffer -/

theorem mem_rbSlot0 (i : S3x2048x512.Idx) : i ∈ (rbSlot 0).view.set ↔ (i 0).val = 0 := by
  rw [show (rbSlot 0).view.set = _ from (View.set_reshape _ _).trans (View.set_slice_whole cc0_scratch2 _)]
  exact mem_slotRect 0 _ i
theorem mem_rbSlot1 (i : S3x2048x512.Idx) : i ∈ (rbSlot 1).view.set ↔ (i 0).val = 1 := by
  rw [show (rbSlot 1).view.set = _ from (View.set_reshape _ _).trans (View.set_slice_whole cc0_scratch2 _)]
  exact mem_slotRect 1 _ i
theorem mem_rbSlot2 (i : S3x2048x512.Idx) : i ∈ (rbSlot 2).view.set ↔ (i 0).val = 2 := by
  rw [show (rbSlot 2).view.set = _ from (View.set_reshape _ _).trans (View.set_slice_whole cc0_scratch2 _)]
  exact mem_slotRect 2 _ i

theorem rbSlot01_disj : Disjoint (rbSlot 0).view.set (rbSlot 1).view.set :=
  Finset.disjoint_left.mpr fun i h0 h1 => by
    have a := (mem_rbSlot0 i).mp h0; have b := (mem_rbSlot1 i).mp h1; omega
theorem rbSlot02_disj : Disjoint (rbSlot 0).view.set (rbSlot 2).view.set :=
  Finset.disjoint_left.mpr fun i h0 h1 => by
    have a := (mem_rbSlot0 i).mp h0; have b := (mem_rbSlot2 i).mp h1; omega
theorem rbSlot12_disj : Disjoint (rbSlot 1).view.set (rbSlot 2).view.set :=
  Finset.disjoint_left.mpr fun i h0 h1 => by
    have a := (mem_rbSlot1 i).mp h0; have b := (mem_rbSlot2 i).mp h1; omega

theorem rb_cover : (rbM).view.set = (rbSlot 0).view.set ∪ ((rbSlot 1).view.set ∪ (rbSlot 2).view.set) := by
  rw [show (rbM).view.set = Finset.univ from View.set_whole cc0_scratch2]
  ext i
  simp only [Finset.mem_univ, Finset.mem_union, true_iff]
  have h0 : (i 0).val < 3 := (i 0).isLt
  rw [mem_rbSlot0 i, mem_rbSlot1 i, mem_rbSlot2 i]
  omega

theorem rb_split (c : Dev nD) (f : Buf (Elt F) ((c : Thread nD τ).loc cc0_scratch2)) :
    (pts rbM c f : sProp 𝕄) ⊣⊢ iprop(pts (rbSlot 0) c f ∗ pts (rbSlot 1) c f ∗ pts (rbSlot 2) c f) :=
  pointsTo_split3 rb_cover rbSlot01_disj rbSlot02_disj rbSlot12_disj f

/-! ## Joining pieces back -/

/-- Three pieces of a buffer over pairwise disjoint sets, each at contents of its own, are the buffer over their union
    at the contents that agree with each piece's on that piece. -/
theorem pointsTo_join3 {ℓ : Loc nD τ sig} {S A B C : Finset (Idx ℓ)} (hS : S = A ∪ (B ∪ C))
    (hAB : Disjoint A B) (hAC : Disjoint A C) (hBC : Disjoint B C) (f0 f1 f2 : Buf (Elt F) ℓ) :
    iprop((ℓ ↦[A]{fullShare} f0) ∗ (ℓ ↦[B]{fullShare} f1) ∗ (ℓ ↦[C]{fullShare} f2))
      ⊢ (iprop(∃ f, ℓ ↦[S]{fullShare} f) : sProp 𝕄) := by
  classical
  let G : Buf (Elt F) ℓ := fun i => if i ∈ A then f0 i else if i ∈ B then f1 i else f2 i
  have e0 : ∀ i ∈ A, f0 i = G i := fun i hi => by simp only [G, if_pos hi]
  have e1 : ∀ i ∈ B, f1 i = G i := fun i hi => by
    have ha : i ∉ A := fun ha => Finset.disjoint_left.mp hAB ha hi
    simp only [G, if_neg ha, if_pos hi]
  have e2 : ∀ i ∈ C, f2 i = G i := fun i hi => by
    have ha : i ∉ A := fun ha => Finset.disjoint_left.mp hAC ha hi
    have hb : i ∉ B := fun hb => Finset.disjoint_left.mp hBC hb hi
    simp only [G, if_neg ha, if_neg hb]
  refine (BIClass.sep_mono (BiEntails.of_eq (BI.Region.is_congr e0)).mp
    (BIClass.sep_mono (BiEntails.of_eq (BI.Region.is_congr e1)).mp (BiEntails.of_eq (BI.Region.is_congr e2)).mp)).trans ?_
  exact ((pointsTo_split3 hS hAB hAC hBC G).mpr).trans
    (exists_intro (Φ := fun f => (ℓ ↦[S]{fullShare} f : sProp 𝕄)) G)

theorem xs_join (c : Dev nD) (f0 f1 f2 : Buf (Elt F) ((c : Thread nD τ).loc cc0_scratch0)) :
    iprop(pts (xsSlot 0) c f0 ∗ pts (xsSlot 1) c f1 ∗ pts (xsSlot 2) c f2) ⊢ (iprop(∃ f, pts xsM c f) : sProp 𝕄) :=
  pointsTo_join3 xs_cover xsSlot01_disj xsSlot02_disj xsSlot12_disj f0 f1 f2
theorem sb_join (c : Dev nD) (f0 f1 f2 : Buf (Elt F) ((c : Thread nD τ).loc cc0_scratch1)) :
    iprop(pts (sbSlot 0) c f0 ∗ pts (sbSlot 1) c f1 ∗ pts (sbSlot 2) c f2) ⊢ (iprop(∃ f, pts sbM c f) : sProp 𝕄) :=
  pointsTo_join3 sb_cover sbSlot01_disj sbSlot02_disj sbSlot12_disj f0 f1 f2
theorem rb_join (c : Dev nD) (f0 f1 f2 : Buf (Elt F) ((c : Thread nD τ).loc cc0_scratch2)) :
    iprop(pts (rbSlot 0) c f0 ∗ pts (rbSlot 1) c f1 ∗ pts (rbSlot 2) c f2) ⊢ (iprop(∃ f, pts rbM c f) : sProp 𝕄) :=
  pointsTo_join3 rb_cover rbSlot01_disj rbSlot02_disj rbSlot12_disj f0 f1 f2

/-- The four row blocks of the result, each at contents that agree with `G` on that block, are the result at `G`. -/
theorem o_join (c : Dev nD) (fA f0 f1 f2 G : Buf (Elt F) ((c : Thread nD τ).loc main_v1))
    (hA : ∀ i ∈ (ownDstM c).view.set, fA i = G i) (h0 : ∀ i ∈ (rowM c 0).view.set, f0 i = G i)
    (h1 : ∀ i ∈ (rowM c 1).view.set, f1 i = G i) (h2 : ∀ i ∈ (rowM c 2).view.set, f2 i = G i) :
    iprop(pts (ownDstM c) c fA ∗ pts (rowM c 0) c f0 ∗ pts (rowM c 1) c f1 ∗ pts (rowM c 2) c f2)
      ⊢ (pts oM c G : sProp 𝕄) :=
  (BIClass.sep_mono (BiEntails.of_eq (BI.Region.is_congr hA)).mp (BIClass.sep_mono (BiEntails.of_eq (BI.Region.is_congr h0)).mp
    (BIClass.sep_mono (BiEntails.of_eq (BI.Region.is_congr h1)).mp (BiEntails.of_eq (BI.Region.is_congr h2)).mp))).trans
    (o_split c G).mpr

/-- info: 'Cert.KernelIdeal.A2A.x_split' depends on axioms: [propext, Classical.choice, Quot.sound] -/
#guard_msgs in
#print axioms x_split

/-- info: 'Cert.KernelIdeal.A2A.o_split' depends on axioms: [propext, Classical.choice, Quot.sound] -/
#guard_msgs in
#print axioms o_split

/-- info: 'Cert.KernelIdeal.A2A.xs_split' depends on axioms: [propext, Classical.choice, Quot.sound] -/
#guard_msgs in
#print axioms xs_split

/-- info: 'Cert.KernelIdeal.A2A.sb_split' depends on axioms: [propext, Classical.choice, Quot.sound] -/
#guard_msgs in
#print axioms sb_split

/-- info: 'Cert.KernelIdeal.A2A.rb_split' depends on axioms: [propext, Classical.choice, Quot.sound] -/
#guard_msgs in
#print axioms rb_split

/-- info: 'Cert.KernelIdeal.A2A.o_join' depends on axioms: [propext, Classical.choice, Quot.sound] -/
#guard_msgs in
#print axioms o_join

/-- info: 'Cert.KernelIdeal.A2A.xs_join' depends on axioms: [propext, Classical.choice, Quot.sound] -/
#guard_msgs in
#print axioms xs_join

/-- info: 'Cert.KernelIdeal.A2A.sb_join' depends on axioms: [propext, Classical.choice, Quot.sound] -/
#guard_msgs in
#print axioms sb_join

/-- info: 'Cert.KernelIdeal.A2A.rb_join' depends on axioms: [propext, Classical.choice, Quot.sound] -/
#guard_msgs in
#print axioms rb_join

end Cert.KernelIdeal.A2A

end
-- ==== Proof.Body.lean ====
/-
  One device's body of the all-to-all, stepped once at a symbolic device from its pieces of the five buffers: the entry
  handshake (each signal hands a receive slot to the peer that will write it), the four local copies out of `x`, the
  three narrow-and-send trips, the three landings widened and copied into the result, the waits that bring every
  buffer back, the exit handshake. Each cross-device step is the rounds rule for it at this schedule: a signal pays one
  duty of a peer's barrier cell, a transfer pays its send and its receive duty at once, a wait takes a cell's whole round
  and comes back with its payloads; the local copies, loads and stores only move the pieces' contents.
-/
import proofs.«900644_g7700000000000645_dist_a2a_v7x_xyz2x2x4_z_m2048_n512_f32_1_alg».proof.Proof.Tables
import proofs.«900644_g7700000000000645_dist_a2a_v7x_xyz2x2x4_z_m2048_n512_f32_1_alg».proof.Proof.Bridge
import proofs.«900644_g7700000000000645_dist_a2a_v7x_xyz2x2x4_z_m2048_n512_f32_1_alg».proof.Proof.Pieces
import proofs.«900644_g7700000000000645_dist_a2a_v7x_xyz2x2x4_z_m2048_n512_f32_1_alg».proof.Proof.OutCongr

noncomputable section

namespace Cert.KernelIdeal.A2A

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

omit [FloatOps F] in
theorem L_tc (c : Dev nD) (sm : SemLoc sig) : L ((c : Thread nD τ), sm) = {()} := if_pos rfl
omit [FloatOps F] in
theorem L_of_ne (g : GSem nD τ sig) (h : g.1.2 ≠ .tc) : L g = ∅ := if_neg h

omit [FloatOps F] in
/-- A device may wait on its own cell `sm` while it owes `O`, if all that is owed goes to TensorCore cells strictly above `sm`. -/
theorem mayWait_lt (c : Dev nD) (sm : SemLoc sig) (O : CellTallies nD τ sig Unit)
    (hO : ∀ (g : GSem nD τ sig) (u : Unit), 0 < O g u → g.1.2 = .tc ∧ lv ((c : Thread nD τ), sm) () < lv g u) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp])
    (fun g u hg => (hO g u hg).2)

omit [FloatOps F] in
/-- After the entry signals everything still owed goes to receive cells and exit barriers: level 2 or 3. -/
theorem O₄_pos {c : Dev nD} {g : GSem nD τ sig} {u : Unit} (h : 0 < O₄ c g u) : g.1.2 = .tc ∧ 1 < lv g u := by
  unfold O₄ O₅ O₆ O₇ O₈ at h
  simp only [Pi.add_apply, Finsupp.add_apply, tallyAt_apply] at h
  by_contra hn
  have hne : ∀ g' : GSem nD τ sig, (g'.1.2 = .tc ∧ 1 < lv g' ()) → ¬ (g = g' ∧ True) := fun g' hg' hh => hn (by cases u; rw [hh.1]; exact hg')
  have l3 : ∀ d : Dev nD, 1 < lv (endCell d) () := fun d => by show (1 : ℕ) < 3; decide
  have l2 : ∀ (d : Dev nD) (j : Fin 3), 1 < lv (recvCell d j) () := fun d j => by fin_cases j <;> (show (1 : ℕ) < 2; decide)
  rw [if_neg (hne _ ⟨rfl, l3 _⟩), if_neg (hne _ ⟨rfl, l3 _⟩), if_neg (hne _ ⟨rfl, l3 _⟩),
    if_neg (hne _ ⟨rfl, l2 _ _⟩), if_neg (hne _ ⟨rfl, l2 _ _⟩), if_neg (hne _ ⟨rfl, l2 _ _⟩)] at h
  exact Nat.lt_irrefl 0 h

omit [FloatOps F] in
theorem O₅_pos {c : Dev nD} {g : GSem nD τ sig} {u : Unit} (h : 0 < O₅ c g u) : g.1.2 = .tc ∧ 1 < lv g u := by
  unfold O₅ O₆ O₇ O₈ at h
  simp only [Pi.add_apply, Finsupp.add_apply, tallyAt_apply] at h
  by_contra hn
  have hne : ∀ g' : GSem nD τ sig, (g'.1.2 = .tc ∧ 1 < lv g' ()) → ¬ (g = g' ∧ True) := fun g' hg' hh => hn (by cases u; rw [hh.1]; exact hg')
  have l3 : ∀ d : Dev nD, 1 < lv (endCell d) () := fun d => by show (1 : ℕ) < 3; decide
  have l2 : ∀ (d : Dev nD) (j : Fin 3), 1 < lv (recvCell d j) () := fun d j => by fin_cases j <;> (show (1 : ℕ) < 2; decide)
  rw [if_neg (hne _ ⟨rfl, l3 _⟩), if_neg (hne _ ⟨rfl, l3 _⟩), if_neg (hne _ ⟨rfl, l3 _⟩), if_neg (hne _ ⟨rfl, l2 _ _⟩), if_neg (hne _ ⟨rfl, l2 _ _⟩)] at h
  exact Nat.lt_irrefl 0 h

omit [FloatOps F] in
theorem O₆_pos {c : Dev nD} {g : GSem nD τ sig} {u : Unit} (h : 0 < O₆ c g u) : g.1.2 = .tc ∧ 1 < lv g u := by
  unfold O₆ O₇ O₈ at h
  simp only [Pi.add_apply, Finsupp.add_apply, tallyAt_apply] at h
  by_contra hn
  have hne : ∀ g' : GSem nD τ sig, (g'.1.2 = .tc ∧ 1 < lv g' ()) → ¬ (g = g' ∧ True) := fun g' hg' hh => hn (by cases u; rw [hh.1]; exact hg')
  have l3 : ∀ d : Dev nD, 1 < lv (endCell d) () := fun d => by show (1 : ℕ) < 3; decide
  have l2 : ∀ (d : Dev nD) (j : Fin 3), 1 < lv (recvCell d j) () := fun d j => by fin_cases j <;> (show (1 : ℕ) < 2; decide)
  rw [if_neg (hne _ ⟨rfl, l3 _⟩), if_neg (hne _ ⟨rfl, l3 _⟩), if_neg (hne _ ⟨rfl, l3 _⟩), if_neg (hne _ ⟨rfl, l2 _ _⟩)] at h
  exact Nat.lt_irrefl 0 h

omit [FloatOps F] in
theorem O₇_pos {c : Dev nD} {g : GSem nD τ sig} {u : Unit} (h : 0 < O₇ c g u) : g.1.2 = .tc ∧ 2 < lv g u := by
  unfold O₇ O₈ at h
  simp only [Pi.add_apply, Finsupp.add_apply, tallyAt_apply] at h
  by_contra hn
  have hne : ∀ g' : GSem nD τ sig, (g'.1.2 = .tc ∧ 2 < lv g' ()) → ¬ (g = g' ∧ True) := fun g' hg' hh => hn (by cases u; rw [hh.1]; exact hg')
  have l3 : ∀ d : Dev nD, 2 < lv (endCell d) () := fun d => by show (2 : ℕ) < 3; decide
  have l2 : ∀ (d : Dev nD) (j : Fin 3), 1 < lv (recvCell d j) () := fun d j => by fin_cases j <;> (show (1 : ℕ) < 2; decide)
  rw [if_neg (hne _ ⟨rfl, l3 _⟩), if_neg (hne _ ⟨rfl, l3 _⟩), if_neg (hne _ ⟨rfl, l3 _⟩)] at h
  exact Nat.lt_irrefl 0 h

omit [FloatOps F] in
theorem O₈_pos {c : Dev nD} {g : GSem nD τ sig} {u : Unit} (h : 0 < O₈ c g u) : g.1.2 = .tc ∧ 2 < lv g u := by
  unfold O₈ at h
  simp only [Pi.add_apply, Finsupp.add_apply, tallyAt_apply] at h
  by_contra hn
  have hne : ∀ g' : GSem nD τ sig, (g'.1.2 = .tc ∧ 2 < lv g' ()) → ¬ (g = g' ∧ True) := fun g' hg' hh => hn (by cases u; rw [hh.1]; exact hg')
  have l3 : ∀ d : Dev nD, 2 < lv (endCell d) () := fun d => by show (2 : ℕ) < 3; decide
  have l2 : ∀ (d : Dev nD) (j : Fin 3), 1 < lv (recvCell d j) () := fun d j => by fin_cases j <;> (show (1 : ℕ) < 2; decide)
  rw [if_neg (hne _ ⟨rfl, l3 _⟩), if_neg (hne _ ⟨rfl, l3 _⟩)] at h
  exact Nat.lt_irrefl 0 h

omit [FloatOps F] in
theorem bigSep_fin14 (Φ : Fin 14 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ
omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

omit [FloatOps F] in
/-- Every slot's transfer is worth the same credit. -/
theorem credit_rb : ∀ j : Fin 3, (rbSlot j).view.dmaCredit = N := by decide
omit [FloatOps F] in
theorem credit_sb : ∀ j : Fin 3, (sbSlot j).view.dmaCredit = N := by decide

/-- The transfer of send slot 0 into receive slot 0 of the device 1 step on, as the rounds rule for an addressed copy
    states it at this schedule: the source slot comes back with the send cell's round, the landed slot goes to the peer. -/
theorem wp_send_slot0 (K : Dev nD × Fin 8 → ℕ) (c n : Dev nD) (hn : n = peer c 1)
    {hsc : ((rbSlot 0) : Memref sig (Dev.tc n : Thread nD τ).2.kind .vmem S2048x512 .bf16).view.ref.isScScratch = false}
    {hsrc : (sbSlot 0).view.WordExact} {hdst : (rbSlot 0).view.WordExact}
    {hsem : DmaTarget.Typed .vmem (.dma (recvS 0)) (.remote (Dev.tc n : Thread nD τ) (rbSlot 0) (.dma (sendS 0)) hsc)}
    {α : Type} {Q : α → sProp 𝕄} {k : PUnit → Prog (TpuEff nD τ sig (Elt F) Λ₀ .tc) α}
    (fs' : Buf (Elt F) ((c : Thread nD τ).loc cc0_scratch1)) (fd : Buf (Elt F) ((rbSlot 0).view.loc (peer c 1 : Thread nD τ)))
    (Wt : Waits sig Unit) (O : CellTallies nD τ sig Unit)
    (h : (sbSlot 0).view.read (Elt F) fs' = (sbSlot 0).view.read (Elt F) (sbAfter m c 0)) :
    iprop(cellInv ER (Rd m) (K (c, 2)) (sendCell c 0) ∗ cellInv ER (Rd m) (K (peer c 1, 5)) (recvCell (peer c 1) 0)
        ∗ pts (sbSlot 0) c fs' ∗ pts (rbSlot 0) (peer c 1) fd
        ∗ owes (c : Thread nD τ) (O + tallyAt (recvCell (peer c 1) 0) () N) Wt
        ∗ dutyTok ER (sendCell c 0) 0 0 ∗ reached ER (sendCell c 0) 0
        ∗ dutyTok ER (recvCell (peer c 1) 0) 0 0 ∗ reached ER (recvCell (peer c 1) 0) 0)
      ⊢ iprop(((cred (tallyAt (sendCell c 0) () N) ∗ owes (c : Thread nD τ) O Wt) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sbSlot 0) (.remote (Dev.tc n : Thread nD τ) (rbSlot 0) (.dma (sendS 0)) hsc) (.dma (recvS 0)) hsrc hdst hsem) k) Q) := by
  subst hn
  exact Rounds.wp_send_pointsTo 𝒱₀ ER (Rd m) (c : Thread nD τ) none (κ₁ := K (c, 2)) (κ₂ := K (peer c 1, 5))
    (r₁ := 0) (r₂ := 0) (d₁ := 0) (d₂ := 0) (fd := fd)
    (by rw [duties_send]; exact Finset.mem_singleton_self _) (by rw [duties_recv]; exact Finset.mem_singleton_self _)
    () () N rfl (amount_send m c 0 0) (amount_recv m (peer c 1) 0 0) O rfl (W := Wt)
    (by rw [payload_send]; exact Entails.of_eq (pts_congr_of_read (sbSlot 0) c fs' (sbAfter m c 0) h))
    (by rw [payload_recv]; exact Entails.of_eq (landed_pay0 m c fd fs' h))

/-- The transfer of send slot 1 into receive slot 1 of the device 2 steps on, as the rounds rule for an addressed copy
    states it at this schedule: the source slot comes back with the send cell's round, the landed slot goes to the peer. -/
theorem wp_send_slot1 (K : Dev nD × Fin 8 → ℕ) (c n : Dev nD) (hn : n = peer c 2)
    {hsc : ((rbSlot 1) : Memref sig (Dev.tc n : Thread nD τ).2.kind .vmem S2048x512 .bf16).view.ref.isScScratch = false}
    {hsrc : (sbSlot 1).view.WordExact} {hdst : (rbSlot 1).view.WordExact}
    {hsem : DmaTarget.Typed .vmem (.dma (recvS 1)) (.remote (Dev.tc n : Thread nD τ) (rbSlot 1) (.dma (sendS 1)) hsc)}
    {α : Type} {Q : α → sProp 𝕄} {k : PUnit → Prog (TpuEff nD τ sig (Elt F) Λ₀ .tc) α}
    (fs' : Buf (Elt F) ((c : Thread nD τ).loc cc0_scratch1)) (fd : Buf (Elt F) ((rbSlot 1).view.loc (peer c 2 : Thread nD τ)))
    (Wt : Waits sig Unit) (O : CellTallies nD τ sig Unit)
    (h : (sbSlot 1).view.read (Elt F) fs' = (sbSlot 1).view.read (Elt F) (sbAfter m c 1)) :
    iprop(cellInv ER (Rd m) (K (c, 3)) (sendCell c 1) ∗ cellInv ER (Rd m) (K (peer c 2, 6)) (recvCell (peer c 2) 1)
        ∗ pts (sbSlot 1) c fs' ∗ pts (rbSlot 1) (peer c 2) fd
        ∗ owes (c : Thread nD τ) (O + tallyAt (recvCell (peer c 2) 1) () N) Wt
        ∗ dutyTok ER (sendCell c 1) 0 0 ∗ reached ER (sendCell c 1) 0
        ∗ dutyTok ER (recvCell (peer c 2) 1) 0 0 ∗ reached ER (recvCell (peer c 2) 1) 0)
      ⊢ iprop(((cred (tallyAt (sendCell c 1) () N) ∗ owes (c : Thread nD τ) O Wt) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sbSlot 1) (.remote (Dev.tc n : Thread nD τ) (rbSlot 1) (.dma (sendS 1)) hsc) (.dma (recvS 1)) hsrc hdst hsem) k) Q) := by
  subst hn
  exact Rounds.wp_send_pointsTo 𝒱₀ ER (Rd m) (c : Thread nD τ) none (κ₁ := K (c, 3)) (κ₂ := K (peer c 2, 6))
    (r₁ := 0) (r₂ := 0) (d₁ := 0) (d₂ := 0) (fd := fd)
    (by rw [duties_send]; exact Finset.mem_singleton_self _) (by rw [duties_recv]; exact Finset.mem_singleton_self _)
    () () N rfl (amount_send m c 1 0) (amount_recv m (peer c 2) 1 0) O rfl (W := Wt)
    (by rw [payload_send]; exact Entails.of_eq (pts_congr_of_read (sbSlot 1) c fs' (sbAfter m c 1) h))
    (by rw [payload_recv]; exact Entails.of_eq (landed_pay1 m c fd fs' h))

/-- The transfer of send slot 2 into receive slot 2 of the device 3 steps on, as the rounds rule for an addressed copy
    states it at this schedule: the source slot comes back with the send cell's round, the landed slot goes to the peer. -/
theorem wp_send_slot2 (K : Dev nD × Fin 8 → ℕ) (c n : Dev nD) (hn : n = peer c 3)
    {hsc : ((rbSlot 2) : Memref sig (Dev.tc n : Thread nD τ).2.kind .vmem S2048x512 .bf16).view.ref.isScScratch = false}
    {hsrc : (sbSlot 2).view.WordExact} {hdst : (rbSlot 2).view.WordExact}
    {hsem : DmaTarget.Typed .vmem (.dma (recvS 2)) (.remote (Dev.tc n : Thread nD τ) (rbSlot 2) (.dma (sendS 2)) hsc)}
    {α : Type} {Q : α → sProp 𝕄} {k : PUnit → Prog (TpuEff nD τ sig (Elt F) Λ₀ .tc) α}
    (fs' : Buf (Elt F) ((c : Thread nD τ).loc cc0_scratch1)) (fd : Buf (Elt F) ((rbSlot 2).view.loc (peer c 3 : Thread nD τ)))
    (Wt : Waits sig Unit) (O : CellTallies nD τ sig Unit)
    (h : (sbSlot 2).view.read (Elt F) fs' = (sbSlot 2).view.read (Elt F) (sbAfter m c 2)) :
    iprop(cellInv ER (Rd m) (K (c, 4)) (sendCell c 2) ∗ cellInv ER (Rd m) (K (peer c 3, 7)) (recvCell (peer c 3) 2)
        ∗ pts (sbSlot 2) c fs' ∗ pts (rbSlot 2) (peer c 3) fd
        ∗ owes (c : Thread nD τ) (O + tallyAt (recvCell (peer c 3) 2) () N) Wt
        ∗ dutyTok ER (sendCell c 2) 0 0 ∗ reached ER (sendCell c 2) 0
        ∗ dutyTok ER (recvCell (peer c 3) 2) 0 0 ∗ reached ER (recvCell (peer c 3) 2) 0)
      ⊢ iprop(((cred (tallyAt (sendCell c 2) () N) ∗ owes (c : Thread nD τ) O Wt) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sbSlot 2) (.remote (Dev.tc n : Thread nD τ) (rbSlot 2) (.dma (sendS 2)) hsc) (.dma (recvS 2)) hsrc hdst hsem) k) Q) := by
  subst hn
  exact Rounds.wp_send_pointsTo 𝒱₀ ER (Rd m) (c : Thread nD τ) none (κ₁ := K (c, 4)) (κ₂ := K (peer c 3, 7))
    (r₁ := 0) (r₂ := 0) (d₁ := 0) (d₂ := 0) (fd := fd)
    (by rw [duties_send]; exact Finset.mem_singleton_self _) (by rw [duties_recv]; exact Finset.mem_singleton_self _)
    () () N rfl (amount_send m c 2 0) (amount_recv m (peer c 3) 2 0) O rfl (W := Wt)
    (by rw [payload_send]; exact Entails.of_eq (pts_congr_of_read (sbSlot 2) c fs' (sbAfter m c 2) h))
    (by rw [payload_recv]; exact Entails.of_eq (landed_pay2 m c fd fs' h))

/-- After a rule applied by hand: if what is left is a returned value, pass to its continuation. -/
local macro "step_ret" : tactic => `(tactic| first | (rw [wp_ret]; imodintro) | skip)

variable (K : Dev nD × Fin 8 → ℕ)

attribute [local sl_canon] dev1_eq dev2_eq dev3_eq dev4_eq dev5_eq dev6_eq dev7_eq dev8_eq dev9_eq

set_option maxHeartbeats 8000000 in
theorem body_pieces (c : Dev nD) (W : Waits sig Unit)
    (o0 : Buf (Elt F) ((c : Thread nD τ).loc main_v1))
    (fx : Buf (Elt F) ((c : Thread nD τ).loc cc0_scratch0)) (fs : Buf (Elt F) ((c : Thread nD τ).loc cc0_scratch1))
    (fr : Buf (Elt F) ((c : Thread nD τ).loc cc0_scratch2)) :
    iprop(records m K
      ∗ (atPos ER (barCell c) 0 ∅ 0 ∗ atPos ER (endCell c) 0 ∅ 0 ∗ atPos ER (sendCell c 0) 0 ∅ 0 ∗ atPos ER (sendCell c 1) 0 ∅ 0 ∗ atPos ER (sendCell c 2) 0 ∅ 0
          ∗ atPos ER (recvCell c 0) 0 ∅ 0 ∗ atPos ER (recvCell c 1) 0 ∅ 0 ∗ atPos ER (recvCell c 2) 0 ∅ 0)
      ∗ payToks c
      ∗ (semVal ((c : Thread nD τ), lsem 0) 0 ∗ semVal ((c : Thread nD τ), lsem 1) 0 ∗ semVal ((c : Thread nD τ), lsem 2) 0 ∗ semVal ((c : Thread nD τ), lsem 3) 0
          ∗ semVal ((c : Thread nD τ), lsem 4) 0 ∗ semVal ((c : Thread nD τ), lsem 5) 0 ∗ semVal ((c : Thread nD τ), lsem 6) 0)
      ∗ (cred (tallyAt (barCell c) () 3) ∗ cred (tallyAt (recvCell c 0) () N) ∗ cred (tallyAt (recvCell c 1) () N)
          ∗ cred (tallyAt (recvCell c 2) () N) ∗ cred (tallyAt (endCell c) () 3))
      ∗ levAts L lv
      ∗ owes (c : Thread nD τ) (O₁ c) W
      ∗ (pts (colM c 0) c (X m c) ∗ pts (colM c 1) c (X m c) ∗ pts (colM c 2) c (X m c) ∗ pts (ownSrcM c) c (X m c))
      ∗ (pts (ownDstM c) c o0 ∗ pts (rowM c 0) c o0 ∗ pts (rowM c 1) c o0 ∗ pts (rowM c 2) c o0)
      ∗ (pts (xsSlot 0) c fx ∗ pts (xsSlot 1) c fx ∗ pts (xsSlot 2) c fx)
      ∗ (pts (sbSlot 0) c fs ∗ pts (sbSlot 1) c fs ∗ pts (sbSlot 2) c fs)
      ∗ (pts (rbSlot 0) c fr ∗ pts (rbSlot 1) c fr ∗ pts (rbSlot 2) c fr))
      ⊢ wp frame (wpE (defs₀ (F := F)) 𝒱₀ c none) Set.univ
          (cc0_body (Memref.whole main_arg0) (Memref.isWhole_whole _) (Memref.whole main_v1) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6 cc0_scratch7 cc0_scoped0)
          (fun _ => iprop(bufs1 m c ∗ (bigSep Finset.univ fun k : Fin 14 => semVal ((c : Thread nD τ), osem k) 0) ∗ ∃ W', owes (c : Thread nD τ) 0 W')) := by
  unfold payToks
  iintro ⟨#Hrec, ⟨HatB, HatE, HatS0, HatS1, HatS2, HatV0, HatV1, HatV2⟩,
    ⟨HtB1, HtB2, HtB3, HtV0, HtV1, HtV2, HtS0, HtS1, HtS2, HtE1, HtE2, HtE3⟩,
    ⟨Hz0, Hz1, Hz2, Hz3, Hz4, Hz5, Hz6⟩, ⟨HcB, HcV0, HcV1, HcV2, HcE⟩, #Hlev, HO,
    ⟨Hc0, Hc1, Hc2, Hown⟩, ⟨HoO, Ho0, Ho1, Ho2⟩, ⟨Hx0, Hx1, Hx2⟩, ⟨Hs0, Hs1, Hs2⟩, ⟨Hr0, Hr1, Hr2⟩⟩
  sl_unfold [cc0_body]
  sl_exec
  -- the entry handshake: with the d-th signal goes this device's receive slot 3 - d
  iapply (Rounds.wp_signal 𝒱₀ ER (Rd m) (c : Thread nD τ) none (dst := (peer c 1 : Thread nD τ)) (κ := K (peer c 1, 0))
      (d := 1) (by rw [duties_bar]; decide) ((amount_bar m (peer c 1) 1).trans (by decide)) () (O₂ c) rfl) $$ [HO HtB1 Hr2]
  · isplitr; · iapply (inv_at m K (peer c 1, 0)); iexact Hrec
    isplitl [HO]; · iexact HO
    isplitl [HtB1]; · iexact HtB1
    isplitl [Hr2]
    · rw [payload_bar, (barPay_give c).1, show slotPts (F := F) c 2 = iprop(∃ f, pts (rbSlot 2) c f) from rfl]
      isplitl [Hr2]; · iexists fr; iexact Hr2
      iapply (reached_at m K (c, 7)); iexact Hrec
    · iapply (reached_at m K (peer c 1, 0)); iexact Hrec
  iintro HO
  step_ret
  sl_exec
  iapply (Rounds.wp_signal 𝒱₀ ER (Rd m) (c : Thread nD τ) none (dst := (peer c 2 : Thread nD τ)) (κ := K (peer c 2, 0))
      (d := 2) (by rw [duties_bar]; decide) ((amount_bar m (peer c 2) 2).trans (by decide)) () (O₃ c) rfl) $$ [HO HtB2 Hr1]
  · isplitr; · iapply (inv_at m K (peer c 2, 0)); iexact Hrec
    isplitl [HO]; · iexact HO
    isplitl [HtB2]; · iexact HtB2
    isplitl [Hr1]
    · rw [payload_bar, (barPay_give c).2.1, show slotPts (F := F) c 1 = iprop(∃ f, pts (rbSlot 1) c f) from rfl]
      isplitl [Hr1]; · iexists fr; iexact Hr1
      iapply (reached_at m K (c, 6)); iexact Hrec
    · iapply (reached_at m K (peer c 2, 0)); iexact Hrec
  iintro HO
  step_ret
  sl_exec
  iapply (Rounds.wp_signal 𝒱₀ ER (Rd m) (c : Thread nD τ) none (dst := (peer c 3 : Thread nD τ)) (κ := K (peer c 3, 0))
      (d := 3) (by rw [duties_bar]; decide) ((amount_bar m (peer c 3) 3).trans (by decide)) () (O₄ c) rfl) $$ [HO HtB3 Hr0]
  · isplitr; · iapply (inv_at m K (peer c 3, 0)); iexact Hrec
    isplitl [HO]; · iexact HO
    isplitl [HtB3]; · iexact HtB3
    isplitl [Hr0]
    · rw [payload_bar, (barPay_give c).2.2, show slotPts (F := F) c 0 = iprop(∃ f, pts (rbSlot 0) c f) from rfl]
      isplitl [Hr0]; · iexists fr; iexact Hr0
      iapply (reached_at m K (c, 5)); iexact Hrec
    · iapply (reached_at m K (peer c 3, 0)); iexact Hrec
  iintro HO
  step_ret
  sl_exec
  -- the wait for the three peers: their receive slots come with it
  iapply (Rounds.wp_wait_rest_token 𝒱₀ ER (Rd m) (c : Thread nD τ) none (κ := K (c, 0))
      (wpE_semWait_eq 𝒱₀ (c : Thread nD τ) none Set.univ) (Set.mem_univ _) () (O := O₄ c) (W := W) (R := 0) (m := 0) (T := ∅)
      (by rw [expect_bar]; decide)) $$ [HcB HO HatB]
  · isplitr; · iapply (inv_at m K (c, 0)); iexact Hrec
    isplitl [HcB]; · iexact HcB
    isplitl [HO]; · iexact HO
    isplitr; · iapply (mayWait_lt c (.reg barS) (O₄ c) (fun g u h => ⟨(O₄_pos h).1, by rw [show lv ((c : Thread nD τ), SemLoc.reg barS) () = 1 from rfl]; exact (O₄_pos h).2⟩)); iexact Hlev
    iexact HatB
  iintro ⟨HO, HatB, -, Hpay⟩
  ihave Hp := (Entails.of_eq (rest_bar m c)) $$ Hpay
  rw [(barPay_got c).1, (barPay_got c).2.1, (barPay_got c).2.2,
    show slotPts (F := F) (peer c 3) 2 = iprop(∃ f, pts (rbSlot 2) (peer c 3) f) from rfl,
    show slotPts (F := F) (peer c 2) 1 = iprop(∃ f, pts (rbSlot 1) (peer c 2) f) from rfl,
    show slotPts (F := F) (peer c 1) 0 = iprop(∃ f, pts (rbSlot 0) (peer c 1) f) from rfl]
  icases Hp with ⟨⟨⟨%g2, Hp2⟩, #HrV2⟩, ⟨⟨%g1, Hp1⟩, #HrV1⟩, ⟨%g0, Hp0⟩, #HrV0⟩
  step_ret
  -- waiting on a local copy's semaphore (level 0) is allowed whatever is still owed (levels 2 and 3)
  have hmw4 : ∀ q : DmaSem sig, lv ((c : Thread nD τ), SemLoc.dma q) () = 0 → ((levAts L lv : sProp 𝕄) ⊢ MayWait (c : Thread nD τ) (.dma q) () (O₄ c)) :=
    fun q hq => mayWait_lt c (.dma q) (O₄ c) (fun g u h => ⟨(O₄_pos h).1, by rw [hq]; exact Nat.lt_trans Nat.zero_lt_one (O₄_pos h).2⟩)
  sl_exec (disch := first | rfl | decide)
  -- the transfer of slot 0 to the device 1 step on: what the send slot holds reads as the narrowed column block
  have hs0 : (sbSlot 0).view.read (Elt F) (body_pieces.sl.Hs0_w1 m c fs) = (sbSlot 0).view.read (Elt F) (sbAfter m c 0) := by
    unfold body_pieces.sl.Hs0_w1 body_pieces.sl.v132 body_pieces.sl.dma0; exact sent_read0 m c _ fs
  iapply (wp_send_slot0 m K c _ (dev4_eq c) (body_pieces.sl.Hs0_w1 m c fs) g0 _ (O₅ c) hs0) $$ [HO HtS0 HtV0 Hs0 Hp0]
  · isplitr; · iapply (inv_at m K (c, 2)); iexact Hrec
    isplitr; · iapply (inv_at m K (peer c 1, 5)); iexact Hrec
    isplitl [Hs0]; · iexact Hs0
    isplitl [Hp0]; · iexact Hp0
    isplitl [HO]; · iexact HO
    isplitl [HtS0]; · iexact HtS0
    isplitr; · iapply (reached_at m K (c, 2)); iexact Hrec
    isplitl [HtV0]; · iexact HtV0
    iexact HrV0
  iintro ⟨HcS0, HO⟩
  have hmw5 : ∀ q : DmaSem sig, lv ((c : Thread nD τ), SemLoc.dma q) () = 0 → ((levAts L lv : sProp 𝕄) ⊢ MayWait (c : Thread nD τ) (.dma q) () (O₅ c)) :=
    fun q hq => mayWait_lt c (.dma q) (O₅ c) (fun g u h => ⟨(O₅_pos h).1, by rw [hq]; exact Nat.lt_of_le_of_lt (Nat.zero_le _) (O₅_pos h).2⟩)
  sl_exec (disch := first | rfl | decide)
  -- the transfer of slot 1 to the device 2 steps on: what the send slot holds reads as the narrowed column block
  have hs1 : (sbSlot 1).view.read (Elt F) (body_pieces.sl.Hs1_w1 m c fs) = (sbSlot 1).view.read (Elt F) (sbAfter m c 1) := by
    unfold body_pieces.sl.Hs1_w1 body_pieces.sl.v168 body_pieces.sl.dma0_1; exact sent_read1 m c _ fs
  iapply (wp_send_slot1 m K c _ (dev5_eq c) (body_pieces.sl.Hs1_w1 m c fs) g1 _ (O₆ c) hs1) $$ [HO HtS1 HtV1 Hs1 Hp1]
  · isplitr; · iapply (inv_at m K (c, 3)); iexact Hrec
    isplitr; · iapply (inv_at m K (peer c 2, 6)); iexact Hrec
    isplitl [Hs1]; · iexact Hs1
    isplitl [Hp1]; · iexact Hp1
    isplitl [HO]; · iexact HO
    isplitl [HtS1]; · iexact HtS1
    isplitr; · iapply (reached_at m K (c, 3)); iexact Hrec
    isplitl [HtV1]; · iexact HtV1
    iexact HrV1
  iintro ⟨HcS1, HO⟩
  have hmw6 : ∀ q : DmaSem sig, lv ((c : Thread nD τ), SemLoc.dma q) () = 0 → ((levAts L lv : sProp 𝕄) ⊢ MayWait (c : Thread nD τ) (.dma q) () (O₆ c)) :=
    fun q hq => mayWait_lt c (.dma q) (O₆ c) (fun g u h => ⟨(O₆_pos h).1, by rw [hq]; exact Nat.lt_of_le_of_lt (Nat.zero_le _) (O₆_pos h).2⟩)
  sl_exec (disch := first | rfl | decide)
  -- the transfer of slot 2 to the device 3 steps on: what the send slot holds reads as the narrowed column block
  have hs2 : (sbSlot 2).view.read (Elt F) (body_pieces.sl.Hs2_w1 m c fs) = (sbSlot 2).view.read (Elt F) (sbAfter m c 2) := by
    unfold body_pieces.sl.Hs2_w1 body_pieces.sl.v204 body_pieces.sl.dma0_2; exact sent_read2 m c _ fs
  iapply (wp_send_slot2 m K c _ (dev6_eq c) (body_pieces.sl.Hs2_w1 m c fs) g2 _ (O₇ c) hs2) $$ [HO HtS2 HtV2 Hs2 Hp2]
  · isplitr; · iapply (inv_at m K (c, 4)); iexact Hrec
    isplitr; · iapply (inv_at m K (peer c 3, 7)); iexact Hrec
    isplitl [Hs2]; · iexact Hs2
    isplitl [Hp2]; · iexact Hp2
    isplitl [HO]; · iexact HO
    isplitl [HtS2]; · iexact HtS2
    isplitr; · iapply (reached_at m K (c, 4)); iexact Hrec
    isplitl [HtV2]; · iexact HtV2
    iexact HrV2
  iintro ⟨HcS2, HO⟩
  have hmw7 : ∀ q : DmaSem sig, lv ((c : Thread nD τ), SemLoc.dma q) () = 0 → ((levAts L lv : sProp 𝕄) ⊢ MayWait (c : Thread nD τ) (.dma q) () (O₇ c)) :=
    fun q hq => mayWait_lt c (.dma q) (O₇ c) (fun g u h => ⟨(O₇_pos h).1, by rw [hq]; exact Nat.lt_of_le_of_lt (Nat.zero_le _) (O₇_pos h).2⟩)
  sl_exec (disch := first | rfl | decide)
  -- the three landings: each receive slot comes back holding what its origin sent
  iapply (Rounds.wp_wait_rest_token 𝒱₀ ER (Rd m) (c : Thread nD τ) none (κ := K (c, 5)) (sm := SemLoc.dma (recvS 0)) (k' := (rbSlot 0).view.dmaCredit)
      (wpE_waitDma2_eq 𝒱₀ (c : Thread nD τ) none Set.univ) (Set.mem_univ _) () (O := O₇ c) (R := 0) (m := 0) (T := ∅)
      (by rw [Nat.zero_add]; exact (credit_rb 0).trans (expect_recv m c 0).symm)) $$ [HcV0 HO HatV0]
  · isplitr; · iapply (inv_at m K (c, 5)); iexact Hrec
    isplitl [HcV0]; · iexact HcV0
    isplitl [HO]; · iexact HO
    isplitr
    · iapply (mayWait_lt c (.dma (recvS 0)) (O₇ c) (fun g u h => ⟨(O₇_pos h).1, by rw [show lv ((c : Thread nD τ), SemLoc.dma (recvS 0)) () = 2 from rfl]; exact (O₇_pos h).2⟩)); iexact Hlev
    iexact HatV0
  iintro ⟨HO, HatV0, -, Hpay⟩
  ihave Hr0 := (Entails.of_eq ((rest_recv m c 0).trans (show recvPay m c 0 = pts (rbSlot 0) c (landed m c 0) from rfl))) $$ Hpay
  step_ret
  sl_exec (disch := first | rfl | decide)
  iapply (Rounds.wp_wait_rest_token 𝒱₀ ER (Rd m) (c : Thread nD τ) none (κ := K (c, 6)) (sm := SemLoc.dma (recvS 1)) (k' := (rbSlot 1).view.dmaCredit)
      (wpE_waitDma2_eq 𝒱₀ (c : Thread nD τ) none Set.univ) (Set.mem_univ _) () (O := O₇ c) (R := 0) (m := 0) (T := ∅)
      (by rw [Nat.zero_add]; exact (credit_rb 1).trans (expect_recv m c 1).symm)) $$ [HcV1 HO HatV1]
  · isplitr; · iapply (inv_at m K (c, 6)); iexact Hrec
    isplitl [HcV1]; · iexact HcV1
    isplitl [HO]; · iexact HO
    isplitr
    · iapply (mayWait_lt c (.dma (recvS 1)) (O₇ c) (fun g u h => ⟨(O₇_pos h).1, by rw [show lv ((c : Thread nD τ), SemLoc.dma (recvS 1)) () = 2 from rfl]; exact (O₇_pos h).2⟩)); iexact Hlev
    iexact HatV1
  iintro ⟨HO, HatV1, -, Hpay⟩
  ihave Hr1 := (Entails.of_eq ((rest_recv m c 1).trans (show recvPay m c 1 = pts (rbSlot 1) c (landed m c 1) from rfl))) $$ Hpay
  step_ret
  sl_exec (disch := first | rfl | decide)
  iapply (Rounds.wp_wait_rest_token 𝒱₀ ER (Rd m) (c : Thread nD τ) none (κ := K (c, 7)) (sm := SemLoc.dma (recvS 2)) (k' := (rbSlot 2).view.dmaCredit)
      (wpE_waitDma2_eq 𝒱₀ (c : Thread nD τ) none Set.univ) (Set.mem_univ _) () (O := O₇ c) (R := 0) (m := 0) (T := ∅)
      (by rw [Nat.zero_add]; exact (credit_rb 2).trans (expect_recv m c 2).symm)) $$ [HcV2 HO HatV2]
  · isplitr; · iapply (inv_at m K (c, 7)); iexact Hrec
    isplitl [HcV2]; · iexact HcV2
    isplitl [HO]; · iexact HO
    isplitr
    · iapply (mayWait_lt c (.dma (recvS 2)) (O₇ c) (fun g u h => ⟨(O₇_pos h).1, by rw [show lv ((c : Thread nD τ), SemLoc.dma (recvS 2)) () = 2 from rfl]; exact (O₇_pos h).2⟩)); iexact Hlev
    iexact HatV2
  iintro ⟨HO, HatV2, -, Hpay⟩
  ihave Hr2 := (Entails.of_eq ((rest_recv m c 2).trans (show recvPay m c 2 = pts (rbSlot 2) c (landed m c 2) from rfl))) $$ Hpay
  step_ret
  sl_exec (disch := first | rfl | decide)
  -- the send cells' rounds: the send slots come back
  iapply (Rounds.wp_wait_rest_token 𝒱₀ ER (Rd m) (c : Thread nD τ) none (κ := K (c, 2)) (sm := SemLoc.dma (sendS 0)) (k' := (sbSlot 0).view.dmaCredit)
      (wpE_waitDma2_eq 𝒱₀ (c : Thread nD τ) none Set.univ) (Set.mem_univ _) () (O := O₇ c) (R := 0) (m := 0) (T := ∅)
      (by rw [Nat.zero_add]; exact (credit_sb 0).trans (expect_send m c 0).symm)) $$ [HcS0 HO HatS0]
  · isplitr; · iapply (inv_at m K (c, 2)); iexact Hrec
    isplitl [HcS0]; · iexact HcS0
    isplitl [HO]; · iexact HO
    isplitr
    · iapply (mayWait_lt c (.dma (sendS 0)) (O₇ c) (fun g u h => ⟨(O₇_pos h).1, by rw [show lv ((c : Thread nD τ), SemLoc.dma (sendS 0)) () = 0 from rfl]; exact Nat.lt_of_le_of_lt (Nat.zero_le _) (O₇_pos h).2⟩)); iexact Hlev
    iexact HatS0
  iintro ⟨HO, HatS0, -, Hpay⟩
  ihave Hs0 := (Entails.of_eq ((rest_send m c 0).trans (show sendPay m c 0 = pts (sbSlot 0) c (sbAfter m c 0) from rfl))) $$ Hpay
  step_ret
  sl_exec (disch := first | rfl | decide)
  iapply (Rounds.wp_wait_rest_token 𝒱₀ ER (Rd m) (c : Thread nD τ) none (κ := K (c, 3)) (sm := SemLoc.dma (sendS 1)) (k' := (sbSlot 1).view.dmaCredit)
      (wpE_waitDma2_eq 𝒱₀ (c : Thread nD τ) none Set.univ) (Set.mem_univ _) () (O := O₇ c) (R := 0) (m := 0) (T := ∅)
      (by rw [Nat.zero_add]; exact (credit_sb 1).trans (expect_send m c 1).symm)) $$ [HcS1 HO HatS1]
  · isplitr; · iapply (inv_at m K (c, 3)); iexact Hrec
    isplitl [HcS1]; · iexact HcS1
    isplitl [HO]; · iexact HO
    isplitr
    · iapply (mayWait_lt c (.dma (sendS 1)) (O₇ c) (fun g u h => ⟨(O₇_pos h).1, by rw [show lv ((c : Thread nD τ), SemLoc.dma (sendS 1)) () = 0 from rfl]; exact Nat.lt_of_le_of_lt (Nat.zero_le _) (O₇_pos h).2⟩)); iexact Hlev
    iexact HatS1
  iintro ⟨HO, HatS1, -, Hpay⟩
  ihave Hs1 := (Entails.of_eq ((rest_send m c 1).trans (show sendPay m c 1 = pts (sbSlot 1) c (sbAfter m c 1) from rfl))) $$ Hpay
  step_ret
  sl_exec (disch := first | rfl | decide)
  iapply (Rounds.wp_wait_rest_token 𝒱₀ ER (Rd m) (c : Thread nD τ) none (κ := K (c, 4)) (sm := SemLoc.dma (sendS 2)) (k' := (sbSlot 2).view.dmaCredit)
      (wpE_waitDma2_eq 𝒱₀ (c : Thread nD τ) none Set.univ) (Set.mem_univ _) () (O := O₇ c) (R := 0) (m := 0) (T := ∅)
      (by rw [Nat.zero_add]; exact (credit_sb 2).trans (expect_send m c 2).symm)) $$ [HcS2 HO HatS2]
  · isplitr; · iapply (inv_at m K (c, 4)); iexact Hrec
    isplitl [HcS2]; · iexact HcS2
    isplitl [HO]; · iexact HO
    isplitr
    · iapply (mayWait_lt c (.dma (sendS 2)) (O₇ c) (fun g u h => ⟨(O₇_pos h).1, by rw [show lv ((c : Thread nD τ), SemLoc.dma (sendS 2)) () = 0 from rfl]; exact Nat.lt_of_le_of_lt (Nat.zero_le _) (O₇_pos h).2⟩)); iexact Hlev
    iexact HatS2
  iintro ⟨HO, HatS2, -, Hpay⟩
  ihave Hs2 := (Entails.of_eq ((rest_send m c 2).trans (show sendPay m c 2 = pts (sbSlot 2) c (sbAfter m c 2) from rfl))) $$ Hpay
  step_ret
  sl_exec (disch := first | rfl | decide)
  -- the exit handshake
  iapply (Rounds.wp_signal 𝒱₀ ER (Rd m) (c : Thread nD τ) none (dst := (peer c 1 : Thread nD τ)) (κ := K (peer c 1, 1))
      (d := 1) (by rw [duties_end]; decide) ((amount_end m (peer c 1) 1).trans (by decide)) () (O₈ c) rfl) $$ [HO HtE1]
  · isplitr; · iapply (inv_at m K (peer c 1, 1)); iexact Hrec
    isplitl [HO]; · iexact HO
    isplitl [HtE1]; · iexact HtE1
    isplitr; · rw [payload_end]; iempintro
    · iapply (reached_at m K (peer c 1, 1)); iexact Hrec
  iintro HO
  step_ret
  sl_exec
  iapply (Rounds.wp_signal 𝒱₀ ER (Rd m) (c : Thread nD τ) none (dst := (peer c 2 : Thread nD τ)) (κ := K (peer c 2, 1))
      (d := 2) (by rw [duties_end]; decide) ((amount_end m (peer c 2) 2).trans (by decide)) () (tallyAt (endCell (peer c 3)) () 1) rfl) $$ [HO HtE2]
  · isplitr; · iapply (inv_at m K (peer c 2, 1)); iexact Hrec
    isplitl [HO]; · iexact HO
    isplitl [HtE2]; · iexact HtE2
    isplitr; · rw [payload_end]; iempintro
    · iapply (reached_at m K (peer c 2, 1)); iexact Hrec
  iintro HO
  step_ret
  sl_exec
  iapply (Rounds.wp_signal 𝒱₀ ER (Rd m) (c : Thread nD τ) none (dst := (peer c 3 : Thread nD τ)) (κ := K (peer c 3, 1))
      (d := 3) (by rw [duties_end]; decide) ((amount_end m (peer c 3) 3).trans (by decide)) () (0) (zero_add _).symm) $$ [HO HtE3]
  · isplitr; · iapply (inv_at m K (peer c 3, 1)); iexact Hrec
    isplitl [HO]; · iexact HO
    isplitl [HtE3]; · iexact HtE3
    isplitr; · rw [payload_end]; iempintro
    · iapply (reached_at m K (peer c 3, 1)); iexact Hrec
  iintro HO
  step_ret
  sl_exec
  iapply (Rounds.wp_wait_rest_token 𝒱₀ ER (Rd m) (c : Thread nD τ) none (κ := K (c, 1))
      (wpE_semWait_eq 𝒱₀ (c : Thread nD τ) none Set.univ) (Set.mem_univ _) () (O := 0) (R := 0) (m := 0) (T := ∅)
      (by rw [expect_end]; decide)) $$ [HcE HO HatE]
  · isplitr; · iapply (inv_at m K (c, 1)); iexact Hrec
    isplitl [HcE]; · iexact HcE
    isplitl [HO]; · iexact HO
    isplitr; · rw [MayWait_zero]; iempintro
    iexact HatE
  iintro ⟨HO, HatE, -, -⟩
  step_ret
  sl_exec (disch := first | rfl | decide)
  -- what the result's four pieces hold agrees with the assembled array on each piece
  have hA : ∀ i ∈ (ownDstM c).view.set, ((ownDstM c).view.writes (Elt F) o0 [⟨Rect.whole S2048x512, body_pieces.sl.dma0_3 m c⟩]) i = OUT m c i := by
    rw [writes_whole]; exact OUT_on_own m c o0
  have h0 : ∀ i ∈ (rowM c 0).view.set, ((rowM c 0).view.writes (Elt F) o0 [⟨Rect.whole S2048x512, body_pieces.sl.dma3 m c⟩]) i = OUT m c i := by
    rw [writes_whole]; exact OUT_on_row0 m c o0 _ (widened_read0 m c _)
  have h1 : ∀ i ∈ (rowM c 1).view.set, ((rowM c 1).view.writes (Elt F) o0 [⟨Rect.whole S2048x512, body_pieces.sl.dma3_1 m c⟩]) i = OUT m c i := by
    rw [writes_whole]; exact OUT_on_row1 m c o0 _ (widened_read1 m c _)
  have h2 : ∀ i ∈ (rowM c 2).view.set, ((rowM c 2).view.writes (Elt F) o0 [⟨Rect.whole S2048x512, body_pieces.sl.dma3_2 m c⟩]) i = OUT m c i := by
    rw [writes_whole]; exact OUT_on_row2 m c o0 _ (widened_read2 m c _)
  -- the seven own cells close: their counters, at zero, are the device's again
  imod (Rounds.cell_close ER (Rd m) (Set.mem_univ (K (c, 1))) (fun h => h) (R := 0 + 1) (duties_later m (endCell c))) $$ [HatE] with HzE
  · isplitr; · iapply (inv_at m K (c, 1)); iexact Hrec
    iexact HatE
  imod (Rounds.cell_close ER (Rd m) (Set.mem_univ (K (c, 2))) (fun h => h) (R := 0 + 1) (duties_later m (sendCell c 0))) $$ [HatS0] with HzS0
  · isplitr; · iapply (inv_at m K (c, 2)); iexact Hrec
    iexact HatS0
  imod (Rounds.cell_close ER (Rd m) (Set.mem_univ (K (c, 3))) (fun h => h) (R := 0 + 1) (duties_later m (sendCell c 1))) $$ [HatS1] with HzS1
  · isplitr; · iapply (inv_at m K (c, 3)); iexact Hrec
    iexact HatS1
  imod (Rounds.cell_close ER (Rd m) (Set.mem_univ (K (c, 4))) (fun h => h) (R := 0 + 1) (duties_later m (sendCell c 2))) $$ [HatS2] with HzS2
  · isplitr; · iapply (inv_at m K (c, 4)); iexact Hrec
    iexact HatS2
  imod (Rounds.cell_close ER (Rd m) (Set.mem_univ (K (c, 5))) (fun h => h) (R := 0 + 1) (duties_later m (recvCell c 0))) $$ [HatV0] with HzV0
  · isplitr; · iapply (inv_at m K (c, 5)); iexact Hrec
    iexact HatV0
  imod (Rounds.cell_close ER (Rd m) (Set.mem_univ (K (c, 6))) (fun h => h) (R := 0 + 1) (duties_later m (recvCell c 1))) $$ [HatV1] with HzV1
  · isplitr; · iapply (inv_at m K (c, 6)); iexact Hrec
    iexact HatV1
  imod (Rounds.cell_close ER (Rd m) (Set.mem_univ (K (c, 7))) (fun h => h) (R := 0 + 1) (duties_later m (recvCell c 2))) $$ [HatV2] with HzV2
  · isplitr; · iapply (inv_at m K (c, 7)); iexact Hrec
    iexact HatV2
  rw [wp_ret]; imodintro
  unfold bufs1
  isplitl [Hc0 Hc1 Hc2 Hown HoO Ho0 Ho1 Ho2 Hx0 Hx1 Hx2 Hs0 Hs1 Hs2 Hr0 Hr1 Hr2]
  · isplitl [Hc0 Hc1 Hc2 Hown]
    · iapply (x_split c (X m c)).mpr
      isplitl [Hc0]; · iexact Hc0
      isplitl [Hc1]; · iexact Hc1
      isplitl [Hc2]; · iexact Hc2
      iexact Hown
    isplitl [HoO Ho0 Ho1 Ho2]
    · iapply (o_join c _ _ _ _ (OUT m c) hA h0 h1 h2)
      isplitl [HoO]; · iexact HoO
      isplitl [Ho0]; · iexact Ho0
      isplitl [Ho1]; · iexact Ho1
      iexact Ho2
    isplitl [Hx0 Hx1 Hx2]
    · iapply (xs_join c _ _ _)
      isplitl [Hx0]; · iexact Hx0
      isplitl [Hx1]; · iexact Hx1
      iexact Hx2
    isplitl [Hs0 Hs1 Hs2]
    · iapply (sb_join c _ _ _)
      isplitl [Hs0]; · iexact Hs0
      isplitl [Hs1]; · iexact Hs1
      iexact Hs2
    iapply (rb_join c _ _ _)
    isplitl [Hr0]; · iexact Hr0
    isplitl [Hr1]; · iexact Hr1
    iexact Hr2
  isplitr [HO]
  · rw [bigSep_fin14]
    isplitl [HzE]; · iexact HzE
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [HzS0]; · iexact HzS0
    isplitl [HzS1]; · iexact HzS1
    isplitl [HzS2]; · iexact HzS2
    isplitl [HzV0]; · iexact HzV0
    isplitl [HzV1]; · iexact HzV1
    iexact HzV2
  · iexists _; iexact HO

/-- The library's body obligation on device `c`: the buffers are cut into their pieces, the pieces' run is applied, and
    what it leaves is the invariant after the point. -/
theorem body_obligation (c : Dev nD) : BodyObligation (dats (F := F) m 0 c) (defs₀ (F := F)) 𝒱₀ () Set.univ := fun t => by
  rw [fin_N0 t]
  iintro ⟨HΦ, Ho, -⟩
  ihave HΦ := (Entails.of_eq (show (dats (F := F) m 0 c).Φ t0_0.castSucc = Φ₀ m c from rfl)) $$ HΦ
  unfold Φ₀ start ghost bufs0 positions localSems Dat.owesAt Pipeline.owesWithin
  rw [bigSep_fin8, bigSep_fin7]
  icases HΦ with ⟨⟨⟨%K, #Hrec, Hpos, Htoks, Hloc⟩, HcB, HcV0, HcV1, HcV2, HcE, #Hlev⟩, Hx, Hout, ⟨%fx, Hxs⟩, ⟨%fs, Hsb⟩, ⟨%fr, Hrb⟩⟩
  icases Ho with ⟨%W, %hW, HO⟩
  rw [show (dats (F := F) m 0 c).owed t0_0.castSucc = O₁ c from rfl]
  -- the five buffers, cut into the pieces the copies move
  ihave Hx := (x_split c (X m c)).mp $$ Hx
  ihave Hout := (o_split c (m ((c : Thread nD τ).loc main_v1))).mp $$ Hout
  ihave Hxs := (xs_split c fx).mp $$ Hxs
  ihave Hsb := (sb_split c fs).mp $$ Hsb
  ihave Hrb := (rb_split c fr).mp $$ Hrb
  iapply (wp_wand_r Idealize.ShloMosaic.frame (wpE (defs₀ (F := F)) 𝒱₀ (c : Thread nD τ) none) Set.univ
      (Q := fun _ => iprop(bufs1 m c ∗ (bigSep Finset.univ fun k : Fin 14 => semVal ((c : Thread nD τ), osem k) 0) ∗ ∃ W', owes (c : Thread nD τ) 0 W')))
  isplitl [Hpos Htoks Hloc HcB HcV0 HcV1 HcV2 HcE HO Hx Hout Hxs Hsb Hrb]
  · iapply (body_pieces m K c W (m ((c : Thread nD τ).loc main_v1)) fx fs fr)
    isplitr; · iexact Hrec
    isplitl [Hpos]; · iexact Hpos
    isplitl [Htoks]; · iexact Htoks
    isplitl [Hloc]; · iexact Hloc
    isplitl [HcB HcV0 HcV1 HcV2 HcE]
    · isplitl [HcB]; · iexact HcB
      isplitl [HcV0]; · iexact HcV0
      isplitl [HcV1]; · iexact HcV1
      isplitl [HcV2]; · iexact HcV2
      iexact HcE
    isplitr; · iexact Hlev
    isplitl [HO]; · iexact HO
    isplitl [Hx]; · iexact Hx
    isplitl [Hout]; · iexact Hout
    isplitl [Hxs]; · iexact Hxs
    isplitl [Hsb]; · iexact Hsb
    iexact Hrb
  · iintro %a ⟨Hb, Hsem, ⟨%W', HO⟩⟩
    isplitl [Hb Hsem]
    · rw [show (dats (F := F) m 0 c).Φ t0_0.succ = Φ₁ m c from rfl]; unfold Φ₁
      isplitl [Hb]; · iexact Hb
      iexact Hsem
    isplitl [HO]
    · rw [show (dats (F := F) m 0 c).owed t0_0.succ = 0 from rfl]
      iexists W'
      isplitr; · ipureintro; exact fun _ _ => Or.inl trivial
      iexact HO
    · rw [show (Finset.univ : Finset (Fin cfg0.W)) = ∅ from rfl, bigSep_empty]; iempintro

/-- info: 'Cert.KernelIdeal.A2A.body_obligation' depends on axioms: [propext, Classical.choice, Quot.sound] -/
#guard_msgs in #print axioms body_obligation

end Cert.KernelIdeal.A2A

end
-- ==== Proof.Launch.lean ====
/-
  The launch of the all-to-all: one application of the library's launch theorem for kernels whose devices owe units
  at launch and whose protocol also runs on the runtime's barrier semaphore.

  The protocol's ghost state is a second copy of the rounds algebra. Its launch element deals every device the round
  state, the position and the reached-mark of its own eight cells, and the twelve duty tokens of those cells. In the one
  global step each device's cells get their invariants from their counters at zero (the entry barrier's counter is the
  launch's one unscoped semaphore, the other seven are among the kernel's fourteen own ones; the seven counters of the
  local copies stay plain counters), the invariants and reached-marks of all 128 cells become one persistent record that
  every device holds, and the tokens are dealt round the z ring to the devices that pay them. The two arrays are not
  staged: they enter the body's invariant as the unscoped rest and leave it the same way, and the final memory is read
  off their points-to facts.
-/
import proofs.«900644_g7700000000000645_dist_a2a_v7x_xyz2x2x4_z_m2048_n512_f32_1_alg».proof.Proof.Body

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The cells and the tokens of the launch element -/

theorem ownSemFacts : Pipeline.OwnSemFacts cfg0.spec osem := by
  decide

/-- Cells of different devices differ in the device, cells of one device in the semaphore. -/
theorem kcell_injective : Function.Injective (kcell : Dev nD × Fin 8 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl

/-- All 128 cells. -/
def allCells : Finset (GSem nD τ sig) := Finset.univ.map ⟨kcell, kcell_injective⟩

/-- The twelve duties of a device's own cells, by semaphore and duty name: the three unit duties of its entry barrier and
    of its exit barrier, the one duty of each send cell and of each receive cell. -/
abbrev tokTag : Fin 12 → SemLoc sig × Fin 4
  | 0 => (.reg barS, 1) | 1 => (.reg barS, 2) | 2 => (.reg barS, 3)
  | 3 => (.reg endS, 1) | 4 => (.reg endS, 2) | 5 => (.reg endS, 3)
  | 6 => (.dma (sendS 0), 0) | 7 => (.dma (sendS 1), 0) | 8 => (.dma (sendS 2), 0)
  | 9 => (.dma (recvS 0), 0) | 10 => (.dma (recvS 1), 0) | 11 => (.dma (recvS 2), 0)

theorem tokTag_injective : Function.Injective tokTag := by decide

/-- The duty tokens as minted, all at round 0. -/
abbrev tokOf (cj : Dev nD × Fin 12) : GSem nD τ sig × ℕ × Fin 4 := (((cj.1 : Thread nD τ), (tokTag cj.2).1), 0, (tokTag cj.2).2)

theorem tokOf_injective : Function.Injective (tokOf : Dev nD × Fin 12 → GSem nD τ sig × ℕ × Fin 4) := by
  rintro ⟨c, j⟩ ⟨c', j'⟩ h
  have h1 : c = c' := congrArg (fun x : GSem nD τ sig × ℕ × Fin 4 => x.1.1.1) h
  have h2 : j = j' := tokTag_injective (Prod.ext (congrArg (fun x : GSem nD τ sig × ℕ × Fin 4 => x.1.2) h) (congrArg (fun x : GSem nD τ sig × ℕ × Fin 4 => x.2.2) h))
  subst h1; subst h2; rfl

def allToks : Finset (GSem nD τ sig × ℕ × Fin 4) := Finset.univ.map ⟨tokOf, tokOf_injective⟩

/-- The launch element: the pipeline library's (no staging cell), the protocol's, and the unit of the local copies'
    counters. -/
def u₀ : UU :=
  (initOf (Pipeline.cells cfgs cellOf_inj) (Pipeline.launchToks cfgs cellOf_inj), (initOf allCells allToks, 1))

/-- The duty tokens of device `c`'s own cells. -/
def toks (c : Dev nD) : sProp 𝕄 :=
  iprop(dutyTok ER (barCell c) 0 1 ∗ dutyTok ER (barCell c) 0 2 ∗ dutyTok ER (barCell c) 0 3
    ∗ dutyTok ER (endCell c) 0 1 ∗ dutyTok ER (endCell c) 0 2 ∗ dutyTok ER (endCell c) 0 3
    ∗ dutyTok ER (sendCell c 0) 0 0 ∗ dutyTok ER (sendCell c 1) 0 0 ∗ dutyTok ER (sendCell c 2) 0 0
    ∗ dutyTok ER (recvCell c 0) 0 0 ∗ dutyTok ER (recvCell c 1) 0 0 ∗ dutyTok ER (recvCell c 2) 0 0)

/-- What the launch element deals device `c`. -/
def G (m : (ℓ : Loc nD τ sig) → Buf (Elt F) ℓ) (c : Dev nD) : sProp 𝕄 :=
  iprop((bigSep Finset.univ fun k : Fin 8 => roundState ER (Rd m) (kcell (c, k)) 0)
    ∗ (bigSep Finset.univ fun k : Fin 8 => iprop(atPos ER (kcell (c, k)) 0 ∅ 0 ∗ reached ER (kcell (c, k)) 0)) ∗ toks c)

/-- What the global step makes of it. -/
def G' (m : (ℓ : Loc nD τ sig) → Buf (Elt F) ℓ) (c : Dev nD) : sProp 𝕄 := iprop(∃ K, ghost m K c)

omit [FloatOps F] in
theorem sep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem sep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
theorem bigSep_fin12 (Φ : Fin 12 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ
omit [FloatOps F] in
theorem sep_fin14 (Φ : Fin 14 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ

/-- The protocol's launch element pays out every device's share. -/
theorem fund_all (m : (ℓ : Loc nD τ sig) → Buf (Elt F) ℓ) :
    BI.own (ER (initOf allCells allToks)) ⊢ (|==> bigSep Finset.univ (G m) : sProp 𝕄) := by
  have hX (Φ : GSem nD τ sig → sProp 𝕄) :
      bigSep allCells Φ = bigSep Finset.univ fun c : Dev nD => bigSep Finset.univ fun k : Fin 8 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_fin12]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant, the record, the tokens dealt round the ring -/

omit [FloatOps F] in
/-- The entry barrier's semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's fifteen counters at zero: those of its eight cells, and those of the seven local copies. -/
theorem sems0_split (c : Dev nD) :
    iprop(Pipeline.ownSems0 (Ix := Unit) (Name := ℕ) (U := UU) (Lvl := ℕ) (Val := Elt F) (τ := τ) osem c ∗ unscopedSems0 c)
      ⊢ iprop((bigSep Finset.univ fun k : Fin 8 => semVal (kcell (c, k)) 0) ∗ localSems c : sProp 𝕄) := by
  unfold Pipeline.ownSems0 localSems
  rw [sep_fin14, unscopedSems0_eq, sep_fin8, sep_fin7]
  iintro ⟨⟨He, Hi0, Hi1, Hi2, Ho0, Ho1, Ho2, Hw, Hs0, Hs1, Hs2, Hr0, Hr1, Hr2⟩, Hb⟩
  isplitl [Hb He Hs0 Hs1 Hs2 Hr0 Hr1 Hr2]
  · isplitl [Hb]; · iexact Hb
    isplitl [He]; · iexact He
    isplitl [Hs0]; · iexact Hs0
    isplitl [Hs1]; · iexact Hs1
    isplitl [Hs2]; · iexact Hs2
    isplitl [Hr0]; · iexact Hr0
    isplitl [Hr1]; · iexact Hr1
    iexact Hr2
  · isplitl [Hi0]; · iexact Hi0
    isplitl [Hi1]; · iexact Hi1
    isplitl [Hi2]; · iexact Hi2
    isplitl [Ho0]; · iexact Ho0
    isplitl [Ho1]; · iexact Ho1
    isplitl [Ho2]; · iexact Ho2
    iexact Hw

/-- One device's cells get their invariants. -/
theorem core_alloc (m : (ℓ : Loc nD τ sig) → Buf (Elt F) ℓ) (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ localSems c) := by
  unfold G
  iintro ⟨Hos, Hus, Hst, Hat, Htok⟩
  ihave Hv := (sems0_split (F := F) c) $$ [Hos Hus]
  · isplitl [Hos] <;> iassumption
  icases Hv with ⟨Hv, Hloc⟩
  imod (show iprop((bigSep Finset.univ fun k : Fin 8 => semVal (kcell (c, k)) 0) ∗ bigSep Finset.univ fun k : Fin 8 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

/-- What stays with device `c`. -/
def linear (c : Dev nD) : sProp 𝕄 := iprop(positions c ∗ payToks c ∗ localSems c)

theorem ghost_intro (m : (ℓ : Loc nD τ sig) → Buf (Elt F) ℓ) (K : Dev nD × Fin 8 → ℕ) (c : Dev nD) :
    iprop(records m K ∗ linear c) ⊢ G' m c := by
  unfold G' linear
  iintro H
  iexists K
  unfold ghost
  iexact H

omit [FloatOps F] in
/-- The tokens dealt round the ring: duty `d` of a barrier cell goes `d` steps back, to the device that is `d` steps
    before the cell's owner; the duty of receive cell `j` goes `j + 1` steps back; the send cells' stay. -/
theorem toks_around : (bigSep Finset.univ fun c : Dev nD => (toks c : sProp 𝕄)) ⊢ bigSep Finset.univ fun c : Dev nD => payToks c := by
  unfold toks payToks
  simp only [bigSep_sep']
  rw [bigSep_univ_equiv (step 1) (fun c : Dev nD => (dutyTok ER (barCell c) 0 1 : sProp 𝕄)),
    bigSep_univ_equiv (step 2) (fun c : Dev nD => (dutyTok ER (barCell c) 0 2 : sProp 𝕄)),
    bigSep_univ_equiv (step 3) (fun c : Dev nD => (dutyTok ER (barCell c) 0 3 : sProp 𝕄)),
    bigSep_univ_equiv (step 1) (fun c : Dev nD => (dutyTok ER (endCell c) 0 1 : sProp 𝕄)),
    bigSep_univ_equiv (step 2) (fun c : Dev nD => (dutyTok ER (endCell c) 0 2 : sProp 𝕄)),
    bigSep_univ_equiv (step 3) (fun c : Dev nD => (dutyTok ER (endCell c) 0 3 : sProp 𝕄)),
    bigSep_univ_equiv (step 1) (fun c : Dev nD => (dutyTok ER (recvCell c 0) 0 0 : sProp 𝕄)),
    bigSep_univ_equiv (step 2) (fun c : Dev nD => (dutyTok ER (recvCell c 1) 0 0 : sProp 𝕄)),
    bigSep_univ_equiv (step 3) (fun c : Dev nD => (dutyTok ER (recvCell c 2) 0 0 : sProp 𝕄))]
  iintro ⟨B1, B2, B3, E1, E2, E3, S0, S1, S2, R0, R1, R2⟩
  isplitl [B1]; · iexact B1
  isplitl [B2]; · iexact B2
  isplitl [B3]; · iexact B3
  isplitl [R0]; · iexact R0
  isplitl [R1]; · iexact R1
  isplitl [R2]; · iexact R2
  isplitl [S0]; · iexact S0
  isplitl [S1]; · iexact S1
  isplitl [S2]; · iexact S2
  isplitl [E1]; · iexact E1
  isplitl [E2]; · iexact E2
  iexact E3

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  exact (sep_mono_left (BI.bigSep_of_persistent S R)).trans (by rw [← bigSep_sep']; exact bigSep_mono h)

omit [FloatOps F] in
/-- Every device's positions, paying tokens and local counters, device by device. -/
theorem linear_intro :
    iprop((bigSep Finset.univ fun c : Dev nD => bigSep Finset.univ fun k : Fin 8 => (atPos ER (kcell (c, k)) 0 ∅ 0 : sProp 𝕄))
        ∗ (bigSep Finset.univ fun c : Dev nD => (payToks c : sProp 𝕄)) ∗ bigSep Finset.univ fun c : Dev nD => (localSems c : sProp 𝕄))
      ⊢ (bigSep Finset.univ fun c : Dev nD => (linear c : sProp 𝕄)) := by
  unfold linear
  rw [bigSep_sep', bigSep_sep']
  iintro ⟨H1, H2, H3⟩
  isplitl [H1]; · iexact H1
  isplitl [H2] <;> iassumption

theorem regroup (m : (ℓ : Loc nD τ sig) → Buf (Elt F) ℓ) :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ localSems c) : sProp 𝕄)
      ⊢ bigSep Finset.univ (G' m) := by
  rw [bigSep_sep', bigSep_sep', bigSep_sep', ← bigSep_univ_prod (fun ck : Dev nD × Fin 8 => iprop(∃ κ : ℕ, cellInv ER (Rd m) κ (kcell ck))),
    bigSep_congr (s := Finset.univ) (fun (c : Dev nD) _ => bigSep_sep' Finset.univ (fun k : Fin 8 => (atPos ER (kcell (c, k)) 0 ∅ 0 : sProp 𝕄)) (fun k => reached ER (kcell (c, k)) 0)),
    bigSep_sep', ← bigSep_univ_prod (fun ck : Dev nD × Fin 8 => (reached ER (kcell ck) 0 : sProp 𝕄))]
  iintro ⟨HI, ⟨Hat, #HR⟩, Htok, Hloc⟩
  ihave HK := (BI.bigSep_exists_pi Finset.univ (fun (ck : Dev nD × Fin 8) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (linear_intro (F := F))
    isplitl [Hat]; · iexact Hat
    isplitl [Htk] <;> iassumption

/-- The global step: the own and the unscoped semaphores of every device at once. -/
theorem glob (m : (ℓ : Loc nD τ sig) → Buf (Elt F) ℓ) :
    (bigSep Finset.univ fun c => iprop(Pipeline.ownSems0 (Ix := Unit) (Name := ℕ) (U := UU) (Lvl := ℕ) (Val := Elt F) (τ := τ) osem c ∗ unscopedSems0 c ∗ G m c) : sProp 𝕄)
      ⊢ |={Set.univ}=> bigSep Finset.univ (G' m) := by
  exact ((bigSep_mono fun c _ => core_alloc m c).trans (bigSep_fupd _ _)).trans (BI.fupd_mono (regroup m))

/-! ## The launch credit -/

/-- Stepping `4 - k` and then `k` round the ring of four comes back, either way round. -/
theorem peer_back (k : ℕ) (hk : k ≤ 4) (c : Dev nD) : peer (peer c (4 - k)) k = c := by
  rw [peer_peer, show 4 - k + k = 4 by omega]; exact peer_four c
theorem peer_forth (k : ℕ) (hk : k ≤ 4) (d : Dev nD) : peer (peer d k) (4 - k) = d := by
  rw [peer_peer, show k + (4 - k) = 4 by omega]; exact peer_four d

omit [FloatOps F] in
/-- Three units owed to one cell are one credit of three. -/
theorem cred3 (g : GSem nD τ sig) :
    iprop(cred (tallyAt g () 1) ∗ cred (tallyAt g () 1) ∗ cred (tallyAt g () 1)) ⊢ (cred (tallyAt g () 3) : sProp 𝕄) := by
  have e : (tallyAt g () 3 : CellTallies nD τ sig Unit) = tallyAt g () 1 + (tallyAt g () 1 + tallyAt g () 1) := by
    rw [tallyAt_add, tallyAt_add]
  rw [e]
  iintro ⟨H1, H2, H3⟩
  iapply (cred_add _ _).2
  isplitl [H1]; · iexact H1
  iapply (cred_add _ _).2
  isplitl [H2] <;> iassumption

omit [FloatOps F] in
/-- Device `c`'s entry and exit barriers are owed a unit by each of the three other devices of its ring, its receive
    cell `j` a slot's credit by the one device that writes it. -/
theorem creds (c : Dev nD) :
    (Pipeline.launchCred O₁ c : sProp 𝕄) ⊢ iprop(cred (tallyAt (barCell c) () 3) ∗ cred (tallyAt (recvCell c 0) () N)
      ∗ cred (tallyAt (recvCell c 1) () N) ∗ cred (tallyAt (recvCell c 2) () N) ∗ cred (tallyAt (endCell c) () 3)) := by
  have hb (k : ℕ) (hk : k ≤ 4) (n : ℕ) (sm : SemLoc sig) :
      (Pipeline.launchCred (fun d : Dev nD => (tallyAt (((peer d k : Dev nD) : Thread nD τ), sm) () n : CellTallies nD τ sig Unit)) c : sProp 𝕄)
        ⊢ cred (tallyAt ((c : Thread nD τ), sm) () n) :=
    Pipeline.launchCred_tallyAt sm (fun d => peer d k) (fun d => peer d (4 - k)) (peer_back k hk) (peer_forth k hk) () n c
  have e : (O₁ : Dev nD → CellTallies nD τ sig Unit) = fun d =>
      tallyAt (endCell (peer d 3)) () 1 + tallyAt (endCell (peer d 2)) () 1 + tallyAt (endCell (peer d 1)) () 1
      + tallyAt (recvCell (peer d 3) 2) () N + tallyAt (recvCell (peer d 2) 1) () N + tallyAt (recvCell (peer d 1) 0) () N
      + tallyAt (barCell (peer d 3)) () 1 + tallyAt (barCell (peer d 2)) () 1 + tallyAt (barCell (peer d 1)) () 1 := rfl
  rw [e]
  simp only [Pipeline.launchCred_add]
  iintro ⟨⟨⟨⟨⟨⟨⟨⟨E3, E2⟩, E1⟩, R2⟩, R1⟩, R0⟩, B3⟩, B2⟩, B1⟩
  ihave B1' := (hb 1 (by decide) 1 (.reg barS)) $$ B1
  ihave B2' := (hb 2 (by decide) 1 (.reg barS)) $$ B2
  ihave B3' := (hb 3 (by decide) 1 (.reg barS)) $$ B3
  ihave E1' := (hb 1 (by decide) 1 (.reg endS)) $$ E1
  ihave E2' := (hb 2 (by decide) 1 (.reg endS)) $$ E2
  ihave E3' := (hb 3 (by decide) 1 (.reg endS)) $$ E3
  ihave R0' := (hb 1 (by decide) N (.dma (recvS 0))) $$ R0
  ihave R1' := (hb 2 (by decide) N (.dma (recvS 1))) $$ R1
  ihave R2' := (hb 3 (by decide) N (.dma (recvS 2))) $$ R2
  isplitl [B1' B2' B3']
  · iapply (cred3 (F := F) (barCell c))
    isplitl [B1']; · iexact B1'
    isplitl [B2'] <;> iassumption
  isplitl [R0']; · iexact R0'
  isplitl [R1']; · iexact R1'
  isplitl [R2']; · iexact R2'
  iapply (cred3 (F := F) (endCell c))
  isplitl [E1']; · iexact E1'
  isplitl [E2'] <;> iassumption

/-! ## The theorem's side conditions -/

/-- What a device routes into the body's invariant: the protocol's start and the two arrays as launched. -/
def atEntry (m : (ℓ : Loc nD τ sig) → Buf (Elt F) ℓ) (c : Dev nD) : sProp 𝕄 :=
  iprop(start m c ∗ pts xM c (X m c) ∗ pts oM c (m ((c : Thread nD τ).loc main_v1)))
/-- What it keeps after the body: `x` as it was and the result assembled. -/
def atExit (m : (ℓ : Loc nD τ sig) → Buf (Elt F) ℓ) (c : Dev nD) : sProp 𝕄 :=
  iprop(pts xM c (X m c) ∗ pts oM c (OUT m c))
/-- What the final memory then shows on device `c`. -/
def QY (m : (ℓ : Loc nD τ sig) → Buf (Elt F) ℓ) (c : Dev nD) (s : MemSt nD τ sig (Elt F)) : Prop :=
  s.mem ((c : Thread nD τ).loc main_v1) = OUT m c ∧ s.mem ((c : Thread nD τ).loc main_arg0) = m ((c : Thread nD τ).loc main_arg0)

/-! A points-to through a whole-buffer memref is the buffer's plain points-to. -/

omit [FloatOps F] in
theorem xM_whole_set : (xM).view.set = Finset.univ := View.set_whole _
omit [FloatOps F] in
theorem oM_whole_set : (oM).view.set = Finset.univ := View.set_whole _
omit [FloatOps F] in
theorem xsM_set : (xsM).view.set = Finset.univ := View.set_whole _
omit [FloatOps F] in
theorem sbM_set : (sbM).view.set = Finset.univ := View.set_whole _
omit [FloatOps F] in
theorem rbM_set : (rbM).view.set = Finset.univ := View.set_whole _

omit [FloatOps F] in
theorem pts_xM (c : Dev nD) (f : Buf (Elt F) ((c : Thread nD τ).loc main_arg0)) :
    pts xM c f = (((c : Thread nD τ).loc main_arg0) ↦{fullShare} f : sProp 𝕄) := by unfold pts; rw [xM_whole_set]
omit [FloatOps F] in
theorem pts_oM (c : Dev nD) (f : Buf (Elt F) ((c : Thread nD τ).loc main_v1)) :
    pts oM c f = (((c : Thread nD τ).loc main_v1) ↦{fullShare} f : sProp 𝕄) := by unfold pts; rw [oM_whole_set]
omit [FloatOps F] in
theorem pts_xsM (c : Dev nD) (f : Buf (Elt F) ((c : Thread nD τ).loc cc0_scratch0)) :
    pts xsM c f = (((c : Thread nD τ).loc cc0_scratch0) ↦{fullShare} f : sProp 𝕄) := by unfold pts; rw [xsM_set]
omit [FloatOps F] in
theorem pts_sbM (c : Dev nD) (f : Buf (Elt F) ((c : Thread nD τ).loc cc0_scratch1)) :
    pts sbM c f = (((c : Thread nD τ).loc cc0_scratch1) ↦{fullShare} f : sProp 𝕄) := by unfold pts; rw [sbM_set]
omit [FloatOps F] in
theorem pts_rbM (c : Dev nD) (f : Buf (Elt F) ((c : Thread nD τ).loc cc0_scratch2)) :
    pts rbM c f = (((c : Thread nD τ).loc cc0_scratch2) ↦{fullShare} f : sProp 𝕄) := by unfold pts; rw [rbM_set]

omit [FloatOps F] in
theorem pts_xsM_ex (c : Dev nD) :
    iprop(∃ f, pts xsM c f) = (iprop(∃ f : Buf (Elt F) ((c : Thread nD τ).loc cc0_scratch0), ((c : Thread nD τ).loc cc0_scratch0) ↦{fullShare} f) : sProp 𝕄) :=
  by simp only [pts_xsM]
omit [FloatOps F] in
theorem pts_sbM_ex (c : Dev nD) :
    iprop(∃ f, pts sbM c f) = (iprop(∃ f : Buf (Elt F) ((c : Thread nD τ).loc cc0_scratch1), ((c : Thread nD τ).loc cc0_scratch1) ↦{fullShare} f) : sProp 𝕄) :=
  by simp only [pts_sbM]
omit [FloatOps F] in
theorem pts_rbM_ex (c : Dev nD) :
    iprop(∃ f, pts rbM c f) = (iprop(∃ f : Buf (Elt F) ((c : Thread nD τ).loc cc0_scratch2), ((c : Thread nD τ).loc cc0_scratch2) ↦{fullShare} f) : sProp 𝕄) :=
  by simp only [pts_rbM]

theorem start_intro (m : (ℓ : Loc nD τ sig) → Buf (Elt F) ℓ) (ρ : Dev nD → PrngReg) (c : Dev nD) :
    iprop(Pipeline.unscopedRestP Pipeline.Prefetch.none cfg0.spec c (fun b => m ((c : Thread nD τ).loc b)) ∗ levAts L lv
        ∗ Pipeline.launchCred O₁ c ∗ prngReg c (ρ c) ∗ G' m c)
      ⊢ |={Set.univ}=> iprop(atEntry m c ∗ emp) := by
  rw [Pipeline.unscopedRestP_none, unscopedRest0_eq]
  unfold atEntry start G'
  rw [pts_xM, pts_oM]
  iintro ⟨⟨Hx, Ho⟩, Hlev, Hcr, -, HG⟩
  ihave Hc := (creds (F := F) c) $$ Hcr
  icases Hc with ⟨Hb, H0, H1, H2, He⟩
  imodintro
  isplitl
  · isplitl [HG Hb H0 H1 H2 He Hlev]
    · isplitl [HG]; · iexact HG
      isplitl [Hb]; · iexact Hb
      isplitl [H0]; · iexact H0
      isplitl [H1]; · iexact H1
      isplitl [H2]; · iexact H2
      isplitl [He]; · iexact He
      iexact Hlev
    · isplitl [Hx]; · iexact Hx
      iexact Ho
  · iempintro

theorem phi0_intro (m : (ℓ : Loc nD τ sig) → Buf (Elt F) ℓ) (c : Dev nD) :
    iprop(atEntry m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ atEntry bufs0
  rw [pts_xsM_ex, pts_sbM_ex, pts_rbM_ex]
  iintro ⟨⟨Hs, Hx, Ho⟩, -, H0, H1, H2⟩
  isplitl [Hs]; · iexact Hs
  isplitl [Hx]; · iexact Hx
  isplitl [Ho]; · iexact Ho
  isplitl [H0]; · iexact H0
  isplitl [H1] <;> iassumption

theorem phi1_exit (m : (ℓ : Loc nD τ sig) → Buf (Elt F) ℓ) (c : Dev nD) :
    (dats m 0 c).Φ (Fin.last cfg0.N) ⊢ iprop(atExit m c ∗ Pipeline.ownSems0 osem c ∗ Pipeline.scopedRest cfg0.spec c) := by
  rw [show (dats m 0 c).Φ (Fin.last cfg0.N) = Φ₁ m c from rfl, scopedRest0_eq]
  unfold Φ₁ bufs1 atExit Pipeline.ownSems0
  rw [pts_xsM_ex, pts_sbM_ex, pts_rbM_ex]
  iintro ⟨⟨Hx, Ho, H0, H1, H2⟩, Hs⟩
  isplitl [Hx Ho]
  · isplitl [Hx] <;> iassumption
  isplitl [Hs]; · iexact Hs
  isplitl [H0]; · iexact H0
  isplitl [H1] <;> iassumption

/-- No window, so no staging cell the pipeline waits on. -/
theorem waits (m : (ℓ : Loc nD τ sig) → Buf (Elt F) ℓ) (c : Dev nD) :
    (levAts L lv : sProp 𝕄) ⊢ Pipeline.cellsWaits cfgs (dats m) () 0 c :=
  Pipeline.cellsWaits_intro cfgs (dats m) () 0 c fun w => w.elim0

/-- The two arrays' points-to facts against the final state: the memory holds their contents. -/
theorem read_exit (m : (ℓ : Loc nD τ sig) → Buf (Elt F) ℓ) (c : Dev nD) (s' : Phys nD τ sig (Elt F)) :
    iprop(atExit m c ∗ emp ∗ SI s') ⊢ |={Set.univ}=> iprop(⌜QY m c s'.mem⌝ ∗ SI s' : sProp 𝕄) := by
  unfold atExit
  rw [pts_xM, pts_oM]
  iintro ⟨⟨Hx, Ho⟩, -, HSI⟩
  icombine HSI Hx gives %hx
  icombine HSI Ho gives %ho
  imodintro
  isplitr
  · ipureintro; exact ⟨Buf.eq_of_forall_mem_univ ho, Buf.eq_of_forall_mem_univ hx⟩
  iexact HSI

/-! ## The run -/

set_option maxRecDepth 8000 in
/-- On the mesh of sixteen devices, at any float values, from any memory with every counter at zero: every weakly fair
    execution of @main — each z ring of four devices meeting at the entry barrier, exchanging its column blocks and
    meeting again at the exit barrier — terminates, and every final state has each device's result assembled and its
    block of `x` as it was. -/
theorem run_main (m : (ℓ : Loc nD τ sig) → Buf (Elt F) ℓ) (ρ : Dev nD → PrngReg) :
    θ_run defs (onTc (τ := τ) (main (F := F))) (s₀ m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₁) (howed₀ := fun _ => rfl) (howedN := fun _ => rfl)
    (L := L) (lv := lv) (hL := fun g h => if_neg h) (hwaits := waits m)
    (G := G m) (G' := G' m) (u₀ := u₀)
    (hu₀ := by
      unfold u₀
      iintro Hu
      ihave H := (ownU_pair _ _) $$ Hu
      icases H with ⟨HP, HX⟩
      ihave H2 := (own_pair_emb embR _ _) $$ HX
      icases H2 with ⟨HR, -⟩
      imod (fund_all m) $$ HR with HG
      imodintro
      isplitl [HP] <;> iassumption)
    (hglob := glob m)
    (hA := fun _ w => w.elim0) (hpf := fun _ k => k.elim0)
    (X := atEntry m) (Y := atExit m) (Z := fun _ => iprop(emp))
    (hX := start_intro m ρ) (hin := phi0_intro m) (hout := phi1_exit m)
    (QY := QY m)
    (hY := read_exit m)
    (hQ := fun _ h c => (h c).2.2)

/-- info: 'Cert.KernelIdeal.A2A.run_main' depends on axioms: [propext, Classical.choice, Quot.sound] -/
#guard_msgs in #print axioms run_main

end Cert.KernelIdeal.A2A

end
-- ==== Proof.KMesh.lean ====
/-
  The z-ring of the 2×2×4 mesh, as arithmetic on a device's logical id.

  Device `c` sits at mesh coordinates (c / 8, c / 4 % 2, c % 4). The kernel only ever talks to the three devices that
  share its x and y coordinates: `peer c d` is the one `d` steps further round the z axis. The printed device
  chains (`k0_dev1 … k0_dev9`) and the printed column / row offsets of the transfers (`k0_off1`, `k0_off4`) are
  given here in closed form over that arithmetic, each decided once over the sixteen devices.
-/
import proofs.«900644_g7700000000000645_dist_a2a_v7x_xyz2x2x4_z_m2048_n512_f32_1_alg».proof.Proof.Gen.Kernel

set_option Elab.async false

namespace Cert.Kernel.A2A

open Cert.Kernel Cert.Kernel.Gen
open Idealize.ShloMosaic Idealize.SL.Sem

/-- The device with `c`'s x and y coordinates whose z coordinate is `c`'s plus `d`, modulo 4. -/
def peer (c : Dev nD) (d : ℕ) : Dev nD :=
  ⟨c.val / 4 * 4 + (c.val % 4 + d) % 4, by have := c.isLt; simp only [nD] at this ⊢; omega⟩

theorem peer_val (c : Dev nD) (d : ℕ) : (peer c d).val = c.val / 4 * 4 + (c.val % 4 + d) % 4 := rfl

/-- Going `a` steps and then `b` steps is going `a + b` steps. -/
theorem peer_peer (c : Dev nD) (a b : ℕ) : peer (peer c a) b = peer c (a + b) := by
  apply Fin.ext; simp only [peer_val]; have := c.isLt; simp only [nD] at this; omega

theorem peer_zero (c : Dev nD) : peer c 0 = c := by
  apply Fin.ext; simp only [peer_val]; omega

theorem peer_four (c : Dev nD) : peer c 4 = c := by
  apply Fin.ext; simp only [peer_val]; omega

theorem peer_mod (c : Dev nD) (d : ℕ) : peer c (d % 4) = peer c d := by
  apply Fin.ext; simp only [peer_val]; omega

/-- The z coordinate of a peer. -/
theorem peer_z (c : Dev nD) (d : ℕ) : (peer c d).val % 4 = (c.val % 4 + d) % 4 := by
  simp only [peer_val]; omega

/-- The x, y coordinates of a peer are `c`'s. -/
theorem peer_xy (c : Dev nD) (d : ℕ) : (peer c d).val / 4 = c.val / 4 := by
  simp only [peer_val]; omega

theorem peer_ne (c : Dev nD) (d : ℕ) (h : d % 4 ≠ 0) : peer c d ≠ c := by
  intro e; have := congrArg Fin.val e; simp only [peer_val] at this; omega

theorem peer_inj_steps (c : Dev nD) (a b : ℕ) (h : peer c a = peer c b) : a % 4 = b % 4 := by
  have := congrArg Fin.val h; simp only [peer_val] at this; omega

/-- Stepping by `d` is a permutation of the devices, undone by stepping `4 - d % 4`. -/
def step (d : ℕ) : Dev nD ≃ Dev nD where
  toFun c := peer c d
  invFun c := peer c (4 - d % 4)
  left_inv c := by show peer (peer c d) (4 - d % 4) = c; rw [peer_peer]; apply Fin.ext; simp only [peer_val]; have := c.isLt; simp only [nD] at this; omega
  right_inv c := by show peer (peer c (4 - d % 4)) d = c; rw [peer_peer]; apply Fin.ext; simp only [peer_val]; have := c.isLt; simp only [nD] at this; omega

theorem step_apply (d : ℕ) (c : Dev nD) : step d c = peer c d := rfl
theorem step_symm_apply (d : ℕ) (c : Dev nD) : (step d).symm c = peer c (4 - d % 4) := rfl

/-! ## The printed device chains -/

theorem dev1_val : ∀ c : Dev nD, k0_dev1 c = (peer c 1).val := by decide +kernel
theorem dev2_val : ∀ c : Dev nD, k0_dev2 c = (peer c 2).val := by decide +kernel
theorem dev3_val : ∀ c : Dev nD, k0_dev3 c = (peer c 3).val := by decide +kernel
theorem dev4_val : ∀ c : Dev nD, k0_dev4 c = (peer c 1).val := by decide +kernel
theorem dev5_val : ∀ c : Dev nD, k0_dev5 c = (peer c 2).val := by decide +kernel
theorem dev6_val : ∀ c : Dev nD, k0_dev6 c = (peer c 3).val := by decide +kernel
theorem dev7_val : ∀ c : Dev nD, k0_dev7 c = (peer c 1).val := by decide +kernel
theorem dev8_val : ∀ c : Dev nD, k0_dev8 c = (peer c 2).val := by decide +kernel
theorem dev9_val : ∀ c : Dev nD, k0_dev9 c = (peer c 3).val := by decide +kernel

/-- The entry handshake's three signals go to the devices one, two and three steps on; -/
theorem dev1_eq (c : Dev nD) : (⟨k0_dev1 c, k0_dev1_lt c⟩ : Dev nD) = peer c 1 := Fin.ext (dev1_val c)
theorem dev2_eq (c : Dev nD) : (⟨k0_dev2 c, k0_dev2_lt c⟩ : Dev nD) = peer c 2 := Fin.ext (dev2_val c)
theorem dev3_eq (c : Dev nD) : (⟨k0_dev3 c, k0_dev3_lt c⟩ : Dev nD) = peer c 3 := Fin.ext (dev3_val c)
/-- the three remote copies likewise; -/
theorem dev4_eq (c : Dev nD) : (⟨k0_dev4 c, k0_dev4_lt c⟩ : Dev nD) = peer c 1 := Fin.ext (dev4_val c)
theorem dev5_eq (c : Dev nD) : (⟨k0_dev5 c, k0_dev5_lt c⟩ : Dev nD) = peer c 2 := Fin.ext (dev5_val c)
theorem dev6_eq (c : Dev nD) : (⟨k0_dev6 c, k0_dev6_lt c⟩ : Dev nD) = peer c 3 := Fin.ext (dev6_val c)
/-- and the exit handshake's three signals. -/
theorem dev7_eq (c : Dev nD) : (⟨k0_dev7 c, k0_dev7_lt c⟩ : Dev nD) = peer c 1 := Fin.ext (dev7_val c)
theorem dev8_eq (c : Dev nD) : (⟨k0_dev8 c, k0_dev8_lt c⟩ : Dev nD) = peer c 2 := Fin.ext (dev8_val c)
theorem dev9_eq (c : Dev nD) : (⟨k0_dev9 c, k0_dev9_lt c⟩ : Dev nD) = peer c 3 := Fin.ext (dev9_val c)

/-! ## The printed offsets -/

/-- The column block of `x` that is copied out for the device `w` steps on starts at column `512 · ((z + w) mod 4)`. -/
theorem off1_1 : ∀ c : Dev nD, k0_off1 c 1#32 = ![0, 512 * ((c.val % 4 + 1) % 4)] := by decide +kernel
theorem off1_2 : ∀ c : Dev nD, k0_off1 c 2#32 = ![0, 512 * ((c.val % 4 + 2) % 4)] := by decide +kernel
theorem off1_3 : ∀ c : Dev nD, k0_off1 c 3#32 = ![0, 512 * ((c.val % 4 + 3) % 4)] := by decide +kernel

/-- What arrived from the device `w` steps back goes to the row block `2048 · ((z - w) mod 4)` of the result. -/
theorem off4_1 : ∀ c : Dev nD, k0_off4 c 1#32 = ![2048 * ((c.val % 4 + 3) % 4), 0] := by decide +kernel
theorem off4_2 : ∀ c : Dev nD, k0_off4 c 2#32 = ![2048 * ((c.val % 4 + 2) % 4), 0] := by decide +kernel
theorem off4_3 : ∀ c : Dev nD, k0_off4 c 3#32 = ![2048 * ((c.val % 4 + 1) % 4), 0] := by decide +kernel

end Cert.Kernel.A2A
-- ==== Proof.KSched.lean ====
/-
  The all-to-all's protocol as a rounds schedule, and the names of everything it moves.

  Every device `c` holds a row block of `x` (2048 × 2048) and must end with a column block of the whole array
  (8192 × 512). It keeps its own 2048 × 512 piece by a local copy, and for each of the three other devices of its
  z ring — `peer c (j+1)`, `j = 0, 1, 2` — it copies that device's column block into slot `j` of a staging buffer,
  narrows it to bf16 into slot `j` of a send buffer, and transfers that slot into slot `j` of the peer's receive
  buffer; what lands in its own receive slot `j` came from `peer c (3 - j)`, is widened back and copied into the
  result's row block of that device.

  Semaphore cells under the rounds discipline, one round each:
  * the entry barrier (the runtime's semaphore): three duties `d = 1, 2, 3`, one unit each; duty `d` of `c`'s cell is
    the `d`-th signal of `peer c (4 - d)` and hands `c` that device's receive slot `3 - d` (the slot `c` will write)
    together with the fact that the slot's receive cell is at round 0;
  * receive cell `j`: one duty, the transfer from `peer c (3 - j)`, handing over slot `j` holding what was sent;
  * send cell `j`: one duty, the same transfer seen from its source, handing the send slot back;
  * the exit barrier (a scoped semaphore): three unit duties carrying nothing.
  The seven semaphores of the purely local copies are not cells: they stay counters at zero.
-/
import proofs.«900644_g7700000000000645_dist_a2a_v7x_xyz2x2x4_z_m2048_n512_f32_1_alg».proof.Proof.KMesh
import proofs.«900644_g7700000000000645_dist_a2a_v7x_xyz2x2x4_z_m2048_n512_f32_1_alg».proof.Proof.Gen.Kernel.Skeleton
import proofs.«900644_g7700000000000645_dist_a2a_v7x_xyz2x2x4_z_m2048_n512_f32_1_alg».proof.Proof.Gen.Kernel.Launch
import Idealize.ShloMosaic.Lib.Pipeline.Launch
import Idealize.ShloMosaic.Lib.Pipeline.Kit
import Idealize.ShloMosaic.Lib.Tactic

noncomputable section

namespace Cert.Kernel.A2A

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy, the protocol's (duties `Fin 4`) and the counters' -/

abbrev UB : Type := URounds (GSem nD τ sig) (Fin 4)
/-- with a copy of the counters' algebra, from which the local copies' invariants take their tokens. -/
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

variable (m : (ℓ : Loc nD τ sig) → Buf (Elt F) ℓ) (ρ : Dev nD → PrngReg)

def s₀ : MemSt nD τ sig (Elt F) := ⟨m, fun _ => 0, ρ⟩

/-! ## Semaphores and cells -/

abbrev barS : Sem sig := (SemArray.scalar (sig.barrier 0 rfl) : Sems sig S_).sem
abbrev endS : Sem sig := (cc0_scoped0 : Sems sig S_).sem
abbrev inS : Fin 3 → DmaSem sig | 0 => 0 | 1 => 1 | 2 => 2
abbrev outS : Fin 3 → DmaSem sig | 0 => 3 | 1 => 4 | 2 => 5
abbrev ownS : DmaSem sig := 6
abbrev sendS : Fin 3 → DmaSem sig | 0 => 7 | 1 => 8 | 2 => 9
abbrev recvS : Fin 3 → DmaSem sig | 0 => 10 | 1 => 11 | 2 => 12

abbrev barCell (c : Dev nD) : GSem nD τ sig := ((c : Thread nD τ), .reg barS)
abbrev endCell (c : Dev nD) : GSem nD τ sig := ((c : Thread nD τ), .reg endS)
abbrev sendCell (c : Dev nD) (j : Fin 3) : GSem nD τ sig := ((c : Thread nD τ), .dma (sendS j))
abbrev recvCell (c : Dev nD) (j : Fin 3) : GSem nD τ sig := ((c : Thread nD τ), .dma (recvS j))

/-- The eight cells of a device under the rounds discipline: the two barriers, three send cells, three receive cells. -/
abbrev csem : Fin 8 → SemLoc sig
  | 0 => .reg barS | 1 => .reg endS
  | 2 => .dma (sendS 0) | 3 => .dma (sendS 1) | 4 => .dma (sendS 2)
  | 5 => .dma (recvS 0) | 6 => .dma (recvS 1) | 7 => .dma (recvS 2)
abbrev kcell (ck : Dev nD × Fin 8) : GSem nD τ sig := ((ck.1 : Thread nD τ), csem ck.2)

/-- The seven semaphores of the local copies. -/
abbrev lsem : Fin 7 → SemLoc sig
  | 0 => .dma (inS 0) | 1 => .dma (inS 1) | 2 => .dma (inS 2)
  | 3 => .dma (outS 0) | 4 => .dma (outS 1) | 5 => .dma (outS 2) | 6 => .dma ownS

/-- The kernel's own (scoped) semaphores, as the launch indexes them: the exit barrier, then the thirteen DMA semaphores. -/
abbrev osem : Fin 14 → SemLoc sig
  | 0 => .reg endS
  | 1 => .dma 0 | 2 => .dma 1 | 3 => .dma 2 | 4 => .dma 3 | 5 => .dma 4 | 6 => .dma 5 | 7 => .dma 6
  | 8 => .dma 7 | 9 => .dma 8 | 10 => .dma 9 | 11 => .dma 10 | 12 => .dma 11 | 13 => .dma 12

/-! ## Memrefs -/

abbrev xM : Memref sig .tc .hbm S2048x2048 .f32 := Memref.whole main_arg0
abbrev oM : Memref sig .tc .hbm S8192x512 .f32 := Memref.whole main_v1
abbrev xsM : Memref sig .tc .vmem S3x2048x512 .f32 := Memref.whole cc0_scratch0
abbrev sbM : Memref sig .tc .vmem S3x2048x512 .bf16 := Memref.whole cc0_scratch1
abbrev rbM : Memref sig .tc .vmem S3x2048x512 .bf16 := Memref.whole cc0_scratch2

/-- The rectangle of slot `j` in a three-slot buffer. -/
abbrev slotR : Fin 3 → Rect S3x2048x512
  | 0 => Rect.unit (s := S3x2048x512) ![0, 0, 0] S1x2048x512.size Facts₀.inb_S3x2048x512_S1x2048x512_0_0_0
  | 1 => Rect.unit (s := S3x2048x512) ![1, 0, 0] S1x2048x512.size Facts₀.inb_S3x2048x512_S1x2048x512_1_0_0
  | 2 => Rect.unit (s := S3x2048x512) ![2, 0, 0] S1x2048x512.size Facts₀.inb_S3x2048x512_S1x2048x512_2_0_0

/-- Slot `j` of the staging, send and receive buffers, as the kernel's `ref.at[j]` spells it. -/
abbrev xsSlot : Fin 3 → Memref sig .tc .vmem S2048x512 .f32
  | 0 => ((xsM).slice (Rect.unit (s := S3x2048x512) ![0, 0, 0] S1x2048x512.size Facts₀.inb_S3x2048x512_S1x2048x512_0_0_0) (fun _ => rfl)).squeeze S2048x512 Facts₀.squeezes_S1x2048x512_S2048x512
  | 1 => ((xsM).slice (Rect.unit (s := S3x2048x512) ![1, 0, 0] S1x2048x512.size Facts₀.inb_S3x2048x512_S1x2048x512_1_0_0) (fun _ => rfl)).squeeze S2048x512 Facts₀.squeezes_S1x2048x512_S2048x512
  | 2 => ((xsM).slice (Rect.unit (s := S3x2048x512) ![2, 0, 0] S1x2048x512.size Facts₀.inb_S3x2048x512_S1x2048x512_2_0_0) (fun _ => rfl)).squeeze S2048x512 Facts₀.squeezes_S1x2048x512_S2048x512
abbrev sbSlot : Fin 3 → Memref sig .tc .vmem S2048x512 .bf16
  | 0 => ((sbM).slice (Rect.unit (s := S3x2048x512) ![0, 0, 0] S1x2048x512.size Facts₀.inb_S3x2048x512_S1x2048x512_0_0_0) (fun _ => rfl)).squeeze S2048x512 Facts₀.squeezes_S1x2048x512_S2048x512
  | 1 => ((sbM).slice (Rect.unit (s := S3x2048x512) ![1, 0, 0] S1x2048x512.size Facts₀.inb_S3x2048x512_S1x2048x512_1_0_0) (fun _ => rfl)).squeeze S2048x512 Facts₀.squeezes_S1x2048x512_S2048x512
  | 2 => ((sbM).slice (Rect.unit (s := S3x2048x512) ![2, 0, 0] S1x2048x512.size Facts₀.inb_S3x2048x512_S1x2048x512_2_0_0) (fun _ => rfl)).squeeze S2048x512 Facts₀.squeezes_S1x2048x512_S2048x512
abbrev rbSlot : Fin 3 → Memref sig .tc .vmem S2048x512 .bf16
  | 0 => ((rbM).slice (Rect.unit (s := S3x2048x512) ![0, 0, 0] S1x2048x512.size Facts₀.inb_S3x2048x512_S1x2048x512_0_0_0) (fun _ => rfl)).squeeze S2048x512 Facts₀.squeezes_S1x2048x512_S2048x512
  | 1 => ((rbM).slice (Rect.unit (s := S3x2048x512) ![1, 0, 0] S1x2048x512.size Facts₀.inb_S3x2048x512_S1x2048x512_1_0_0) (fun _ => rfl)).squeeze S2048x512 Facts₀.squeezes_S1x2048x512_S2048x512
  | 2 => ((rbM).slice (Rect.unit (s := S3x2048x512) ![2, 0, 0] S1x2048x512.size Facts₀.inb_S3x2048x512_S1x2048x512_2_0_0) (fun _ => rfl)).squeeze S2048x512 Facts₀.squeezes_S1x2048x512_S2048x512

/-- The column block of `x` destined for `peer c (j+1)`; the device's own column block; -/
abbrev colM (c : Dev nD) : Fin 3 → Memref sig .tc .hbm S2048x512 .f32
  | 0 => (xM).slice (Rect.unit (s := S2048x2048) (k0_off1 c 1#32) S2048x512.size (Facts₀.k0_off1_inb c 0)) (fun _ => rfl)
  | 1 => (xM).slice (Rect.unit (s := S2048x2048) (k0_off1 c 2#32) S2048x512.size (Facts₀.k0_off1_inb c 1)) (fun _ => rfl)
  | 2 => (xM).slice (Rect.unit (s := S2048x2048) (k0_off1 c 3#32) S2048x512.size (Facts₀.k0_off1_inb c 2)) (fun _ => rfl)
abbrev ownSrcM (c : Dev nD) : Memref sig .tc .hbm S2048x512 .f32 :=
  (xM).slice (Rect.unit (s := S2048x2048) (k0_off3 c) S2048x512.size (Facts₀.k0_off3_inb c)) (fun _ => rfl)
/-- the result's own row block, and the row block of the device `j + 1` steps back. -/
abbrev ownDstM (c : Dev nD) : Memref sig .tc .hbm S2048x512 .f32 :=
  (oM).slice (Rect.unit (s := S8192x512) (k0_off2 c) S2048x512.size (Facts₀.k0_off2_inb c)) (fun _ => rfl)
abbrev rowM (c : Dev nD) : Fin 3 → Memref sig .tc .hbm S2048x512 .f32
  | 0 => (oM).slice (Rect.unit (s := S8192x512) (k0_off4 c 1#32) S2048x512.size (Facts₀.k0_off4_inb c 0)) (fun _ => rfl)
  | 1 => (oM).slice (Rect.unit (s := S8192x512) (k0_off4 c 2#32) S2048x512.size (Facts₀.k0_off4_inb c 1)) (fun _ => rfl)
  | 2 => (oM).slice (Rect.unit (s := S8192x512) (k0_off4 c 3#32) S2048x512.size (Facts₀.k0_off4_inb c 2)) (fun _ => rfl)

/-- A transfer's credit: a 2048 × 512 bf16 slot. -/
abbrev N : ℕ := (rbSlot 0).view.dmaCredit

/-! ## Points-to through a memref -/

/-- The elements under a memref's view on device `c`, owned outright, the buffer's contents there `f`. -/
abbrev pts {sp : Space} {S : Shape} {e : EltTy} (M : Memref sig .tc sp S e) (c : Dev nD)
    (f : Buf (Elt F) (M.view.loc (c : Thread nD τ))) : sProp 𝕄 :=
  M.view.loc (c : Thread nD τ) ↦[M.view.set]{fullShare} f

/-! ## What each buffer holds along the way

Each is a whole-buffer contents with arbitrary values off the part that matters; a points-to over a part of a buffer
only reads its contents there. -/

/-- Contents nobody reads. -/
def junkB (ty : BufTy) : ty.Contents (Elt F) := fun _ => Classical.arbitrary _

/-- Device `c`'s row block of `x`. -/
def X (c : Dev nD) : Buf (Elt F) ((c : Thread nD τ).loc main_arg0) := m ((c : Thread nD τ).loc main_arg0)

/-- The narrowing and the widening of a slot, as the body computes them (the three unrolled trips print three copies of one function). -/
abbrev payT : Fin 3 → Vec F S1x2048x512 .f32 → FVec F S1x2048x512 .bf16 | 0 => k0_pay1 | 1 => k0_pay2 | 2 => k0_pay3
abbrev payE : Fin 3 → Vec F S1x2048x512 .bf16 → FVec F S1x2048x512 .f32 | 0 => k0_pay4 | 1 => k0_pay5 | 2 => k0_pay6

/-- The staging buffer once the column block for `peer c (j+1)` has been copied into slot `j`. -/
def xsIn (c : Dev nD) : Fin 3 → Buf (Elt F) ((c : Thread nD τ).loc cc0_scratch0)
  | 0 => (xsSlot 0).view.write (Elt F) (junkB (F := F) _) ((colM c 0).view.read (Elt F) (X m c)) Finset.univ
  | 1 => (xsSlot 1).view.write (Elt F) (junkB (F := F) _) ((colM c 1).view.read (Elt F) (X m c)) Finset.univ
  | 2 => (xsSlot 2).view.write (Elt F) (junkB (F := F) _) ((colM c 2).view.read (Elt F) (X m c)) Finset.univ

/-- The send buffer once slot `j` holds that block narrowed to bf16. -/
def sbAfter (c : Dev nD) : Fin 3 → Buf (Elt F) ((c : Thread nD τ).loc cc0_scratch1)
  | 0 => ((sbM).access (slotR 0) : View sig .tc _ _ _).write (Elt F) (junkB (F := F) _) (payT 0 ((xsM).view.readAt (Elt F) (slotR 0).toLoadRect (xsIn m c 0))) Finset.univ
  | 1 => ((sbM).access (slotR 1) : View sig .tc _ _ _).write (Elt F) (junkB (F := F) _) (payT 1 ((xsM).view.readAt (Elt F) (slotR 1).toLoadRect (xsIn m c 1))) Finset.univ
  | 2 => ((sbM).access (slotR 2) : View sig .tc _ _ _).write (Elt F) (junkB (F := F) _) (payT 2 ((xsM).view.readAt (Elt F) (slotR 2).toLoadRect (xsIn m c 2))) Finset.univ

/-- Whom receive slot `j` is written by: the device `3 - j` steps on (that is, `j + 1` steps back). -/
abbrev origin (c : Dev nD) (j : Fin 3) : Dev nD := peer c (3 - j.val)

/-- The receive buffer once slot `j` has landed: what `origin c j` sent from its send slot `j`. -/
def landed (c : Dev nD) : Fin 3 → Buf (Elt F) ((c : Thread nD τ).loc cc0_scratch2)
  | 0 => (rbSlot 0).view.write (Elt F) (junkB (F := F) _) ((sbSlot 0).view.read (Elt F) (sbAfter m (origin c 0) 0)) Finset.univ
  | 1 => (rbSlot 1).view.write (Elt F) (junkB (F := F) _) ((sbSlot 1).view.read (Elt F) (sbAfter m (origin c 1) 1)) Finset.univ
  | 2 => (rbSlot 2).view.write (Elt F) (junkB (F := F) _) ((sbSlot 2).view.read (Elt F) (sbAfter m (origin c 2) 2)) Finset.univ

/-- The staging buffer once slot `j` holds the landed block widened back to f32. -/
def xsOut (c : Dev nD) : Fin 3 → Buf (Elt F) ((c : Thread nD τ).loc cc0_scratch0)
  | 0 => ((xsM).access (slotR 0) : View sig .tc _ _ _).write (Elt F) (junkB (F := F) _) (payE 0 ((rbM).view.readAt (Elt F) (slotR 0).toLoadRect (landed m c 0))) Finset.univ
  | 1 => ((xsM).access (slotR 1) : View sig .tc _ _ _).write (Elt F) (junkB (F := F) _) (payE 1 ((rbM).view.readAt (Elt F) (slotR 1).toLoadRect (landed m c 1))) Finset.univ
  | 2 => ((xsM).access (slotR 2) : View sig .tc _ _ _).write (Elt F) (junkB (F := F) _) (payE 2 ((rbM).view.readAt (Elt F) (slotR 2).toLoadRect (landed m c 2))) Finset.univ

/-- The result array after the four copies into it: the device's own piece, then the three received ones. -/
def out0 (c : Dev nD) : Buf (Elt F) ((c : Thread nD τ).loc main_v1) :=
  (ownDstM c).view.write (Elt F) (junkB (F := F) _) ((ownSrcM c).view.read (Elt F) (X m c)) Finset.univ
def out1 (c : Dev nD) : Buf (Elt F) ((c : Thread nD τ).loc main_v1) :=
  (rowM c 0).view.write (Elt F) (out0 m c) ((xsSlot 0).view.read (Elt F) (xsOut m c 0)) Finset.univ
def out2 (c : Dev nD) : Buf (Elt F) ((c : Thread nD τ).loc main_v1) :=
  (rowM c 1).view.write (Elt F) (out1 m c) ((xsSlot 1).view.read (Elt F) (xsOut m c 1)) Finset.univ
def OUT (c : Dev nD) : Buf (Elt F) ((c : Thread nD τ).loc main_v1) :=
  (rowM c 2).view.write (Elt F) (out2 m c) ((xsSlot 2).view.read (Elt F) (xsOut m c 2)) Finset.univ

/-! ## The schedule -/

/-- The receive slot a barrier duty carries: the `d`-th signal of a device hands over its slot `3 - d`. -/
def slotOf (d : Fin 4) : Fin 3 := ⟨(3 - d.val) % 3, Nat.mod_lt _ (by decide)⟩

/-- What duty `d` of `c`'s entry-barrier cell hands `c`: the receive slot `3 - d` of its payer `peer c (4 - d)`, at any
    contents, and that this slot's receive cell stands at round 0. -/
def slotPts (c : Dev nD) : Fin 3 → sProp 𝕄
  | 0 => iprop(∃ f, pts (rbSlot 0) c f)
  | 1 => iprop(∃ f, pts (rbSlot 1) c f)
  | 2 => iprop(∃ f, pts (rbSlot 2) c f)
def barPay (c : Dev nD) (d : Fin 4) : sProp 𝕄 :=
  iprop(slotPts (peer c (4 - d.val)) (slotOf d) ∗ reached ER (recvCell (peer c (4 - d.val)) (slotOf d)) 0)
def recvPay (c : Dev nD) : Fin 3 → sProp 𝕄
  | 0 => pts (rbSlot 0) c (landed m c 0)
  | 1 => pts (rbSlot 1) c (landed m c 1)
  | 2 => pts (rbSlot 2) c (landed m c 2)
def sendPay (c : Dev nD) : Fin 3 → sProp 𝕄
  | 0 => pts (sbSlot 0) c (sbAfter m c 0)
  | 1 => pts (sbSlot 1) c (sbAfter m c 1)
  | 2 => pts (sbSlot 2) c (sbAfter m c 2)

abbrev IsBar (g : GSem nD τ sig) : Prop := g.1.2 = .tc ∧ (g.2 = .reg barS ∨ g.2 = .reg endS)
abbrev IsXfer (g : GSem nD τ sig) : Prop :=
  g.1.2 = .tc ∧ (g.2 = .dma (sendS 0) ∨ g.2 = .dma (sendS 1) ∨ g.2 = .dma (sendS 2)
    ∨ g.2 = .dma (recvS 0) ∨ g.2 = .dma (recvS 1) ∨ g.2 = .dma (recvS 2))

/-- One round per cell: a barrier cell has the unit duties 1, 2, 3; a send or receive cell the duty 0 of a slot's credit. -/
def Rd : Rounds.Schedule (GSem nD τ sig) (Fin 4) 𝕄 where
  duties g r := if r = 0 ∧ IsBar g then {1, 2, 3} else if r = 0 ∧ IsXfer g then {0} else ∅
  unitless _ := False
  amount g _ _ := if g.2 = .reg barS ∨ g.2 = .reg endS then 1 else N
  payload g _ d :=
    if g.2 = .reg barS then barPay g.1.1 d
    else if g.2 = .dma (recvS 0) then recvPay m g.1.1 0
    else if g.2 = .dma (recvS 1) then recvPay m g.1.1 1
    else if g.2 = .dma (recvS 2) then recvPay m g.1.1 2
    else if g.2 = .dma (sendS 0) then sendPay m g.1.1 0
    else if g.2 = .dma (sendS 1) then sendPay m g.1.1 1
    else if g.2 = .dma (sendS 2) then sendPay m g.1.1 2
    else iprop(emp)
  amount_pos g _ _ _ := by
    by_cases h : g.2 = .reg barS ∨ g.2 = .reg endS
    · rw [if_pos h]; exact Nat.one_pos
    · rw [if_neg h]; exact View.dmaCredit_pos _ (by decide)

instance Rd_payload_storable (g : GSem nD τ sig) (r : ℕ) (d : Fin 4) :
    BI.Storable (upEmb : UEmb _ 𝕄) ((Rd (F := F) m).payload g r d) := by
  show BI.Storable upEmb (if g.2 = .reg barS then barPay g.1.1 d
    else if g.2 = .dma (recvS 0) then recvPay m g.1.1 0
    else if g.2 = .dma (recvS 1) then recvPay m g.1.1 1
    else if g.2 = .dma (recvS 2) then recvPay m g.1.1 2
    else if g.2 = .dma (sendS 0) then sendPay m g.1.1 0
    else if g.2 = .dma (sendS 1) then sendPay m g.1.1 1
    else if g.2 = .dma (sendS 2) then sendPay m g.1.1 2
    else iprop(emp))
  unfold barPay slotPts recvPay sendPay
  (repeat' split) <;> infer_instance

/-! ## What each device owes at launch; the levels -/

/-- In the order the body pays, last summand first: the three entry signals, the three transfers, the three exit signals. -/
def O₈ (c : Dev nD) : CellTallies nD τ sig Unit := tallyAt (endCell (peer c 3)) () 1 + tallyAt (endCell (peer c 2)) () 1
def O₇ (c : Dev nD) : CellTallies nD τ sig Unit := O₈ c + tallyAt (endCell (peer c 1)) () 1
def O₆ (c : Dev nD) : CellTallies nD τ sig Unit := O₇ c + tallyAt (recvCell (peer c 3) 2) () N
def O₅ (c : Dev nD) : CellTallies nD τ sig Unit := O₆ c + tallyAt (recvCell (peer c 2) 1) () N
def O₄ (c : Dev nD) : CellTallies nD τ sig Unit := O₅ c + tallyAt (recvCell (peer c 1) 0) () N
def O₃ (c : Dev nD) : CellTallies nD τ sig Unit := O₄ c + tallyAt (barCell (peer c 3)) () 1
def O₂ (c : Dev nD) : CellTallies nD τ sig Unit := O₃ c + tallyAt (barCell (peer c 2)) () 1
def O₁ (c : Dev nD) : CellTallies nD τ sig Unit := O₂ c + tallyAt (barCell (peer c 1)) () 1

def L (g : GSem nD τ sig) : Finset Unit := if g.1.2 = .tc then {()} else ∅
/-- Entry barrier 1, receive cells 2, exit barrier 3, everything else (local copies, send cells) 0. -/
def lv (g : GSem nD τ sig) (_ : Unit) : ℕ :=
  if g.2 = .reg barS then 1
  else if g.2 = .dma (recvS 0) ∨ g.2 = .dma (recvS 1) ∨ g.2 = .dma (recvS 2) then 2
  else if g.2 = .reg endS then 3 else 0

/-! ## The ghost state and the body's invariant -/

/-- Every cell's invariant, under the names the launch allocated them at, and that every cell is at round 0. -/
def records (K : Dev nD × Fin 8 → ℕ) : sProp 𝕄 :=
  iprop((bigSep Finset.univ fun ck : Dev nD × Fin 8 => cellInv ER (Rd m) (K ck) (kcell ck))
    ∗ bigSep Finset.univ fun ck : Dev nD × Fin 8 => reached ER (kcell ck) 0)

instance records_persistent (K : Dev nD × Fin 8 → ℕ) : BI.Persistent (records m K) := by unfold records; infer_instance

/-- The tokens of the duties device `c` pays: its `d`-th entry and exit signals, its three transfers seen from both ends. -/
def payToks (c : Dev nD) : sProp 𝕄 :=
  iprop(dutyTok ER (barCell (peer c 1)) 0 1 ∗ dutyTok ER (barCell (peer c 2)) 0 2 ∗ dutyTok ER (barCell (peer c 3)) 0 3
    ∗ dutyTok ER (recvCell (peer c 1) 0) 0 0 ∗ dutyTok ER (recvCell (peer c 2) 1) 0 0 ∗ dutyTok ER (recvCell (peer c 3) 2) 0 0
    ∗ dutyTok ER (sendCell c 0) 0 0 ∗ dutyTok ER (sendCell c 1) 0 0 ∗ dutyTok ER (sendCell c 2) 0 0
    ∗ dutyTok ER (endCell (peer c 1)) 0 1 ∗ dutyTok ER (endCell (peer c 2)) 0 2 ∗ dutyTok ER (endCell (peer c 3)) 0 3)

/-- Device `c`'s positions in its own eight cells. -/
def positions (c : Dev nD) : sProp 𝕄 := bigSep Finset.univ fun k : Fin 8 => atPos ER (kcell (c, k)) 0 ∅ 0

/-- The counters of the seven local-copy semaphores, at zero. -/
def localSems (c : Dev nD) : sProp 𝕄 := bigSep Finset.univ fun k : Fin 7 => semVal ((c : Thread nD τ), lsem k) 0

def ghost (K : Dev nD × Fin 8 → ℕ) (c : Dev nD) : sProp 𝕄 :=
  iprop(records m K ∗ positions c ∗ payToks c ∗ localSems c)

/-- What device `c`'s body starts from besides its buffers. -/
def start (c : Dev nD) : sProp 𝕄 :=
  iprop((∃ K, ghost m K c)
    ∗ cred (tallyAt (barCell c) () 3) ∗ cred (tallyAt (recvCell c 0) () N) ∗ cred (tallyAt (recvCell c 1) () N)
    ∗ cred (tallyAt (recvCell c 2) () N) ∗ cred (tallyAt (endCell c) () 3) ∗ levAts L lv)

/-- The five buffers the body touches: `x` and the result as launched, the three scratch buffers at any contents. -/
def bufs0 (c : Dev nD) : sProp 𝕄 :=
  iprop(pts xM c (X m c) ∗ pts oM c (m ((c : Thread nD τ).loc main_v1))
    ∗ (∃ f, pts xsM c f) ∗ (∃ f, pts sbM c f) ∗ (∃ f, pts rbM c f))
/-- After the body: `x` unchanged, the result assembled. -/
def bufs1 (c : Dev nD) : sProp 𝕄 :=
  iprop(pts xM c (X m c) ∗ pts oM c (OUT m c)
    ∗ (∃ f, pts xsM c f) ∗ (∃ f, pts sbM c f) ∗ (∃ f, pts rbM c f))

def Φ₀ (c : Dev nD) : sProp 𝕄 := iprop(start m c ∗ bufs0 m c)
/-- After the body: the buffers, and all fourteen own semaphores back at zero. -/
def Φ₁ (c : Dev nD) : sProp 𝕄 :=
  iprop(bufs1 m c ∗ bigSep Finset.univ fun k : Fin 14 => semVal ((c : Thread nD τ), osem k) 0)

/-! ## The pipeline's proof data (no window: both arrays are left in place) -/

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₁ c
    | ⟨_ + 1, _⟩ => 0

abbrev 𝒱₀ : Variants := Variants.none

/-- What the run leaves: on every device the result assembled and `x` as it was. -/
def QC : PUnit × MemSt nD τ sig (Elt F) → Prop := fun r =>
  ∀ c : Dev nD, r.2.mem ((c : Thread nD τ).loc main_v1) = OUT m c
    ∧ r.2.mem ((c : Thread nD τ).loc main_arg0) = m ((c : Thread nD τ).loc main_arg0)

end Cert.Kernel.A2A

end
-- ==== Proof.KTables.lean ====
/-
  The schedule's tables read at each kind of cell: which duties a cell's one round has, what each is worth, what each
  hands the cell's owner, and what a wait for the whole round comes back with.
-/
import proofs.«900644_g7700000000000645_dist_a2a_v7x_xyz2x2x4_z_m2048_n512_f32_1_alg».proof.Proof.KSched

noncomputable section

namespace Cert.Kernel.A2A

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

omit [FloatOps F] in
theorem recv_ne_bar (j : Fin 3) : (SemLoc.dma (recvS j) : SemLoc sig) ≠ .reg barS := fun h => by cases h
omit [FloatOps F] in
theorem send_ne_bar (j : Fin 3) : (SemLoc.dma (sendS j) : SemLoc sig) ≠ .reg barS := fun h => by cases h
omit [FloatOps F] in
theorem recv_ne_end (j : Fin 3) : (SemLoc.dma (recvS j) : SemLoc sig) ≠ .reg endS := fun h => by cases h
omit [FloatOps F] in
theorem send_ne_end (j : Fin 3) : (SemLoc.dma (sendS j) : SemLoc sig) ≠ .reg endS := fun h => by cases h
omit [FloatOps F] in
theorem end_ne_bar : (SemLoc.reg endS : SemLoc sig) ≠ .reg barS := by decide

section Tables
variable (c : Dev nD)

theorem duties_bar : (Rd (F := F) m).duties (barCell c) 0 = {1, 2, 3} := by
  dsimp only [Rd]; exact if_pos ⟨rfl, rfl, .inl rfl⟩
theorem duties_end : (Rd (F := F) m).duties (endCell c) 0 = {1, 2, 3} := by
  dsimp only [Rd]; exact if_pos ⟨rfl, rfl, .inr rfl⟩
theorem not_bar_send (j : Fin 3) : ¬ IsBar (sendCell c j) := fun h => h.2.elim (send_ne_bar j) (send_ne_end j)
theorem not_bar_recv (j : Fin 3) : ¬ IsBar (recvCell c j) := fun h => h.2.elim (recv_ne_bar j) (recv_ne_end j)
theorem isXfer_send (j : Fin 3) : IsXfer (sendCell c j) := ⟨rfl, by fin_cases j <;> simp⟩
theorem isXfer_recv (j : Fin 3) : IsXfer (recvCell c j) := ⟨rfl, by fin_cases j <;> simp⟩
theorem duties_send (j : Fin 3) : (Rd (F := F) m).duties (sendCell c j) 0 = {0} := by
  dsimp only [Rd]; rw [if_neg (fun h => not_bar_send c j h.2)]; exact if_pos ⟨rfl, isXfer_send c j⟩
theorem duties_recv (j : Fin 3) : (Rd (F := F) m).duties (recvCell c j) 0 = {0} := by
  dsimp only [Rd]; rw [if_neg (fun h => not_bar_recv c j h.2)]; exact if_pos ⟨rfl, isXfer_recv c j⟩
theorem duties_later (g : GSem nD τ sig) : ∀ r, 1 ≤ r → (Rd (F := F) m).duties g r = ∅ :=
  fun r hr => by dsimp only [Rd]; rw [if_neg fun h => by omega, if_neg fun h => by omega]

theorem amount_bar (d : Fin 4) : (Rd (F := F) m).amount (barCell c) 0 d = 1 := by dsimp only [Rd]; exact if_pos (.inl rfl)
theorem amount_end (d : Fin 4) : (Rd (F := F) m).amount (endCell c) 0 d = 1 := by dsimp only [Rd]; exact if_pos (.inr rfl)
theorem amount_send (j : Fin 3) (d : Fin 4) : (Rd (F := F) m).amount (sendCell c j) 0 d = N := by
  dsimp only [Rd]; exact if_neg (fun h => h.elim (send_ne_bar j) (send_ne_end j))
theorem amount_recv (j : Fin 3) (d : Fin 4) : (Rd (F := F) m).amount (recvCell c j) 0 d = N := by
  dsimp only [Rd]; exact if_neg (fun h => h.elim (recv_ne_bar j) (recv_ne_end j))

theorem expect_bar : (Rd (F := F) m).expect (barCell c) 0 = 3 := by
  unfold Schedule.expect Schedule.amountOf
  rw [duties_bar, Finset.sum_congr rfl fun d _ => amount_bar m c d]; rfl
theorem expect_end : (Rd (F := F) m).expect (endCell c) 0 = 3 := by
  unfold Schedule.expect Schedule.amountOf
  rw [duties_end, Finset.sum_congr rfl fun d _ => amount_end m c d]; rfl
theorem expect_send (j : Fin 3) : (Rd (F := F) m).expect (sendCell c j) 0 = N := by
  unfold Schedule.expect Schedule.amountOf; rw [duties_send, Finset.sum_singleton, amount_send]
theorem expect_recv (j : Fin 3) : (Rd (F := F) m).expect (recvCell c j) 0 = N := by
  unfold Schedule.expect Schedule.amountOf; rw [duties_recv, Finset.sum_singleton, amount_recv]

theorem payload_bar (d : Fin 4) : (Rd (F := F) m).payload (barCell c) 0 d = barPay c d := by dsimp only [Rd]; rw [if_pos rfl]
theorem payload_end (d : Fin 4) : (Rd (F := F) m).payload (endCell c) 0 d = iprop(emp) := by
  dsimp only [Rd]
  rw [if_neg end_ne_bar, if_neg (recv_ne_end 0).symm, if_neg (recv_ne_end 1).symm, if_neg (recv_ne_end 2).symm,
    if_neg (send_ne_end 0).symm, if_neg (send_ne_end 1).symm, if_neg (send_ne_end 2).symm]

theorem payload_recv (j : Fin 3) (d : Fin 4) : (Rd (F := F) m).payload (recvCell c j) 0 d = recvPay m c j := by
  dsimp only [Rd]
  rw [if_neg (recv_ne_bar j)]
  fin_cases j
  · exact if_pos rfl
  · rw [if_neg (by decide)]; exact if_pos rfl
  · rw [if_neg (by decide), if_neg (by decide)]; exact if_pos rfl
theorem payload_send (j : Fin 3) (d : Fin 4) : (Rd (F := F) m).payload (sendCell c j) 0 d = sendPay m c j := by
  dsimp only [Rd]
  rw [if_neg (send_ne_bar j)]
  fin_cases j
  · rw [if_neg (by decide), if_neg (by decide), if_neg (by decide)]; exact if_pos rfl
  · rw [if_neg (by decide), if_neg (by decide), if_neg (by decide), if_neg (by decide)]; exact if_pos rfl
  · rw [if_neg (by decide), if_neg (by decide), if_neg (by decide), if_neg (by decide), if_neg (by decide)]; exact if_pos rfl

/-- The whole round of an entry-barrier cell: the three peers' receive slots. -/
theorem rest_bar : bigSep ((Rd (F := F) m).duties (barCell c) 0 \ ∅) (fun d => (Rd (F := F) m).payload (barCell c) 0 d)
    = iprop(barPay c 1 ∗ barPay c 2 ∗ barPay c 3) := by
  rw [Finset.sdiff_empty, duties_bar, bigSep_eq_bigSepL_of_eq [1, 2, 3] (by decide) (by decide), bigSepL_cons_cons, bigSepL_cons_cons, bigSepL_singleton,
    payload_bar, payload_bar, payload_bar]
  rfl
theorem rest_end : bigSep ((Rd (F := F) m).duties (endCell c) 0 \ ∅) (fun d => (Rd (F := F) m).payload (endCell c) 0 d)
    = iprop(emp ∗ emp ∗ emp) := by
  rw [Finset.sdiff_empty, duties_end, bigSep_eq_bigSepL_of_eq [1, 2, 3] (by decide) (by decide), bigSepL_cons_cons, bigSepL_cons_cons, bigSepL_singleton,
    payload_end, payload_end, payload_end]
  rfl
theorem rest_send (j : Fin 3) : bigSep ((Rd (F := F) m).duties (sendCell c j) 0 \ ∅) (fun d => (Rd (F := F) m).payload (sendCell c j) 0 d) = sendPay m c j := by
  rw [Finset.sdiff_empty, duties_send, bigSep_singleton, payload_send]
theorem rest_recv (j : Fin 3) : bigSep ((Rd (F := F) m).duties (recvCell c j) 0 \ ∅) (fun d => (Rd (F := F) m).payload (recvCell c j) 0 d) = recvPay m c j := by
  rw [Finset.sdiff_empty, duties_recv, bigSep_singleton, payload_recv]

end Tables

omit [FloatOps F] in
/-- What the three duties of `c`'s entry-barrier cell hand it: receive slot `j` of `peer c (j+1)`. -/
theorem barPay_got (c : Dev nD) :
    (barPay (F := F) c 1 = iprop(slotPts (peer c 3) 2 ∗ reached ER (recvCell (peer c 3) 2) 0))
    ∧ (barPay (F := F) c 2 = iprop(slotPts (peer c 2) 1 ∗ reached ER (recvCell (peer c 2) 1) 0))
    ∧ (barPay (F := F) c 3 = iprop(slotPts (peer c 1) 0 ∗ reached ER (recvCell (peer c 1) 0) 0)) := ⟨rfl, rfl, rfl⟩

omit [FloatOps F] in
/-- What `c` hands over with its `d`-th entry signal: its own receive slot `3 - d`. -/
theorem barPay_give (c : Dev nD) :
    (barPay (F := F) (peer c 1) 1 = iprop(slotPts c 2 ∗ reached ER (recvCell c 2) 0))
    ∧ (barPay (F := F) (peer c 2) 2 = iprop(slotPts c 1 ∗ reached ER (recvCell c 1) 0))
    ∧ (barPay (F := F) (peer c 3) 3 = iprop(slotPts c 0 ∗ reached ER (recvCell c 0) 0)) := by
  have h1 : peer (peer c 1) 3 = c := by rw [peer_peer]; exact peer_four c
  have h2 : peer (peer c 2) 2 = c := by rw [peer_peer]; exact peer_four c
  have h3 : peer (peer c 3) 1 = c := by rw [peer_peer]; exact peer_four c
  refine ⟨?_, ?_, ?_⟩
  · show iprop(slotPts (peer (peer c 1) 3) 2 ∗ reached ER (recvCell (peer (peer c 1) 3) 2) 0) = _; rw [h1]
  · show iprop(slotPts (peer (peer c 2) 2) 1 ∗ reached ER (recvCell (peer (peer c 2) 2) 1) 0) = _; rw [h2]
  · show iprop(slotPts (peer (peer c 3) 1) 0 ∗ reached ER (recvCell (peer (peer c 3) 1) 0) 0) = _; rw [h3]

theorem inv_at (K : Dev nD × Fin 8 → ℕ) (ck : Dev nD × Fin 8) :
    (records (F := F) m K) ⊢ cellInv ER (Rd m) (K ck) (kcell ck) := by
  unfold records
  exact sep_elim_left.trans (bigSep_elim (Finset.mem_univ ck))
theorem reached_at (K : Dev nD × Fin 8 → ℕ) (ck : Dev nD × Fin 8) :
    (records (F := F) m K) ⊢ reached ER (kcell ck) 0 := by
  unfold records
  exact sep_elim_right.trans (bigSep_elim (Finset.mem_univ ck))

end Cert.Kernel.A2A

end
-- ==== Proof.KOutCongr.lean ====
/-
  The result array's four pieces, read off the assembled result.

  The result of a device is 8192 × 512; four copies write it, one into each 2048-row block: the device's own piece
  into the row block at its z coordinate, and what came from the devices three, two and one steps on into the row
  blocks of THEIR z coordinates. The four row blocks share no element, so on the elements of one block the assembled
  result is that block's payload alone: an unmasked write leaves its payload on its own elements whatever the buffer
  held before, and the later copies go elsewhere. The same remark over any memref: what is owned through the memref
  after an unmasked write does not depend on the contents written over.
-/
import proofs.«900644_g7700000000000645_dist_a2a_v7x_xyz2x2x4_z_m2048_n512_f32_1_alg».proof.Proof.KSched
import Idealize.ShloMosaic.Lib.Pipeline.Value

noncomputable section

namespace Cert.Kernel.A2A

open Cert.Kernel Cert.Kernel.Gen
open Idealize.ShloMosaic Idealize.ShloMosaic.TcCoe
open Idealize.SL Idealize.SL.RA Idealize.SL.BI
open scoped Idealize.SL.BI
open Idealize.SL.Sem

namespace OutCongr

/-- On a view's own elements an unmasked write leaves the payload, whatever was there before. -/
theorem write_univ_base {sig : RefSig} {κ : Kind} {sp : Space} {S : Shape} {e : EltTy} {Val : EltTy → Type}
    (v : View sig κ sp S e) (f g : v.ty.Contents Val) (w : S.Idx → Val e) {i : v.ty.Idx} (hi : i ∈ v.set) :
    v.write Val f w Finset.univ i = v.write Val g w Finset.univ i := by
  obtain ⟨y, rfl⟩ := v.exists_emb_of_mem_set hi
  rw [View.write_emb_of_mem _ _ (Finset.mem_univ y), View.write_emb_of_mem _ _ (Finset.mem_univ y)]

/-- Two 2048-row blocks of the result that start at least 2048 rows apart share no element: a copy into one leaves
    the other's elements as they were. -/
theorem rows_apart {Val : EltTy → Type} (off off' : Fin 2 → ℕ)
    (inb : ∀ a, off a + S2048x512.size a ≤ S8192x512.size a) (inb' : ∀ a, off' a + S2048x512.size a ≤ S8192x512.size a)
    (hsep : off 0 + 2048 ≤ off' 0 ∨ off' 0 + 2048 ≤ off 0)
    (f : (oM).view.ty.Contents Val) (w : S2048x512.Idx → Val .f32) (i : S8192x512.Idx)
    (hi : i ∈ ((oM).slice (Rect.unit (s := S8192x512) off S2048x512.size inb) (fun _ => rfl)).view.set) :
    ((oM).slice (Rect.unit (s := S8192x512) off' S2048x512.size inb') (fun _ => rfl)).view.write Val f w Finset.univ i = f i := by
  refine View.write_of_not_mem _ _ _ fun hmem => ?_
  rw [View.setOn_univ] at hmem
  have hi' : i ∈ (Rect.unit (s := S8192x512) off S2048x512.size inb).set := by
    rw [← View.set_slice_whole main_v1]; exact hi
  have hmem' : i ∈ (Rect.unit (s := S8192x512) off' S2048x512.size inb').set := by
    rw [← View.set_slice_whole main_v1]; exact hmem
  have hd : Disjoint (Rect.unit (s := S8192x512) off S2048x512.size inb).set (Rect.unit (s := S8192x512) off' S2048x512.size inb').set :=
    Rect.unit_disjoint 0 hsep
  exact Finset.disjoint_left.mp hd hi' hmem'

/-- Where the four row blocks start: at 2048 times the z coordinate of the device whose piece goes there. -/
theorem row_offs (c : Dev nD) :
    k0_off2 c 0 = 2048 * (c.val % 4) ∧ k0_off4 c 1#32 0 = 2048 * ((c.val % 4 + 3) % 4)
      ∧ k0_off4 c 2#32 0 = 2048 * ((c.val % 4 + 2) % 4) ∧ k0_off4 c 3#32 0 = 2048 * ((c.val % 4 + 1) % 4) := by
  rw [k0_off2_eq, off4_1, off4_2, off4_3]; exact ⟨rfl, rfl, rfl, rfl⟩

end OutCongr

open OutCongr

/-- The last copy's row block: the assembled result there is that copy's payload. -/
theorem OUT_on_row2 {F : FTy → Type} [FloatOps F] (m : (ℓ : Loc nD τ sig) → Buf (Elt F) ℓ) (c : Dev nD)
    (g : Buf (Elt F) ((c : Thread nD τ).loc main_v1)) (v : S2048x512.Idx → Elt F .f32)
    (hv : v = (xsSlot 2).view.read (Elt F) (xsOut m c 2)) :
    ∀ i ∈ (rowM c 2).view.set, (rowM c 2).view.write (Elt F) g v Finset.univ i = OUT m c i := by
  intro i hi
  subst hv
  exact write_univ_base (rowM c 2).view g (out2 m c) _ hi

/-- The row block of the copy before it: the last copy goes elsewhere. -/
theorem OUT_on_row1 {F : FTy → Type} [FloatOps F] (m : (ℓ : Loc nD τ sig) → Buf (Elt F) ℓ) (c : Dev nD)
    (g : Buf (Elt F) ((c : Thread nD τ).loc main_v1)) (v : S2048x512.Idx → Elt F .f32)
    (hv : v = (xsSlot 1).view.read (Elt F) (xsOut m c 1)) :
    ∀ i ∈ (rowM c 1).view.set, (rowM c 1).view.write (Elt F) g v Finset.univ i = OUT m c i := by
  intro i hi
  subst hv
  obtain ⟨-, -, e2, e3⟩ := row_offs c
  have a2 : OUT m c i = out2 m c i :=
    rows_apart (k0_off4 c 2#32) (k0_off4 c 3#32) _ _ (by rw [e2, e3]; omega) (out2 m c) _ i hi
  rw [a2]
  exact write_univ_base (rowM c 1).view g (out1 m c) _ hi

/-- The row block of the first of the three received pieces: the two later copies go elsewhere. -/
theorem OUT_on_row0 {F : FTy → Type} [FloatOps F] (m : (ℓ : Loc nD τ sig) → Buf (Elt F) ℓ) (c : Dev nD)
    (g : Buf (Elt F) ((c : Thread nD τ).loc main_v1)) (v : S2048x512.Idx → Elt F .f32)
    (hv : v = (xsSlot 0).view.read (Elt F) (xsOut m c 0)) :
    ∀ i ∈ (rowM c 0).view.set, (rowM c 0).view.write (Elt F) g v Finset.univ i = OUT m c i := by
  intro i hi
  subst hv
  obtain ⟨-, e1, e2, e3⟩ := row_offs c
  have a2 : OUT m c i = out2 m c i :=
    rows_apart (k0_off4 c 1#32) (k0_off4 c 3#32) _ _ (by rw [e1, e3]; omega) (out2 m c) _ i hi
  have a1 : out2 m c i = out1 m c i :=
    rows_apart (k0_off4 c 1#32) (k0_off4 c 2#32) _ _ (by rw [e1, e2]; omega) (out1 m c) _ i hi
  rw [a2, a1]
  exact write_univ_base (rowM c 0).view g (out0 m c) _ hi

/-- The device's own row block: the three received pieces go elsewhere. -/
theorem OUT_on_own {F : FTy → Type} [FloatOps F] (m : (ℓ : Loc nD τ sig) → Buf (Elt F) ℓ) (c : Dev nD)
    (g : Buf (Elt F) ((c : Thread nD τ).loc main_v1)) :
    ∀ i ∈ (ownDstM c).view.set,
      (ownDstM c).view.write (Elt F) g ((ownSrcM c).view.read (Elt F) (X m c)) Finset.univ i = OUT m c i := by
  intro i hi
  obtain ⟨e0, e1, e2, e3⟩ := row_offs c
  have a2 : OUT m c i = out2 m c i :=
    rows_apart (k0_off2 c) (k0_off4 c 3#32) _ _ (by rw [e0, e3]; omega) (out2 m c) _ i hi
  have a1 : out2 m c i = out1 m c i :=
    rows_apart (k0_off2 c) (k0_off4 c 2#32) _ _ (by rw [e0, e2]; omega) (out1 m c) _ i hi
  have a0 : out1 m c i = out0 m c i :=
    rows_apart (k0_off2 c) (k0_off4 c 1#32) _ _ (by rw [e0, e1]; omega) (out0 m c) _ i hi
  rw [a2, a1, a0]
  exact write_univ_base (ownDstM c).view g (junkB (F := F) _) _ hi

/-- What is owned through a memref after an unmasked write through it does not depend on the contents written over. -/
theorem pts_write_base {F : FTy → Type} [FloatOps F] {sp : Space} {S : Shape} {e : EltTy} (M : Memref sig .tc sp S e) (c : Dev nD)
    (f g : Buf (Elt F) (M.view.loc (c : Thread nD τ))) (v : S.Idx → Elt F e) :
    (pts M c (M.view.write (Elt F) f v Finset.univ) : sProp (MT nD τ sig Unit (Elt F) ℕ UU ℕ))
      = pts M c (M.view.write (Elt F) g v Finset.univ) :=
  BI.Region.is_congr fun _ hi => write_univ_base M.view f g v hi

/-- info: 'Cert.Kernel.A2A.OUT_on_own' depends on axioms: [propext, Classical.choice, Quot.sound] -/
#guard_msgs in #print axioms OUT_on_own
/-- info: 'Cert.Kernel.A2A.OUT_on_row0' depends on axioms: [propext, Classical.choice, Quot.sound] -/
#guard_msgs in #print axioms OUT_on_row0
/-- info: 'Cert.Kernel.A2A.OUT_on_row1' depends on axioms: [propext, Classical.choice, Quot.sound] -/
#guard_msgs in #print axioms OUT_on_row1
/-- info: 'Cert.Kernel.A2A.OUT_on_row2' depends on axioms: [propext, Classical.choice, Quot.sound] -/
#guard_msgs in #print axioms OUT_on_row2
/-- info: 'Cert.Kernel.A2A.pts_write_base' depends on axioms: [propext, Classical.choice, Quot.sound] -/
#guard_msgs in #print axioms pts_write_base

end Cert.Kernel.A2A

end
-- ==== Proof.KBridge.lean ====
/-
  From what a run of the body computes, as the run spells it, to the named contents of the schedule.

  A run of one device's body names each buffer's contents by the operations it has just stepped through: a local copy's
  payload as the source read "as it is", a slot after a landing as a one-piece list of writes through the whole slot,
  a store as a write over whatever the buffer held. The schedule names the same contents once and for all, over
  contents nobody reads. The two agree wherever they are read: an unmasked write leaves its payload on its own
  elements whatever was there before, a slot read through its squeezed slice after an unmasked write at the slot's
  rectangle is the payload re-indexed, and what is owned through a memref depends only on what the memref reads.
-/
import proofs.«900644_g7700000000000645_dist_a2a_v7x_xyz2x2x4_z_m2048_n512_f32_1_alg».proof.Proof.KSched
import proofs.«900644_g7700000000000645_dist_a2a_v7x_xyz2x2x4_z_m2048_n512_f32_1_alg».proof.Proof.KOutCongr
import Idealize.ShloMosaic.Lib.Pipeline.Value
import Idealize.ShloMosaic.Lib.Writes

noncomputable section

namespace Cert.Kernel.A2A

open Cert.Kernel Cert.Kernel.Gen
open Idealize.ShloMosaic Idealize.ShloMosaic.TcCoe
open Idealize.SL Idealize.SL.RA Idealize.SL.BI
open scoped Idealize.SL.BI
open Idealize.SL.Sem

/-! ## The run's spelling of a copy's payload and of a landed slot -/

/-- A transfer that reads its source as it is moves what the source reads. -/
theorem readAs_same {Val : EltTy → Type} {S : Shape} {e : EltTy} (w : S.Idx → Val e) :
    (ReadAs.same : ReadAs Val S e S e).apply w = w := rfl

/-- One write through the whole of a view's shape is the unmasked write through the view. -/
theorem writes_whole {Val : EltTy → Type} {κ : Kind} {sp : Space} {S : Shape} {e : EltTy} (v : View sig κ sp S e)
    (b : v.ty.Contents Val) (w : S.Idx → Val e) :
    v.writes Val b [⟨Rect.whole S, w⟩] = v.write Val b w Finset.univ := by
  rw [View.writes_singleton]
  funext i
  by_cases hi : i ∈ v.set
  · obtain ⟨y, rfl⟩ := v.exists_emb_of_mem_set hi
    have e' : v.emb y = (v.slice (Rect.whole S)).emb y := by
      show v.emb y = v.emb ((Rect.whole S).emb y)
      rw [Rect.emb_whole_apply]
    conv_lhs => rw [e', View.write_emb_of_mem _ _ (Finset.mem_univ _)]
    rw [View.write_emb_of_mem _ _ (Finset.mem_univ _)]
  · rw [View.write_of_not_mem _ _ _ (fun h => hi (v.set_slice_subset _ (by rwa [View.setOn_univ] at h))),
      View.write_of_not_mem _ _ _ (by rwa [View.setOn_univ])]

/-- What is owned through a memref depends only on what the memref reads. -/
theorem pts_congr_of_read {F : FTy → Type} [FloatOps F] {sp : Space} {S : Shape} {e : EltTy} (M : Memref sig .tc sp S e) (c : Dev nD)
    (f g : Buf (Elt F) (M.view.loc (c : Thread nD τ))) (h : M.view.read (Elt F) f = M.view.read (Elt F) g) :
    (pts M c f : sProp (MT nD τ sig Unit (Elt F) ℕ UU ℕ)) = pts M c g :=
  BI.Region.is_congr fun i hi => by
    obtain ⟨y, rfl⟩ := M.view.exists_emb_of_mem_set hi
    have hy := congrFun h y
    rw [View.read_apply, View.read_apply] at hy
    exact (cast_inj _).mp hy

namespace Bridge

/-! ## A slot read back, over any prior contents -/

/-- A buffer written through the squeeze of a slice and then loaded at the slice's rectangle: the payload, re-indexed
    to the rectangle's shape. -/
theorem readAt_write_squeeze {sig : RefSig} {κ : Kind} {sp : Space} {s s' : Shape} {e : EltTy} {Val : EltTy → Type}
    (M : Memref sig κ sp s e) (r : Rect s) (hr : ∀ a, r.stride a = 1) (hq : r.shape.Squeezes s')
    (f : M.view.ty.Contents Val) (w : s'.Idx → Val e) :
    M.view.readAt Val r.toLoadRect (((M.slice r hr).squeeze s' hq).view.write Val f w Finset.univ)
      = shapeCast r.shape w hq.numel_eq.symm := by
  show (M.view.slice r).read Val (((M.view.slice r).reshape s' hq.numel_eq).write Val f w Finset.univ) = _
  rw [View.write_reshape_univ, View.read_write_univ]
  funext x
  show w ((Shape.reshapeEquiv hq.numel_eq).symm x) = w (Shape.reshapeEquiv hq.numel_eq.symm x)
  rw [Shape.reshapeEquiv_symm]

/-- A buffer stored to at a rectangle and then read through the squeeze of the slice at that rectangle: the payload,
    re-indexed to the squeezed shape. -/
theorem read_squeeze_write_access {sig : RefSig} {κ : Kind} {sp : Space} {s s' : Shape} {e : EltTy} {Val : EltTy → Type}
    (M : Memref sig κ sp s e) (r : Rect s) (hr : ∀ a, r.stride a = 1) (hq : r.shape.Squeezes s')
    (f : M.view.ty.Contents Val) (w : r.shape.Idx → Val e) :
    ((M.slice r hr).squeeze s' hq).view.read Val ((M.access r).write Val f w Finset.univ)
      = shapeCast s' w hq.numel_eq := by
  rw [Memref.read_squeeze_slice M r hr hq hq.numel_eq, View.readAt_rect]
  show shapeCast s' ((M.view.slice r).read Val ((M.view.slice r).write Val f w Finset.univ)) hq.numel_eq = _
  rw [View.read_write_univ]

/-- A slot's rectangle in a three-slot buffer, -/
abbrev slotAt (off : Fin 3 → ℕ) (inb : ∀ a, off a + S1x2048x512.size a ≤ S3x2048x512.size a) : Rect S3x2048x512 :=
  Rect.unit (s := S3x2048x512) off S1x2048x512.size inb

/-- and a buffer narrowed to that slot. -/
abbrev narrowed (off : Fin 3 → ℕ) (inb : ∀ a, off a + S1x2048x512.size a ≤ S3x2048x512.size a) {e : EltTy}
    (M : Memref sig .tc .vmem S3x2048x512 e) : Memref sig .tc .vmem S2048x512 e :=
  (M.slice (slotAt off inb) (fun _ => rfl)).squeeze S2048x512 squeezes_S1x2048x512_S2048x512

/-- The send slot after the store, read as the transfer reads it: the same whether the staged block got there as the
    run spells it, over any contents, or as the schedule names it. -/
theorem sent_read {F : FTy → Type} [FloatOps F] (off : Fin 3 → ℕ) (inb : ∀ a, off a + S1x2048x512.size a ≤ S3x2048x512.size a)
    (bx jx : (xsM).view.ty.Contents (Elt F)) (fs js : (sbM).view.ty.Contents (Elt F)) (w : Vec F S2048x512 .f32)
    (pT : Vec F S1x2048x512 .f32 → FVec F S1x2048x512 .bf16) :
    (narrowed off inb sbM).view.read (Elt F)
        (((sbM).access (slotAt off inb)).write (Elt F) fs
          (pT ((xsM).view.readAt (Elt F) (slotAt off inb).toLoadRect
            ((narrowed off inb xsM).view.writes (Elt F) bx [⟨Rect.whole S2048x512, ReadAs.same.apply w⟩])))
          Finset.univ)
      = (narrowed off inb sbM).view.read (Elt F)
        (((sbM).access (slotAt off inb)).write (Elt F) js
          (pT ((xsM).view.readAt (Elt F) (slotAt off inb).toLoadRect
            ((narrowed off inb xsM).view.write (Elt F) jx w Finset.univ)))
          Finset.univ) := by
  rw [writes_whole, readAs_same, read_squeeze_write_access, read_squeeze_write_access, readAt_write_squeeze,
    readAt_write_squeeze]

/-- The staging slot after the widening store, read as the last copy reads it, over any prior contents. -/
theorem widened_read {F : FTy → Type} [FloatOps F] (off : Fin 3 → ℕ) (inb : ∀ a, off a + S1x2048x512.size a ≤ S3x2048x512.size a)
    (prev jx : (xsM).view.ty.Contents (Elt F)) (p : FVec F S1x2048x512 .f32) :
    (narrowed off inb xsM).view.read (Elt F) (((xsM).access (slotAt off inb)).write (Elt F) prev p Finset.univ)
      = (narrowed off inb xsM).view.read (Elt F) (((xsM).access (slotAt off inb)).write (Elt F) jx p Finset.univ) := by
  rw [read_squeeze_write_access, read_squeeze_write_access]

end Bridge

/-! ## The send slot -/

theorem sent_read0 {F : FTy → Type} [FloatOps F] (m : (ℓ : Loc nD τ sig) → Buf (Elt F) ℓ) (c : Dev nD)
    (bx : Buf (Elt F) ((c : Thread nD τ).loc cc0_scratch0)) (fs : Buf (Elt F) ((c : Thread nD τ).loc cc0_scratch1)) :
    (sbSlot 0).view.read (Elt F) (View.write (Elt F) ((Memref.whole cc0_scratch1).access (slotR 0)) fs
        (payT 0 (View.readAt (Elt F) (Memref.whole cc0_scratch0).view (slotR 0).toLoadRect
          ((xsSlot 0).view.writes (Elt F) bx [⟨Rect.whole S2048x512, ReadAs.same.apply (View.read (Elt F) (colM c 0).view (X m c))⟩])))
        Finset.univ)
      = (sbSlot 0).view.read (Elt F) (sbAfter m c 0) :=
  Bridge.sent_read _ _ bx _ fs _ _ (payT 0)

theorem sent_read1 {F : FTy → Type} [FloatOps F] (m : (ℓ : Loc nD τ sig) → Buf (Elt F) ℓ) (c : Dev nD)
    (bx : Buf (Elt F) ((c : Thread nD τ).loc cc0_scratch0)) (fs : Buf (Elt F) ((c : Thread nD τ).loc cc0_scratch1)) :
    (sbSlot 1).view.read (Elt F) (View.write (Elt F) ((Memref.whole cc0_scratch1).access (slotR 1)) fs
        (payT 1 (View.readAt (Elt F) (Memref.whole cc0_scratch0).view (slotR 1).toLoadRect
          ((xsSlot 1).view.writes (Elt F) bx [⟨Rect.whole S2048x512, ReadAs.same.apply (View.read (Elt F) (colM c 1).view (X m c))⟩])))
        Finset.univ)
      = (sbSlot 1).view.read (Elt F) (sbAfter m c 1) :=
  Bridge.sent_read _ _ bx _ fs _ _ (payT 1)

theorem sent_read2 {F : FTy → Type} [FloatOps F] (m : (ℓ : Loc nD τ sig) → Buf (Elt F) ℓ) (c : Dev nD)
    (bx : Buf (Elt F) ((c : Thread nD τ).loc cc0_scratch0)) (fs : Buf (Elt F) ((c : Thread nD τ).loc cc0_scratch1)) :
    (sbSlot 2).view.read (Elt F) (View.write (Elt F) ((Memref.whole cc0_scratch1).access (slotR 2)) fs
        (payT 2 (View.readAt (Elt F) (Memref.whole cc0_scratch0).view (slotR 2).toLoadRect
          ((xsSlot 2).view.writes (Elt F) bx [⟨Rect.whole S2048x512, ReadAs.same.apply (View.read (Elt F) (colM c 2).view (X m c))⟩])))
        Finset.univ)
      = (sbSlot 2).view.read (Elt F) (sbAfter m c 2) :=
  Bridge.sent_read _ _ bx _ fs _ _ (payT 2)

/-! ## The staging slot after the widening -/

theorem widened_read0 {F : FTy → Type} [FloatOps F] (m : (ℓ : Loc nD τ sig) → Buf (Elt F) ℓ) (c : Dev nD)
    (prev : Buf (Elt F) ((c : Thread nD τ).loc cc0_scratch0)) :
    (xsSlot 0).view.read (Elt F) (View.write (Elt F) ((Memref.whole cc0_scratch0).access (slotR 0)) prev
        (payE 0 (View.readAt (Elt F) (Memref.whole cc0_scratch2).view (slotR 0).toLoadRect (landed m c 0))) Finset.univ)
      = (xsSlot 0).view.read (Elt F) (xsOut m c 0) :=
  Bridge.widened_read _ _ prev _ _

theorem widened_read1 {F : FTy → Type} [FloatOps F] (m : (ℓ : Loc nD τ sig) → Buf (Elt F) ℓ) (c : Dev nD)
    (prev : Buf (Elt F) ((c : Thread nD τ).loc cc0_scratch0)) :
    (xsSlot 1).view.read (Elt F) (View.write (Elt F) ((Memref.whole cc0_scratch0).access (slotR 1)) prev
        (payE 1 (View.readAt (Elt F) (Memref.whole cc0_scratch2).view (slotR 1).toLoadRect (landed m c 1))) Finset.univ)
      = (xsSlot 1).view.read (Elt F) (xsOut m c 1) :=
  Bridge.widened_read _ _ prev _ _

theorem widened_read2 {F : FTy → Type} [FloatOps F] (m : (ℓ : Loc nD τ sig) → Buf (Elt F) ℓ) (c : Dev nD)
    (prev : Buf (Elt F) ((c : Thread nD τ).loc cc0_scratch0)) :
    (xsSlot 2).view.read (Elt F) (View.write (Elt F) ((Memref.whole cc0_scratch0).access (slotR 2)) prev
        (payE 2 (View.readAt (Elt F) (Memref.whole cc0_scratch2).view (slotR 2).toLoadRect (landed m c 2))) Finset.univ)
      = (xsSlot 2).view.read (Elt F) (xsOut m c 2) :=
  Bridge.widened_read _ _ prev _ _

/-! ## What a transfer hands its destination

Device `c`'s send slot `j` goes to the device `j + 1` steps on, whose receive slot `j` is written by the device
`3 - j` steps on from IT: four steps round the ring, `c` again. -/

theorem landed_pay0 {F : FTy → Type} [FloatOps F] (m : (ℓ : Loc nD τ sig) → Buf (Elt F) ℓ) (c : Dev nD)
    (fd : Buf (Elt F) ((rbSlot 0).view.loc ((peer c 1) : Thread nD τ))) (fs' : Buf (Elt F) ((c : Thread nD τ).loc cc0_scratch1))
    (h : (sbSlot 0).view.read (Elt F) fs' = (sbSlot 0).view.read (Elt F) (sbAfter m c 0)) :
    (pts (rbSlot 0) (peer c 1) ((rbSlot 0).view.write (Elt F) fd ((sbSlot 0).view.read (Elt F) fs') Finset.univ)
        : sProp (MT nD τ sig Unit (Elt F) ℕ UU ℕ)) = recvPay m (peer c 1) 0 := by
  rw [h]
  have e : origin (peer c 1) 0 = c := by
    show peer (peer c 1) 3 = c
    rw [peer_peer]; exact peer_four c
  have e2 : landed m (peer c 1) 0
      = (rbSlot 0).view.write (Elt F) (junkB (F := F) _) ((sbSlot 0).view.read (Elt F) (sbAfter m c 0)) Finset.univ := by
    show (rbSlot 0).view.write (Elt F) (junkB (F := F) _) ((sbSlot 0).view.read (Elt F) (sbAfter m (origin (peer c 1) 0) 0)) Finset.univ = _
    rw [e]
  show pts (rbSlot 0) (peer c 1) _ = pts (rbSlot 0) (peer c 1) (landed m (peer c 1) 0)
  rw [e2]
  exact pts_write_base (rbSlot 0) (peer c 1) _ _ _

theorem landed_pay1 {F : FTy → Type} [FloatOps F] (m : (ℓ : Loc nD τ sig) → Buf (Elt F) ℓ) (c : Dev nD)
    (fd : Buf (Elt F) ((rbSlot 1).view.loc ((peer c 2) : Thread nD τ))) (fs' : Buf (Elt F) ((c : Thread nD τ).loc cc0_scratch1))
    (h : (sbSlot 1).view.read (Elt F) fs' = (sbSlot 1).view.read (Elt F) (sbAfter m c 1)) :
    (pts (rbSlot 1) (peer c 2) ((rbSlot 1).view.write (Elt F) fd ((sbSlot 1).view.read (Elt F) fs') Finset.univ)
        : sProp (MT nD τ sig Unit (Elt F) ℕ UU ℕ)) = recvPay m (peer c 2) 1 := by
  rw [h]
  have e : origin (peer c 2) 1 = c := by
    show peer (peer c 2) 2 = c
    rw [peer_peer]; exact peer_four c
  have e2 : landed m (peer c 2) 1
      = (rbSlot 1).view.write (Elt F) (junkB (F := F) _) ((sbSlot 1).view.read (Elt F) (sbAfter m c 1)) Finset.univ := by
    show (rbSlot 1).view.write (Elt F) (junkB (F := F) _) ((sbSlot 1).view.read (Elt F) (sbAfter m (origin (peer c 2) 1) 1)) Finset.univ = _
    rw [e]
  show pts (rbSlot 1) (peer c 2) _ = pts (rbSlot 1) (peer c 2) (landed m (peer c 2) 1)
  rw [e2]
  exact pts_write_base (rbSlot 1) (peer c 2) _ _ _

theorem landed_pay2 {F : FTy → Type} [FloatOps F] (m : (ℓ : Loc nD τ sig) → Buf (Elt F) ℓ) (c : Dev nD)
    (fd : Buf (Elt F) ((rbSlot 2).view.loc ((peer c 3) : Thread nD τ))) (fs' : Buf (Elt F) ((c : Thread nD τ).loc cc0_scratch1))
    (h : (sbSlot 2).view.read (Elt F) fs' = (sbSlot 2).view.read (Elt F) (sbAfter m c 2)) :
    (pts (rbSlot 2) (peer c 3) ((rbSlot 2).view.write (Elt F) fd ((sbSlot 2).view.read (Elt F) fs') Finset.univ)
        : sProp (MT nD τ sig Unit (Elt F) ℕ UU ℕ)) = recvPay m (peer c 3) 2 := by
  rw [h]
  have e : origin (peer c 3) 2 = c := by
    show peer (peer c 3) 1 = c
    rw [peer_peer]; exact peer_four c
  have e2 : landed m (peer c 3) 2
      = (rbSlot 2).view.write (Elt F) (junkB (F := F) _) ((sbSlot 2).view.read (Elt F) (sbAfter m c 2)) Finset.univ := by
    show (rbSlot 2).view.write (Elt F) (junkB (F := F) _) ((sbSlot 2).view.read (Elt F) (sbAfter m (origin (peer c 3) 2) 2)) Finset.univ = _
    rw [e]
  show pts (rbSlot 2) (peer c 3) _ = pts (rbSlot 2) (peer c 3) (landed m (peer c 3) 2)
  rw [e2]
  exact pts_write_base (rbSlot 2) (peer c 3) _ _ _

/-- info: 'Cert.Kernel.A2A.readAs_same' depends on axioms: [propext, Quot.sound] -/
#guard_msgs in #print axioms readAs_same
/-- info: 'Cert.Kernel.A2A.writes_whole' depends on axioms: [propext, Classical.choice, Quot.sound] -/
#guard_msgs in #print axioms writes_whole
/-- info: 'Cert.Kernel.A2A.pts_congr_of_read' depends on axioms: [propext, Classical.choice, Quot.sound] -/
#guard_msgs in #print axioms pts_congr_of_read
/-- info: 'Cert.Kernel.A2A.sent_read0' depends on axioms: [propext, Classical.choice, Quot.sound] -/
#guard_msgs in #print axioms sent_read0
/-- info: 'Cert.Kernel.A2A.sent_read1' depends on axioms: [propext, Classical.choice, Quot.sound] -/
#guard_msgs in #print axioms sent_read1
/-- info: 'Cert.Kernel.A2A.sent_read2' depends on axioms: [propext, Classical.choice, Quot.sound] -/
#guard_msgs in #print axioms sent_read2
/-- info: 'Cert.Kernel.A2A.widened_read0' depends on axioms: [propext, Classical.choice, Quot.sound] -/
#guard_msgs in #print axioms widened_read0
/-- info: 'Cert.Kernel.A2A.widened_read1' depends on axioms: [propext, Classical.choice, Quot.sound] -/
#guard_msgs in #print axioms widened_read1
/-- info: 'Cert.Kernel.A2A.widened_read2' depends on axioms: [propext, Classical.choice, Quot.sound] -/
#guard_msgs in #print axioms widened_read2
/-- info: 'Cert.Kernel.A2A.landed_pay0' depends on axioms: [propext, Classical.choice, Quot.sound] -/
#guard_msgs in #print axioms landed_pay0
/-- info: 'Cert.Kernel.A2A.landed_pay1' depends on axioms: [propext, Classical.choice, Quot.sound] -/
#guard_msgs in #print axioms landed_pay1
/-- info: 'Cert.Kernel.A2A.landed_pay2' depends on axioms: [propext, Classical.choice, Quot.sound] -/
#guard_msgs in #print axioms landed_pay2

end Cert.Kernel.A2A

end
-- ==== Proof.KPieces.lean ====
/-
  The geometry of the five buffers' pieces.

  One device's body works on parts of its buffers: the argument array (2048 × 2048) by four column blocks of 512
  columns — the three that are sent away, at columns `512 · ((z + w) mod 4)` for `w = 1, 2, 3`, and the device's own
  at `512 · z`, where `z` is the device's z coordinate —; the result (8192 × 512) by four row blocks of 2048 rows —
  the device's own at `2048 · z` and the three received ones at `2048 · ((z + 3) mod 4)`, `2048 · ((z + 2) mod 4)`,
  `2048 · ((z + 1) mod 4)` —; each three-slot buffer (3 × 2048 × 512) by its three slots, slot `j` being the elements
  whose first coordinate is `j`. For `z < 4` the four residues `(z + w) mod 4`, `w = 0, 1, 2, 3`, are the four numbers
  below 4, each once: so the four blocks of a kind are pairwise disjoint and cover their array, and the same holds
  of the three slots. Every fact here is that arithmetic on one coordinate.

  Ownership of a buffer over a union of disjoint sets is ownership over each (for one contents): that gives the
  splits. Conversely pieces held at contents of their own are the whole buffer at the contents that agree with each
  piece's on that piece: that gives the joins.
-/
import proofs.«900644_g7700000000000645_dist_a2a_v7x_xyz2x2x4_z_m2048_n512_f32_1_alg».proof.Proof.KSched

noncomputable section

namespace Cert.Kernel.A2A

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A points-to over three pairwise disjoint sets is the three points-to, for the same contents. -/
theorem pointsTo_split3 {ℓ : Loc nD τ sig} {S A B C : Finset (Idx ℓ)}
    (hS : S = A ∪ (B ∪ C)) (hAB : Disjoint A B) (hAC : Disjoint A C) (hBC : Disjoint B C) (f : Buf (Elt F) ℓ) :
    (ℓ ↦[S]{fullShare} f : sProp 𝕄) ⊣⊢ iprop((ℓ ↦[A]{fullShare} f) ∗ (ℓ ↦[B]{fullShare} f) ∗ (ℓ ↦[C]{fullShare} f)) := by
  subst hS
  exact (BI.Region.is_union (Finset.disjoint_union_right.mpr ⟨hAB, hAC⟩)).trans
    (sep_congr_right (BI.Region.is_union hBC))

/-- The same over four sets. -/
theorem pointsTo_split4 {ℓ : Loc nD τ sig} {S A B C D : Finset (Idx ℓ)}
    (hS : S = A ∪ (B ∪ (C ∪ D))) (hAB : Disjoint A B) (hAC : Disjoint A C) (hAD : Disjoint A D)
    (hBC : Disjoint B C) (hBD : Disjoint B D) (hCD : Disjoint C D) (f : Buf (Elt F) ℓ) :
    (ℓ ↦[S]{fullShare} f : sProp 𝕄)
      ⊣⊢ iprop((ℓ ↦[A]{fullShare} f) ∗ (ℓ ↦[B]{fullShare} f) ∗ (ℓ ↦[C]{fullShare} f) ∗ (ℓ ↦[D]{fullShare} f)) := by
  subst hS
  exact (BI.Region.is_union (Finset.disjoint_union_right.mpr ⟨hAB, Finset.disjoint_union_right.mpr ⟨hAC, hAD⟩⟩)).trans
    (sep_congr_right (pointsTo_split3 rfl hBC hBD hCD f))

/-! ## The argument array: four column blocks -/

theorem xM_set : (xM).view.set = Finset.univ := View.set_whole main_arg0

theorem colM0_set (c : Dev nD) : (colM c 0).view.set
    = (Rect.unit (s := S2048x2048) (k0_off1 c 1#32) S2048x512.size (Facts₀.k0_off1_inb c 0)).set :=
  View.set_slice_whole main_arg0 _

/-- Column block `(z + 1) mod 4`. -/
theorem mem_col0 (c : Dev nD) (i : S2048x2048.Idx) :
    i ∈ (colM c 0).view.set ↔ 512 * ((c.val % 4 + 1) % 4) ≤ (i 1).val ∧ (i 1).val < 512 * ((c.val % 4 + 1) % 4) + 512 := by
  rw [colM0_set, Rect.mem_set_unit, off1_1 c]
  have h0 := (i 0).isLt
  simp only [Fin.forall_fin_two, Matrix.cons_val_zero, Matrix.cons_val_one, Matrix.head_cons] at h0 ⊢
  omega

theorem colM1_set (c : Dev nD) : (colM c 1).view.set
    = (Rect.unit (s := S2048x2048) (k0_off1 c 2#32) S2048x512.size (Facts₀.k0_off1_inb c 1)).set :=
  View.set_slice_whole main_arg0 _
theorem colM2_set (c : Dev nD) : (colM c 2).view.set
    = (Rect.unit (s := S2048x2048) (k0_off1 c 3#32) S2048x512.size (Facts₀.k0_off1_inb c 2)).set :=
  View.set_slice_whole main_arg0 _
theorem ownSrcM_set (c : Dev nD) : (ownSrcM c).view.set
    = (Rect.unit (s := S2048x2048) (k0_off3 c) S2048x512.size (Facts₀.k0_off3_inb c)).set :=
  View.set_slice_whole main_arg0 _

/-- Column block `(z + 2) mod 4`. -/
theorem mem_col1 (c : Dev nD) (i : S2048x2048.Idx) :
    i ∈ (colM c 1).view.set ↔ 512 * ((c.val % 4 + 2) % 4) ≤ (i 1).val ∧ (i 1).val < 512 * ((c.val % 4 + 2) % 4) + 512 := by
  rw [colM1_set, Rect.mem_set_unit, off1_2 c]
  have h0 := (i 0).isLt
  simp only [Fin.forall_fin_two, Matrix.cons_val_zero, Matrix.cons_val_one, Matrix.head_cons] at h0 ⊢
  omega

/-- Column block `(z + 3) mod 4`. -/
theorem mem_col2 (c : Dev nD) (i : S2048x2048.Idx) :
    i ∈ (colM c 2).view.set ↔ 512 * ((c.val % 4 + 3) % 4) ≤ (i 1).val ∧ (i 1).val < 512 * ((c.val % 4 + 3) % 4) + 512 := by
  rw [colM2_set, Rect.mem_set_unit, off1_3 c]
  have h0 := (i 0).isLt
  simp only [Fin.forall_fin_two, Matrix.cons_val_zero, Matrix.cons_val_one, Matrix.head_cons] at h0 ⊢
  omega

/-- Column block `z`. -/
theorem mem_ownSrc (c : Dev nD) (i : S2048x2048.Idx) :
    i ∈ (ownSrcM c).view.set ↔ 512 * (c.val % 4) ≤ (i 1).val ∧ (i 1).val < 512 * (c.val % 4) + 512 := by
  rw [ownSrcM_set, Rect.mem_set_unit, k0_off3_eq c]
  have h0 := (i 0).isLt
  simp only [Fin.forall_fin_two, Matrix.cons_val_zero, Matrix.cons_val_one, Matrix.head_cons] at h0 ⊢
  omega

theorem col01_disj (c : Dev nD) : Disjoint (colM c 0).view.set (colM c 1).view.set :=
  Finset.disjoint_left.mpr fun i h0 h1 => by
    have a := (mem_col0 c i).mp h0; have b := (mem_col1 c i).mp h1; omega
theorem col02_disj (c : Dev nD) : Disjoint (colM c 0).view.set (colM c 2).view.set :=
  Finset.disjoint_left.mpr fun i h0 h1 => by
    have a := (mem_col0 c i).mp h0; have b := (mem_col2 c i).mp h1; omega
theorem col12_disj (c : Dev nD) : Disjoint (colM c 1).view.set (colM c 2).view.set :=
  Finset.disjoint_left.mpr fun i h0 h1 => by
    have a := (mem_col1 c i).mp h0; have b := (mem_col2 c i).mp h1; omega
theorem col0_own_disj (c : Dev nD) : Disjoint (colM c 0).view.set (ownSrcM c).view.set :=
  Finset.disjoint_left.mpr fun i h0 h1 => by
    have a := (mem_col0 c i).mp h0; have b := (mem_ownSrc c i).mp h1; omega
theorem col1_own_disj (c : Dev nD) : Disjoint (colM c 1).view.set (ownSrcM c).view.set :=
  Finset.disjoint_left.mpr fun i h0 h1 => by
    have a := (mem_col1 c i).mp h0; have b := (mem_ownSrc c i).mp h1; omega
theorem col2_own_disj (c : Dev nD) : Disjoint (colM c 2).view.set (ownSrcM c).view.set :=
  Finset.disjoint_left.mpr fun i h0 h1 => by
    have a := (mem_col2 c i).mp h0; have b := (mem_ownSrc c i).mp h1; omega

/-- The four column blocks cover the array: a column lies in exactly one of the four blocks of 512. -/
theorem x_cover (c : Dev nD) : (xM).view.set
    = (colM c 0).view.set ∪ ((colM c 1).view.set ∪ ((colM c 2).view.set ∪ (ownSrcM c).view.set)) := by
  rw [xM_set]
  ext i
  simp only [Finset.mem_univ, Finset.mem_union, true_iff]
  have h1 : (i 1).val < 2048 := (i 1).isLt
  rw [mem_col0 c i, mem_col1 c i, mem_col2 c i, mem_ownSrc c i]
  omega

theorem x_split (c : Dev nD) (f : Buf (Elt F) ((c : Thread nD τ).loc main_arg0)) :
    (pts xM c f : sProp 𝕄)
      ⊣⊢ iprop(pts (colM c 0) c f ∗ pts (colM c 1) c f ∗ pts (colM c 2) c f ∗ pts (ownSrcM c) c f) :=
  pointsTo_split4 (x_cover c) (col01_disj c) (col02_disj c) (col0_own_disj c) (col12_disj c) (col1_own_disj c) (col2_own_disj c) f

/-! ## The result array: four row blocks -/

theorem oM_set : (oM).view.set = Finset.univ := View.set_whole main_v1

theorem ownDstM_set (c : Dev nD) : (ownDstM c).view.set
    = (Rect.unit (s := S8192x512) (k0_off2 c) S2048x512.size (Facts₀.k0_off2_inb c)).set :=
  View.set_slice_whole main_v1 _
theorem rowM0_set (c : Dev nD) : (rowM c 0).view.set
    = (Rect.unit (s := S8192x512) (k0_off4 c 1#32) S2048x512.size (Facts₀.k0_off4_inb c 0)).set :=
  View.set_slice_whole main_v1 _
theorem rowM1_set (c : Dev nD) : (rowM c 1).view.set
    = (Rect.unit (s := S8192x512) (k0_off4 c 2#32) S2048x512.size (Facts₀.k0_off4_inb c 1)).set :=
  View.set_slice_whole main_v1 _
theorem rowM2_set (c : Dev nD) : (rowM c 2).view.set
    = (Rect.unit (s := S8192x512) (k0_off4 c 3#32) S2048x512.size (Facts₀.k0_off4_inb c 2)).set :=
  View.set_slice_whole main_v1 _

/-- Row block `z`. -/
theorem mem_ownDst (c : Dev nD) (i : S8192x512.Idx) :
    i ∈ (ownDstM c).view.set ↔ 2048 * (c.val % 4) ≤ (i 0).val ∧ (i 0).val < 2048 * (c.val % 4) + 2048 := by
  rw [ownDstM_set, Rect.mem_set_unit, k0_off2_eq c]
  have h1 : (i 1).val < 512 := (i 1).isLt
  simp only [Fin.forall_fin_two, Matrix.cons_val_zero, Matrix.cons_val_one, Matrix.head_cons]
  omega

/-- Row block `(z + 3) mod 4`: the device one step back. -/
theorem mem_row0 (c : Dev nD) (i : S8192x512.Idx) :
    i ∈ (rowM c 0).view.set ↔ 2048 * ((c.val % 4 + 3) % 4) ≤ (i 0).val ∧ (i 0).val < 2048 * ((c.val % 4 + 3) % 4) + 2048 := by
  rw [rowM0_set, Rect.mem_set_unit, off4_1 c]
  have h1 : (i 1).val < 512 := (i 1).isLt
  simp only [Fin.forall_fin_two, Matrix.cons_val_zero, Matrix.cons_val_one, Matrix.head_cons]
  omega

/-- Row block `(z + 2) mod 4`: the device two steps back. -/
theorem mem_row1 (c : Dev nD) (i : S8192x512.Idx) :
    i ∈ (rowM c 1).view.set ↔ 2048 * ((c.val % 4 + 2) % 4) ≤ (i 0).val ∧ (i 0).val < 2048 * ((c.val % 4 + 2) % 4) + 2048 := by
  rw [rowM1_set, Rect.mem_set_unit, off4_2 c]
  have h1 : (i 1).val < 512 := (i 1).isLt
  simp only [Fin.forall_fin_two, Matrix.cons_val_zero, Matrix.cons_val_one, Matrix.head_cons]
  omega

/-- Row block `(z + 1) mod 4`: the device three steps back. -/
theorem mem_row2 (c : Dev nD) (i : S8192x512.Idx) :
    i ∈ (rowM c 2).view.set ↔ 2048 * ((c.val % 4 + 1) % 4) ≤ (i 0).val ∧ (i 0).val < 2048 * ((c.val % 4 + 1) % 4) + 2048 := by
  rw [rowM2_set, Rect.mem_set_unit, off4_3 c]
  have h1 : (i 1).val < 512 := (i 1).isLt
  simp only [Fin.forall_fin_two, Matrix.cons_val_zero, Matrix.cons_val_one, Matrix.head_cons]
  omega

theorem own_row0_disj (c : Dev nD) : Disjoint (ownDstM c).view.set (rowM c 0).view.set :=
  Finset.disjoint_left.mpr fun i h0 h1 => by
    have a := (mem_ownDst c i).mp h0; have b := (mem_row0 c i).mp h1; omega
theorem own_row1_disj (c : Dev nD) : Disjoint (ownDstM c).view.set (rowM c 1).view.set :=
  Finset.disjoint_left.mpr fun i h0 h1 => by
    have a := (mem_ownDst c i).mp h0; have b := (mem_row1 c i).mp h1; omega
theorem own_row2_disj (c : Dev nD) : Disjoint (ownDstM c).view.set (rowM c 2).view.set :=
  Finset.disjoint_left.mpr fun i h0 h1 => by
    have a := (mem_ownDst c i).mp h0; have b := (mem_row2 c i).mp h1; omega
theorem row01_disj (c : Dev nD) : Disjoint (rowM c 0).view.set (rowM c 1).view.set :=
  Finset.disjoint_left.mpr fun i h0 h1 => by
    have a := (mem_row0 c i).mp h0; have b := (mem_row1 c i).mp h1; omega
theorem row02_disj (c : Dev nD) : Disjoint (rowM c 0).view.set (rowM c 2).view.set :=
  Finset.disjoint_left.mpr fun i h0 h1 => by
    have a := (mem_row0 c i).mp h0; have b := (mem_row2 c i).mp h1; omega
theorem row12_disj (c : Dev nD) : Disjoint (rowM c 1).view.set (rowM c 2).view.set :=
  Finset.disjoint_left.mpr fun i h0 h1 => by
    have a := (mem_row1 c i).mp h0; have b := (mem_row2 c i).mp h1; omega

/-- The four row blocks cover the result: a row lies in exactly one of the four blocks of 2048. -/
theorem o_cover (c : Dev nD) : (oM).view.set
    = (ownDstM c).view.set ∪ ((rowM c 0).view.set ∪ ((rowM c 1).view.set ∪ (rowM c 2).view.set)) := by
  rw [oM_set]
  ext i
  simp only [Finset.mem_univ, Finset.mem_union, true_iff]
  have h0 : (i 0).val < 8192 := (i 0).isLt
  rw [mem_ownDst c i, mem_row0 c i, mem_row1 c i, mem_row2 c i]
  omega

theorem o_split (c : Dev nD) (f : Buf (Elt F) ((c : Thread nD τ).loc main_v1)) :
    (pts oM c f : sProp 𝕄)
      ⊣⊢ iprop(pts (ownDstM c) c f ∗ pts (rowM c 0) c f ∗ pts (rowM c 1) c f ∗ pts (rowM c 2) c f) :=
  pointsTo_split4 (o_cover c) (own_row0_disj c) (own_row1_disj c) (own_row2_disj c) (row01_disj c) (row02_disj c) (row12_disj c) f

/-! ## The three-slot buffers: slot `j` is the part with first coordinate `j` -/

/-- In a 3 × 2048 × 512 array the unit-stride block of sizes 1 × 2048 × 512 at `(j, 0, 0)` is the first coordinate `j`. -/
theorem mem_slotRect (j : ℕ) (inb : ∀ a, (![j, 0, 0] : Fin 3 → ℕ) a + S1x2048x512.size a ≤ S3x2048x512.size a)
    (i : S3x2048x512.Idx) :
    i ∈ (Rect.unit (s := S3x2048x512) ![j, 0, 0] S1x2048x512.size inb).set ↔ (i 0).val = j := by
  rw [Rect.mem_set_unit]
  have hb : ∀ a, (i a).val < S3x2048x512.size a := fun a => (i a).isLt
  simp only [Fin.forall_fin_succ, Fin.forall_fin_zero, Matrix.cons_val_zero, Matrix.cons_val_succ, and_true] at hb ⊢
  omega

/-! ### The staging buffer -/

theorem mem_xsSlot0 (i : S3x2048x512.Idx) : i ∈ (xsSlot 0).view.set ↔ (i 0).val = 0 := by
  rw [show (xsSlot 0).view.set = _ from (View.set_reshape _ _).trans (View.set_slice_whole cc0_scratch0 _)]
  exact mem_slotRect 0 _ i
theorem mem_xsSlot1 (i : S3x2048x512.Idx) : i ∈ (xsSlot 1).view.set ↔ (i 0).val = 1 := by
  rw [show (xsSlot 1).view.set = _ from (View.set_reshape _ _).trans (View.set_slice_whole cc0_scratch0 _)]
  exact mem_slotRect 1 _ i
theorem mem_xsSlot2 (i : S3x2048x512.Idx) : i ∈ (xsSlot 2).view.set ↔ (i 0).val = 2 := by
  rw [show (xsSlot 2).view.set = _ from (View.set_reshape _ _).trans (View.set_slice_whole cc0_scratch0 _)]
  exact mem_slotRect 2 _ i

theorem xsSlot01_disj : Disjoint (xsSlot 0).view.set (xsSlot 1).view.set :=
  Finset.disjoint_left.mpr fun i h0 h1 => by
    have a := (mem_xsSlot0 i).mp h0; have b := (mem_xsSlot1 i).mp h1; omega
theorem xsSlot02_disj : Disjoint (xsSlot 0).view.set (xsSlot 2).view.set :=
  Finset.disjoint_left.mpr fun i h0 h1 => by
    have a := (mem_xsSlot0 i).mp h0; have b := (mem_xsSlot2 i).mp h1; omega
theorem xsSlot12_disj : Disjoint (xsSlot 1).view.set (xsSlot 2).view.set :=
  Finset.disjoint_left.mpr fun i h0 h1 => by
    have a := (mem_xsSlot1 i).mp h0; have b := (mem_xsSlot2 i).mp h1; omega

theorem xs_cover : (xsM).view.set = (xsSlot 0).view.set ∪ ((xsSlot 1).view.set ∪ (xsSlot 2).view.set) := by
  rw [show (xsM).view.set = Finset.univ from View.set_whole cc0_scratch0]
  ext i
  simp only [Finset.mem_univ, Finset.mem_union, true_iff]
  have h0 : (i 0).val < 3 := (i 0).isLt
  rw [mem_xsSlot0 i, mem_xsSlot1 i, mem_xsSlot2 i]
  omega

theorem xs_split (c : Dev nD) (f : Buf (Elt F) ((c : Thread nD τ).loc cc0_scratch0)) :
    (pts xsM c f : sProp 𝕄) ⊣⊢ iprop(pts (xsSlot 0) c f ∗ pts (xsSlot 1) c f ∗ pts (xsSlot 2) c f) :=
  pointsTo_split3 xs_cover xsSlot01_disj xsSlot02_disj xsSlot12_disj f

/-! ### The send buffer -/

theorem mem_sbSlot0 (i : S3x2048x512.Idx) : i ∈ (sbSlot 0).view.set ↔ (i 0).val = 0 := by
  rw [show (sbSlot 0).view.set = _ from (View.set_reshape _ _).trans (View.set_slice_whole cc0_scratch1 _)]
  exact mem_slotRect 0 _ i
theorem mem_sbSlot1 (i : S3x2048x512.Idx) : i ∈ (sbSlot 1).view.set ↔ (i 0).val = 1 := by
  rw [show (sbSlot 1).view.set = _ from (View.set_reshape _ _).trans (View.set_slice_whole cc0_scratch1 _)]
  exact mem_slotRect 1 _ i
theorem mem_sbSlot2 (i : S3x2048x512.Idx) : i ∈ (sbSlot 2).view.set ↔ (i 0).val = 2 := by
  rw [show (sbSlot 2).view.set = _ from (View.set_reshape _ _).trans (View.set_slice_whole cc0_scratch1 _)]
  exact mem_slotRect 2 _ i

theorem sbSlot01_disj : Disjoint (sbSlot 0).view.set (sbSlot 1).view.set :=
  Finset.disjoint_left.mpr fun i h0 h1 => by
    have a := (mem_sbSlot0 i).mp h0; have b := (mem_sbSlot1 i).mp h1; omega
theorem sbSlot02_disj : Disjoint (sbSlot 0).view.set (sbSlot 2).view.set :=
  Finset.disjoint_left.mpr fun i h0 h1 => by
    have a := (mem_sbSlot0 i).mp h0; have b := (mem_sbSlot2 i).mp h1; omega
theorem sbSlot12_disj : Disjoint (sbSlot 1).view.set (sbSlot 2).view.set :=
  Finset.disjoint_left.mpr fun i h0 h1 => by
    have a := (mem_sbSlot1 i).mp h0; have b := (mem_sbSlot2 i).mp h1; omega

theorem sb_cover : (sbM).view.set = (sbSlot 0).view.set ∪ ((sbSlot 1).view.set ∪ (sbSlot 2).view.set) := by
  rw [show (sbM).view.set = Finset.univ from View.set_whole cc0_scratch1]
  ext i
  simp only [Finset.mem_univ, Finset.mem_union, true_iff]
  have h0 : (i 0).val < 3 := (i 0).isLt
  rw [mem_sbSlot0 i, mem_sbSlot1 i, mem_sbSlot2 i]
  omega

theorem sb_split (c : Dev nD) (f : Buf (Elt F) ((c : Thread nD τ).loc cc0_scratch1)) :
    (pts sbM c f : sProp 𝕄) ⊣⊢ iprop(pts (sbSlot 0) c f ∗ pts (sbSlot 1) c f ∗ pts (sbSlot 2) c f) :=
  pointsTo_split3 sb_cover sbSlot01_disj sbSlot02_disj sbSlot12_disj f

/-! ### The receive buffer -/

theorem mem_rbSlot0 (i : S3x2048x512.Idx) : i ∈ (rbSlot 0).view.set ↔ (i 0).val = 0 := by
  rw [show (rbSlot 0).view.set = _ from (View.set_reshape _ _).trans (View.set_slice_whole cc0_scratch2 _)]
  exact mem_slotRect 0 _ i
theorem mem_rbSlot1 (i : S3x2048x512.Idx) : i ∈ (rbSlot 1).view.set ↔ (i 0).val = 1 := by
  rw [show (rbSlot 1).view.set = _ from (View.set_reshape _ _).trans (View.set_slice_whole cc0_scratch2 _)]
  exact mem_slotRect 1 _ i
theorem mem_rbSlot2 (i : S3x2048x512.Idx) : i ∈ (rbSlot 2).view.set ↔ (i 0).val = 2 := by
  rw [show (rbSlot 2).view.set = _ from (View.set_reshape _ _).trans (View.set_slice_whole cc0_scratch2 _)]
  exact mem_slotRect 2 _ i

theorem rbSlot01_disj : Disjoint (rbSlot 0).view.set (rbSlot 1).view.set :=
  Finset.disjoint_left.mpr fun i h0 h1 => by
    have a := (mem_rbSlot0 i).mp h0; have b := (mem_rbSlot1 i).mp h1; omega
theorem rbSlot02_disj : Disjoint (rbSlot 0).view.set (rbSlot 2).view.set :=
  Finset.disjoint_left.mpr fun i h0 h1 => by
    have a := (mem_rbSlot0 i).mp h0; have b := (mem_rbSlot2 i).mp h1; omega
theorem rbSlot12_disj : Disjoint (rbSlot 1).view.set (rbSlot 2).view.set :=
  Finset.disjoint_left.mpr fun i h0 h1 => by
    have a := (mem_rbSlot1 i).mp h0; have b := (mem_rbSlot2 i).mp h1; omega

theorem rb_cover : (rbM).view.set = (rbSlot 0).view.set ∪ ((rbSlot 1).view.set ∪ (rbSlot 2).view.set) := by
  rw [show (rbM).view.set = Finset.univ from View.set_whole cc0_scratch2]
  ext i
  simp only [Finset.mem_univ, Finset.mem_union, true_iff]
  have h0 : (i 0).val < 3 := (i 0).isLt
  rw [mem_rbSlot0 i, mem_rbSlot1 i, mem_rbSlot2 i]
  omega

theorem rb_split (c : Dev nD) (f : Buf (Elt F) ((c : Thread nD τ).loc cc0_scratch2)) :
    (pts rbM c f : sProp 𝕄) ⊣⊢ iprop(pts (rbSlot 0) c f ∗ pts (rbSlot 1) c f ∗ pts (rbSlot 2) c f) :=
  pointsTo_split3 rb_cover rbSlot01_disj rbSlot02_disj rbSlot12_disj f

/-! ## Joining pieces back -/

/-- Three pieces of a buffer over pairwise disjoint sets, each at contents of its own, are the buffer over their union
    at the contents that agree with each piece's on that piece. -/
theorem pointsTo_join3 {ℓ : Loc nD τ sig} {S A B C : Finset (Idx ℓ)} (hS : S = A ∪ (B ∪ C))
    (hAB : Disjoint A B) (hAC : Disjoint A C) (hBC : Disjoint B C) (f0 f1 f2 : Buf (Elt F) ℓ) :
    iprop((ℓ ↦[A]{fullShare} f0) ∗ (ℓ ↦[B]{fullShare} f1) ∗ (ℓ ↦[C]{fullShare} f2))
      ⊢ (iprop(∃ f, ℓ ↦[S]{fullShare} f) : sProp 𝕄) := by
  classical
  let G : Buf (Elt F) ℓ := fun i => if i ∈ A then f0 i else if i ∈ B then f1 i else f2 i
  have e0 : ∀ i ∈ A, f0 i = G i := fun i hi => by simp only [G, if_pos hi]
  have e1 : ∀ i ∈ B, f1 i = G i := fun i hi => by
    have ha : i ∉ A := fun ha => Finset.disjoint_left.mp hAB ha hi
    simp only [G, if_neg ha, if_pos hi]
  have e2 : ∀ i ∈ C, f2 i = G i := fun i hi => by
    have ha : i ∉ A := fun ha => Finset.disjoint_left.mp hAC ha hi
    have hb : i ∉ B := fun hb => Finset.disjoint_left.mp hBC hb hi
    simp only [G, if_neg ha, if_neg hb]
  refine (BIClass.sep_mono (BiEntails.of_eq (BI.Region.is_congr e0)).mp
    (BIClass.sep_mono (BiEntails.of_eq (BI.Region.is_congr e1)).mp (BiEntails.of_eq (BI.Region.is_congr e2)).mp)).trans ?_
  exact ((pointsTo_split3 hS hAB hAC hBC G).mpr).trans
    (exists_intro (Φ := fun f => (ℓ ↦[S]{fullShare} f : sProp 𝕄)) G)

theorem xs_join (c : Dev nD) (f0 f1 f2 : Buf (Elt F) ((c : Thread nD τ).loc cc0_scratch0)) :
    iprop(pts (xsSlot 0) c f0 ∗ pts (xsSlot 1) c f1 ∗ pts (xsSlot 2) c f2) ⊢ (iprop(∃ f, pts xsM c f) : sProp 𝕄) :=
  pointsTo_join3 xs_cover xsSlot01_disj xsSlot02_disj xsSlot12_disj f0 f1 f2
theorem sb_join (c : Dev nD) (f0 f1 f2 : Buf (Elt F) ((c : Thread nD τ).loc cc0_scratch1)) :
    iprop(pts (sbSlot 0) c f0 ∗ pts (sbSlot 1) c f1 ∗ pts (sbSlot 2) c f2) ⊢ (iprop(∃ f, pts sbM c f) : sProp 𝕄) :=
  pointsTo_join3 sb_cover sbSlot01_disj sbSlot02_disj sbSlot12_disj f0 f1 f2
theorem rb_join (c : Dev nD) (f0 f1 f2 : Buf (Elt F) ((c : Thread nD τ).loc cc0_scratch2)) :
    iprop(pts (rbSlot 0) c f0 ∗ pts (rbSlot 1) c f1 ∗ pts (rbSlot 2) c f2) ⊢ (iprop(∃ f, pts rbM c f) : sProp 𝕄) :=
  pointsTo_join3 rb_cover rbSlot01_disj rbSlot02_disj rbSlot12_disj f0 f1 f2

/-- The four row blocks of the result, each at contents that agree with `G` on that block, are the result at `G`. -/
theorem o_join (c : Dev nD) (fA f0 f1 f2 G : Buf (Elt F) ((c : Thread nD τ).loc main_v1))
    (hA : ∀ i ∈ (ownDstM c).view.set, fA i = G i) (h0 : ∀ i ∈ (rowM c 0).view.set, f0 i = G i)
    (h1 : ∀ i ∈ (rowM c 1).view.set, f1 i = G i) (h2 : ∀ i ∈ (rowM c 2).view.set, f2 i = G i) :
    iprop(pts (ownDstM c) c fA ∗ pts (rowM c 0) c f0 ∗ pts (rowM c 1) c f1 ∗ pts (rowM c 2) c f2)
      ⊢ (pts oM c G : sProp 𝕄) :=
  (BIClass.sep_mono (BiEntails.of_eq (BI.Region.is_congr hA)).mp (BIClass.sep_mono (BiEntails.of_eq (BI.Region.is_congr h0)).mp
    (BIClass.sep_mono (BiEntails.of_eq (BI.Region.is_congr h1)).mp (BiEntails.of_eq (BI.Region.is_congr h2)).mp))).trans
    (o_split c G).mpr

/-- info: 'Cert.Kernel.A2A.x_split' depends on axioms: [propext, Classical.choice, Quot.sound] -/
#guard_msgs in
#print axioms x_split

/-- info: 'Cert.Kernel.A2A.o_split' depends on axioms: [propext, Classical.choice, Quot.sound] -/
#guard_msgs in
#print axioms o_split

/-- info: 'Cert.Kernel.A2A.xs_split' depends on axioms: [propext, Classical.choice, Quot.sound] -/
#guard_msgs in
#print axioms xs_split

/-- info: 'Cert.Kernel.A2A.sb_split' depends on axioms: [propext, Classical.choice, Quot.sound] -/
#guard_msgs in
#print axioms sb_split

/-- info: 'Cert.Kernel.A2A.rb_split' depends on axioms: [propext, Classical.choice, Quot.sound] -/
#guard_msgs in
#print axioms rb_split

/-- info: 'Cert.Kernel.A2A.o_join' depends on axioms: [propext, Classical.choice, Quot.sound] -/
#guard_msgs in
#print axioms o_join

/-- info: 'Cert.Kernel.A2A.xs_join' depends on axioms: [propext, Classical.choice, Quot.sound] -/
#guard_msgs in
#print axioms xs_join

/-- info: 'Cert.Kernel.A2A.sb_join' depends on axioms: [propext, Classical.choice, Quot.sound] -/
#guard_msgs in
#print axioms sb_join

/-- info: 'Cert.Kernel.A2A.rb_join' depends on axioms: [propext, Classical.choice, Quot.sound] -/
#guard_msgs in
#print axioms rb_join

end Cert.Kernel.A2A

end
-- ==== Proof.KBody.lean ====
/-
  One device's body of the all-to-all, stepped once at a symbolic device from its pieces of the five buffers: the entry
  handshake (each signal hands a receive slot to the peer that will write it), the four local copies out of `x`, the
  three narrow-and-send trips, the three landings widened and copied into the result, the waits that bring every
  buffer back, the exit handshake. Each cross-device step is the rounds rule for it at this schedule: a signal pays one
  duty of a peer's barrier cell, a transfer pays its send and its receive duty at once, a wait takes a cell's whole round
  and comes back with its payloads; the local copies, loads and stores only move the pieces' contents.
-/
import proofs.«900644_g7700000000000645_dist_a2a_v7x_xyz2x2x4_z_m2048_n512_f32_1_alg».proof.Proof.KTables
import proofs.«900644_g7700000000000645_dist_a2a_v7x_xyz2x2x4_z_m2048_n512_f32_1_alg».proof.Proof.KBridge
import proofs.«900644_g7700000000000645_dist_a2a_v7x_xyz2x2x4_z_m2048_n512_f32_1_alg».proof.Proof.KPieces
import proofs.«900644_g7700000000000645_dist_a2a_v7x_xyz2x2x4_z_m2048_n512_f32_1_alg».proof.Proof.KOutCongr

noncomputable section

namespace Cert.Kernel.A2A

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

omit [FloatOps F] in
theorem L_tc (c : Dev nD) (sm : SemLoc sig) : L ((c : Thread nD τ), sm) = {()} := if_pos rfl
omit [FloatOps F] in
theorem L_of_ne (g : GSem nD τ sig) (h : g.1.2 ≠ .tc) : L g = ∅ := if_neg h

omit [FloatOps F] in
/-- A device may wait on its own cell `sm` while it owes `O`, if all that is owed goes to TensorCore cells strictly above `sm`. -/
theorem mayWait_lt (c : Dev nD) (sm : SemLoc sig) (O : CellTallies nD τ sig Unit)
    (hO : ∀ (g : GSem nD τ sig) (u : Unit), 0 < O g u → g.1.2 = .tc ∧ lv ((c : Thread nD τ), sm) () < lv g u) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp])
    (fun g u hg => (hO g u hg).2)

omit [FloatOps F] in
/-- After the entry signals everything still owed goes to receive cells and exit barriers: level 2 or 3. -/
theorem O₄_pos {c : Dev nD} {g : GSem nD τ sig} {u : Unit} (h : 0 < O₄ c g u) : g.1.2 = .tc ∧ 1 < lv g u := by
  unfold O₄ O₅ O₆ O₇ O₈ at h
  simp only [Pi.add_apply, Finsupp.add_apply, tallyAt_apply] at h
  by_contra hn
  have hne : ∀ g' : GSem nD τ sig, (g'.1.2 = .tc ∧ 1 < lv g' ()) → ¬ (g = g' ∧ True) := fun g' hg' hh => hn (by cases u; rw [hh.1]; exact hg')
  have l3 : ∀ d : Dev nD, 1 < lv (endCell d) () := fun d => by show (1 : ℕ) < 3; decide
  have l2 : ∀ (d : Dev nD) (j : Fin 3), 1 < lv (recvCell d j) () := fun d j => by fin_cases j <;> (show (1 : ℕ) < 2; decide)
  rw [if_neg (hne _ ⟨rfl, l3 _⟩), if_neg (hne _ ⟨rfl, l3 _⟩), if_neg (hne _ ⟨rfl, l3 _⟩),
    if_neg (hne _ ⟨rfl, l2 _ _⟩), if_neg (hne _ ⟨rfl, l2 _ _⟩), if_neg (hne _ ⟨rfl, l2 _ _⟩)] at h
  exact Nat.lt_irrefl 0 h

omit [FloatOps F] in
theorem O₅_pos {c : Dev nD} {g : GSem nD τ sig} {u : Unit} (h : 0 < O₅ c g u) : g.1.2 = .tc ∧ 1 < lv g u := by
  unfold O₅ O₆ O₇ O₈ at h
  simp only [Pi.add_apply, Finsupp.add_apply, tallyAt_apply] at h
  by_contra hn
  have hne : ∀ g' : GSem nD τ sig, (g'.1.2 = .tc ∧ 1 < lv g' ()) → ¬ (g = g' ∧ True) := fun g' hg' hh => hn (by cases u; rw [hh.1]; exact hg')
  have l3 : ∀ d : Dev nD, 1 < lv (endCell d) () := fun d => by show (1 : ℕ) < 3; decide
  have l2 : ∀ (d : Dev nD) (j : Fin 3), 1 < lv (recvCell d j) () := fun d j => by fin_cases j <;> (show (1 : ℕ) < 2; decide)
  rw [if_neg (hne _ ⟨rfl, l3 _⟩), if_neg (hne _ ⟨rfl, l3 _⟩), if_neg (hne _ ⟨rfl, l3 _⟩), if_neg (hne _ ⟨rfl, l2 _ _⟩), if_neg (hne _ ⟨rfl, l2 _ _⟩)] at h
  exact Nat.lt_irrefl 0 h

omit [FloatOps F] in
theorem O₆_pos {c : Dev nD} {g : GSem nD τ sig} {u : Unit} (h : 0 < O₆ c g u) : g.1.2 = .tc ∧ 1 < lv g u := by
  unfold O₆ O₇ O₈ at h
  simp only [Pi.add_apply, Finsupp.add_apply, tallyAt_apply] at h
  by_contra hn
  have hne : ∀ g' : GSem nD τ sig, (g'.1.2 = .tc ∧ 1 < lv g' ()) → ¬ (g = g' ∧ True) := fun g' hg' hh => hn (by cases u; rw [hh.1]; exact hg')
  have l3 : ∀ d : Dev nD, 1 < lv (endCell d) () := fun d => by show (1 : ℕ) < 3; decide
  have l2 : ∀ (d : Dev nD) (j : Fin 3), 1 < lv (recvCell d j) () := fun d j => by fin_cases j <;> (show (1 : ℕ) < 2; decide)
  rw [if_neg (hne _ ⟨rfl, l3 _⟩), if_neg (hne _ ⟨rfl, l3 _⟩), if_neg (hne _ ⟨rfl, l3 _⟩), if_neg (hne _ ⟨rfl, l2 _ _⟩)] at h
  exact Nat.lt_irrefl 0 h

omit [FloatOps F] in
theorem O₇_pos {c : Dev nD} {g : GSem nD τ sig} {u : Unit} (h : 0 < O₇ c g u) : g.1.2 = .tc ∧ 2 < lv g u := by
  unfold O₇ O₈ at h
  simp only [Pi.add_apply, Finsupp.add_apply, tallyAt_apply] at h
  by_contra hn
  have hne : ∀ g' : GSem nD τ sig, (g'.1.2 = .tc ∧ 2 < lv g' ()) → ¬ (g = g' ∧ True) := fun g' hg' hh => hn (by cases u; rw [hh.1]; exact hg')
  have l3 : ∀ d : Dev nD, 2 < lv (endCell d) () := fun d => by show (2 : ℕ) < 3; decide
  have l2 : ∀ (d : Dev nD) (j : Fin 3), 1 < lv (recvCell d j) () := fun d j => by fin_cases j <;> (show (1 : ℕ) < 2; decide)
  rw [if_neg (hne _ ⟨rfl, l3 _⟩), if_neg (hne _ ⟨rfl, l3 _⟩), if_neg (hne _ ⟨rfl, l3 _⟩)] at h
  exact Nat.lt_irrefl 0 h

omit [FloatOps F] in
theorem O₈_pos {c : Dev nD} {g : GSem nD τ sig} {u : Unit} (h : 0 < O₈ c g u) : g.1.2 = .tc ∧ 2 < lv g u := by
  unfold O₈ at h
  simp only [Pi.add_apply, Finsupp.add_apply, tallyAt_apply] at h
  by_contra hn
  have hne : ∀ g' : GSem nD τ sig, (g'.1.2 = .tc ∧ 2 < lv g' ()) → ¬ (g = g' ∧ True) := fun g' hg' hh => hn (by cases u; rw [hh.1]; exact hg')
  have l3 : ∀ d : Dev nD, 2 < lv (endCell d) () := fun d => by show (2 : ℕ) < 3; decide
  have l2 : ∀ (d : Dev nD) (j : Fin 3), 1 < lv (recvCell d j) () := fun d j => by fin_cases j <;> (show (1 : ℕ) < 2; decide)
  rw [if_neg (hne _ ⟨rfl, l3 _⟩), if_neg (hne _ ⟨rfl, l3 _⟩)] at h
  exact Nat.lt_irrefl 0 h

omit [FloatOps F] in
theorem bigSep_fin14 (Φ : Fin 14 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ
omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

omit [FloatOps F] in
/-- Every slot's transfer is worth the same credit. -/
theorem credit_rb : ∀ j : Fin 3, (rbSlot j).view.dmaCredit = N := by decide
omit [FloatOps F] in
theorem credit_sb : ∀ j : Fin 3, (sbSlot j).view.dmaCredit = N := by decide

/-- The transfer of send slot 0 into receive slot 0 of the device 1 step on, as the rounds rule for an addressed copy
    states it at this schedule: the source slot comes back with the send cell's round, the landed slot goes to the peer. -/
theorem wp_send_slot0 (K : Dev nD × Fin 8 → ℕ) (c n : Dev nD) (hn : n = peer c 1)
    {hsc : ((rbSlot 0) : Memref sig (Dev.tc n : Thread nD τ).2.kind .vmem S2048x512 .bf16).view.ref.isScScratch = false}
    {hsrc : (sbSlot 0).view.WordExact} {hdst : (rbSlot 0).view.WordExact}
    {hsem : DmaTarget.Typed .vmem (.dma (recvS 0)) (.remote (Dev.tc n : Thread nD τ) (rbSlot 0) (.dma (sendS 0)) hsc)}
    {α : Type} {Q : α → sProp 𝕄} {k : PUnit → Prog (TpuEff nD τ sig (Elt F) Λ₀ .tc) α}
    (fs' : Buf (Elt F) ((c : Thread nD τ).loc cc0_scratch1)) (fd : Buf (Elt F) ((rbSlot 0).view.loc (peer c 1 : Thread nD τ)))
    (Wt : Waits sig Unit) (O : CellTallies nD τ sig Unit)
    (h : (sbSlot 0).view.read (Elt F) fs' = (sbSlot 0).view.read (Elt F) (sbAfter m c 0)) :
    iprop(cellInv ER (Rd m) (K (c, 2)) (sendCell c 0) ∗ cellInv ER (Rd m) (K (peer c 1, 5)) (recvCell (peer c 1) 0)
        ∗ pts (sbSlot 0) c fs' ∗ pts (rbSlot 0) (peer c 1) fd
        ∗ owes (c : Thread nD τ) (O + tallyAt (recvCell (peer c 1) 0) () N) Wt
        ∗ dutyTok ER (sendCell c 0) 0 0 ∗ reached ER (sendCell c 0) 0
        ∗ dutyTok ER (recvCell (peer c 1) 0) 0 0 ∗ reached ER (recvCell (peer c 1) 0) 0)
      ⊢ iprop(((cred (tallyAt (sendCell c 0) () N) ∗ owes (c : Thread nD τ) O Wt) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sbSlot 0) (.remote (Dev.tc n : Thread nD τ) (rbSlot 0) (.dma (sendS 0)) hsc) (.dma (recvS 0)) hsrc hdst hsem) k) Q) := by
  subst hn
  exact Rounds.wp_send_pointsTo 𝒱₀ ER (Rd m) (c : Thread nD τ) none (κ₁ := K (c, 2)) (κ₂ := K (peer c 1, 5))
    (r₁ := 0) (r₂ := 0) (d₁ := 0) (d₂ := 0) (fd := fd)
    (by rw [duties_send]; exact Finset.mem_singleton_self _) (by rw [duties_recv]; exact Finset.mem_singleton_self _)
    () () N rfl (amount_send m c 0 0) (amount_recv m (peer c 1) 0 0) O rfl (W := Wt)
    (by rw [payload_send]; exact Entails.of_eq (pts_congr_of_read (sbSlot 0) c fs' (sbAfter m c 0) h))
    (by rw [payload_recv]; exact Entails.of_eq (landed_pay0 m c fd fs' h))

/-- The transfer of send slot 1 into receive slot 1 of the device 2 steps on, as the rounds rule for an addressed copy
    states it at this schedule: the source slot comes back with the send cell's round, the landed slot goes to the peer. -/
theorem wp_send_slot1 (K : Dev nD × Fin 8 → ℕ) (c n : Dev nD) (hn : n = peer c 2)
    {hsc : ((rbSlot 1) : Memref sig (Dev.tc n : Thread nD τ).2.kind .vmem S2048x512 .bf16).view.ref.isScScratch = false}
    {hsrc : (sbSlot 1).view.WordExact} {hdst : (rbSlot 1).view.WordExact}
    {hsem : DmaTarget.Typed .vmem (.dma (recvS 1)) (.remote (Dev.tc n : Thread nD τ) (rbSlot 1) (.dma (sendS 1)) hsc)}
    {α : Type} {Q : α → sProp 𝕄} {k : PUnit → Prog (TpuEff nD τ sig (Elt F) Λ₀ .tc) α}
    (fs' : Buf (Elt F) ((c : Thread nD τ).loc cc0_scratch1)) (fd : Buf (Elt F) ((rbSlot 1).view.loc (peer c 2 : Thread nD τ)))
    (Wt : Waits sig Unit) (O : CellTallies nD τ sig Unit)
    (h : (sbSlot 1).view.read (Elt F) fs' = (sbSlot 1).view.read (Elt F) (sbAfter m c 1)) :
    iprop(cellInv ER (Rd m) (K (c, 3)) (sendCell c 1) ∗ cellInv ER (Rd m) (K (peer c 2, 6)) (recvCell (peer c 2) 1)
        ∗ pts (sbSlot 1) c fs' ∗ pts (rbSlot 1) (peer c 2) fd
        ∗ owes (c : Thread nD τ) (O + tallyAt (recvCell (peer c 2) 1) () N) Wt
        ∗ dutyTok ER (sendCell c 1) 0 0 ∗ reached ER (sendCell c 1) 0
        ∗ dutyTok ER (recvCell (peer c 2) 1) 0 0 ∗ reached ER (recvCell (peer c 2) 1) 0)
      ⊢ iprop(((cred (tallyAt (sendCell c 1) () N) ∗ owes (c : Thread nD τ) O Wt) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sbSlot 1) (.remote (Dev.tc n : Thread nD τ) (rbSlot 1) (.dma (sendS 1)) hsc) (.dma (recvS 1)) hsrc hdst hsem) k) Q) := by
  subst hn
  exact Rounds.wp_send_pointsTo 𝒱₀ ER (Rd m) (c : Thread nD τ) none (κ₁ := K (c, 3)) (κ₂ := K (peer c 2, 6))
    (r₁ := 0) (r₂ := 0) (d₁ := 0) (d₂ := 0) (fd := fd)
    (by rw [duties_send]; exact Finset.mem_singleton_self _) (by rw [duties_recv]; exact Finset.mem_singleton_self _)
    () () N rfl (amount_send m c 1 0) (amount_recv m (peer c 2) 1 0) O rfl (W := Wt)
    (by rw [payload_send]; exact Entails.of_eq (pts_congr_of_read (sbSlot 1) c fs' (sbAfter m c 1) h))
    (by rw [payload_recv]; exact Entails.of_eq (landed_pay1 m c fd fs' h))

/-- The transfer of send slot 2 into receive slot 2 of the device 3 steps on, as the rounds rule for an addressed copy
    states it at this schedule: the source slot comes back with the send cell's round, the landed slot goes to the peer. -/
theorem wp_send_slot2 (K : Dev nD × Fin 8 → ℕ) (c n : Dev nD) (hn : n = peer c 3)
    {hsc : ((rbSlot 2) : Memref sig (Dev.tc n : Thread nD τ).2.kind .vmem S2048x512 .bf16).view.ref.isScScratch = false}
    {hsrc : (sbSlot 2).view.WordExact} {hdst : (rbSlot 2).view.WordExact}
    {hsem : DmaTarget.Typed .vmem (.dma (recvS 2)) (.remote (Dev.tc n : Thread nD τ) (rbSlot 2) (.dma (sendS 2)) hsc)}
    {α : Type} {Q : α → sProp 𝕄} {k : PUnit → Prog (TpuEff nD τ sig (Elt F) Λ₀ .tc) α}
    (fs' : Buf (Elt F) ((c : Thread nD τ).loc cc0_scratch1)) (fd : Buf (Elt F) ((rbSlot 2).view.loc (peer c 3 : Thread nD τ)))
    (Wt : Waits sig Unit) (O : CellTallies nD τ sig Unit)
    (h : (sbSlot 2).view.read (Elt F) fs' = (sbSlot 2).view.read (Elt F) (sbAfter m c 2)) :
    iprop(cellInv ER (Rd m) (K (c, 4)) (sendCell c 2) ∗ cellInv ER (Rd m) (K (peer c 3, 7)) (recvCell (peer c 3) 2)
        ∗ pts (sbSlot 2) c fs' ∗ pts (rbSlot 2) (peer c 3) fd
        ∗ owes (c : Thread nD τ) (O + tallyAt (recvCell (peer c 3) 2) () N) Wt
        ∗ dutyTok ER (sendCell c 2) 0 0 ∗ reached ER (sendCell c 2) 0
        ∗ dutyTok ER (recvCell (peer c 3) 2) 0 0 ∗ reached ER (recvCell (peer c 3) 2) 0)
      ⊢ iprop(((cred (tallyAt (sendCell c 2) () N) ∗ owes (c : Thread nD τ) O Wt) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sbSlot 2) (.remote (Dev.tc n : Thread nD τ) (rbSlot 2) (.dma (sendS 2)) hsc) (.dma (recvS 2)) hsrc hdst hsem) k) Q) := by
  subst hn
  exact Rounds.wp_send_pointsTo 𝒱₀ ER (Rd m) (c : Thread nD τ) none (κ₁ := K (c, 4)) (κ₂ := K (peer c 3, 7))
    (r₁ := 0) (r₂ := 0) (d₁ := 0) (d₂ := 0) (fd := fd)
    (by rw [duties_send]; exact Finset.mem_singleton_self _) (by rw [duties_recv]; exact Finset.mem_singleton_self _)
    () () N rfl (amount_send m c 2 0) (amount_recv m (peer c 3) 2 0) O rfl (W := Wt)
    (by rw [payload_send]; exact Entails.of_eq (pts_congr_of_read (sbSlot 2) c fs' (sbAfter m c 2) h))
    (by rw [payload_recv]; exact Entails.of_eq (landed_pay2 m c fd fs' h))

/-- After a rule applied by hand: if what is left is a returned value, pass to its continuation. -/
local macro "step_ret" : tactic => `(tactic| first | (rw [wp_ret]; imodintro) | skip)

variable (K : Dev nD × Fin 8 → ℕ)

attribute [local sl_canon] dev1_eq dev2_eq dev3_eq dev4_eq dev5_eq dev6_eq dev7_eq dev8_eq dev9_eq

set_option maxHeartbeats 8000000 in
theorem body_pieces (c : Dev nD) (W : Waits sig Unit)
    (o0 : Buf (Elt F) ((c : Thread nD τ).loc main_v1))
    (fx : Buf (Elt F) ((c : Thread nD τ).loc cc0_scratch0)) (fs : Buf (Elt F) ((c : Thread nD τ).loc cc0_scratch1))
    (fr : Buf (Elt F) ((c : Thread nD τ).loc cc0_scratch2)) :
    iprop(records m K
      ∗ (atPos ER (barCell c) 0 ∅ 0 ∗ atPos ER (endCell c) 0 ∅ 0 ∗ atPos ER (sendCell c 0) 0 ∅ 0 ∗ atPos ER (sendCell c 1) 0 ∅ 0 ∗ atPos ER (sendCell c 2) 0 ∅ 0
          ∗ atPos ER (recvCell c 0) 0 ∅ 0 ∗ atPos ER (recvCell c 1) 0 ∅ 0 ∗ atPos ER (recvCell c 2) 0 ∅ 0)
      ∗ payToks c
      ∗ (semVal ((c : Thread nD τ), lsem 0) 0 ∗ semVal ((c : Thread nD τ), lsem 1) 0 ∗ semVal ((c : Thread nD τ), lsem 2) 0 ∗ semVal ((c : Thread nD τ), lsem 3) 0
          ∗ semVal ((c : Thread nD τ), lsem 4) 0 ∗ semVal ((c : Thread nD τ), lsem 5) 0 ∗ semVal ((c : Thread nD τ), lsem 6) 0)
      ∗ (cred (tallyAt (barCell c) () 3) ∗ cred (tallyAt (recvCell c 0) () N) ∗ cred (tallyAt (recvCell c 1) () N)
          ∗ cred (tallyAt (recvCell c 2) () N) ∗ cred (tallyAt (endCell c) () 3))
      ∗ levAts L lv
      ∗ owes (c : Thread nD τ) (O₁ c) W
      ∗ (pts (colM c 0) c (X m c) ∗ pts (colM c 1) c (X m c) ∗ pts (colM c 2) c (X m c) ∗ pts (ownSrcM c) c (X m c))
      ∗ (pts (ownDstM c) c o0 ∗ pts (rowM c 0) c o0 ∗ pts (rowM c 1) c o0 ∗ pts (rowM c 2) c o0)
      ∗ (pts (xsSlot 0) c fx ∗ pts (xsSlot 1) c fx ∗ pts (xsSlot 2) c fx)
      ∗ (pts (sbSlot 0) c fs ∗ pts (sbSlot 1) c fs ∗ pts (sbSlot 2) c fs)
      ∗ (pts (rbSlot 0) c fr ∗ pts (rbSlot 1) c fr ∗ pts (rbSlot 2) c fr))
      ⊢ wp frame (wpE (defs₀ (F := F)) 𝒱₀ c none) Set.univ
          (cc0_body (Memref.whole main_arg0) (Memref.isWhole_whole _) (Memref.whole main_v1) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6 cc0_scratch7 cc0_scoped0)
          (fun _ => iprop(bufs1 m c ∗ (bigSep Finset.univ fun k : Fin 14 => semVal ((c : Thread nD τ), osem k) 0) ∗ ∃ W', owes (c : Thread nD τ) 0 W')) := by
  unfold payToks
  iintro ⟨#Hrec, ⟨HatB, HatE, HatS0, HatS1, HatS2, HatV0, HatV1, HatV2⟩,
    ⟨HtB1, HtB2, HtB3, HtV0, HtV1, HtV2, HtS0, HtS1, HtS2, HtE1, HtE2, HtE3⟩,
    ⟨Hz0, Hz1, Hz2, Hz3, Hz4, Hz5, Hz6⟩, ⟨HcB, HcV0, HcV1, HcV2, HcE⟩, #Hlev, HO,
    ⟨Hc0, Hc1, Hc2, Hown⟩, ⟨HoO, Ho0, Ho1, Ho2⟩, ⟨Hx0, Hx1, Hx2⟩, ⟨Hs0, Hs1, Hs2⟩, ⟨Hr0, Hr1, Hr2⟩⟩
  sl_unfold [cc0_body]
  sl_exec
  -- the entry handshake: with the d-th signal goes this device's receive slot 3 - d
  iapply (Rounds.wp_signal 𝒱₀ ER (Rd m) (c : Thread nD τ) none (dst := (peer c 1 : Thread nD τ)) (κ := K (peer c 1, 0))
      (d := 1) (by rw [duties_bar]; decide) ((amount_bar m (peer c 1) 1).trans (by decide)) () (O₂ c) rfl) $$ [HO HtB1 Hr2]
  · isplitr; · iapply (inv_at m K (peer c 1, 0)); iexact Hrec
    isplitl [HO]; · iexact HO
    isplitl [HtB1]; · iexact HtB1
    isplitl [Hr2]
    · rw [payload_bar, (barPay_give c).1, show slotPts (F := F) c 2 = iprop(∃ f, pts (rbSlot 2) c f) from rfl]
      isplitl [Hr2]; · iexists fr; iexact Hr2
      iapply (reached_at m K (c, 7)); iexact Hrec
    · iapply (reached_at m K (peer c 1, 0)); iexact Hrec
  iintro HO
  step_ret
  sl_exec
  iapply (Rounds.wp_signal 𝒱₀ ER (Rd m) (c : Thread nD τ) none (dst := (peer c 2 : Thread nD τ)) (κ := K (peer c 2, 0))
      (d := 2) (by rw [duties_bar]; decide) ((amount_bar m (peer c 2) 2).trans (by decide)) () (O₃ c) rfl) $$ [HO HtB2 Hr1]
  · isplitr; · iapply (inv_at m K (peer c 2, 0)); iexact Hrec
    isplitl [HO]; · iexact HO
    isplitl [HtB2]; · iexact HtB2
    isplitl [Hr1]
    · rw [payload_bar, (barPay_give c).2.1, show slotPts (F := F) c 1 = iprop(∃ f, pts (rbSlot 1) c f) from rfl]
      isplitl [Hr1]; · iexists fr; iexact Hr1
      iapply (reached_at m K (c, 6)); iexact Hrec
    · iapply (reached_at m K (peer c 2, 0)); iexact Hrec
  iintro HO
  step_ret
  sl_exec
  iapply (Rounds.wp_signal 𝒱₀ ER (Rd m) (c : Thread nD τ) none (dst := (peer c 3 : Thread nD τ)) (κ := K (peer c 3, 0))
      (d := 3) (by rw [duties_bar]; decide) ((amount_bar m (peer c 3) 3).trans (by decide)) () (O₄ c) rfl) $$ [HO HtB3 Hr0]
  · isplitr; · iapply (inv_at m K (peer c 3, 0)); iexact Hrec
    isplitl [HO]; · iexact HO
    isplitl [HtB3]; · iexact HtB3
    isplitl [Hr0]
    · rw [payload_bar, (barPay_give c).2.2, show slotPts (F := F) c 0 = iprop(∃ f, pts (rbSlot 0) c f) from rfl]
      isplitl [Hr0]; · iexists fr; iexact Hr0
      iapply (reached_at m K (c, 5)); iexact Hrec
    · iapply (reached_at m K (peer c 3, 0)); iexact Hrec
  iintro HO
  step_ret
  sl_exec
  -- the wait for the three peers: their receive slots come with it
  iapply (Rounds.wp_wait_rest_token 𝒱₀ ER (Rd m) (c : Thread nD τ) none (κ := K (c, 0))
      (wpE_semWait_eq 𝒱₀ (c : Thread nD τ) none Set.univ) (Set.mem_univ _) () (O := O₄ c) (W := W) (R := 0) (m := 0) (T := ∅)
      (by rw [expect_bar]; decide)) $$ [HcB HO HatB]
  · isplitr; · iapply (inv_at m K (c, 0)); iexact Hrec
    isplitl [HcB]; · iexact HcB
    isplitl [HO]; · iexact HO
    isplitr; · iapply (mayWait_lt c (.reg barS) (O₄ c) (fun g u h => ⟨(O₄_pos h).1, by rw [show lv ((c : Thread nD τ), SemLoc.reg barS) () = 1 from rfl]; exact (O₄_pos h).2⟩)); iexact Hlev
    iexact HatB
  iintro ⟨HO, HatB, -, Hpay⟩
  ihave Hp := (Entails.of_eq (rest_bar m c)) $$ Hpay
  rw [(barPay_got c).1, (barPay_got c).2.1, (barPay_got c).2.2,
    show slotPts (F := F) (peer c 3) 2 = iprop(∃ f, pts (rbSlot 2) (peer c 3) f) from rfl,
    show slotPts (F := F) (peer c 2) 1 = iprop(∃ f, pts (rbSlot 1) (peer c 2) f) from rfl,
    show slotPts (F := F) (peer c 1) 0 = iprop(∃ f, pts (rbSlot 0) (peer c 1) f) from rfl]
  icases Hp with ⟨⟨⟨%g2, Hp2⟩, #HrV2⟩, ⟨⟨%g1, Hp1⟩, #HrV1⟩, ⟨%g0, Hp0⟩, #HrV0⟩
  step_ret
  -- waiting on a local copy's semaphore (level 0) is allowed whatever is still owed (levels 2 and 3)
  have hmw4 : ∀ q : DmaSem sig, lv ((c : Thread nD τ), SemLoc.dma q) () = 0 → ((levAts L lv : sProp 𝕄) ⊢ MayWait (c : Thread nD τ) (.dma q) () (O₄ c)) :=
    fun q hq => mayWait_lt c (.dma q) (O₄ c) (fun g u h => ⟨(O₄_pos h).1, by rw [hq]; exact Nat.lt_trans Nat.zero_lt_one (O₄_pos h).2⟩)
  sl_exec (disch := first | rfl | decide)
  -- the transfer of slot 0 to the device 1 step on: what the send slot holds reads as the narrowed column block
  have hs0 : (sbSlot 0).view.read (Elt F) (body_pieces.sl.Hs0_w1 m c fs) = (sbSlot 0).view.read (Elt F) (sbAfter m c 0) := by
    unfold body_pieces.sl.Hs0_w1 body_pieces.sl.v132 body_pieces.sl.dma0; exact sent_read0 m c _ fs
  iapply (wp_send_slot0 m K c _ (dev4_eq c) (body_pieces.sl.Hs0_w1 m c fs) g0 _ (O₅ c) hs0) $$ [HO HtS0 HtV0 Hs0 Hp0]
  · isplitr; · iapply (inv_at m K (c, 2)); iexact Hrec
    isplitr; · iapply (inv_at m K (peer c 1, 5)); iexact Hrec
    isplitl [Hs0]; · iexact Hs0
    isplitl [Hp0]; · iexact Hp0
    isplitl [HO]; · iexact HO
    isplitl [HtS0]; · iexact HtS0
    isplitr; · iapply (reached_at m K (c, 2)); iexact Hrec
    isplitl [HtV0]; · iexact HtV0
    iexact HrV0
  iintro ⟨HcS0, HO⟩
  have hmw5 : ∀ q : DmaSem sig, lv ((c : Thread nD τ), SemLoc.dma q) () = 0 → ((levAts L lv : sProp 𝕄) ⊢ MayWait (c : Thread nD τ) (.dma q) () (O₅ c)) :=
    fun q hq => mayWait_lt c (.dma q) (O₅ c) (fun g u h => ⟨(O₅_pos h).1, by rw [hq]; exact Nat.lt_of_le_of_lt (Nat.zero_le _) (O₅_pos h).2⟩)
  sl_exec (disch := first | rfl | decide)
  -- the transfer of slot 1 to the device 2 steps on: what the send slot holds reads as the narrowed column block
  have hs1 : (sbSlot 1).view.read (Elt F) (body_pieces.sl.Hs1_w1 m c fs) = (sbSlot 1).view.read (Elt F) (sbAfter m c 1) := by
    unfold body_pieces.sl.Hs1_w1 body_pieces.sl.v168 body_pieces.sl.dma0_1; exact sent_read1 m c _ fs
  iapply (wp_send_slot1 m K c _ (dev5_eq c) (body_pieces.sl.Hs1_w1 m c fs) g1 _ (O₆ c) hs1) $$ [HO HtS1 HtV1 Hs1 Hp1]
  · isplitr; · iapply (inv_at m K (c, 3)); iexact Hrec
    isplitr; · iapply (inv_at m K (peer c 2, 6)); iexact Hrec
    isplitl [Hs1]; · iexact Hs1
    isplitl [Hp1]; · iexact Hp1
    isplitl [HO]; · iexact HO
    isplitl [HtS1]; · iexact HtS1
    isplitr; · iapply (reached_at m K (c, 3)); iexact Hrec
    isplitl [HtV1]; · iexact HtV1
    iexact HrV1
  iintro ⟨HcS1, HO⟩
  have hmw6 : ∀ q : DmaSem sig, lv ((c : Thread nD τ), SemLoc.dma q) () = 0 → ((levAts L lv : sProp 𝕄) ⊢ MayWait (c : Thread nD τ) (.dma q) () (O₆ c)) :=
    fun q hq => mayWait_lt c (.dma q) (O₆ c) (fun g u h => ⟨(O₆_pos h).1, by rw [hq]; exact Nat.lt_of_le_of_lt (Nat.zero_le _) (O₆_pos h).2⟩)
  sl_exec (disch := first | rfl | decide)
  -- the transfer of slot 2 to the device 3 steps on: what the send slot holds reads as the narrowed column block
  have hs2 : (sbSlot 2).view.read (Elt F) (body_pieces.sl.Hs2_w1 m c fs) = (sbSlot 2).view.read (Elt F) (sbAfter m c 2) := by
    unfold body_pieces.sl.Hs2_w1 body_pieces.sl.v204 body_pieces.sl.dma0_2; exact sent_read2 m c _ fs
  iapply (wp_send_slot2 m K c _ (dev6_eq c) (body_pieces.sl.Hs2_w1 m c fs) g2 _ (O₇ c) hs2) $$ [HO HtS2 HtV2 Hs2 Hp2]
  · isplitr; · iapply (inv_at m K (c, 4)); iexact Hrec
    isplitr; · iapply (inv_at m K (peer c 3, 7)); iexact Hrec
    isplitl [Hs2]; · iexact Hs2
    isplitl [Hp2]; · iexact Hp2
    isplitl [HO]; · iexact HO
    isplitl [HtS2]; · iexact HtS2
    isplitr; · iapply (reached_at m K (c, 4)); iexact Hrec
    isplitl [HtV2]; · iexact HtV2
    iexact HrV2
  iintro ⟨HcS2, HO⟩
  have hmw7 : ∀ q : DmaSem sig, lv ((c : Thread nD τ), SemLoc.dma q) () = 0 → ((levAts L lv : sProp 𝕄) ⊢ MayWait (c : Thread nD τ) (.dma q) () (O₇ c)) :=
    fun q hq => mayWait_lt c (.dma q) (O₇ c) (fun g u h => ⟨(O₇_pos h).1, by rw [hq]; exact Nat.lt_of_le_of_lt (Nat.zero_le _) (O₇_pos h).2⟩)
  sl_exec (disch := first | rfl | decide)
  -- the three landings: each receive slot comes back holding what its origin sent
  iapply (Rounds.wp_wait_rest_token 𝒱₀ ER (Rd m) (c : Thread nD τ) none (κ := K (c, 5)) (sm := SemLoc.dma (recvS 0)) (k' := (rbSlot 0).view.dmaCredit)
      (wpE_waitDma2_eq 𝒱₀ (c : Thread nD τ) none Set.univ) (Set.mem_univ _) () (O := O₇ c) (R := 0) (m := 0) (T := ∅)
      (by rw [Nat.zero_add]; exact (credit_rb 0).trans (expect_recv m c 0).symm)) $$ [HcV0 HO HatV0]
  · isplitr; · iapply (inv_at m K (c, 5)); iexact Hrec
    isplitl [HcV0]; · iexact HcV0
    isplitl [HO]; · iexact HO
    isplitr
    · iapply (mayWait_lt c (.dma (recvS 0)) (O₇ c) (fun g u h => ⟨(O₇_pos h).1, by rw [show lv ((c : Thread nD τ), SemLoc.dma (recvS 0)) () = 2 from rfl]; exact (O₇_pos h).2⟩)); iexact Hlev
    iexact HatV0
  iintro ⟨HO, HatV0, -, Hpay⟩
  ihave Hr0 := (Entails.of_eq ((rest_recv m c 0).trans (show recvPay m c 0 = pts (rbSlot 0) c (landed m c 0) from rfl))) $$ Hpay
  step_ret
  sl_exec (disch := first | rfl | decide)
  iapply (Rounds.wp_wait_rest_token 𝒱₀ ER (Rd m) (c : Thread nD τ) none (κ := K (c, 6)) (sm := SemLoc.dma (recvS 1)) (k' := (rbSlot 1).view.dmaCredit)
      (wpE_waitDma2_eq 𝒱₀ (c : Thread nD τ) none Set.univ) (Set.mem_univ _) () (O := O₇ c) (R := 0) (m := 0) (T := ∅)
      (by rw [Nat.zero_add]; exact (credit_rb 1).trans (expect_recv m c 1).symm)) $$ [HcV1 HO HatV1]
  · isplitr; · iapply (inv_at m K (c, 6)); iexact Hrec
    isplitl [HcV1]; · iexact HcV1
    isplitl [HO]; · iexact HO
    isplitr
    · iapply (mayWait_lt c (.dma (recvS 1)) (O₇ c) (fun g u h => ⟨(O₇_pos h).1, by rw [show lv ((c : Thread nD τ), SemLoc.dma (recvS 1)) () = 2 from rfl]; exact (O₇_pos h).2⟩)); iexact Hlev
    iexact HatV1
  iintro ⟨HO, HatV1, -, Hpay⟩
  ihave Hr1 := (Entails.of_eq ((rest_recv m c 1).trans (show recvPay m c 1 = pts (rbSlot 1) c (landed m c 1) from rfl))) $$ Hpay
  step_ret
  sl_exec (disch := first | rfl | decide)
  iapply (Rounds.wp_wait_rest_token 𝒱₀ ER (Rd m) (c : Thread nD τ) none (κ := K (c, 7)) (sm := SemLoc.dma (recvS 2)) (k' := (rbSlot 2).view.dmaCredit)
      (wpE_waitDma2_eq 𝒱₀ (c : Thread nD τ) none Set.univ) (Set.mem_univ _) () (O := O₇ c) (R := 0) (m := 0) (T := ∅)
      (by rw [Nat.zero_add]; exact (credit_rb 2).trans (expect_recv m c 2).symm)) $$ [HcV2 HO HatV2]
  · isplitr; · iapply (inv_at m K (c, 7)); iexact Hrec
    isplitl [HcV2]; · iexact HcV2
    isplitl [HO]; · iexact HO
    isplitr
    · iapply (mayWait_lt c (.dma (recvS 2)) (O₇ c) (fun g u h => ⟨(O₇_pos h).1, by rw [show lv ((c : Thread nD τ), SemLoc.dma (recvS 2)) () = 2 from rfl]; exact (O₇_pos h).2⟩)); iexact Hlev
    iexact HatV2
  iintro ⟨HO, HatV2, -, Hpay⟩
  ihave Hr2 := (Entails.of_eq ((rest_recv m c 2).trans (show recvPay m c 2 = pts (rbSlot 2) c (landed m c 2) from rfl))) $$ Hpay
  step_ret
  sl_exec (disch := first | rfl | decide)
  -- the send cells' rounds: the send slots come back
  iapply (Rounds.wp_wait_rest_token 𝒱₀ ER (Rd m) (c : Thread nD τ) none (κ := K (c, 2)) (sm := SemLoc.dma (sendS 0)) (k' := (sbSlot 0).view.dmaCredit)
      (wpE_waitDma2_eq 𝒱₀ (c : Thread nD τ) none Set.univ) (Set.mem_univ _) () (O := O₇ c) (R := 0) (m := 0) (T := ∅)
      (by rw [Nat.zero_add]; exact (credit_sb 0).trans (expect_send m c 0).symm)) $$ [HcS0 HO HatS0]
  · isplitr; · iapply (inv_at m K (c, 2)); iexact Hrec
    isplitl [HcS0]; · iexact HcS0
    isplitl [HO]; · iexact HO
    isplitr
    · iapply (mayWait_lt c (.dma (sendS 0)) (O₇ c) (fun g u h => ⟨(O₇_pos h).1, by rw [show lv ((c : Thread nD τ), SemLoc.dma (sendS 0)) () = 0 from rfl]; exact Nat.lt_of_le_of_lt (Nat.zero_le _) (O₇_pos h).2⟩)); iexact Hlev
    iexact HatS0
  iintro ⟨HO, HatS0, -, Hpay⟩
  ihave Hs0 := (Entails.of_eq ((rest_send m c 0).trans (show sendPay m c 0 = pts (sbSlot 0) c (sbAfter m c 0) from rfl))) $$ Hpay
  step_ret
  sl_exec (disch := first | rfl | decide)
  iapply (Rounds.wp_wait_rest_token 𝒱₀ ER (Rd m) (c : Thread nD τ) none (κ := K (c, 3)) (sm := SemLoc.dma (sendS 1)) (k' := (sbSlot 1).view.dmaCredit)
      (wpE_waitDma2_eq 𝒱₀ (c : Thread nD τ) none Set.univ) (Set.mem_univ _) () (O := O₇ c) (R := 0) (m := 0) (T := ∅)
      (by rw [Nat.zero_add]; exact (credit_sb 1).trans (expect_send m c 1).symm)) $$ [HcS1 HO HatS1]
  · isplitr; · iapply (inv_at m K (c, 3)); iexact Hrec
    isplitl [HcS1]; · iexact HcS1
    isplitl [HO]; · iexact HO
    isplitr
    · iapply (mayWait_lt c (.dma (sendS 1)) (O₇ c) (fun g u h => ⟨(O₇_pos h).1, by rw [show lv ((c : Thread nD τ), SemLoc.dma (sendS 1)) () = 0 from rfl]; exact Nat.lt_of_le_of_lt (Nat.zero_le _) (O₇_pos h).2⟩)); iexact Hlev
    iexact HatS1
  iintro ⟨HO, HatS1, -, Hpay⟩
  ihave Hs1 := (Entails.of_eq ((rest_send m c 1).trans (show sendPay m c 1 = pts (sbSlot 1) c (sbAfter m c 1) from rfl))) $$ Hpay
  step_ret
  sl_exec (disch := first | rfl | decide)
  iapply (Rounds.wp_wait_rest_token 𝒱₀ ER (Rd m) (c : Thread nD τ) none (κ := K (c, 4)) (sm := SemLoc.dma (sendS 2)) (k' := (sbSlot 2).view.dmaCredit)
      (wpE_waitDma2_eq 𝒱₀ (c : Thread nD τ) none Set.univ) (Set.mem_univ _) () (O := O₇ c) (R := 0) (m := 0) (T := ∅)
      (by rw [Nat.zero_add]; exact (credit_sb 2).trans (expect_send m c 2).symm)) $$ [HcS2 HO HatS2]
  · isplitr; · iapply (inv_at m K (c, 4)); iexact Hrec
    isplitl [HcS2]; · iexact HcS2
    isplitl [HO]; · iexact HO
    isplitr
    · iapply (mayWait_lt c (.dma (sendS 2)) (O₇ c) (fun g u h => ⟨(O₇_pos h).1, by rw [show lv ((c : Thread nD τ), SemLoc.dma (sendS 2)) () = 0 from rfl]; exact Nat.lt_of_le_of_lt (Nat.zero_le _) (O₇_pos h).2⟩)); iexact Hlev
    iexact HatS2
  iintro ⟨HO, HatS2, -, Hpay⟩
  ihave Hs2 := (Entails.of_eq ((rest_send m c 2).trans (show sendPay m c 2 = pts (sbSlot 2) c (sbAfter m c 2) from rfl))) $$ Hpay
  step_ret
  sl_exec (disch := first | rfl | decide)
  -- the exit handshake
  iapply (Rounds.wp_signal 𝒱₀ ER (Rd m) (c : Thread nD τ) none (dst := (peer c 1 : Thread nD τ)) (κ := K (peer c 1, 1))
      (d := 1) (by rw [duties_end]; decide) ((amount_end m (peer c 1) 1).trans (by decide)) () (O₈ c) rfl) $$ [HO HtE1]
  · isplitr; · iapply (inv_at m K (peer c 1, 1)); iexact Hrec
    isplitl [HO]; · iexact HO
    isplitl [HtE1]; · iexact HtE1
    isplitr; · rw [payload_end]; iempintro
    · iapply (reached_at m K (peer c 1, 1)); iexact Hrec
  iintro HO
  step_ret
  sl_exec
  iapply (Rounds.wp_signal 𝒱₀ ER (Rd m) (c : Thread nD τ) none (dst := (peer c 2 : Thread nD τ)) (κ := K (peer c 2, 1))
      (d := 2) (by rw [duties_end]; decide) ((amount_end m (peer c 2) 2).trans (by decide)) () (tallyAt (endCell (peer c 3)) () 1) rfl) $$ [HO HtE2]
  · isplitr; · iapply (inv_at m K (peer c 2, 1)); iexact Hrec
    isplitl [HO]; · iexact HO
    isplitl [HtE2]; · iexact HtE2
    isplitr; · rw [payload_end]; iempintro
    · iapply (reached_at m K (peer c 2, 1)); iexact Hrec
  iintro HO
  step_ret
  sl_exec
  iapply (Rounds.wp_signal 𝒱₀ ER (Rd m) (c : Thread nD τ) none (dst := (peer c 3 : Thread nD τ)) (κ := K (peer c 3, 1))
      (d := 3) (by rw [duties_end]; decide) ((amount_end m (peer c 3) 3).trans (by decide)) () (0) (zero_add _).symm) $$ [HO HtE3]
  · isplitr; · iapply (inv_at m K (peer c 3, 1)); iexact Hrec
    isplitl [HO]; · iexact HO
    isplitl [HtE3]; · iexact HtE3
    isplitr; · rw [payload_end]; iempintro
    · iapply (reached_at m K (peer c 3, 1)); iexact Hrec
  iintro HO
  step_ret
  sl_exec
  iapply (Rounds.wp_wait_rest_token 𝒱₀ ER (Rd m) (c : Thread nD τ) none (κ := K (c, 1))
      (wpE_semWait_eq 𝒱₀ (c : Thread nD τ) none Set.univ) (Set.mem_univ _) () (O := 0) (R := 0) (m := 0) (T := ∅)
      (by rw [expect_end]; decide)) $$ [HcE HO HatE]
  · isplitr; · iapply (inv_at m K (c, 1)); iexact Hrec
    isplitl [HcE]; · iexact HcE
    isplitl [HO]; · iexact HO
    isplitr; · rw [MayWait_zero]; iempintro
    iexact HatE
  iintro ⟨HO, HatE, -, -⟩
  step_ret
  sl_exec (disch := first | rfl | decide)
  -- what the result's four pieces hold agrees with the assembled array on each piece
  have hA : ∀ i ∈ (ownDstM c).view.set, ((ownDstM c).view.writes (Elt F) o0 [⟨Rect.whole S2048x512, body_pieces.sl.dma0_3 m c⟩]) i = OUT m c i := by
    rw [writes_whole]; exact OUT_on_own m c o0
  have h0 : ∀ i ∈ (rowM c 0).view.set, ((rowM c 0).view.writes (Elt F) o0 [⟨Rect.whole S2048x512, body_pieces.sl.dma3 m c⟩]) i = OUT m c i := by
    rw [writes_whole]; exact OUT_on_row0 m c o0 _ (widened_read0 m c _)
  have h1 : ∀ i ∈ (rowM c 1).view.set, ((rowM c 1).view.writes (Elt F) o0 [⟨Rect.whole S2048x512, body_pieces.sl.dma3_1 m c⟩]) i = OUT m c i := by
    rw [writes_whole]; exact OUT_on_row1 m c o0 _ (widened_read1 m c _)
  have h2 : ∀ i ∈ (rowM c 2).view.set, ((rowM c 2).view.writes (Elt F) o0 [⟨Rect.whole S2048x512, body_pieces.sl.dma3_2 m c⟩]) i = OUT m c i := by
    rw [writes_whole]; exact OUT_on_row2 m c o0 _ (widened_read2 m c _)
  -- the seven own cells close: their counters, at zero, are the device's again
  imod (Rounds.cell_close ER (Rd m) (Set.mem_univ (K (c, 1))) (fun h => h) (R := 0 + 1) (duties_later m (endCell c))) $$ [HatE] with HzE
  · isplitr; · iapply (inv_at m K (c, 1)); iexact Hrec
    iexact HatE
  imod (Rounds.cell_close ER (Rd m) (Set.mem_univ (K (c, 2))) (fun h => h) (R := 0 + 1) (duties_later m (sendCell c 0))) $$ [HatS0] with HzS0
  · isplitr; · iapply (inv_at m K (c, 2)); iexact Hrec
    iexact HatS0
  imod (Rounds.cell_close ER (Rd m) (Set.mem_univ (K (c, 3))) (fun h => h) (R := 0 + 1) (duties_later m (sendCell c 1))) $$ [HatS1] with HzS1
  · isplitr; · iapply (inv_at m K (c, 3)); iexact Hrec
    iexact HatS1
  imod (Rounds.cell_close ER (Rd m) (Set.mem_univ (K (c, 4))) (fun h => h) (R := 0 + 1) (duties_later m (sendCell c 2))) $$ [HatS2] with HzS2
  · isplitr; · iapply (inv_at m K (c, 4)); iexact Hrec
    iexact HatS2
  imod (Rounds.cell_close ER (Rd m) (Set.mem_univ (K (c, 5))) (fun h => h) (R := 0 + 1) (duties_later m (recvCell c 0))) $$ [HatV0] with HzV0
  · isplitr; · iapply (inv_at m K (c, 5)); iexact Hrec
    iexact HatV0
  imod (Rounds.cell_close ER (Rd m) (Set.mem_univ (K (c, 6))) (fun h => h) (R := 0 + 1) (duties_later m (recvCell c 1))) $$ [HatV1] with HzV1
  · isplitr; · iapply (inv_at m K (c, 6)); iexact Hrec
    iexact HatV1
  imod (Rounds.cell_close ER (Rd m) (Set.mem_univ (K (c, 7))) (fun h => h) (R := 0 + 1) (duties_later m (recvCell c 2))) $$ [HatV2] with HzV2
  · isplitr; · iapply (inv_at m K (c, 7)); iexact Hrec
    iexact HatV2
  rw [wp_ret]; imodintro
  unfold bufs1
  isplitl [Hc0 Hc1 Hc2 Hown HoO Ho0 Ho1 Ho2 Hx0 Hx1 Hx2 Hs0 Hs1 Hs2 Hr0 Hr1 Hr2]
  · isplitl [Hc0 Hc1 Hc2 Hown]
    · iapply (x_split c (X m c)).mpr
      isplitl [Hc0]; · iexact Hc0
      isplitl [Hc1]; · iexact Hc1
      isplitl [Hc2]; · iexact Hc2
      iexact Hown
    isplitl [HoO Ho0 Ho1 Ho2]
    · iapply (o_join c _ _ _ _ (OUT m c) hA h0 h1 h2)
      isplitl [HoO]; · iexact HoO
      isplitl [Ho0]; · iexact Ho0
      isplitl [Ho1]; · iexact Ho1
      iexact Ho2
    isplitl [Hx0 Hx1 Hx2]
    · iapply (xs_join c _ _ _)
      isplitl [Hx0]; · iexact Hx0
      isplitl [Hx1]; · iexact Hx1
      iexact Hx2
    isplitl [Hs0 Hs1 Hs2]
    · iapply (sb_join c _ _ _)
      isplitl [Hs0]; · iexact Hs0
      isplitl [Hs1]; · iexact Hs1
      iexact Hs2
    iapply (rb_join c _ _ _)
    isplitl [Hr0]; · iexact Hr0
    isplitl [Hr1]; · iexact Hr1
    iexact Hr2
  isplitr [HO]
  · rw [bigSep_fin14]
    isplitl [HzE]; · iexact HzE
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [HzS0]; · iexact HzS0
    isplitl [HzS1]; · iexact HzS1
    isplitl [HzS2]; · iexact HzS2
    isplitl [HzV0]; · iexact HzV0
    isplitl [HzV1]; · iexact HzV1
    iexact HzV2
  · iexists _; iexact HO

/-- The library's body obligation on device `c`: the buffers are cut into their pieces, the pieces' run is applied, and
    what it leaves is the invariant after the point. -/
theorem body_obligation (c : Dev nD) : BodyObligation (dats (F := F) m 0 c) (defs₀ (F := F)) 𝒱₀ () Set.univ := fun t => by
  rw [fin_N0 t]
  iintro ⟨HΦ, Ho, -⟩
  ihave HΦ := (Entails.of_eq (show (dats (F := F) m 0 c).Φ t0_0.castSucc = Φ₀ m c from rfl)) $$ HΦ
  unfold Φ₀ start ghost bufs0 positions localSems Dat.owesAt Pipeline.owesWithin
  rw [bigSep_fin8, bigSep_fin7]
  icases HΦ with ⟨⟨⟨%K, #Hrec, Hpos, Htoks, Hloc⟩, HcB, HcV0, HcV1, HcV2, HcE, #Hlev⟩, Hx, Hout, ⟨%fx, Hxs⟩, ⟨%fs, Hsb⟩, ⟨%fr, Hrb⟩⟩
  icases Ho with ⟨%W, %hW, HO⟩
  rw [show (dats (F := F) m 0 c).owed t0_0.castSucc = O₁ c from rfl]
  -- the five buffers, cut into the pieces the copies move
  ihave Hx := (x_split c (X m c)).mp $$ Hx
  ihave Hout := (o_split c (m ((c : Thread nD τ).loc main_v1))).mp $$ Hout
  ihave Hxs := (xs_split c fx).mp $$ Hxs
  ihave Hsb := (sb_split c fs).mp $$ Hsb
  ihave Hrb := (rb_split c fr).mp $$ Hrb
  iapply (wp_wand_r Idealize.ShloMosaic.frame (wpE (defs₀ (F := F)) 𝒱₀ (c : Thread nD τ) none) Set.univ
      (Q := fun _ => iprop(bufs1 m c ∗ (bigSep Finset.univ fun k : Fin 14 => semVal ((c : Thread nD τ), osem k) 0) ∗ ∃ W', owes (c : Thread nD τ) 0 W')))
  isplitl [Hpos Htoks Hloc HcB HcV0 HcV1 HcV2 HcE HO Hx Hout Hxs Hsb Hrb]
  · iapply (body_pieces m K c W (m ((c : Thread nD τ).loc main_v1)) fx fs fr)
    isplitr; · iexact Hrec
    isplitl [Hpos]; · iexact Hpos
    isplitl [Htoks]; · iexact Htoks
    isplitl [Hloc]; · iexact Hloc
    isplitl [HcB HcV0 HcV1 HcV2 HcE]
    · isplitl [HcB]; · iexact HcB
      isplitl [HcV0]; · iexact HcV0
      isplitl [HcV1]; · iexact HcV1
      isplitl [HcV2]; · iexact HcV2
      iexact HcE
    isplitr; · iexact Hlev
    isplitl [HO]; · iexact HO
    isplitl [Hx]; · iexact Hx
    isplitl [Hout]; · iexact Hout
    isplitl [Hxs]; · iexact Hxs
    isplitl [Hsb]; · iexact Hsb
    iexact Hrb
  · iintro %a ⟨Hb, Hsem, ⟨%W', HO⟩⟩
    isplitl [Hb Hsem]
    · rw [show (dats (F := F) m 0 c).Φ t0_0.succ = Φ₁ m c from rfl]; unfold Φ₁
      isplitl [Hb]; · iexact Hb
      iexact Hsem
    isplitl [HO]
    · rw [show (dats (F := F) m 0 c).owed t0_0.succ = 0 from rfl]
      iexists W'
      isplitr; · ipureintro; exact fun _ _ => Or.inl trivial
      iexact HO
    · rw [show (Finset.univ : Finset (Fin cfg0.W)) = ∅ from rfl, bigSep_empty]; iempintro

/-- info: 'Cert.Kernel.A2A.body_obligation' depends on axioms: [propext, Classical.choice, Quot.sound] -/
#guard_msgs in #print axioms body_obligation

end Cert.Kernel.A2A

end
-- ==== Proof.KLaunch.lean ====
/-
  The launch of the all-to-all: one application of the library's launch theorem for kernels whose devices owe units
  at launch and whose protocol also runs on the runtime's barrier semaphore.

  The protocol's ghost state is a second copy of the rounds algebra. Its launch element deals every device the round
  state, the position and the reached-mark of its own eight cells, and the twelve duty tokens of those cells. In the one
  global step each device's cells get their invariants from their counters at zero (the entry barrier's counter is the
  launch's one unscoped semaphore, the other seven are among the kernel's fourteen own ones; the seven counters of the
  local copies stay plain counters), the invariants and reached-marks of all 128 cells become one persistent record that
  every device holds, and the tokens are dealt round the z ring to the devices that pay them. The two arrays are not
  staged: they enter the body's invariant as the unscoped rest and leave it the same way, and the final memory is read
  off their points-to facts.
-/
import proofs.«900644_g7700000000000645_dist_a2a_v7x_xyz2x2x4_z_m2048_n512_f32_1_alg».proof.Proof.KBody

noncomputable section

namespace Cert.Kernel.A2A

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The cells and the tokens of the launch element -/

theorem ownSemFacts : Pipeline.OwnSemFacts cfg0.spec osem := by
  decide

/-- Cells of different devices differ in the device, cells of one device in the semaphore. -/
theorem kcell_injective : Function.Injective (kcell : Dev nD × Fin 8 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl

/-- All 128 cells. -/
def allCells : Finset (GSem nD τ sig) := Finset.univ.map ⟨kcell, kcell_injective⟩

/-- The twelve duties of a device's own cells, by semaphore and duty name: the three unit duties of its entry barrier and
    of its exit barrier, the one duty of each send cell and of each receive cell. -/
abbrev tokTag : Fin 12 → SemLoc sig × Fin 4
  | 0 => (.reg barS, 1) | 1 => (.reg barS, 2) | 2 => (.reg barS, 3)
  | 3 => (.reg endS, 1) | 4 => (.reg endS, 2) | 5 => (.reg endS, 3)
  | 6 => (.dma (sendS 0), 0) | 7 => (.dma (sendS 1), 0) | 8 => (.dma (sendS 2), 0)
  | 9 => (.dma (recvS 0), 0) | 10 => (.dma (recvS 1), 0) | 11 => (.dma (recvS 2), 0)

theorem tokTag_injective : Function.Injective tokTag := by decide

/-- The duty tokens as minted, all at round 0. -/
abbrev tokOf (cj : Dev nD × Fin 12) : GSem nD τ sig × ℕ × Fin 4 := (((cj.1 : Thread nD τ), (tokTag cj.2).1), 0, (tokTag cj.2).2)

theorem tokOf_injective : Function.Injective (tokOf : Dev nD × Fin 12 → GSem nD τ sig × ℕ × Fin 4) := by
  rintro ⟨c, j⟩ ⟨c', j'⟩ h
  have h1 : c = c' := congrArg (fun x : GSem nD τ sig × ℕ × Fin 4 => x.1.1.1) h
  have h2 : j = j' := tokTag_injective (Prod.ext (congrArg (fun x : GSem nD τ sig × ℕ × Fin 4 => x.1.2) h) (congrArg (fun x : GSem nD τ sig × ℕ × Fin 4 => x.2.2) h))
  subst h1; subst h2; rfl

def allToks : Finset (GSem nD τ sig × ℕ × Fin 4) := Finset.univ.map ⟨tokOf, tokOf_injective⟩

/-- The launch element: the pipeline library's (no staging cell), the protocol's, and the unit of the local copies'
    counters. -/
def u₀ : UU :=
  (initOf (Pipeline.cells cfgs cellOf_inj) (Pipeline.launchToks cfgs cellOf_inj), (initOf allCells allToks, 1))

/-- The duty tokens of device `c`'s own cells. -/
def toks (c : Dev nD) : sProp 𝕄 :=
  iprop(dutyTok ER (barCell c) 0 1 ∗ dutyTok ER (barCell c) 0 2 ∗ dutyTok ER (barCell c) 0 3
    ∗ dutyTok ER (endCell c) 0 1 ∗ dutyTok ER (endCell c) 0 2 ∗ dutyTok ER (endCell c) 0 3
    ∗ dutyTok ER (sendCell c 0) 0 0 ∗ dutyTok ER (sendCell c 1) 0 0 ∗ dutyTok ER (sendCell c 2) 0 0
    ∗ dutyTok ER (recvCell c 0) 0 0 ∗ dutyTok ER (recvCell c 1) 0 0 ∗ dutyTok ER (recvCell c 2) 0 0)

/-- What the launch element deals device `c`. -/
def G (m : (ℓ : Loc nD τ sig) → Buf (Elt F) ℓ) (c : Dev nD) : sProp 𝕄 :=
  iprop((bigSep Finset.univ fun k : Fin 8 => roundState ER (Rd m) (kcell (c, k)) 0)
    ∗ (bigSep Finset.univ fun k : Fin 8 => iprop(atPos ER (kcell (c, k)) 0 ∅ 0 ∗ reached ER (kcell (c, k)) 0)) ∗ toks c)

/-- What the global step makes of it. -/
def G' (m : (ℓ : Loc nD τ sig) → Buf (Elt F) ℓ) (c : Dev nD) : sProp 𝕄 := iprop(∃ K, ghost m K c)

omit [FloatOps F] in
theorem sep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem sep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
theorem bigSep_fin12 (Φ : Fin 12 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ
omit [FloatOps F] in
theorem sep_fin14 (Φ : Fin 14 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ

/-- The protocol's launch element pays out every device's share. -/
theorem fund_all (m : (ℓ : Loc nD τ sig) → Buf (Elt F) ℓ) :
    BI.own (ER (initOf allCells allToks)) ⊢ (|==> bigSep Finset.univ (G m) : sProp 𝕄) := by
  have hX (Φ : GSem nD τ sig → sProp 𝕄) :
      bigSep allCells Φ = bigSep Finset.univ fun c : Dev nD => bigSep Finset.univ fun k : Fin 8 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_fin12]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant, the record, the tokens dealt round the ring -/

omit [FloatOps F] in
/-- The entry barrier's semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's fifteen counters at zero: those of its eight cells, and those of the seven local copies. -/
theorem sems0_split (c : Dev nD) :
    iprop(Pipeline.ownSems0 (Ix := Unit) (Name := ℕ) (U := UU) (Lvl := ℕ) (Val := Elt F) (τ := τ) osem c ∗ unscopedSems0 c)
      ⊢ iprop((bigSep Finset.univ fun k : Fin 8 => semVal (kcell (c, k)) 0) ∗ localSems c : sProp 𝕄) := by
  unfold Pipeline.ownSems0 localSems
  rw [sep_fin14, unscopedSems0_eq, sep_fin8, sep_fin7]
  iintro ⟨⟨He, Hi0, Hi1, Hi2, Ho0, Ho1, Ho2, Hw, Hs0, Hs1, Hs2, Hr0, Hr1, Hr2⟩, Hb⟩
  isplitl [Hb He Hs0 Hs1 Hs2 Hr0 Hr1 Hr2]
  · isplitl [Hb]; · iexact Hb
    isplitl [He]; · iexact He
    isplitl [Hs0]; · iexact Hs0
    isplitl [Hs1]; · iexact Hs1
    isplitl [Hs2]; · iexact Hs2
    isplitl [Hr0]; · iexact Hr0
    isplitl [Hr1]; · iexact Hr1
    iexact Hr2
  · isplitl [Hi0]; · iexact Hi0
    isplitl [Hi1]; · iexact Hi1
    isplitl [Hi2]; · iexact Hi2
    isplitl [Ho0]; · iexact Ho0
    isplitl [Ho1]; · iexact Ho1
    isplitl [Ho2]; · iexact Ho2
    iexact Hw

/-- One device's cells get their invariants. -/
theorem core_alloc (m : (ℓ : Loc nD τ sig) → Buf (Elt F) ℓ) (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ localSems c) := by
  unfold G
  iintro ⟨Hos, Hus, Hst, Hat, Htok⟩
  ihave Hv := (sems0_split (F := F) c) $$ [Hos Hus]
  · isplitl [Hos] <;> iassumption
  icases Hv with ⟨Hv, Hloc⟩
  imod (show iprop((bigSep Finset.univ fun k : Fin 8 => semVal (kcell (c, k)) 0) ∗ bigSep Finset.univ fun k : Fin 8 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

/-- What stays with device `c`. -/
def linear (c : Dev nD) : sProp 𝕄 := iprop(positions c ∗ payToks c ∗ localSems c)

theorem ghost_intro (m : (ℓ : Loc nD τ sig) → Buf (Elt F) ℓ) (K : Dev nD × Fin 8 → ℕ) (c : Dev nD) :
    iprop(records m K ∗ linear c) ⊢ G' m c := by
  unfold G' linear
  iintro H
  iexists K
  unfold ghost
  iexact H

omit [FloatOps F] in
/-- The tokens dealt round the ring: duty `d` of a barrier cell goes `d` steps back, to the device that is `d` steps
    before the cell's owner; the duty of receive cell `j` goes `j + 1` steps back; the send cells' stay. -/
theorem toks_around : (bigSep Finset.univ fun c : Dev nD => (toks c : sProp 𝕄)) ⊢ bigSep Finset.univ fun c : Dev nD => payToks c := by
  unfold toks payToks
  simp only [bigSep_sep']
  rw [bigSep_univ_equiv (step 1) (fun c : Dev nD => (dutyTok ER (barCell c) 0 1 : sProp 𝕄)),
    bigSep_univ_equiv (step 2) (fun c : Dev nD => (dutyTok ER (barCell c) 0 2 : sProp 𝕄)),
    bigSep_univ_equiv (step 3) (fun c : Dev nD => (dutyTok ER (barCell c) 0 3 : sProp 𝕄)),
    bigSep_univ_equiv (step 1) (fun c : Dev nD => (dutyTok ER (endCell c) 0 1 : sProp 𝕄)),
    bigSep_univ_equiv (step 2) (fun c : Dev nD => (dutyTok ER (endCell c) 0 2 : sProp 𝕄)),
    bigSep_univ_equiv (step 3) (fun c : Dev nD => (dutyTok ER (endCell c) 0 3 : sProp 𝕄)),
    bigSep_univ_equiv (step 1) (fun c : Dev nD => (dutyTok ER (recvCell c 0) 0 0 : sProp 𝕄)),
    bigSep_univ_equiv (step 2) (fun c : Dev nD => (dutyTok ER (recvCell c 1) 0 0 : sProp 𝕄)),
    bigSep_univ_equiv (step 3) (fun c : Dev nD => (dutyTok ER (recvCell c 2) 0 0 : sProp 𝕄))]
  iintro ⟨B1, B2, B3, E1, E2, E3, S0, S1, S2, R0, R1, R2⟩
  isplitl [B1]; · iexact B1
  isplitl [B2]; · iexact B2
  isplitl [B3]; · iexact B3
  isplitl [R0]; · iexact R0
  isplitl [R1]; · iexact R1
  isplitl [R2]; · iexact R2
  isplitl [S0]; · iexact S0
  isplitl [S1]; · iexact S1
  isplitl [S2]; · iexact S2
  isplitl [E1]; · iexact E1
  isplitl [E2]; · iexact E2
  iexact E3

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  exact (sep_mono_left (BI.bigSep_of_persistent S R)).trans (by rw [← bigSep_sep']; exact bigSep_mono h)

omit [FloatOps F] in
/-- Every device's positions, paying tokens and local counters, device by device. -/
theorem linear_intro :
    iprop((bigSep Finset.univ fun c : Dev nD => bigSep Finset.univ fun k : Fin 8 => (atPos ER (kcell (c, k)) 0 ∅ 0 : sProp 𝕄))
        ∗ (bigSep Finset.univ fun c : Dev nD => (payToks c : sProp 𝕄)) ∗ bigSep Finset.univ fun c : Dev nD => (localSems c : sProp 𝕄))
      ⊢ (bigSep Finset.univ fun c : Dev nD => (linear c : sProp 𝕄)) := by
  unfold linear
  rw [bigSep_sep', bigSep_sep']
  iintro ⟨H1, H2, H3⟩
  isplitl [H1]; · iexact H1
  isplitl [H2] <;> iassumption

theorem regroup (m : (ℓ : Loc nD τ sig) → Buf (Elt F) ℓ) :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ localSems c) : sProp 𝕄)
      ⊢ bigSep Finset.univ (G' m) := by
  rw [bigSep_sep', bigSep_sep', bigSep_sep', ← bigSep_univ_prod (fun ck : Dev nD × Fin 8 => iprop(∃ κ : ℕ, cellInv ER (Rd m) κ (kcell ck))),
    bigSep_congr (s := Finset.univ) (fun (c : Dev nD) _ => bigSep_sep' Finset.univ (fun k : Fin 8 => (atPos ER (kcell (c, k)) 0 ∅ 0 : sProp 𝕄)) (fun k => reached ER (kcell (c, k)) 0)),
    bigSep_sep', ← bigSep_univ_prod (fun ck : Dev nD × Fin 8 => (reached ER (kcell ck) 0 : sProp 𝕄))]
  iintro ⟨HI, ⟨Hat, #HR⟩, Htok, Hloc⟩
  ihave HK := (BI.bigSep_exists_pi Finset.univ (fun (ck : Dev nD × Fin 8) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (linear_intro (F := F))
    isplitl [Hat]; · iexact Hat
    isplitl [Htk] <;> iassumption

/-- The global step: the own and the unscoped semaphores of every device at once. -/
theorem glob (m : (ℓ : Loc nD τ sig) → Buf (Elt F) ℓ) :
    (bigSep Finset.univ fun c => iprop(Pipeline.ownSems0 (Ix := Unit) (Name := ℕ) (U := UU) (Lvl := ℕ) (Val := Elt F) (τ := τ) osem c ∗ unscopedSems0 c ∗ G m c) : sProp 𝕄)
      ⊢ |={Set.univ}=> bigSep Finset.univ (G' m) := by
  exact ((bigSep_mono fun c _ => core_alloc m c).trans (bigSep_fupd _ _)).trans (BI.fupd_mono (regroup m))

/-! ## The launch credit -/

/-- Stepping `4 - k` and then `k` round the ring of four comes back, either way round. -/
theorem peer_back (k : ℕ) (hk : k ≤ 4) (c : Dev nD) : peer (peer c (4 - k)) k = c := by
  rw [peer_peer, show 4 - k + k = 4 by omega]; exact peer_four c
theorem peer_forth (k : ℕ) (hk : k ≤ 4) (d : Dev nD) : peer (peer d k) (4 - k) = d := by
  rw [peer_peer, show k + (4 - k) = 4 by omega]; exact peer_four d

omit [FloatOps F] in
/-- Three units owed to one cell are one credit of three. -/
theorem cred3 (g : GSem nD τ sig) :
    iprop(cred (tallyAt g () 1) ∗ cred (tallyAt g () 1) ∗ cred (tallyAt g () 1)) ⊢ (cred (tallyAt g () 3) : sProp 𝕄) := by
  have e : (tallyAt g () 3 : CellTallies nD τ sig Unit) = tallyAt g () 1 + (tallyAt g () 1 + tallyAt g () 1) := by
    rw [tallyAt_add, tallyAt_add]
  rw [e]
  iintro ⟨H1, H2, H3⟩
  iapply (cred_add _ _).2
  isplitl [H1]; · iexact H1
  iapply (cred_add _ _).2
  isplitl [H2] <;> iassumption

omit [FloatOps F] in
/-- Device `c`'s entry and exit barriers are owed a unit by each of the three other devices of its ring, its receive
    cell `j` a slot's credit by the one device that writes it. -/
theorem creds (c : Dev nD) :
    (Pipeline.launchCred O₁ c : sProp 𝕄) ⊢ iprop(cred (tallyAt (barCell c) () 3) ∗ cred (tallyAt (recvCell c 0) () N)
      ∗ cred (tallyAt (recvCell c 1) () N) ∗ cred (tallyAt (recvCell c 2) () N) ∗ cred (tallyAt (endCell c) () 3)) := by
  have hb (k : ℕ) (hk : k ≤ 4) (n : ℕ) (sm : SemLoc sig) :
      (Pipeline.launchCred (fun d : Dev nD => (tallyAt (((peer d k : Dev nD) : Thread nD τ), sm) () n : CellTallies nD τ sig Unit)) c : sProp 𝕄)
        ⊢ cred (tallyAt ((c : Thread nD τ), sm) () n) :=
    Pipeline.launchCred_tallyAt sm (fun d => peer d k) (fun d => peer d (4 - k)) (peer_back k hk) (peer_forth k hk) () n c
  have e : (O₁ : Dev nD → CellTallies nD τ sig Unit) = fun d =>
      tallyAt (endCell (peer d 3)) () 1 + tallyAt (endCell (peer d 2)) () 1 + tallyAt (endCell (peer d 1)) () 1
      + tallyAt (recvCell (peer d 3) 2) () N + tallyAt (recvCell (peer d 2) 1) () N + tallyAt (recvCell (peer d 1) 0) () N
      + tallyAt (barCell (peer d 3)) () 1 + tallyAt (barCell (peer d 2)) () 1 + tallyAt (barCell (peer d 1)) () 1 := rfl
  rw [e]
  simp only [Pipeline.launchCred_add]
  iintro ⟨⟨⟨⟨⟨⟨⟨⟨E3, E2⟩, E1⟩, R2⟩, R1⟩, R0⟩, B3⟩, B2⟩, B1⟩
  ihave B1' := (hb 1 (by decide) 1 (.reg barS)) $$ B1
  ihave B2' := (hb 2 (by decide) 1 (.reg barS)) $$ B2
  ihave B3' := (hb 3 (by decide) 1 (.reg barS)) $$ B3
  ihave E1' := (hb 1 (by decide) 1 (.reg endS)) $$ E1
  ihave E2' := (hb 2 (by decide) 1 (.reg endS)) $$ E2
  ihave E3' := (hb 3 (by decide) 1 (.reg endS)) $$ E3
  ihave R0' := (hb 1 (by decide) N (.dma (recvS 0))) $$ R0
  ihave R1' := (hb 2 (by decide) N (.dma (recvS 1))) $$ R1
  ihave R2' := (hb 3 (by decide) N (.dma (recvS 2))) $$ R2
  isplitl [B1' B2' B3']
  · iapply (cred3 (F := F) (barCell c))
    isplitl [B1']; · iexact B1'
    isplitl [B2'] <;> iassumption
  isplitl [R0']; · iexact R0'
  isplitl [R1']; · iexact R1'
  isplitl [R2']; · iexact R2'
  iapply (cred3 (F := F) (endCell c))
  isplitl [E1']; · iexact E1'
  isplitl [E2'] <;> iassumption

/-! ## The theorem's side conditions -/

/-- What a device routes into the body's invariant: the protocol's start and the two arrays as launched. -/
def atEntry (m : (ℓ : Loc nD τ sig) → Buf (Elt F) ℓ) (c : Dev nD) : sProp 𝕄 :=
  iprop(start m c ∗ pts xM c (X m c) ∗ pts oM c (m ((c : Thread nD τ).loc main_v1)))
/-- What it keeps after the body: `x` as it was and the result assembled. -/
def atExit (m : (ℓ : Loc nD τ sig) → Buf (Elt F) ℓ) (c : Dev nD) : sProp 𝕄 :=
  iprop(pts xM c (X m c) ∗ pts oM c (OUT m c))
/-- What the final memory then shows on device `c`. -/
def QY (m : (ℓ : Loc nD τ sig) → Buf (Elt F) ℓ) (c : Dev nD) (s : MemSt nD τ sig (Elt F)) : Prop :=
  s.mem ((c : Thread nD τ).loc main_v1) = OUT m c ∧ s.mem ((c : Thread nD τ).loc main_arg0) = m ((c : Thread nD τ).loc main_arg0)

/-! A points-to through a whole-buffer memref is the buffer's plain points-to. -/

omit [FloatOps F] in
theorem xM_whole_set : (xM).view.set = Finset.univ := View.set_whole _
omit [FloatOps F] in
theorem oM_whole_set : (oM).view.set = Finset.univ := View.set_whole _
omit [FloatOps F] in
theorem xsM_set : (xsM).view.set = Finset.univ := View.set_whole _
omit [FloatOps F] in
theorem sbM_set : (sbM).view.set = Finset.univ := View.set_whole _
omit [FloatOps F] in
theorem rbM_set : (rbM).view.set = Finset.univ := View.set_whole _

omit [FloatOps F] in
theorem pts_xM (c : Dev nD) (f : Buf (Elt F) ((c : Thread nD τ).loc main_arg0)) :
    pts xM c f = (((c : Thread nD τ).loc main_arg0) ↦{fullShare} f : sProp 𝕄) := by unfold pts; rw [xM_whole_set]
omit [FloatOps F] in
theorem pts_oM (c : Dev nD) (f : Buf (Elt F) ((c : Thread nD τ).loc main_v1)) :
    pts oM c f = (((c : Thread nD τ).loc main_v1) ↦{fullShare} f : sProp 𝕄) := by unfold pts; rw [oM_whole_set]
omit [FloatOps F] in
theorem pts_xsM (c : Dev nD) (f : Buf (Elt F) ((c : Thread nD τ).loc cc0_scratch0)) :
    pts xsM c f = (((c : Thread nD τ).loc cc0_scratch0) ↦{fullShare} f : sProp 𝕄) := by unfold pts; rw [xsM_set]
omit [FloatOps F] in
theorem pts_sbM (c : Dev nD) (f : Buf (Elt F) ((c : Thread nD τ).loc cc0_scratch1)) :
    pts sbM c f = (((c : Thread nD τ).loc cc0_scratch1) ↦{fullShare} f : sProp 𝕄) := by unfold pts; rw [sbM_set]
omit [FloatOps F] in
theorem pts_rbM (c : Dev nD) (f : Buf (Elt F) ((c : Thread nD τ).loc cc0_scratch2)) :
    pts rbM c f = (((c : Thread nD τ).loc cc0_scratch2) ↦{fullShare} f : sProp 𝕄) := by unfold pts; rw [rbM_set]

omit [FloatOps F] in
theorem pts_xsM_ex (c : Dev nD) :
    iprop(∃ f, pts xsM c f) = (iprop(∃ f : Buf (Elt F) ((c : Thread nD τ).loc cc0_scratch0), ((c : Thread nD τ).loc cc0_scratch0) ↦{fullShare} f) : sProp 𝕄) :=
  by simp only [pts_xsM]
omit [FloatOps F] in
theorem pts_sbM_ex (c : Dev nD) :
    iprop(∃ f, pts sbM c f) = (iprop(∃ f : Buf (Elt F) ((c : Thread nD τ).loc cc0_scratch1), ((c : Thread nD τ).loc cc0_scratch1) ↦{fullShare} f) : sProp 𝕄) :=
  by simp only [pts_sbM]
omit [FloatOps F] in
theorem pts_rbM_ex (c : Dev nD) :
    iprop(∃ f, pts rbM c f) = (iprop(∃ f : Buf (Elt F) ((c : Thread nD τ).loc cc0_scratch2), ((c : Thread nD τ).loc cc0_scratch2) ↦{fullShare} f) : sProp 𝕄) :=
  by simp only [pts_rbM]

theorem start_intro (m : (ℓ : Loc nD τ sig) → Buf (Elt F) ℓ) (ρ : Dev nD → PrngReg) (c : Dev nD) :
    iprop(Pipeline.unscopedRestP Pipeline.Prefetch.none cfg0.spec c (fun b => m ((c : Thread nD τ).loc b)) ∗ levAts L lv
        ∗ Pipeline.launchCred O₁ c ∗ prngReg c (ρ c) ∗ G' m c)
      ⊢ |={Set.univ}=> iprop(atEntry m c ∗ emp) := by
  rw [Pipeline.unscopedRestP_none, unscopedRest0_eq]
  unfold atEntry start G'
  rw [pts_xM, pts_oM]
  iintro ⟨⟨Hx, Ho⟩, Hlev, Hcr, -, HG⟩
  ihave Hc := (creds (F := F) c) $$ Hcr
  icases Hc with ⟨Hb, H0, H1, H2, He⟩
  imodintro
  isplitl
  · isplitl [HG Hb H0 H1 H2 He Hlev]
    · isplitl [HG]; · iexact HG
      isplitl [Hb]; · iexact Hb
      isplitl [H0]; · iexact H0
      isplitl [H1]; · iexact H1
      isplitl [H2]; · iexact H2
      isplitl [He]; · iexact He
      iexact Hlev
    · isplitl [Hx]; · iexact Hx
      iexact Ho
  · iempintro

theorem phi0_intro (m : (ℓ : Loc nD τ sig) → Buf (Elt F) ℓ) (c : Dev nD) :
    iprop(atEntry m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ atEntry bufs0
  rw [pts_xsM_ex, pts_sbM_ex, pts_rbM_ex]
  iintro ⟨⟨Hs, Hx, Ho⟩, -, H0, H1, H2⟩
  isplitl [Hs]; · iexact Hs
  isplitl [Hx]; · iexact Hx
  isplitl [Ho]; · iexact Ho
  isplitl [H0]; · iexact H0
  isplitl [H1] <;> iassumption

theorem phi1_exit (m : (ℓ : Loc nD τ sig) → Buf (Elt F) ℓ) (c : Dev nD) :
    (dats m 0 c).Φ (Fin.last cfg0.N) ⊢ iprop(atExit m c ∗ Pipeline.ownSems0 osem c ∗ Pipeline.scopedRest cfg0.spec c) := by
  rw [show (dats m 0 c).Φ (Fin.last cfg0.N) = Φ₁ m c from rfl, scopedRest0_eq]
  unfold Φ₁ bufs1 atExit Pipeline.ownSems0
  rw [pts_xsM_ex, pts_sbM_ex, pts_rbM_ex]
  iintro ⟨⟨Hx, Ho, H0, H1, H2⟩, Hs⟩
  isplitl [Hx Ho]
  · isplitl [Hx] <;> iassumption
  isplitl [Hs]; · iexact Hs
  isplitl [H0]; · iexact H0
  isplitl [H1] <;> iassumption

/-- No window, so no staging cell the pipeline waits on. -/
theorem waits (m : (ℓ : Loc nD τ sig) → Buf (Elt F) ℓ) (c : Dev nD) :
    (levAts L lv : sProp 𝕄) ⊢ Pipeline.cellsWaits cfgs (dats m) () 0 c :=
  Pipeline.cellsWaits_intro cfgs (dats m) () 0 c fun w => w.elim0

/-- The two arrays' points-to facts against the final state: the memory holds their contents. -/
theorem read_exit (m : (ℓ : Loc nD τ sig) → Buf (Elt F) ℓ) (c : Dev nD) (s' : Phys nD τ sig (Elt F)) :
    iprop(atExit m c ∗ emp ∗ SI s') ⊢ |={Set.univ}=> iprop(⌜QY m c s'.mem⌝ ∗ SI s' : sProp 𝕄) := by
  unfold atExit
  rw [pts_xM, pts_oM]
  iintro ⟨⟨Hx, Ho⟩, -, HSI⟩
  icombine HSI Hx gives %hx
  icombine HSI Ho gives %ho
  imodintro
  isplitr
  · ipureintro; exact ⟨Buf.eq_of_forall_mem_univ ho, Buf.eq_of_forall_mem_univ hx⟩
  iexact HSI

/-! ## The run -/

set_option maxRecDepth 8000 in
/-- On the mesh of sixteen devices, at any float values, from any memory with every counter at zero: every weakly fair
    execution of @main — each z ring of four devices meeting at the entry barrier, exchanging its column blocks and
    meeting again at the exit barrier — terminates, and every final state has each device's result assembled and its
    block of `x` as it was. -/
theorem run_main (m : (ℓ : Loc nD τ sig) → Buf (Elt F) ℓ) (ρ : Dev nD → PrngReg) :
    θ_run defs (onTc (τ := τ) (main (F := F))) (s₀ m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₁) (howed₀ := fun _ => rfl) (howedN := fun _ => rfl)
    (L := L) (lv := lv) (hL := fun g h => if_neg h) (hwaits := waits m)
    (G := G m) (G' := G' m) (u₀ := u₀)
    (hu₀ := by
      unfold u₀
      iintro Hu
      ihave H := (ownU_pair _ _) $$ Hu
      icases H with ⟨HP, HX⟩
      ihave H2 := (own_pair_emb embR _ _) $$ HX
      icases H2 with ⟨HR, -⟩
      imod (fund_all m) $$ HR with HG
      imodintro
      isplitl [HP] <;> iassumption)
    (hglob := glob m)
    (hA := fun _ w => w.elim0) (hpf := fun _ k => k.elim0)
    (X := atEntry m) (Y := atExit m) (Z := fun _ => iprop(emp))
    (hX := start_intro m ρ) (hin := phi0_intro m) (hout := phi1_exit m)
    (QY := QY m)
    (hY := read_exit m)
    (hQ := fun _ h c => (h c).2.2)

/-- info: 'Cert.Kernel.A2A.run_main' depends on axioms: [propext, Classical.choice, Quot.sound] -/
#guard_msgs in #print axioms run_main

end Cert.Kernel.A2A

end
-- ==== Proof.Value.lean ====
/-
  The value of the all-to-all: what each device's result array holds once the four copies into it are done.

  The whole array `W` is 8192 × 2048. Device `c`, at z coordinate `c mod 4`, starts with the rows
  `[2048 (c mod 4), 2048 (c mod 4) + 2048)` of `W` and must end with the columns `[512 (c mod 4), 512 (c mod 4) + 512)`.
  Its result is written by four copies, one into each 2048-row block. Row block `c mod 4` takes the device's own
  column block. Row block `(c mod 4 + 3 - j) mod 4`, for `j = 0, 1, 2`, takes what landed in receive slot `j`: the
  device `3 - j` steps on along the z ring staged the column block `512 (c mod 4)` of ITS rows into its slot `j`,
  narrowed it, sent it; here it is widened back and copied out. Over the extended reals a change of float format
  moves the value unchanged, and re-indexing a block to a leading unit axis and back is the identity, so each row
  block of the result holds rows of `W` at the device's columns; the four row blocks are all the rows.
-/
import proofs.«900644_g7700000000000645_dist_a2a_v7x_xyz2x2x4_z_m2048_n512_f32_1_alg».proof.Proof.Sched
import proofs.«900644_g7700000000000645_dist_a2a_v7x_xyz2x2x4_z_m2048_n512_f32_1_alg».proof.Defs
import Idealize.ShloMosaic.Lib.Layout
import Idealize.ShloMosaic.Lib.Pipeline.Value
import Idealize.ShloMosaic.Lib.Writes
import Idealize.ShloMosaic.PureOps.Ideal

noncomputable section

namespace Cert.KernelIdeal.A2A

open Cert.KernelIdeal Cert.KernelIdeal.Gen
open Idealize.ShloMosaic Idealize.ShloMosaic.TcCoe
open Idealize.SL.Sem

namespace Value

/-! ## Reading back what went through a squeezed slot -/

/-- A buffer written through the squeeze of a slice and then loaded at the slice's rectangle: the payload, re-indexed
    to the rectangle's shape. -/
theorem readAt_write_squeeze {sig : RefSig} {κ : Kind} {sp : Space} {s s' : Shape} {e : EltTy} {Val : EltTy → Type}
    (M : Memref sig κ sp s e) (r : Rect s) (hr : ∀ a, r.stride a = 1) (hq : r.shape.Squeezes s')
    (f : M.view.ty.Contents Val) (w : s'.Idx → Val e) :
    M.view.readAt Val r.toLoadRect (((M.slice r hr).squeeze s' hq).view.write Val f w Finset.univ)
      = shapeCast r.shape w hq.numel_eq.symm := by
  show (M.view.slice r).read Val (((M.view.slice r).reshape s' hq.numel_eq).write Val f w Finset.univ) = _
  rw [View.write_reshape_univ, View.read_write_univ]
  funext x
  show w ((Shape.reshapeEquiv hq.numel_eq).symm x) = w (Shape.reshapeEquiv hq.numel_eq.symm x)
  rw [Shape.reshapeEquiv_symm]

/-- A buffer stored to at a rectangle and then read through the squeeze of the slice at that rectangle: the payload,
    re-indexed to the squeezed shape. -/
theorem read_squeeze_write_access {sig : RefSig} {κ : Kind} {sp : Space} {s s' : Shape} {e : EltTy} {Val : EltTy → Type}
    (M : Memref sig κ sp s e) (r : Rect s) (hr : ∀ a, r.stride a = 1) (hq : r.shape.Squeezes s')
    (f : M.view.ty.Contents Val) (w : r.shape.Idx → Val e) :
    ((M.slice r hr).squeeze s' hq).view.read Val ((M.access r).write Val f w Finset.univ)
      = shapeCast s' w hq.numel_eq := by
  rw [Memref.read_squeeze_slice M r hr hq hq.numel_eq, View.readAt_rect]
  show shapeCast s' ((M.view.slice r).read Val ((M.view.slice r).write Val f w Finset.univ)) hq.numel_eq = _
  rw [View.read_write_univ]

/-! ## A change of float format moves the value unchanged -/

theorem payT_id (j : Fin 3) (v : Vec Ideal S1x2048x512 .f32) : payT (F := Ideal) j v = v := by
  fin_cases j
  · exact shapeCast_shapeCast v shapeCasts_S1x2048x512_S2048x512 shapeCasts_S2048x512_S1x2048x512
  · exact shapeCast_shapeCast v shapeCasts_S1x2048x512_S2048x512 shapeCasts_S2048x512_S1x2048x512
  · exact shapeCast_shapeCast v shapeCasts_S1x2048x512_S2048x512 shapeCasts_S2048x512_S1x2048x512

theorem payE_id (j : Fin 3) (v : Vec Ideal S1x2048x512 .bf16) : payE (F := Ideal) j v = v := by
  fin_cases j
  · exact shapeCast_shapeCast v shapeCasts_S1x2048x512_S2048x512 shapeCasts_S2048x512_S1x2048x512
  · exact shapeCast_shapeCast v shapeCasts_S1x2048x512_S2048x512 shapeCasts_S2048x512_S1x2048x512
  · exact shapeCast_shapeCast v shapeCasts_S1x2048x512_S2048x512 shapeCasts_S2048x512_S1x2048x512

/-! ## The four stages of a received block

Staged into a slot, narrowed into the same slot of the send buffer, landed in the same slot of the receive buffer,
widened back into the staging slot: read out of that slot, the block is what went in. Stated once over the slot's
offsets; the three slots are instances. -/

/-- A slot's rectangle in a three-slot buffer, -/
abbrev slotAt (off : Fin 3 → ℕ) (inb : ∀ a, off a + S1x2048x512.size a ≤ S3x2048x512.size a) : Rect S3x2048x512 :=
  Rect.unit (s := S3x2048x512) off S1x2048x512.size inb

/-- and a buffer narrowed to that slot. -/
abbrev narrowed (off : Fin 3 → ℕ) (inb : ∀ a, off a + S1x2048x512.size a ≤ S3x2048x512.size a) {e : EltTy}
    (M : Memref sig .tc .vmem S3x2048x512 e) : Memref sig .tc .vmem S2048x512 e :=
  (M.slice (slotAt off inb) (fun _ => rfl)).squeeze S2048x512 squeezes_S1x2048x512_S2048x512

theorem slot_chain (off : Fin 3 → ℕ) (inb : ∀ a, off a + S1x2048x512.size a ≤ S3x2048x512.size a)
    (fxs fxs' : (xsM).view.ty.Contents (Elt Ideal)) (fsb : (sbM).view.ty.Contents (Elt Ideal))
    (frb : (rbM).view.ty.Contents (Elt Ideal)) (col : Vec Ideal S2048x512 .f32)
    (pT : Vec Ideal S1x2048x512 .f32 → FVec Ideal S1x2048x512 .bf16) (hT : ∀ v, pT v = v)
    (pE : Vec Ideal S1x2048x512 .bf16 → FVec Ideal S1x2048x512 .f32) (hE : ∀ v, pE v = v) :
    (narrowed off inb xsM).view.read (Elt Ideal)
      (((xsM).access (slotAt off inb)).write (Elt Ideal) fxs'
        (pE ((rbM).view.readAt (Elt Ideal) (slotAt off inb).toLoadRect
          ((narrowed off inb rbM).view.write (Elt Ideal) frb
            ((narrowed off inb sbM).view.read (Elt Ideal)
              (((sbM).access (slotAt off inb)).write (Elt Ideal) fsb
                (pT ((xsM).view.readAt (Elt Ideal) (slotAt off inb).toLoadRect
                  ((narrowed off inb xsM).view.write (Elt Ideal) fxs col Finset.univ)))
                Finset.univ))
            Finset.univ)))
        Finset.univ) = col := by
  rw [read_squeeze_write_access, hE, readAt_write_squeeze, read_squeeze_write_access, hT, readAt_write_squeeze]
  rw [shapeCast_shapeCast, shapeCast_shapeCast]

/-- The column block of device `c`'s rows that it stages into its slot `j`. -/
def colRead (m : (ℓ : Loc nD τ sig) → Buf (Elt Ideal) ℓ) (c : Dev nD) : Fin 3 → Vec Ideal S2048x512 .f32
  | 0 => (colM c 0).view.read (Elt Ideal) (X m c)
  | 1 => (colM c 1).view.read (Elt Ideal) (X m c)
  | 2 => (colM c 2).view.read (Elt Ideal) (X m c)

/-- What the last copy out of staging slot `j` reads on device `c`. -/
def recvRead (m : (ℓ : Loc nD τ sig) → Buf (Elt Ideal) ℓ) (c : Dev nD) : Fin 3 → Vec Ideal S2048x512 .f32
  | 0 => (xsSlot 0).view.read (Elt Ideal) (xsOut m c 0)
  | 1 => (xsSlot 1).view.read (Elt Ideal) (xsOut m c 1)
  | 2 => (xsSlot 2).view.read (Elt Ideal) (xsOut m c 2)

/-- It is the column block its sender staged. -/
theorem recvRead_eq (m : (ℓ : Loc nD τ sig) → Buf (Elt Ideal) ℓ) (c : Dev nD) :
    ∀ j : Fin 3, recvRead m c j = colRead m (origin c j) j
  | 0 => slot_chain _ _ _ _ _ _ _ _ (payT_id 0) _ (payE_id 0)
  | 1 => slot_chain _ _ _ _ _ _ _ _ (payT_id 1) _ (payE_id 1)
  | 2 => slot_chain _ _ _ _ _ _ _ _ (payT_id 2) _ (payE_id 2)

/-! ## A device's rows in the whole array -/

/-- A device's block coordinate along a dimension cut by the z axis is its z coordinate; -/
theorem meshLin_z (c : ℕ) : Layout.meshLin [2, 2, 4] c [2] = c % 4 := by
  simp [Layout.meshLin, Layout.meshCoord, Layout.cutSize]

/-- along a dimension that is not cut it is zero. -/
theorem meshLin_none (c : ℕ) : Layout.meshLin [2, 2, 4] c [] = 0 := rfl

/-- Element `y` of the 2048 × 512 block at offsets `off` of device `c`'s rows is the element of the whole array
    `2048 (c mod 4)` rows further down. -/
theorem src_read (m : (ℓ : Loc nD τ sig) → Buf (Elt Ideal) ℓ)
    (W : Buf (Elt Ideal) (((0 : Dev Cert.ReferenceIdeal.nD).tc : Thread Cert.ReferenceIdeal.nD Cert.ReferenceIdeal.τ).loc Cert.ReferenceIdeal.main_arg0))
    (hagree : ∀ c : Dev nD, m ((c.tc : Thread nD τ).loc main_arg0)
        = Layout.blockN ⟨2, ![2048, 2048]⟩ ⟨2, ![8192, 2048]⟩ (Layout.meshBlock [2, 2, 4] ![[2], []] c) W)
    (c : Dev nD) (off : Fin 2 → ℕ) (inb : ∀ a, off a + S2048x512.size a ≤ S2048x2048.size a) (y : S2048x512.Idx)
    (I : (⟨2, ![8192, 2048]⟩ : Shape).Idx)
    (h0 : (I 0).val = 2048 * (c.val % 4) + (off 0 + (y 0).val)) (h1 : (I 1).val = off 1 + (y 1).val) :
    ((xM).slice (Rect.unit (s := S2048x2048) off S2048x512.size inb) (fun _ => rfl)).view.read (Elt Ideal) (X m c) y = W I := by
  rw [View.read_apply]
  show X m c (((xM).slice (Rect.unit (s := S2048x2048) off S2048x512.size inb) (fun _ => rfl)).view.emb y) = W I
  unfold X
  rw [hagree c, Layout.blockN_apply]
  congr 1
  apply Shape.idx_ext₂
  · rw [Layout.TilesN.idx_val, h0]
    show Layout.meshLin [2, 2, 4] c.val [2] * 2048 + (off 0 + 1 * (y 0).val) = _
    rw [meshLin_z]; omega
  · rw [Layout.TilesN.idx_val, h1]
    show Layout.meshLin [2, 2, 4] c.val [] * 2048 + (off 1 + 1 * (y 1).val) = _
    rw [meshLin_none]; omega

/-! ## A copy into a row block of the result -/

/-- Inside the block the result holds the payload, -/
theorem rows_hit (off : Fin 2 → ℕ) (inb : ∀ a, off a + S2048x512.size a ≤ S8192x512.size a)
    (f : (oM).view.ty.Contents (Elt Ideal)) (w : Vec Ideal S2048x512 .f32)
    (i : S8192x512.Idx) (y : S2048x512.Idx) (hy : ∀ a, (i a).val = off a + (y a).val) :
    ((oM).slice (Rect.unit (s := S8192x512) off S2048x512.size inb) (fun _ => rfl)).view.write (Elt Ideal) f w Finset.univ i = w y := by
  have e : i = ((oM).slice (Rect.unit (s := S8192x512) off S2048x512.size inb) (fun _ => rfl)).view.emb y :=
    funext fun a => Fin.ext (by rw [hy a]; show _ = off a + 1 * (y a).val; omega)
  rw [e, View.write_emb_of_mem _ _ (Finset.mem_univ _)]
  rfl

/-- outside it what it held before. -/
theorem rows_miss (off : Fin 2 → ℕ) (inb : ∀ a, off a + S2048x512.size a ≤ S8192x512.size a)
    (f : (oM).view.ty.Contents (Elt Ideal)) (w : Vec Ideal S2048x512 .f32)
    (i : S8192x512.Idx) (hi : ¬ (off 0 ≤ (i 0).val ∧ (i 0).val < off 0 + 2048)) :
    ((oM).slice (Rect.unit (s := S8192x512) off S2048x512.size inb) (fun _ => rfl)).view.write (Elt Ideal) f w Finset.univ i = f i := by
  refine View.write_of_not_mem _ _ _ fun hmem => hi ?_
  rw [View.setOn_univ] at hmem
  have h2 : i ∈ (Rect.unit (s := S8192x512) off S2048x512.size inb).set := by
    rw [← View.set_slice_whole main_v1]; exact hmem
  exact (Rect.mem_set_unit.mp h2) 0

/-! ## The result, block by block -/

/-- A row and a column of a 2048 × 512 block. -/
def rc (r : ℕ) (hr : r < 2048) (k : ℕ) (hk : k < 512) : S2048x512.Idx := Shape.pair ⟨r, hr⟩ ⟨k, hk⟩

/-- Device `c'`'s column block `512 (c mod 4)`, copied into the row block `2048 (c' mod 4)` of device `c`'s result: inside
    that row block the result holds the whole array's element at the same row, `512 (c mod 4)` columns further right. -/
theorem block_from (m : (ℓ : Loc nD τ sig) → Buf (Elt Ideal) ℓ)
    (W : Buf (Elt Ideal) (((0 : Dev Cert.ReferenceIdeal.nD).tc : Thread Cert.ReferenceIdeal.nD Cert.ReferenceIdeal.τ).loc Cert.ReferenceIdeal.main_arg0))
    (hagree : ∀ c : Dev nD, m ((c.tc : Thread nD τ).loc main_arg0)
        = Layout.blockN ⟨2, ![2048, 2048]⟩ ⟨2, ![8192, 2048]⟩ (Layout.meshBlock [2, 2, 4] ![[2], []] c) W)
    (c c' : Dev nD) (offD : Fin 2 → ℕ) (inbD : ∀ a, offD a + S2048x512.size a ≤ S8192x512.size a)
    (offS : Fin 2 → ℕ) (inbS : ∀ a, offS a + S2048x512.size a ≤ S2048x2048.size a)
    (hD : offD = ![2048 * (c'.val % 4), 0]) (hS : offS = ![0, 512 * (c.val % 4)])
    (f : (oM).view.ty.Contents (Elt Ideal)) (i : S8192x512.Idx)
    (hin : 2048 * (c'.val % 4) ≤ (i 0).val ∧ (i 0).val < 2048 * (c'.val % 4) + 2048) :
    ((oM).slice (Rect.unit (s := S8192x512) offD S2048x512.size inbD) (fun _ => rfl)).view.write (Elt Ideal) f
        (((xM).slice (Rect.unit (s := S2048x2048) offS S2048x512.size inbS) (fun _ => rfl)).view.read (Elt Ideal) (X m c'))
        Finset.univ i
      = (Layout.blockN ⟨2, ![8192, 512]⟩ ⟨2, ![8192, 2048]⟩ (Layout.meshBlock [2, 2, 4] ![[], [2]] c) W) i := by
  subst hD hS
  have hk : (i 1).val < 512 := (i 1).isLt
  rw [rows_hit _ inbD f _ i (rc ((i 0).val - 2048 * (c'.val % 4)) (by omega) (i 1).val hk)
    (Fin.forall_fin_two.mpr ⟨by show (i 0).val = 2048 * (c'.val % 4) + ((i 0).val - 2048 * (c'.val % 4)); omega,
      by show (i 1).val = 0 + (i 1).val; omega⟩)]
  rw [Layout.blockN_apply]
  refine src_read m W hagree c' _ inbS _ _ ?_ ?_
  · rw [Layout.TilesN.idx_val]
    show Layout.meshLin [2, 2, 4] c.val [] * 8192 + (i 0).val = 2048 * (c'.val % 4) + (0 + ((i 0).val - 2048 * (c'.val % 4)))
    rw [meshLin_none]; omega
  · rw [Layout.TilesN.idx_val]
    show Layout.meshLin [2, 2, 4] c.val [2] * 512 + (i 1).val = 512 * (c.val % 4) + (i 1).val
    rw [meshLin_z]; omega

end Value

open Value in
/-- Every device ends with its column block of the whole array. -/
theorem OUT_block (m : (ℓ : Loc nD τ sig) → Buf (Elt Ideal) ℓ)
    (W : Buf (Elt Ideal) (((0 : Dev Cert.ReferenceIdeal.nD).tc : Thread Cert.ReferenceIdeal.nD Cert.ReferenceIdeal.τ).loc Cert.ReferenceIdeal.main_arg0))
    (hagree : ∀ c : Dev nD, m ((c.tc : Thread nD τ).loc main_arg0)
        = Layout.blockN ⟨2, ![2048, 2048]⟩ ⟨2, ![8192, 2048]⟩ (Layout.meshBlock [2, 2, 4] ![[2], []] c) W)
    (c : Dev nD) :
    OUT (F := Ideal) m c = Layout.blockN ⟨2, ![8192, 512]⟩ ⟨2, ![8192, 2048]⟩ (Layout.meshBlock [2, 2, 4] ![[], [2]] c) W := by
  funext i
  have hc := c.isLt; simp only [nD] at hc
  have hR : (i 0).val < 8192 := (i 0).isLt
  -- the z coordinates of the three senders
  have z1 := peer_z c 1
  have z2 := peer_z c 2
  have z3 := peer_z c 3
  -- the last copy: from the device one step on, into the row block of its z coordinate
  show (rowM c 2).view.write (Elt Ideal) (out2 m c) (recvRead m c 2) Finset.univ i = _
  by_cases h3 : 2048 * ((peer c 1).val % 4) ≤ (i 0).val ∧ (i 0).val < 2048 * ((peer c 1).val % 4) + 2048
  · rw [recvRead_eq]
    exact block_from m W hagree c (peer c 1) (k0_off4 c 3#32) _ (k0_off1 (peer c 1) 3#32) _
      (by rw [off4_3, z1]) (by rw [off1_3, z1]; congr 2; omega) _ i h3
  rw [rows_miss (k0_off4 c 3#32) _ _ _ i (by rw [off4_3]; rw [z1] at h3; exact h3)]
  -- the one before it: from the device two steps on
  show (rowM c 1).view.write (Elt Ideal) (out1 m c) (recvRead m c 1) Finset.univ i = _
  by_cases h2 : 2048 * ((peer c 2).val % 4) ≤ (i 0).val ∧ (i 0).val < 2048 * ((peer c 2).val % 4) + 2048
  · rw [recvRead_eq]
    exact block_from m W hagree c (peer c 2) (k0_off4 c 2#32) _ (k0_off1 (peer c 2) 2#32) _
      (by rw [off4_2, z2]) (by rw [off1_2, z2]; congr 2; omega) _ i h2
  rw [rows_miss (k0_off4 c 2#32) _ _ _ i (by rw [off4_2]; rw [z2] at h2; exact h2)]
  -- the first of the three: from the device three steps on
  show (rowM c 0).view.write (Elt Ideal) (out0 m c) (recvRead m c 0) Finset.univ i = _
  by_cases h1 : 2048 * ((peer c 3).val % 4) ≤ (i 0).val ∧ (i 0).val < 2048 * ((peer c 3).val % 4) + 2048
  · rw [recvRead_eq]
    exact block_from m W hagree c (peer c 3) (k0_off4 c 1#32) _ (k0_off1 (peer c 3) 1#32) _
      (by rw [off4_1, z3]) (by rw [off1_1, z3]; congr 2; omega) _ i h1
  rw [rows_miss (k0_off4 c 1#32) _ _ _ i (by rw [off4_1]; rw [z3] at h1; exact h1)]
  -- what is left is the device's own row block: the four z coordinates are all of 0, 1, 2, 3
  refine block_from m W hagree c c (k0_off2 c) _ (k0_off3 c) _ (k0_off2_eq c) (k0_off3_eq c) _ i ?_
  rw [z1] at h3; rw [z2] at h2; rw [z3] at h1
  omega

/-- info: 'Cert.KernelIdeal.A2A.OUT_block' depends on axioms: [propext, Classical.choice, Quot.sound] -/
#guard_msgs in #print axioms OUT_block

end Cert.KernelIdeal.A2A

end
-- ==== Proof.lean ====
/- The proof of `Cert.Claim`: the five claims of the certificate, assembled.

   The kernel is an all-to-all along the z axis of a 2 × 2 × 4 mesh of sixteen devices. The whole array is
   8192 × 2048. A device at z coordinate `z` starts with row block `z` of it (2048 × 2048; devices that differ
   only in x or y hold the same block) and must end with column block `z` of it (8192 × 512). It keeps the
   2048 × 512 piece of its own row block that lies in its own column block by a local copy; each of the three
   other column pieces of its row block it narrows to bf16, transfers to the device of its z ring that owns that
   column block, and what it receives from each of those three devices it widens back to f32 and copies into
   that device's row block of its result. Two handshakes on semaphores among the four devices of a z ring, one
   before the first transfer and one after the last: no device's receive buffer is written before that device
   has entered the kernel, and no device leaves it before the three others have finished all their copies.

   Each device's run (`run_main`, for the program as printed and for its idealization alike) ends with the
   argument array as it was and the result array at `OUT`: the four copies into it, spelled over the launch
   contents of the z ring's argument arrays. The three frame claims are runs with the result's value dropped;
   the idealization pass rewrote nothing, so `preserves` is `True`.

   For the algebraic claim the reference is the identity: it performs no operation and its result is its
   argument array `W` itself. At the ideal instance a change of float format is the identity, so narrowing a
   piece to bf16 and widening it back returns the piece; hence when every device's argument is its row block
   of `W`, the four pieces a device assembles are the four 2048 × 512 pieces of column block `z` of `W`, each at
   its own rows (`OUT_block`). So the whole array `v0` of which each device's result is its part is `W`, which is
   also what the reference ends holding. -/
import proofs.«900644_g7700000000000645_dist_a2a_v7x_xyz2x2x4_z_m2048_n512_f32_1_alg».proof.Defs
import proofs.«900644_g7700000000000645_dist_a2a_v7x_xyz2x2x4_z_m2048_n512_f32_1_alg».proof.Proof.Gen.Kernel
import proofs.«900644_g7700000000000645_dist_a2a_v7x_xyz2x2x4_z_m2048_n512_f32_1_alg».proof.Proof.Gen.KernelIdeal
import proofs.«900644_g7700000000000645_dist_a2a_v7x_xyz2x2x4_z_m2048_n512_f32_1_alg».proof.Proof.Gen.ReferenceIdeal
import proofs.«900644_g7700000000000645_dist_a2a_v7x_xyz2x2x4_z_m2048_n512_f32_1_alg».proof.Proof.Gen.Pre_finite_inputs_Kernel
import proofs.«900644_g7700000000000645_dist_a2a_v7x_xyz2x2x4_z_m2048_n512_f32_1_alg».proof.Proof.Gen.Pre_finite_inputs_ReferenceIdeal
import proofs.«900644_g7700000000000645_dist_a2a_v7x_xyz2x2x4_z_m2048_n512_f32_1_alg».proof.Proof.Ref
import proofs.«900644_g7700000000000645_dist_a2a_v7x_xyz2x2x4_z_m2048_n512_f32_1_alg».proof.Proof.Launch
import proofs.«900644_g7700000000000645_dist_a2a_v7x_xyz2x2x4_z_m2048_n512_f32_1_alg».proof.Proof.KLaunch
import proofs.«900644_g7700000000000645_dist_a2a_v7x_xyz2x2x4_z_m2048_n512_f32_1_alg».proof.Proof.Value
import Idealize.ShloMosaic.Adequacy
import Idealize.ShloMosaic.Init

noncomputable section

/-! ## The claims -/

namespace Cert.Proof

open Idealize.ShloMosaic Idealize.SL.Sem

/-- The program as printed runs on all sixteen devices and leaves every argument array as it was: its run,
    with what the result holds dropped. The precondition is not needed. -/
theorem frame_k : Cert.frame_Kernel := fun m g _ =>
  (θ_run (Cert.Kernel.defs (F := Bits)) _ _).mono (fun _ h c => (h c).2) (Cert.Kernel.A2A.run_main (F := Bits) m g)

/-- The same of the idealization. -/
theorem frame_ki : Cert.frame_KernelIdeal := fun m g _ =>
  (θ_run (Cert.KernelIdeal.defs (F := Ideal)) _ _).mono (fun _ h c => (h c).2) (Cert.KernelIdeal.A2A.run_main (F := Ideal) m g)

/-- The reference performs no operation. -/
theorem frame_ri : Cert.frame_ReferenceIdeal := Cert.ReferenceIdeal.RefRun.frame_ri

/-- The idealization is the program's own text read at the ideal instance: no operation was rewritten. -/
theorem preserves : Cert.preserves_Kernel_KernelIdeal := trivial

/-- With `v0` the reference's argument array `W`: the reference ends holding `W`, unchanged, and each device's
    result ends at `OUT`, which is its column block of `W` when every device's argument is its row block of `W`. -/
theorem algebraic : Cert.algebraic_KernelIdeal_ReferenceIdeal := by
  intro m g m' g' _ hagree
  refine ⟨m' (((0 : Dev Cert.ReferenceIdeal.nD).tc : Thread Cert.ReferenceIdeal.nD Cert.ReferenceIdeal.τ).loc Cert.ReferenceIdeal.main_arg0),
    ?_, Cert.ReferenceIdeal.RefRun.run_v0 m' g'⟩
  refine (θ_run (Cert.KernelIdeal.defs (F := Ideal)) _ _).mono (fun _ h c => ⟨(h c).1.trans ?_, (h c).2⟩)
    (Cert.KernelIdeal.A2A.run_main (F := Ideal) m g)
  exact Cert.KernelIdeal.A2A.OUT_block m _ hagree c

theorem claim : Cert.Claim :=
  ⟨Cert.Kernel.Gen.facts, Cert.KernelIdeal.Gen.facts, Cert.ReferenceIdeal.Gen.facts,
    Cert.Pre_finite_inputs_Kernel.Gen.facts, Cert.Pre_finite_inputs_ReferenceIdeal.Gen.facts,
    frame_k, frame_ki, frame_ri, preserves, algebraic⟩

/-- info: 'Cert.Proof.claim' depends on axioms: [propext, Classical.choice, Quot.sound] -/
#guard_msgs in #print axioms claim

end Cert.Proof

end
